-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_65" .f32 0x3C7C0FC1#32 ((1 / 65 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v377) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2 : Shape := ⟨2, ![16384, 2]⟩
abbrev S2x262144 : Shape := ⟨2, ![2, 262144]⟩
abbrev S16384 : Shape := ⟨1, ![16384]⟩
abbrev S32x128 : Shape := ⟨2, ![32, 128]⟩
abbrev S4x128x128 : Shape := ⟨3, ![4, 128, 128]⟩
abbrev S4x128 : Shape := ⟨2, ![4, 128]⟩
abbrev S128x32 : Shape := ⟨2, ![128, 32]⟩
abbrev S32 : Shape := ⟨1, ![32]⟩
abbrev S_ : Shape := ⟨0, ![]⟩

class Facts : Prop where
  bcast_S_S32x128 : S_.BroadcastsInDim S32x128 (![] : Fin 0 → Fin S32x128.rank)
  reducesTo_S32x128_S_d0_1 : S32x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S16384x2 : S_.BroadcastsInDim S16384x2 (![] : Fin 0 → Fin S16384x2.rank)
  reducesTo_S16384x2_S_d0_1 : S16384x2.ReducesTo [0, 1] S_

variable [Facts]

def fn_part2 {F : FTy → Type} [FloatOps F] (main_arg0 : IVec S16384x2 32) (main_arg10 : FVec F S32 .f32) (main_v33 : IVec S_ 1) : IVec S_ 1 :=
  let main_v34 : FVec F S32 .f32 := Host.absf main_arg10
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_c_14 : IVec S_ 32 := constantI S_ 32 0#32
  let main_v39 : IVec S16384x2 32 := broadcastInDim S16384x2 ![] bcast_S_S16384x2 main_c_14
  let main_v40 : IVec S16384x2 1 := cmpi .sge main_arg0 main_v39
  let main_c_15 : IVec S_ 32 := constantI S_ 32 32#32
  let main_v41 : IVec S16384x2 32 := broadcastInDim S16384x2 ![] bcast_S_S16384x2 main_c_15
  let main_v42 : IVec S16384x2 1 := cmpi .slt main_arg0 main_v41
  let main_v43 : IVec S16384x2 1 := andi main_v40 main_v42
  let main_c_16 : IVec S_ 1 := constantI S_ 1 1#1
  let main_v44 : IVec S_ 1 := (fun x v => Host.reduce IntOp.andi x v reducesTo_S16384x2_S_d0_1 h_S_) main_v43 main_c_16
  let main_v45 : IVec S_ 1 := andi main_v38 main_v44
  main_v45

def fn_part1 {F : FTy → Type} [FloatOps F] (main_arg0 : IVec S16384x2 32) (main_arg7 : FVec F S4x128 .f32) (main_arg8 : FVec F S4x128 .f32) (main_arg9 : FVec F S128x32 .f32) (main_arg10 : FVec F S32 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg7
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg8
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S128x32 .f32 := Host.absf main_arg9
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg0 main_arg10 main_v33

def fn {F : FTy → Type} [FloatOps F] (main_arg0 : IVec S16384x2 32) (main_arg1 : IVec S2x262144 32) (main_arg2 : IVec S16384 32) (main_arg3 : FVec F S32x128 .f32) (main_arg4 : FVec F S32x128 .f32) (main_arg5 : FVec F S4x128x128 .f32) (main_arg6 : FVec F S4x128 .f32) (main_arg7 : FVec F S4x128 .f32) (main_arg8 : FVec F S4x128 .f32) (main_arg9 : FVec F S128x32 .f32) (main_arg10 : FVec F S32 .f32) : IVec S_ 1 :=
  let main_v0 : FVec F S32x128 .f32 := Host.absf main_arg3
  let main_cst : FVec F S_ .f32 := constant S_ .f32 0x7F800000#32
  let main_v1 : FVec F S32x128 .f32 := broadcastInDim S32x128 ![] bcast_S_S32x128 main_cst
  let main_v2 : IVec S32x128 1 := cmpf .olt main_v0 main_v1
  let main_c : IVec S_ 1 := constantI S_ 1 1#1
  let main_v3 : IVec S_ 1 := (fun x v => Host.reduce IntOp.andi x v reducesTo_S32x128_S_d0_1 h_S_) main_v2 main_c
  let main_v4 : FVec F S32x128 .f32 := Host.absf main_arg4
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S4x128x128 .f32 := Host.absf main_arg5
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128 .f32 := Host.absf main_arg6
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg0 main_arg7 main_arg8 main_arg9 main_arg10 main_v13 main_v16
-- ==== Kernel.lean ====
abbrev S16384x2 : Shape := ⟨2, ![16384, 2]⟩
abbrev S2x262144 : Shape := ⟨2, ![2, 262144]⟩
abbrev S16384 : Shape := ⟨1, ![16384]⟩
abbrev S32x128 : Shape := ⟨2, ![32, 128]⟩
abbrev S4x128x128 : Shape := ⟨3, ![4, 128, 128]⟩
abbrev S4x128 : Shape := ⟨2, ![4, 128]⟩
abbrev S128x32 : Shape := ⟨2, ![128, 32]⟩
abbrev S32 : Shape := ⟨1, ![32]⟩
abbrev S16384x128 : Shape := ⟨2, ![16384, 128]⟩
abbrev S2048x2 : Shape := ⟨2, ![2048, 2]⟩
abbrev S2048x128 : Shape := ⟨2, ![2048, 128]⟩
abbrev S2048x1 : Shape := ⟨2, ![2048, 1]⟩
abbrev S2048x32 : Shape := ⟨2, ![2048, 32]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S16384x1 : Shape := ⟨2, ![16384, 1]⟩
abbrev S1x128x128 : Shape := ⟨3, ![1, 128, 128]⟩
abbrev S128x128 : Shape := ⟨2, ![128, 128]⟩
abbrev S262144x128 : Shape := ⟨2, ![262144, 128]⟩
abbrev S1x128 : Shape := ⟨2, ![1, 128]⟩
abbrev S128 : Shape := ⟨1, ![128]⟩
abbrev S2048 : Shape := ⟨1, ![2048]⟩
abbrev S32x64x128 : Shape := ⟨3, ![32, 64, 128]⟩
abbrev S32x1x128 : Shape := ⟨3, ![32, 1, 128]⟩
abbrev S256x64x128 : Shape := ⟨3, ![256, 64, 128]⟩
abbrev S256x1x128 : Shape := ⟨3, ![256, 1, 128]⟩
abbrev S256x128 : Shape := ⟨2, ![256, 128]⟩
abbrev S1x32 : Shape := ⟨2, ![1, 32]⟩
abbrev S256x32 : Shape := ⟨2, ![256, 32]⟩

abbrev nBuf : Space → Nat
  | .hbm => 122
  | .vmem => 78
  | .smem => 0
  | _ => 0

abbrev bufTy : (tb : Table) → Fin (tcTables nBuf tb) → BufTy
  | .hbm, ⟨0, _⟩ => ⟨S16384x2, .i32⟩
  | .hbm, ⟨1, _⟩ => ⟨S2x262144, .i32⟩
  | .hbm, ⟨2, _⟩ => ⟨S16384, .i32⟩
  | .hbm, ⟨3, _⟩ => ⟨S32x128, .f32⟩
  | .hbm, ⟨4, _⟩ => ⟨S32x128, .f32⟩
  | .hbm, ⟨5, _⟩ => ⟨S4x128x128, .f32⟩
  | .hbm, ⟨6, _⟩ => ⟨S4x128, .f32⟩
  | .hbm, ⟨7, _⟩ => ⟨S4x128, .f32⟩
  | .hbm, ⟨8, _⟩ => ⟨S4x128, .f32⟩
  | .hbm, ⟨9, _⟩ => ⟨S128x32, .f32⟩
  | .hbm, ⟨10, _⟩ => ⟨S32, .f32⟩
  | .hbm, ⟨11, _⟩ => ⟨S16384x128, .f32⟩
  | .hbm, ⟨12, _⟩ => ⟨S1x262144, .i32⟩
  | .hbm, ⟨13, _⟩ => ⟨S262144, .i32⟩
  | .hbm, ⟨14, _⟩ => ⟨S1x262144, .i32⟩
  | .hbm, ⟨15, _⟩ => ⟨S262144, .i32⟩
  | .hbm, ⟨16, _⟩ => ⟨S_, .f32⟩
  | .hbm, ⟨17, _⟩ => ⟨S262144, .f32⟩
  | .hbm, ⟨18, _⟩ => ⟨S_, .f32⟩
  | .hbm, ⟨19, _⟩ => ⟨S16384, .f32⟩
  | .hbm, ⟨20, _⟩ => ⟨S262144x1, .i32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S16384, .f32⟩
  | .hbm, ⟨26, _⟩ => ⟨S16384x1, .f32⟩
  | .hbm, ⟨27, _⟩ => ⟨S1x128x128, .f32⟩
  | .hbm, ⟨28, _⟩ => ⟨S128x128, .f32⟩
  | .hbm, ⟨29, _⟩ => ⟨S16384x128, .f32⟩
  | .hbm, ⟨30, _⟩ => ⟨S_, .i32⟩
  | .hbm, ⟨31, _⟩ => ⟨S262144, .i32⟩
  | .hbm, ⟨32, _⟩ => ⟨S262144, .i1⟩
  | .hbm, ⟨33, _⟩ => ⟨S_, .i32⟩
  | .hbm, ⟨34, _⟩ => ⟨S262144, .i32⟩
  | .hbm, ⟨35, _⟩ => ⟨S262144, .i32⟩
  | .hbm, ⟨36, _⟩ => ⟨S262144, .i32⟩
  | .hbm, ⟨37, _⟩ => ⟨S262144x1, .i32⟩
  | .hbm, ⟨38, _⟩ => ⟨S262144x128, .f32⟩
  | .hbm, ⟨39, _⟩ => ⟨S_, .f32⟩
  | .hbm, ⟨40, _⟩ => ⟨S16384x128, .f32⟩
  | .hbm, ⟨41, _⟩ => ⟨S262144x1, .i32⟩
  | .hbm, ⟨42, _⟩ => ⟨S16384x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S16384x128, .f32⟩
  | .hbm, ⟨53, _⟩ => ⟨S1x128x128, .f32⟩
  | .hbm, ⟨54, _⟩ => ⟨S128x128, .f32⟩
  | .hbm, ⟨55, _⟩ => ⟨S16384x128, .f32⟩
  | .hbm, ⟨56, _⟩ => ⟨S_, .i32⟩
  | .hbm, ⟨57, _⟩ => ⟨S262144, .i32⟩
  | .hbm, ⟨58, _⟩ => ⟨S262144, .i1⟩
  | .hbm, ⟨59, _⟩ => ⟨S_, .i32⟩
  | .hbm, ⟨60, _⟩ => ⟨S262144, .i32⟩
  | .hbm, ⟨61, _⟩ => ⟨S262144, .i32⟩
  | .hbm, ⟨62, _⟩ => ⟨S262144, .i32⟩
  | .hbm, ⟨63, _⟩ => ⟨S262144x1, .i32⟩
  | .hbm, ⟨64, _⟩ => ⟨S262144x128, .f32⟩
  | .hbm, ⟨65, _⟩ => ⟨S_, .f32⟩
  | .hbm, ⟨66, _⟩ => ⟨S16384x128, .f32⟩
  | .hbm, ⟨67, _⟩ => ⟨S262144x1, .i32⟩
  | .hbm, ⟨68, _⟩ => ⟨S16384x128, .f32⟩
  | .hbm, ⟨69, _⟩ => ⟨S1x128, .f32⟩
  | .hbm, ⟨70, _⟩ => ⟨S128, .f32⟩
  | .hbm, ⟨71, _⟩ => ⟨S1x128, .f32⟩
  | .hbm, ⟨72, _⟩ => ⟨S128, .f32⟩
  | .hbm, ⟨73, _⟩ => ⟨S1x128, .f32⟩
  | .hbm, ⟨74, _⟩ => ⟨S128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S16384x128, .f32⟩
  | .hbm, ⟨79, _⟩ => ⟨S1x128x128, .f32⟩
  | .hbm, ⟨80, _⟩ => ⟨S128x128, .f32⟩
  | .hbm, ⟨81, _⟩ => ⟨S16384x128, .f32⟩
  | .hbm, ⟨82, _⟩ => ⟨S_, .i32⟩
  | .hbm, ⟨83, _⟩ => ⟨S262144, .i32⟩
  | .hbm, ⟨84, _⟩ => ⟨S262144, .i1⟩
  | .hbm, ⟨85, _⟩ => ⟨S_, .i32⟩
  | .hbm, ⟨86, _⟩ => ⟨S262144, .i32⟩
  | .hbm, ⟨87, _⟩ => ⟨S262144, .i32⟩
  | .hbm, ⟨88, _⟩ => ⟨S262144, .i32⟩
  | .hbm, ⟨89, _⟩ => ⟨S262144x1, .i32⟩
  | .hbm, ⟨90, _⟩ => ⟨S262144x128, .f32⟩
  | .hbm, ⟨91, _⟩ => ⟨S_, .f32⟩
  | .hbm, ⟨92, _⟩ => ⟨S16384x128, .f32⟩
  | .hbm, ⟨93, _⟩ => ⟨S262144x1, .i32⟩
  | .hbm, ⟨94, _⟩ => ⟨S16384x128, .f32⟩
  | .hbm, ⟨95, _⟩ => ⟨S1x128, .f32⟩
  | .hbm, ⟨96, _⟩ => ⟨S128, .f32⟩
  | .hbm, ⟨97, _⟩ => ⟨S1x128, .f32⟩
  | .hbm, ⟨98, _⟩ => ⟨S128, .f32⟩
  | .hbm, ⟨99, _⟩ => ⟨S1x128, .f32⟩
  | .hbm, ⟨100, _⟩ => ⟨S128, .f32⟩
  | .hbm, ⟨101, _⟩ => ⟨S1x128, .f32⟩
  | .hbm, ⟨102, _⟩ => ⟨S1x128, .f32⟩
  | .hbm, ⟨103, _⟩ => ⟨S1x128, .f32⟩
  | .hbm, ⟨104, _⟩ => ⟨S16384x128, .f32⟩
  | .hbm, ⟨105, _⟩ => ⟨S1x128x128, .f32⟩
  | .hbm, ⟨106, _⟩ => ⟨S128x128, .f32⟩
  | .hbm, ⟨107, _⟩ => ⟨S1x128, .f32⟩
  | .hbm, ⟨108, _⟩ => ⟨S128, .f32⟩
  | .hbm, ⟨109, _⟩ => ⟨S1x128, .f32⟩
  | .hbm, ⟨110, _⟩ => ⟨S128, .f32⟩
  | .hbm, ⟨111, _⟩ => ⟨S1x128, .f32⟩
  | .hbm, ⟨112, _⟩ => ⟨S128, .f32⟩
  | .hbm, ⟨113, _⟩ => ⟨S1x128, .f32⟩
  | .hbm, ⟨114, _⟩ => ⟨S1x128, .f32⟩
  | .hbm, ⟨115, _⟩ => ⟨S1x128, .f32⟩
  | .hbm, ⟨116, _⟩ => ⟨S16384x128, .f32⟩
  | .hbm, ⟨117, _⟩ => ⟨S256x64x128, .f32⟩
  | .hbm, ⟨118, _⟩ => ⟨S256x1x128, .f32⟩
  | .hbm, ⟨119, _⟩ => ⟨S256x128, .f32⟩
  | .hbm, ⟨120, _⟩ => ⟨S1x32, .f32⟩
  | .hbm, ⟨121, _⟩ => ⟨S256x32, .f32⟩
  | .local _ .vmem, ⟨0, _⟩ => ⟨S2048x2, .i32⟩
  | .local _ .vmem, ⟨1, _⟩ => ⟨S2048x2, .i32⟩
  | .local _ .vmem, ⟨2, _⟩ => ⟨S32x128, .f32⟩
  | .local _ .vmem, ⟨3, _⟩ => ⟨S32x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S128x128, .f32⟩
  | .local _ .vmem, ⟨9, _⟩ => ⟨S2048x1, .f32⟩
  | .local _ .vmem, ⟨10, _⟩ => ⟨S2048x1, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x1, .f32⟩
  | .local _ .vmem, ⟨20, _⟩ => ⟨S2048x1, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S128x128, .f32⟩
  | .local _ .vmem, ⟨29, _⟩ => ⟨S2048x1, .f32⟩
  | .local _ .vmem, ⟨30, _⟩ => ⟨S2048x1, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S2048x128, .f32⟩
  | .local _ .vmem, ⟨38, _⟩ => ⟨S2048x128, .f32⟩
  | .local _ .vmem, ⟨39, _⟩ => ⟨S2048x1, .f32⟩
  | .local _ .vmem, ⟨40, _⟩ => ⟨S2048x1, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S2048x128, .f32⟩
  | .local _ .vmem, ⟨45, _⟩ => ⟨S2048x128, .f32⟩
  | .local _ .vmem, ⟨46, _⟩ => ⟨S2048x128, .f32⟩
  | .local _ .vmem, ⟨47, _⟩ => ⟨S2048x128, .f32⟩
  | .local _ .vmem, ⟨48, _⟩ => ⟨S128x128, .f32⟩
  | .local _ .vmem, ⟨49, _⟩ => ⟨S2048x1, .f32⟩
  | .local _ .vmem, ⟨50, _⟩ => ⟨S2048x1, .f32⟩
  | .local _ .vmem, ⟨51, _⟩ => ⟨S2048x128, .f32⟩
  | .local _ .vmem, ⟨52, _⟩ => ⟨S2048x128, .f32⟩
  | .local _ .vmem, ⟨53, _⟩ => ⟨S2048x128, .f32⟩
  | .local _ .vmem, ⟨54, _⟩ => ⟨S2048x128, .f32⟩
  | .local _ .vmem, ⟨55, _⟩ => ⟨S2048x128, .f32⟩
  | .local _ .vmem, ⟨56, _⟩ => ⟨S2048x128, .f32⟩
  | .local _ .vmem, ⟨57, _⟩ => ⟨S2048x128, .f32⟩
  | .local _ .vmem, ⟨58, _⟩ => ⟨S2048x128, .f32⟩
  | .local _ .vmem, ⟨59, _⟩ => ⟨S2048x1, .f32⟩
  | .local _ .vmem, ⟨60, _⟩ => ⟨S2048x1, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S2048x128, .f32⟩
  | .local _ .vmem, ⟨65, _⟩ => ⟨S2048x128, .f32⟩
  | .local _ .vmem, ⟨66, _⟩ => ⟨S2048x128, .f32⟩
  | .local _ .vmem, ⟨67, _⟩ => ⟨S2048x128, .f32⟩
  | .local _ .vmem, ⟨68, _⟩ => ⟨S128x128, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S2048x128, .f32⟩
  | .local _ .vmem, ⟨73, _⟩ => ⟨S2048x128, .f32⟩
  | .local _ .vmem, ⟨74, _⟩ => ⟨S256x128, .f32⟩
  | .local _ .vmem, ⟨75, _⟩ => ⟨S128x32, .f32⟩
  | .local _ .vmem, ⟨76, _⟩ => ⟨S1x32, .f32⟩
  | .local _ .vmem, ⟨77, _⟩ => ⟨S256x32, .f32⟩
  | _, _ => ⟨S16384x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_4 : Ref sig .tc := ⟨.hbm, 56, rfl⟩
abbrev main_v39 : Ref sig .tc := ⟨.hbm, 57, rfl⟩
abbrev main_v40 : Ref sig .tc := ⟨.hbm, 58, rfl⟩
abbrev main_c_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_7 : Ref sig .tc := ⟨.hbm, 82, rfl⟩
abbrev main_v62 : Ref sig .tc := ⟨.hbm, 83, rfl⟩
abbrev main_v63 : Ref sig .tc := ⟨.hbm, 84, rfl⟩
abbrev main_c_8 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_9 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg3_1 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg7_0 : Ref sig .tc := ⟨.vmem, 44, rfl⟩
abbrev cc4_stg7_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg3_1 : Ref sig .tc := ⟨.vmem, 52, rfl⟩
abbrev cc6_stg0_0 : Ref sig .tc := ⟨.vmem, 53, rfl⟩
abbrev cc6_stg0_1 : Ref sig .tc := ⟨.vmem, 54, rfl⟩
abbrev cc6_stg1_0 : Ref sig .tc := ⟨.vmem, 55, rfl⟩
abbrev cc6_stg1_1 : Ref sig .tc := ⟨.vmem, 56, rfl⟩
abbrev cc6_stg2_0 : Ref sig .tc := ⟨.vmem, 57, rfl⟩
abbrev cc6_stg2_1 : Ref sig .tc := ⟨.vmem, 58, rfl⟩
abbrev cc6_stg3_0 : Ref sig .tc := ⟨.vmem, 59, rfl⟩
abbrev cc6_stg3_1 : Ref sig .tc := ⟨.vmem, 60, rfl⟩
abbrev cc6_stg4_0 : Ref sig .tc := ⟨.vmem, 61, rfl⟩
abbrev cc6_stg5_0 : Ref sig .tc := ⟨.vmem, 62, rfl⟩
abbrev cc6_stg6_0 : Ref sig .tc := ⟨.vmem, 63, rfl⟩
abbrev cc6_stg7_0 : Ref sig .tc := ⟨.vmem, 64, rfl⟩
abbrev cc6_stg7_1 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg2_0 : Ref sig .tc := ⟨.vmem, 69, rfl⟩
abbrev cc7_stg3_0 : Ref sig .tc := ⟨.vmem, 70, rfl⟩
abbrev cc7_stg4_0 : Ref sig .tc := ⟨.vmem, 71, rfl⟩
abbrev cc7_stg5_0 : Ref sig .tc := ⟨.vmem, 72, rfl⟩
abbrev cc7_stg5_1 : Ref sig .tc := ⟨.vmem, 73, rfl⟩
abbrev cc8_stg0_0 : Ref sig .tc := ⟨.vmem, 74, rfl⟩
abbrev cc8_stg1_0 : Ref sig .tc := ⟨.vmem, 75, rfl⟩
abbrev cc8_stg2_0 : Ref sig .tc := ⟨.vmem, 76, rfl⟩
abbrev cc8_stg3_0 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem3_1 : DmaSem sig := 40
abbrev cc4_sem4_0 : DmaSem sig := 41
abbrev cc4_sem5_0 : DmaSem sig := 42
abbrev cc4_sem6_0 : DmaSem sig := 43
abbrev cc4_sem7_0 : DmaSem sig := 44
abbrev cc4_sem7_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem2_1 : DmaSem sig := 50
abbrev cc5_sem3_0 : DmaSem sig := 51
abbrev cc5_sem3_1 : DmaSem sig := 52
abbrev cc6_sem0_0 : DmaSem sig := 53
abbrev cc6_sem0_1 : DmaSem sig := 54
abbrev cc6_sem1_0 : DmaSem sig := 55
abbrev cc6_sem1_1 : DmaSem sig := 56
abbrev cc6_sem2_0 : DmaSem sig := 57
abbrev cc6_sem2_1 : DmaSem sig := 58
abbrev cc6_sem3_0 : DmaSem sig := 59
abbrev cc6_sem3_1 : DmaSem sig := 60
abbrev cc6_sem4_0 : DmaSem sig := 61
abbrev cc6_sem5_0 : DmaSem sig := 62
abbrev cc6_sem6_0 : DmaSem sig := 63
abbrev cc6_sem7_0 : DmaSem sig := 64
abbrev cc6_sem7_1 : DmaSem sig := 65
abbrev cc7_sem0_0 : DmaSem sig := 66
abbrev cc7_sem0_1 : DmaSem sig := 67
abbrev cc7_sem1_0 : DmaSem sig := 68
abbrev cc7_sem2_0 : DmaSem sig := 69
abbrev cc7_sem3_0 : DmaSem sig := 70
abbrev cc7_sem4_0 : DmaSem sig := 71
abbrev cc7_sem5_0 : DmaSem sig := 72
abbrev cc7_sem5_1 : DmaSem sig := 73
abbrev cc8_sem0_0 : DmaSem sig := 74
abbrev cc8_sem1_0 : DmaSem sig := 75
abbrev cc8_sem2_0 : DmaSem sig := 76
abbrev cc8_sem3_0 : DmaSem sig := 77

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2048x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2048x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2048x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2048x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2048x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2048x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2048x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2048x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2048x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S2048x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2048x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2048x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S256x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S128x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x32 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

class Facts₀ : Prop where
  inb_S2048x2_S2048x2_0_0 : ∀ a, (![0, 0] : Fin 2 → Nat) a + S2048x2.size a ≤ S2048x2.size a
  h_S2048x2 : 0 < S2048x2.numel
  slices_S2048x2_o0_0_S2048x1 : S2048x2.Slices ![0, 0] S2048x1
  slices_S2048x2_o0_1_S2048x1 : S2048x2.Slices ![0, 1] S2048x1
  iota_S2048x32_d1_w32 : S2048x32.Iotas .tc 32 [1]
  broadcasts_S2048x1_S2048x32 : S2048x1.Broadcasts S2048x32
  natLt_1_32 : 1 < 32
  inb_S32x128_S32x128_0_0 : ∀ a, (![0, 0] : Fin 2 → Nat) a + S32x128.size a ≤ S32x128.size a
  h_S32x128 : 0 < S32x128.numel
  inb_S2048x128_S2048x128_0_0 : ∀ a, (![0, 0] : Fin 2 → Nat) a + S2048x128.size a ≤ S2048x128.size a
  h_S2048x128 : 0 < S2048x128.numel
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S_S16384 : S_.BroadcastsInDim S16384 (![] : Fin 0 → Fin S16384.rank)
  bcast_S262144_S262144x1_0 : S262144.BroadcastsInDim S262144x1 (![0] : Fin 1 → Fin S262144x1.rank)
  shapeCasts_S16384_S16384x1 : S16384.ShapeCasts S16384x1
  slices_S4x128x128_S1x128x128_0_0_0 : S4x128x128.Slices ![0, 0, 0] S1x128x128
  shapeCasts_S1x128x128_S128x128 : S1x128x128.ShapeCasts S128x128
  shapeCasts_S2048x128_S2048x128 : S2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  bcast_S_S16384x128 : S_.BroadcastsInDim S16384x128 (![] : Fin 0 → Fin S16384x128.rank)
  slices_S4x128_S1x128_0_0 : S4x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S2048 : S2048x128.Reduces [1] S2048
  shapeCasts_S2048_S2048x1 : S2048.ShapeCasts S2048x1
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  shapeCasts_S2048x128_S32x64x128 : S2048x128.ShapeCasts S32x64x128
  reduces_S32x64x128_S32x128 : S32x64x128.Reduces [1] S32x128
  shapeCasts_S32x128_S32x1x128 : S32x128.ShapeCasts S32x1x128
  shapeCasts_S32x1x128_S32x1x128 : S32x1x128.ShapeCasts S32x1x128
  broadcasts_S32x1x128_S32x64x128 : S32x1x128.Broadcasts S32x64x128
  shapeCasts_S32x64x128_S2048x128 : S32x64x128.ShapeCasts S2048x128
  shapeCasts_S16384x128_S256x64x128 : S16384x128.ShapeCasts S256x64x128
  slices_S256x64x128_S256x1x128_0_0_0 : S256x64x128.Slices ![0, 0, 0] S256x1x128
  shapeCasts_S256x1x128_S256x128 : S256x1x128.ShapeCasts S256x128
  shapeCasts_S32_S1x32 : S32.ShapeCasts S1x32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S256x32_S256x32_0_0 : ∀ a, (![0, 0] : Fin 2 → Nat) a + S256x32.size a ≤ S256x32.size a
  h_S256x32 : 0 < S256x32.numel
  dot_S2048x32_S32x128_S2048x128_1_0_0_1_n_n_wf : DotDims.WF S2048x32 S32x128 S2048x128 [1] [0] [0] [1] [] []
  scatter_S16384_S262144x1_S262144_n_0_0_1_wf : ScatterDims.WF S16384 S262144x1 S262144 [] [0] [0] 1
  dot_S2048x128_S128x128_S2048x128_1_0_0_1_n_n_wf : DotDims.WF S2048x128 S128x128 S2048x128 [1] [0] [0] [1] [] []
  gather_S16384x128_S262144x1_S262144x128_1_0_n_n_0_1_1128_wf : GatherDims.WF S16384x128 S262144x1 S262144x128 [1] [0] [] [0] [] 1 ![1, 128]
  scatter_S16384x128_S262144x1_S262144x128_1_0_0_1_wf : ScatterDims.WF S16384x128 S262144x1 S262144x128 [1] [0] [0] 1
  dot_S256x128_S128x32_S256x32_1_0_0_1_n_n_wf : DotDims.WF S256x128 S128x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S16384x2.size a
  hwx0_0 : ∀ i : grid0.Coords, EltTy.bits .i32 = 32 ∨ (Rect.block (s := S16384x2) S2048x2.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .f32 = 32 ∨ (Rect.block (s := S16384x128) S2048x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .f32 = 32 ∨ (Rect.block (s := S16384x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S16384x1.size a
  hwx1_2 : ∀ i : grid1.Coords, EltTy.bits .f32 = 32 ∨ (Rect.block (s := S16384x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S16384x128.size a
  hwx1_3 : ∀ i : grid1.Coords, EltTy.bits .f32 = 32 ∨ (Rect.block (s := S16384x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S16384x128.size a
  hwx2_0 : ∀ i : grid2.Coords, EltTy.bits .f32 = 32 ∨ (Rect.block (s := S16384x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S16384x128.size a
  hwx2_1 : ∀ i : grid2.Coords, EltTy.bits .f32 = 32 ∨ (Rect.block (s := S16384x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S16384x128.size a
  hwx2_2 : ∀ i : grid2.Coords, EltTy.bits .f32 = 32 ∨ (Rect.block (s := S16384x128) S2048x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S16384x1.size a
  hwx2_3 : ∀ i : grid2.Coords, EltTy.bits .f32 = 32 ∨ (Rect.block (s := S16384x1) S2048x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2048x128.size a ≤ S16384x128.size a
  hwx2_7 : ∀ i : grid2.Coords, EltTy.bits .f32 = 32 ∨ (Rect.block (s := S16384x128) S2048x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S16384x128.size a
  hwx3_0 : ∀ i : grid3.Coords, EltTy.bits .f32 = 32 ∨ (Rect.block (s := S16384x128) S2048x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1.size a ≤ S16384x1.size a
  hwx3_2 : ∀ i : grid3.Coords, EltTy.bits .f32 = 32 ∨ (Rect.block (s := S16384x1) S2048x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x128.size a ≤ S16384x128.size a
  hwx3_3 : ∀ i : grid3.Coords, EltTy.bits .f32 = 32 ∨ (Rect.block (s := S16384x128) S2048x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S16384x128.size a
  hwx4_0 : ∀ i : grid4.Coords, EltTy.bits .f32 = 32 ∨ (Rect.block (s := S16384x128) S2048x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x128.size a ≤ S16384x128.size a
  hwx4_1 : ∀ i : grid4.Coords, EltTy.bits .f32 = 32 ∨ (Rect.block (s := S16384x128) S2048x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x128.size a ≤ S16384x128.size a
  hwx4_2 : ∀ i : grid4.Coords, EltTy.bits .f32 = 32 ∨ (Rect.block (s := S16384x128) S2048x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x1.size a ≤ S16384x1.size a
  hwx4_3 : ∀ i : grid4.Coords, EltTy.bits .f32 = 32 ∨ (Rect.block (s := S16384x1) S2048x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2048x128.size a ≤ S16384x128.size a
  hwx4_7 : ∀ i : grid4.Coords, EltTy.bits .f32 = 32 ∨ (Rect.block (s := S16384x128) S2048x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x128.size a ≤ S16384x128.size a
  hwx5_0 : ∀ i : grid5.Coords, EltTy.bits .f32 = 32 ∨ (Rect.block (s := S16384x128) S2048x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x1.size a ≤ S16384x1.size a
  hwx5_2 : ∀ i : grid5.Coords, EltTy.bits .f32 = 32 ∨ (Rect.block (s := S16384x1) S2048x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x128.size a ≤ S16384x128.size a
  hwx5_3 : ∀ i : grid5.Coords, EltTy.bits .f32 = 32 ∨ (Rect.block (s := S16384x128) S2048x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x128.size a ≤ S16384x128.size a
  hwx6_0 : ∀ i : grid6.Coords, EltTy.bits .f32 = 32 ∨ (Rect.block (s := S16384x128) S2048x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x128.size a ≤ S16384x128.size a
  hwx6_1 : ∀ i : grid6.Coords, EltTy.bits .f32 = 32 ∨ (Rect.block (s := S16384x128) S2048x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x128.size a ≤ S16384x128.size a
  hwx6_2 : ∀ i : grid6.Coords, EltTy.bits .f32 = 32 ∨ (Rect.block (s := S16384x128) S2048x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x1.size a ≤ S16384x1.size a
  hwx6_3 : ∀ i : grid6.Coords, EltTy.bits .f32 = 32 ∨ (Rect.block (s := S16384x1) S2048x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2048x128.size a ≤ S16384x128.size a
  hwx6_7 : ∀ i : grid6.Coords, EltTy.bits .f32 = 32 ∨ (Rect.block (s := S16384x128) S2048x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x128.size a ≤ S16384x128.size a
  hwx7_0 : ∀ i : grid7.Coords, EltTy.bits .f32 = 32 ∨ (Rect.block (s := S16384x128) S2048x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2048x128.size a ≤ S16384x128.size a
  hwx7_5 : ∀ i : grid7.Coords, EltTy.bits .f32 = 32 ∨ (Rect.block (s := S16384x128) S2048x128.size (cc7_transform_5 i) (hinb7_5 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S256x128.size a ≤ S256x128.size a
  hwx8_0 : ∀ i : grid8.Coords, EltTy.bits .f32 = 32 ∨ (Rect.block (s := S256x128) S256x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x32.size a ≤ S128x32.size a
  hwx8_1 : ∀ i : grid8.Coords, EltTy.bits .f32 = 32 ∨ (Rect.block (s := S128x32) S128x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x32.size a ≤ S1x32.size a
  hwx8_2 : ∀ i : grid8.Coords, EltTy.bits .f32 = 32 ∨ (Rect.block (s := S1x32) S1x32.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x32.size a ≤ S256x32.size a
  hwx8_3 : ∀ i : grid8.Coords, EltTy.bits .f32 = 32 ∨ (Rect.block (s := S256x32) S256x32.size (cc8_transform_3 i) (hinb8_3 i)).WholeWords (EltTy.packing .f32)

variable [Facts₀]

def dot_S2048x32_S32x128_S2048x128_1_0_0_1_n_n : DotDims S2048x32 S32x128 S2048x128 where
  lhsContracting := [1]
  rhsContracting := [0]
  lhsNonContracting := [0]
  rhsNonContracting := [1]
  lhsBatch := []
  rhsBatch := []
  wf := dot_S2048x32_S32x128_S2048x128_1_0_0_1_n_n_wf
def scatter_S16384_S262144x1_S262144_n_0_0_1 : ScatterDims S16384 S262144x1 S262144 where
  updateWindowDims := []
  insertedWindowDims := [0]
  scatterDimsToOperandDims := [0]
  indexVectorDim := 1
  wf := scatter_S16384_S262144x1_S262144_n_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def gather_S16384x128_S262144x1_S262144x128_1_0_n_n_0_1_1128 : GatherDims S16384x128 S262144x1 S262144x128 where
  offsetDims := [1]
  collapsedSliceDims := [0]
  operandBatchingDims := []
  startIndicesBatchingDims := []
  startIndexMap := [0]
  indexVectorDim := 1
  sliceSizes := ![1, 128]
  wf := gather_S16384x128_S262144x1_S262144x128_1_0_n_n_0_1_1128_wf
def scatter_S16384x128_S262144x1_S262144x128_1_0_0_1 : ScatterDims S16384x128 S262144x1 S262144x128 where
  updateWindowDims := [1]
  insertedWindowDims := [0]
  scatterDimsToOperandDims := [0]
  indexVectorDim := 1
  wf := scatter_S16384x128_S262144x1_S262144x128_1_0_0_1_wf
def dot_S256x128_S128x32_S256x32_1_0_0_1_n_n : DotDims S256x128 S128x32 S256x32 where
  lhsContracting := [1]
  rhsContracting := [0]
  lhsNonContracting := [0]
  rhsNonContracting := [1]
  lhsBatch := []
  rhsBatch := []
  wf := dot_S256x128_S128x32_S256x32_1_0_0_1_n_n_wf

abbrev win0_0 : Pipeline.Window sig grid0 :=
  Pipeline.Window.ofSpec (Memref.whole main_arg0) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2048x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S2048x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v32) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v34) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v35) S2048x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v35) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2048x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v38) S2048x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v35) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v48) S2048x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v38) S2048x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v12) S2048x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v55) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v56) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v57) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v58) S2048x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v58) S2048x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v12) S2048x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v61) S2048x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v58) S2048x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v71) S2048x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v61) S2048x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v12) S2048x1.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v78) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v79) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v80) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v81) S2048x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v81) S2048x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v83) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v90) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v91) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v92) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v93) S2048x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v96) S256x128.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg9) S128x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v97) S1x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v98) S256x32.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S16384x2 : Shape := ⟨2, ![16384, 2]⟩
abbrev S2x262144 : Shape := ⟨2, ![2, 262144]⟩
abbrev S16384 : Shape := ⟨1, ![16384]⟩
abbrev S32x128 : Shape := ⟨2, ![32, 128]⟩
abbrev S4x128x128 : Shape := ⟨3, ![4, 128, 128]⟩
abbrev S4x128 : Shape := ⟨2, ![4, 128]⟩
abbrev S128x32 : Shape := ⟨2, ![128, 32]⟩
abbrev S32 : Shape := ⟨1, ![32]⟩
abbrev S16384x1 : Shape := ⟨2, ![16384, 1]⟩
abbrev S_ : Shape := ⟨0, ![]⟩
abbrev S16384x128 : Shape := ⟨2, ![16384, 128]⟩
abbrev S256 : Shape := ⟨1, ![256]⟩
abbrev S64 : Shape := ⟨1, ![64]⟩
abbrev S256x1x1 : Shape := ⟨3, ![256, 1, 1]⟩
abbrev S1x64x1 : Shape := ⟨3, ![1, 64, 1]⟩
abbrev S256x64x1 : Shape := ⟨3, ![256, 64, 1]⟩
abbrev S256x64x64 : Shape := ⟨3, ![256, 64, 64]⟩
abbrev S1048576 : Shape := ⟨1, ![1048576]⟩
abbrev S1x1x64 : Shape := ⟨3, ![1, 1, 64]⟩
abbrev S256x1x64 : Shape := ⟨3, ![256, 1, 64]⟩
abbrev S1x1048576 : Shape := ⟨2, ![1, 1048576]⟩
abbrev S2x1048576 : Shape := ⟨2, ![2, 1048576]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x262144 : Shape := ⟨2, ![1, 262144]⟩
abbrev S262144 : Shape := ⟨1, ![262144]⟩
abbrev S278528 : Shape := ⟨1, ![278528]⟩
abbrev S278528x1 : Shape := ⟨2, ![278528, 1]⟩
abbrev S278528x128 : Shape := ⟨2, ![278528, 128]⟩
abbrev S1064960 : Shape := ⟨1, ![1064960]⟩
abbrev S1064960x1 : Shape := ⟨2, ![1064960, 1]⟩
abbrev S1064960x128 : Shape := ⟨2, ![1064960, 128]⟩
abbrev S256x1 : Shape := ⟨2, ![256, 1]⟩
abbrev S256x128 : Shape := ⟨2, ![256, 128]⟩
abbrev S256x32 : Shape := ⟨2, ![256, 32]⟩
abbrev S1x32 : Shape := ⟨2, ![1, 32]⟩

abbrev nBuf : Space → Nat
  | .hbm => 477
  | .vmem => 0
  | .smem => 0
  | _ => 0

abbrev hbmTy0_0 (i : Nat) : BufTy := match i % 128 with
  | 0 => ⟨S16384x2, .i32⟩
  | 1 => ⟨S2x262144, .i32⟩
  | 2 => ⟨S16384, .i32⟩
  | 3 => ⟨S32x128, .f32⟩
  | 4 => ⟨S32x128, .f32⟩
  | 5 => ⟨S4x128x128, .f32⟩
  | 6 => ⟨S4x128, .f32⟩
  | 7 => ⟨S4x128, .f32⟩
  | 8 => ⟨S4x128, .f32⟩
  | 9 => ⟨S128x32, .f32⟩
  | 10 => ⟨S32, .f32⟩
  | 11 => ⟨S16384x1, .i32⟩
  | 12 => ⟨S16384, .i32⟩
  | 13 => ⟨S_, .i32⟩
  | 14 => ⟨S16384, .i32⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S16384x128, .f32⟩
  | 22 => ⟨S16384x1, .i32⟩
  | 23 => ⟨S16384, .i32⟩
  | 24 => ⟨S_, .i32⟩
  | 25 => ⟨S16384, .i32⟩
  | 26 => ⟨S16384, .i1⟩
  | 27 => ⟨S_, .i32⟩
  | 28 => ⟨S16384, .i32⟩
  | 29 => ⟨S16384, .i32⟩
  | 30 => ⟨S16384, .i32⟩
  | 31 => ⟨S16384x1, .i32⟩
  | 32 => ⟨S16384x128, .f32⟩
  | 33 => ⟨S16384x128, .f32⟩
  | 34 => ⟨S256, .i32⟩
  | 35 => ⟨S_, .i32⟩
  | 36 => ⟨S256, .i32⟩
  | 37 => ⟨S256, .i32⟩
  | 38 => ⟨S64, .i32⟩
  | 39 => ⟨S256x1x1, .i32⟩
  | 40 => ⟨S1x64x1, .i32⟩
  | 41 => ⟨S256x64x1, .i32⟩
  | 42 => ⟨S256x64x1, .i32⟩
  | 43 => ⟨S256x64x1, .i32⟩
  | 44 => ⟨S256x64x64, .i32⟩
  | 45 => ⟨S1048576, .i32⟩
  | 46 => ⟨S256x1x1, .i32⟩
  | 47 => ⟨S1x1x64, .i32⟩
  | 48 => ⟨S256x1x64, .i32⟩
  | 49 => ⟨S256x1x64, .i32⟩
  | 50 => ⟨S256x1x64, .i32⟩
  | 51 => ⟨S256x64x64, .i32⟩
  | 52 => ⟨S1048576, .i32⟩
  | 53 => ⟨S1x1048576, .i32⟩
  | 54 => ⟨S1x1048576, .i32⟩
  | 55 => ⟨S2x1048576, .i32⟩
  | 56 => ⟨S1x128x128, .f32⟩
  | 57 => ⟨S128x128, .f32⟩
  | 58 => ⟨S1x128, .f32⟩
  | 59 => ⟨S128, .f32⟩
  | 60 => ⟨S16384, .i32⟩
  | 61 => ⟨S1x262144, .i32⟩
  | 62 => ⟨S262144, .i32⟩
  | 63 => ⟨S278528, .i32⟩
  | 64 => ⟨S1x262144, .i32⟩
  | 65 => ⟨S262144, .i32⟩
  | 66 => ⟨S278528, .i32⟩
  | 67 => ⟨S_, .f32⟩
  | 68 => ⟨S278528, .f32⟩
  | 69 => ⟨S_, .f32⟩
  | 70 => ⟨S16384, .f32⟩
  | 71 => ⟨S278528x1, .i32⟩
  | 72 => ⟨S16384, .f32⟩
  | 73 => ⟨S_, .f32⟩
  | 74 => ⟨S16384, .f32⟩
  | 75 => ⟨S16384, .i1⟩
  | 76 => ⟨S16384, .f32⟩
  | 77 => ⟨S_, .f32⟩
  | 78 => ⟨S_, .f32⟩
  | 79 => ⟨S16384, .f32⟩
  | 80 => ⟨S16384, .f32⟩
  | 81 => ⟨S16384x128, .f32⟩
  | 82 => ⟨S_, .i32⟩
  | 83 => ⟨S278528, .i32⟩
  | 84 => ⟨S278528, .i1⟩
  | 85 => ⟨S_, .i32⟩
  | 86 => ⟨S278528, .i32⟩
  | 87 => ⟨S278528, .i32⟩
  | 88 => ⟨S278528, .i32⟩
  | 89 => ⟨S278528x1, .i32⟩
  | 90 => ⟨S278528, .f32⟩
  | 91 => ⟨S_, .i32⟩
  | 92 => ⟨S278528, .i32⟩
  | 93 => ⟨S278528, .i1⟩
  | 94 => ⟨S_, .i32⟩
  | 95 => ⟨S278528, .i32⟩
  | 96 => ⟨S278528, .i32⟩
  | 97 => ⟨S278528, .i32⟩
  | 98 => ⟨S278528x1, .i32⟩
  | 99 => ⟨S278528, .f32⟩
  | 100 => ⟨S278528, .f32⟩
  | 101 => ⟨S_, .i32⟩
  | 102 => ⟨S278528, .i32⟩
  | 103 => ⟨S278528, .i1⟩
  | 104 => ⟨S_, .i32⟩
  | 105 => ⟨S278528, .i32⟩
  | 106 => ⟨S278528, .i32⟩
  | 107 => ⟨S278528, .i32⟩
  | 108 => ⟨S278528x1, .i32⟩
  | 109 => ⟨S278528x128, .f32⟩
  | 110 => ⟨S278528x1, .f32⟩
  | 111 => ⟨S278528x128, .f32⟩
  | 112 => ⟨S278528x128, .f32⟩
  | 113 => ⟨S_, .f32⟩
  | 114 => ⟨S16384x128, .f32⟩
  | 115 => ⟨S278528x1, .i32⟩
  | 116 => ⟨S16384x128, .f32⟩
  | 117 => ⟨S1x128, .f32⟩
  | 118 => ⟨S16384x128, .f32⟩
  | 119 => ⟨S16384x128, .f32⟩
  | 120 => ⟨S_, .f32⟩
  | 121 => ⟨S16384x128, .f32⟩
  | 122 => ⟨S16384x128, .f32⟩
  | 123 => ⟨S16384x128, .f32⟩
  | 124 => ⟨S1x128, .f32⟩
  | 125 => ⟨S128, .f32⟩
  | 126 => ⟨S1x128, .f32⟩
  | 127 => ⟨S128, .f32⟩
  | _ => ⟨S16384x2, .i32⟩

abbrev hbmTy0_1 (i : Nat) : BufTy := match i % 128 with
  | 0 => ⟨S_, .f32⟩
  | 1 => ⟨S16384, .f32⟩
  | 2 => ⟨S16384x1, .f32⟩
  | 3 => ⟨S_, .f32⟩
  | 4 => ⟨S16384x1, .f32⟩
  | 5 => ⟨S16384x1, .f32⟩
  | 6 => ⟨S16384x128, .f32⟩
  | 7 => ⟨S16384x128, .f32⟩
  | 8 => ⟨S16384x128, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S16384x128, .f32⟩
  | 16 => ⟨S16384x128, .f32⟩
  | 17 => ⟨S_, .f32⟩
  | 18 => ⟨S16384x1, .f32⟩
  | 19 => ⟨S16384x1, .f32⟩
  | 20 => ⟨S16384x1, .f32⟩
  | 21 => ⟨S16384x128, .f32⟩
  | 22 => ⟨S16384x128, .f32⟩
  | 23 => ⟨S1x128, .f32⟩
  | 24 => ⟨S16384x128, .f32⟩
  | 25 => ⟨S16384x128, .f32⟩
  | 26 => ⟨S1x128, .f32⟩
  | 27 => ⟨S16384x128, .f32⟩
  | 28 => ⟨S16384x128, .f32⟩
  | 29 => ⟨S1x128x128, .f32⟩
  | 30 => ⟨S128x128, .f32⟩
  | 31 => ⟨S1x128, .f32⟩
  | 32 => ⟨S128, .f32⟩
  | 33 => ⟨S16384, .i32⟩
  | 34 => ⟨S1x262144, .i32⟩
  | 35 => ⟨S262144, .i32⟩
  | 36 => ⟨S278528, .i32⟩
  | 37 => ⟨S1x262144, .i32⟩
  | 38 => ⟨S262144, .i32⟩
  | 39 => ⟨S278528, .i32⟩
  | 40 => ⟨S_, .f32⟩
  | 41 => ⟨S278528, .f32⟩
  | 42 => ⟨S_, .f32⟩
  | 43 => ⟨S16384, .f32⟩
  | 44 => ⟨S278528x1, .i32⟩
  | 45 => ⟨S16384, .f32⟩
  | 46 => ⟨S_, .f32⟩
  | 47 => ⟨S16384, .f32⟩
  | 48 => ⟨S16384, .i1⟩
  | 49 => ⟨S16384, .f32⟩
  | 50 => ⟨S_, .f32⟩
  | 51 => ⟨S_, .f32⟩
  | 52 => ⟨S16384, .f32⟩
  | 53 => ⟨S16384, .f32⟩
  | 54 => ⟨S16384x128, .f32⟩
  | 55 => ⟨S_, .i32⟩
  | 56 => ⟨S278528, .i32⟩
  | 57 => ⟨S278528, .i1⟩
  | 58 => ⟨S_, .i32⟩
  | 59 => ⟨S278528, .i32⟩
  | 60 => ⟨S278528, .i32⟩
  | 61 => ⟨S278528, .i32⟩
  | 62 => ⟨S278528x1, .i32⟩
  | 63 => ⟨S278528, .f32⟩
  | 64 => ⟨S_, .i32⟩
  | 65 => ⟨S278528, .i32⟩
  | 66 => ⟨S278528, .i1⟩
  | 67 => ⟨S_, .i32⟩
  | 68 => ⟨S278528, .i32⟩
  | 69 => ⟨S278528, .i32⟩
  | 70 => ⟨S278528, .i32⟩
  | 71 => ⟨S278528x1, .i32⟩
  | 72 => ⟨S278528, .f32⟩
  | 73 => ⟨S278528, .f32⟩
  | 74 => ⟨S_, .i32⟩
  | 75 => ⟨S278528, .i32⟩
  | 76 => ⟨S278528, .i1⟩
  | 77 => ⟨S_, .i32⟩
  | 78 => ⟨S278528, .i32⟩
  | 79 => ⟨S278528, .i32⟩
  | 80 => ⟨S278528, .i32⟩
  | 81 => ⟨S278528x1, .i32⟩
  | 82 => ⟨S278528x128, .f32⟩
  | 83 => ⟨S278528x1, .f32⟩
  | 84 => ⟨S278528x128, .f32⟩
  | 85 => ⟨S278528x128, .f32⟩
  | 86 => ⟨S_, .f32⟩
  | 87 => ⟨S16384x128, .f32⟩
  | 88 => ⟨S278528x1, .i32⟩
  | 89 => ⟨S16384x128, .f32⟩
  | 90 => ⟨S1x128, .f32⟩
  | 91 => ⟨S16384x128, .f32⟩
  | 92 => ⟨S16384x128, .f32⟩
  | 93 => ⟨S_, .f32⟩
  | 94 => ⟨S16384x128, .f32⟩
  | 95 => ⟨S16384x128, .f32⟩
  | 96 => ⟨S16384x128, .f32⟩
  | 97 => ⟨S1x128, .f32⟩
  | 98 => ⟨S128, .f32⟩
  | 99 => ⟨S1x128, .f32⟩
  | 100 => ⟨S128, .f32⟩
  | 101 => ⟨S_, .f32⟩
  | 102 => ⟨S16384, .f32⟩
  | 103 => ⟨S16384x1, .f32⟩
  | 104 => ⟨S_, .f32⟩
  | 105 => ⟨S16384x1, .f32⟩
  | 106 => ⟨S16384x1, .f32⟩
  | 107 => ⟨S16384x128, .f32⟩
  | 108 => ⟨S16384x128, .f32⟩
  | 109 => ⟨S16384x128, .f32⟩
  | 110 => ⟨S_, .f32⟩
  | 111 => ⟨S16384, .f32⟩
  | 112 => ⟨S16384x1, .f32⟩
  | 113 => ⟨S_, .f32⟩
  | 114 => ⟨S16384x1, .f32⟩
  | 115 => ⟨S16384x1, .f32⟩
  | 116 => ⟨S16384x128, .f32⟩
  | 117 => ⟨S16384x128, .f32⟩
  | 118 => ⟨S_, .f32⟩
  | 119 => ⟨S16384x1, .f32⟩
  | 120 => ⟨S16384x1, .f32⟩
  | 121 => ⟨S16384x1, .f32⟩
  | 122 => ⟨S16384x128, .f32⟩
  | 123 => ⟨S16384x128, .f32⟩
  | 124 => ⟨S1x128, .f32⟩
  | 125 => ⟨S16384x128, .f32⟩
  | 126 => ⟨S16384x128, .f32⟩
  | 127 => ⟨S1x128, .f32⟩
  | _ => ⟨S16384x2, .i32⟩

abbrev hbmTy0_2 (i : Nat) : BufTy := match i % 128 with
  | 0 => ⟨S16384x128, .f32⟩
  | 1 => ⟨S16384x128, .f32⟩
  | 2 => ⟨S1x128x128, .f32⟩
  | 3 => ⟨S128x128, .f32⟩
  | 4 => ⟨S1x128, .f32⟩
  | 5 => ⟨S128, .f32⟩
  | 6 => ⟨S16384, .i32⟩
  | 7 => ⟨S1x262144, .i32⟩
  | 8 => ⟨S262144, .i32⟩
  | 9 => ⟨S278528, .i32⟩
  | 10 => ⟨S1x262144, .i32⟩
  | 11 => ⟨S262144, .i32⟩
  | 12 => ⟨S278528, .i32⟩
  | 13 => ⟨S_, .f32⟩
  | 14 => ⟨S278528, .f32⟩
  | 15 => ⟨S_, .f32⟩
  | 16 => ⟨S16384, .f32⟩
  | 17 => ⟨S278528x1, .i32⟩
  | 18 => ⟨S16384, .f32⟩
  | 19 => ⟨S_, .f32⟩
  | 20 => ⟨S16384, .f32⟩
  | 21 => ⟨S16384, .i1⟩
  | 22 => ⟨S16384, .f32⟩
  | 23 => ⟨S_, .f32⟩
  | 24 => ⟨S_, .f32⟩
  | 25 => ⟨S16384, .f32⟩
  | 26 => ⟨S16384, .f32⟩
  | 27 => ⟨S16384x128, .f32⟩
  | 28 => ⟨S_, .i32⟩
  | 29 => ⟨S278528, .i32⟩
  | 30 => ⟨S278528, .i1⟩
  | 31 => ⟨S_, .i32⟩
  | 32 => ⟨S278528, .i32⟩
  | 33 => ⟨S278528, .i32⟩
  | 34 => ⟨S278528, .i32⟩
  | 35 => ⟨S278528x1, .i32⟩
  | 36 => ⟨S278528, .f32⟩
  | 37 => ⟨S_, .i32⟩
  | 38 => ⟨S278528, .i32⟩
  | 39 => ⟨S278528, .i1⟩
  | 40 => ⟨S_, .i32⟩
  | 41 => ⟨S278528, .i32⟩
  | 42 => ⟨S278528, .i32⟩
  | 43 => ⟨S278528, .i32⟩
  | 44 => ⟨S278528x1, .i32⟩
  | 45 => ⟨S278528, .f32⟩
  | 46 => ⟨S278528, .f32⟩
  | 47 => ⟨S_, .i32⟩
  | 48 => ⟨S278528, .i32⟩
  | 49 => ⟨S278528, .i1⟩
  | 50 => ⟨S_, .i32⟩
  | 51 => ⟨S278528, .i32⟩
  | 52 => ⟨S278528, .i32⟩
  | 53 => ⟨S278528, .i32⟩
  | 54 => ⟨S278528x1, .i32⟩
  | 55 => ⟨S278528x128, .f32⟩
  | 56 => ⟨S278528x1, .f32⟩
  | 57 => ⟨S278528x128, .f32⟩
  | 58 => ⟨S278528x128, .f32⟩
  | 59 => ⟨S_, .f32⟩
  | 60 => ⟨S16384x128, .f32⟩
  | 61 => ⟨S278528x1, .i32⟩
  | 62 => ⟨S16384x128, .f32⟩
  | 63 => ⟨S1x128, .f32⟩
  | 64 => ⟨S16384x128, .f32⟩
  | 65 => ⟨S16384x128, .f32⟩
  | 66 => ⟨S_, .f32⟩
  | 67 => ⟨S16384x128, .f32⟩
  | 68 => ⟨S16384x128, .f32⟩
  | 69 => ⟨S16384x128, .f32⟩
  | 70 => ⟨S1x128, .f32⟩
  | 71 => ⟨S128, .f32⟩
  | 72 => ⟨S1x128, .f32⟩
  | 73 => ⟨S128, .f32⟩
  | 74 => ⟨S_, .f32⟩
  | 75 => ⟨S16384, .f32⟩
  | 76 => ⟨S16384x1, .f32⟩
  | 77 => ⟨S_, .f32⟩
  | 78 => ⟨S16384x1, .f32⟩
  | 79 => ⟨S16384x1, .f32⟩
  | 80 => ⟨S16384x128, .f32⟩
  | 81 => ⟨S16384x128, .f32⟩
  | 82 => ⟨S16384x128, .f32⟩
  | 83 => ⟨S_, .f32⟩
  | 84 => ⟨S16384, .f32⟩
  | 85 => ⟨S16384x1, .f32⟩
  | 86 => ⟨S_, .f32⟩
  | 87 => ⟨S16384x1, .f32⟩
  | 88 => ⟨S16384x1, .f32⟩
  | 89 => ⟨S16384x128, .f32⟩
  | 90 => ⟨S16384x128, .f32⟩
  | 91 => ⟨S_, .f32⟩
  | 92 => ⟨S16384x1, .f32⟩
  | 93 => ⟨S16384x1, .f32⟩
  | 94 => ⟨S16384x1, .f32⟩
  | 95 => ⟨S16384x128, .f32⟩
  | 96 => ⟨S16384x128, .f32⟩
  | 97 => ⟨S1x128, .f32⟩
  | 98 => ⟨S16384x128, .f32⟩
  | 99 => ⟨S16384x128, .f32⟩
  | 100 => ⟨S1x128, .f32⟩
  | 101 => ⟨S16384x128, .f32⟩
  | 102 => ⟨S16384x128, .f32⟩
  | 103 => ⟨S1x128x128, .f32⟩
  | 104 => ⟨S128x128, .f32⟩
  | 105 => ⟨S1x128, .f32⟩
  | 106 => ⟨S128, .f32⟩
  | 107 => ⟨S16384, .i32⟩
  | 108 => ⟨S1x1048576, .i32⟩
  | 109 => ⟨S1048576, .i32⟩
  | 110 => ⟨S1064960, .i32⟩
  | 111 => ⟨S1x1048576, .i32⟩
  | 112 => ⟨S1048576, .i32⟩
  | 113 => ⟨S1064960, .i32⟩
  | 114 => ⟨S_, .f32⟩
  | 115 => ⟨S1064960, .f32⟩
  | 116 => ⟨S_, .f32⟩
  | 117 => ⟨S16384, .f32⟩
  | 118 => ⟨S1064960x1, .i32⟩
  | 119 => ⟨S16384, .f32⟩
  | 120 => ⟨S_, .f32⟩
  | 121 => ⟨S16384, .f32⟩
  | 122 => ⟨S16384, .i1⟩
  | 123 => ⟨S16384, .f32⟩
  | 124 => ⟨S_, .f32⟩
  | 125 => ⟨S_, .f32⟩
  | 126 => ⟨S16384, .f32⟩
  | 127 => ⟨S16384, .f32⟩
  | _ => ⟨S16384x2, .i32⟩

abbrev hbmTy0_3 (i : Nat) : BufTy := match i % 128 with
  | 0 => ⟨S16384x128, .f32⟩
  | 1 => ⟨S_, .i32⟩
  | 2 => ⟨S1064960, .i32⟩
  | 3 => ⟨S1064960, .i1⟩
  | 4 => ⟨S_, .i32⟩
  | 5 => ⟨S1064960, .i32⟩
  | 6 => ⟨S1064960, .i32⟩
  | 7 => ⟨S1064960, .i32⟩
  | 8 => ⟨S1064960x1, .i32⟩
  | 9 => ⟨S1064960, .f32⟩
  | 10 => ⟨S_, .i32⟩
  | 11 => ⟨S1064960, .i32⟩
  | 12 => ⟨S1064960, .i1⟩
  | 13 => ⟨S_, .i32⟩
  | 14 => ⟨S1064960, .i32⟩
  | 15 => ⟨S1064960, .i32⟩
  | 16 => ⟨S1064960, .i32⟩
  | 17 => ⟨S1064960x1, .i32⟩
  | 18 => ⟨S1064960, .f32⟩
  | 19 => ⟨S1064960, .f32⟩
  | 20 => ⟨S_, .i32⟩
  | 21 => ⟨S1064960, .i32⟩
  | 22 => ⟨S1064960, .i1⟩
  | 23 => ⟨S_, .i32⟩
  | 24 => ⟨S1064960, .i32⟩
  | 25 => ⟨S1064960, .i32⟩
  | 26 => ⟨S1064960, .i32⟩
  | 27 => ⟨S1064960x1, .i32⟩
  | 28 => ⟨S1064960x128, .f32⟩
  | 29 => ⟨S1064960x1, .f32⟩
  | 30 => ⟨S1064960x128, .f32⟩
  | 31 => ⟨S1064960x128, .f32⟩
  | 32 => ⟨S_, .f32⟩
  | 33 => ⟨S16384x128, .f32⟩
  | 34 => ⟨S1064960x1, .i32⟩
  | 35 => ⟨S16384x128, .f32⟩
  | 36 => ⟨S1x128, .f32⟩
  | 37 => ⟨S16384x128, .f32⟩
  | 38 => ⟨S16384x128, .f32⟩
  | 39 => ⟨S_, .f32⟩
  | 40 => ⟨S16384x128, .f32⟩
  | 41 => ⟨S16384x128, .f32⟩
  | 42 => ⟨S16384x128, .f32⟩
  | 43 => ⟨S1x128, .f32⟩
  | 44 => ⟨S128, .f32⟩
  | 45 => ⟨S1x128, .f32⟩
  | 46 => ⟨S128, .f32⟩
  | 47 => ⟨S_, .f32⟩
  | 48 => ⟨S16384, .f32⟩
  | 49 => ⟨S16384x1, .f32⟩
  | 50 => ⟨S_, .f32⟩
  | 51 => ⟨S16384x1, .f32⟩
  | 52 => ⟨S16384x1, .f32⟩
  | 53 => ⟨S16384x128, .f32⟩
  | 54 => ⟨S16384x128, .f32⟩
  | 55 => ⟨S16384x128, .f32⟩
  | 56 => ⟨S_, .f32⟩
  | 57 => ⟨S16384, .f32⟩
  | 58 => ⟨S16384x1, .f32⟩
  | 59 => ⟨S_, .f32⟩
  | 60 => ⟨S16384x1, .f32⟩
  | 61 => ⟨S16384x1, .f32⟩
  | 62 => ⟨S16384x128, .f32⟩
  | 63 => ⟨S16384x128, .f32⟩
  | 64 => ⟨S_, .f32⟩
  | 65 => ⟨S16384x1, .f32⟩
  | 66 => ⟨S16384x1, .f32⟩
  | 67 => ⟨S16384x1, .f32⟩
  | 68 => ⟨S16384x128, .f32⟩
  | 69 => ⟨S16384x128, .f32⟩
  | 70 => ⟨S1x128, .f32⟩
  | 71 => ⟨S16384x128, .f32⟩
  | 72 => ⟨S16384x128, .f32⟩
  | 73 => ⟨S1x128, .f32⟩
  | 74 => ⟨S16384x128, .f32⟩
  | 75 => ⟨S16384x128, .f32⟩
  | 76 => ⟨S256, .i32⟩
  | 77 => ⟨S_, .i32⟩
  | 78 => ⟨S256, .i32⟩
  | 79 => ⟨S256, .i32⟩
  | 80 => ⟨S_, .i32⟩
  | 81 => ⟨S256, .i32⟩
  | 82 => ⟨S256, .i1⟩
  | 83 => ⟨S_, .i32⟩
  | 84 => ⟨S256, .i32⟩
  | 85 => ⟨S256, .i32⟩
  | 86 => ⟨S256, .i32⟩
  | 87 => ⟨S256x1, .i32⟩
  | 88 => ⟨S256x128, .f32⟩
  | 89 => ⟨S256x32, .f32⟩
  | 90 => ⟨S1x32, .f32⟩
  | 91 => ⟨S256x32, .f32⟩
  | 92 => ⟨S256x32, .f32⟩
  | _ => ⟨S16384x2, .i32⟩

abbrev hbmTy (i : Nat) : BufTy := match i / 128 with
  | 0 => hbmTy0_0 i
  | 1 => hbmTy0_1 i
  | 2 => hbmTy0_2 i
  | 3 => hbmTy0_3 i
  | _ => ⟨S16384x2, .i32⟩

abbrev bufTy : (tb : Table) → Fin (tcTables nBuf tb) → BufTy
  | .hbm, ⟨i, _⟩ => hbmTy i
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst : Ref sig .tc := ⟨.hbm, 67, rfl⟩
abbrev main_v51 : Ref sig .tc := ⟨.hbm, 68, rfl⟩
abbrev main_cst_4 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_5 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_6 : Ref sig .tc := ⟨.hbm, 77, rfl⟩
abbrev main_call0_v0 : Ref sig .tc := ⟨.hbm, 78, rfl⟩
abbrev main_call0_v1 : Ref sig .tc := ⟨.hbm, 79, rfl⟩
abbrev main_v58 : Ref sig .tc := ⟨.hbm, 80, rfl⟩
abbrev main_v59 : Ref sig .tc := ⟨.hbm, 81, rfl⟩
abbrev main_c_7 : Ref sig .tc := ⟨.hbm, 82, rfl⟩
abbrev main_v60 : Ref sig .tc := ⟨.hbm, 83, rfl⟩
abbrev main_v61 : Ref sig .tc := ⟨.hbm, 84, rfl⟩
abbrev main_c_8 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_9 : Ref sig .tc := ⟨.hbm, 91, rfl⟩
abbrev main_v67 : Ref sig .tc := ⟨.hbm, 92, rfl⟩
abbrev main_v68 : Ref sig .tc := ⟨.hbm, 93, rfl⟩
abbrev main_c_10 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_11 : Ref sig .tc := ⟨.hbm, 101, rfl⟩
abbrev main_v75 : Ref sig .tc := ⟨.hbm, 102, rfl⟩
abbrev main_v76 : Ref sig .tc := ⟨.hbm, 103, rfl⟩
abbrev main_c_12 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_13 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_call1_cst : Ref sig .tc := ⟨.hbm, 120, rfl⟩
abbrev main_call1_v0 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_14 : Ref sig .tc := ⟨.hbm, 128, rfl⟩
abbrev main_v97 : Ref sig .tc := ⟨.hbm, 129, rfl⟩
abbrev main_v98 : Ref sig .tc := ⟨.hbm, 130, rfl⟩
abbrev main_cst_15 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_16 : Ref sig .tc := ⟨.hbm, 137, rfl⟩
abbrev main_v104 : Ref sig .tc := ⟨.hbm, 138, rfl⟩
abbrev main_v105 : Ref sig .tc := ⟨.hbm, 139, rfl⟩
abbrev main_cst_17 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_18 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_19 : Ref sig .tc := ⟨.hbm, 168, rfl⟩
abbrev main_v132 : Ref sig .tc := ⟨.hbm, 169, rfl⟩
abbrev main_cst_20 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_cst_21 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_22 : Ref sig .tc := ⟨.hbm, 178, rfl⟩
abbrev main_call2_v0 : Ref sig .tc := ⟨.hbm, 179, rfl⟩
abbrev main_call2_v1 : Ref sig .tc := ⟨.hbm, 180, rfl⟩
abbrev main_v139 : Ref sig .tc := ⟨.hbm, 181, rfl⟩
abbrev main_v140 : Ref sig .tc := ⟨.hbm, 182, rfl⟩
abbrev main_c_23 : Ref sig .tc := ⟨.hbm, 183, rfl⟩
abbrev main_v141 : Ref sig .tc := ⟨.hbm, 184, rfl⟩
abbrev main_v142 : Ref sig .tc := ⟨.hbm, 185, rfl⟩
abbrev main_c_24 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_c_25 : Ref sig .tc := ⟨.hbm, 192, rfl⟩
abbrev main_v148 : Ref sig .tc := ⟨.hbm, 193, rfl⟩
abbrev main_v149 : Ref sig .tc := ⟨.hbm, 194, rfl⟩
abbrev main_c_26 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_c_27 : Ref sig .tc := ⟨.hbm, 202, rfl⟩
abbrev main_v156 : Ref sig .tc := ⟨.hbm, 203, rfl⟩
abbrev main_v157 : Ref sig .tc := ⟨.hbm, 204, rfl⟩
abbrev main_c_28 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_cst_29 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_call3_cst : Ref sig .tc := ⟨.hbm, 221, rfl⟩
abbrev main_call3_v0 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_cst_30 : Ref sig .tc := ⟨.hbm, 229, rfl⟩
abbrev main_v178 : Ref sig .tc := ⟨.hbm, 230, rfl⟩
abbrev main_v179 : Ref sig .tc := ⟨.hbm, 231, rfl⟩
abbrev main_cst_31 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_cst_32 : Ref sig .tc := ⟨.hbm, 238, rfl⟩
abbrev main_v185 : Ref sig .tc := ⟨.hbm, 239, rfl⟩
abbrev main_v186 : Ref sig .tc := ⟨.hbm, 240, rfl⟩
abbrev main_cst_33 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_cst_34 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_cst_35 : Ref sig .tc := ⟨.hbm, 269, rfl⟩
abbrev main_v213 : Ref sig .tc := ⟨.hbm, 270, rfl⟩
abbrev main_cst_36 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_cst_37 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_cst_38 : Ref sig .tc := ⟨.hbm, 279, rfl⟩
abbrev main_call4_v0 : Ref sig .tc := ⟨.hbm, 280, rfl⟩
abbrev main_call4_v1 : Ref sig .tc := ⟨.hbm, 281, rfl⟩
abbrev main_v220 : Ref sig .tc := ⟨.hbm, 282, rfl⟩
abbrev main_v221 : Ref sig .tc := ⟨.hbm, 283, rfl⟩
abbrev main_c_39 : Ref sig .tc := ⟨.hbm, 284, rfl⟩
abbrev main_v222 : Ref sig .tc := ⟨.hbm, 285, rfl⟩
abbrev main_v223 : Ref sig .tc := ⟨.hbm, 286, rfl⟩
abbrev main_c_40 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_c_41 : Ref sig .tc := ⟨.hbm, 293, rfl⟩
abbrev main_v229 : Ref sig .tc := ⟨.hbm, 294, rfl⟩
abbrev main_v230 : Ref sig .tc := ⟨.hbm, 295, rfl⟩
abbrev main_c_42 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_c_43 : Ref sig .tc := ⟨.hbm, 303, rfl⟩
abbrev main_v237 : Ref sig .tc := ⟨.hbm, 304, rfl⟩
abbrev main_v238 : Ref sig .tc := ⟨.hbm, 305, rfl⟩
abbrev main_c_44 : Ref sig .tc := ⟨.hbm, 306, rfl⟩
abbrev main_v239 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_cst_45 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_v252 : Ref sig .tc := ⟨.hbm, 321, rfl⟩
abbrev main_call5_cst : Ref sig .tc := ⟨.hbm, 322, rfl⟩
abbrev main_call5_v0 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_cst_46 : Ref sig .tc := ⟨.hbm, 330, rfl⟩
abbrev main_v259 : Ref sig .tc := ⟨.hbm, 331, rfl⟩
abbrev main_v260 : Ref sig .tc := ⟨.hbm, 332, rfl⟩
abbrev main_cst_47 : Ref sig .tc := ⟨.hbm, 333, rfl⟩
abbrev main_v261 : Ref sig .tc := ⟨.hbm, 334, rfl⟩
abbrev main_v262 : Ref sig .tc := ⟨.hbm, 335, rfl⟩
abbrev main_v263 : Ref sig .tc := ⟨.hbm, 336, rfl⟩
abbrev main_v264 : Ref sig .tc := ⟨.hbm, 337, rfl⟩
abbrev main_v265 : Ref sig .tc := ⟨.hbm, 338, rfl⟩
abbrev main_cst_48 : Ref sig .tc := ⟨.hbm, 339, rfl⟩
abbrev main_v266 : Ref sig .tc := ⟨.hbm, 340, rfl⟩
abbrev main_v267 : Ref sig .tc := ⟨.hbm, 341, rfl⟩
abbrev main_cst_49 : Ref sig .tc := ⟨.hbm, 342, rfl⟩
abbrev main_v268 : Ref sig .tc := ⟨.hbm, 343, rfl⟩
abbrev main_v269 : Ref sig .tc := ⟨.hbm, 344, rfl⟩
abbrev main_v270 : Ref sig .tc := ⟨.hbm, 345, rfl⟩
abbrev main_v271 : Ref sig .tc := ⟨.hbm, 346, rfl⟩
abbrev main_cst_50 : Ref sig .tc := ⟨.hbm, 347, rfl⟩
abbrev main_v272 : Ref sig .tc := ⟨.hbm, 348, rfl⟩
abbrev main_v273 : Ref sig .tc := ⟨.hbm, 349, rfl⟩
abbrev main_v274 : Ref sig .tc := ⟨.hbm, 350, rfl⟩
abbrev main_v275 : Ref sig .tc := ⟨.hbm, 351, rfl⟩
abbrev main_v276 : Ref sig .tc := ⟨.hbm, 352, rfl⟩
abbrev main_v277 : Ref sig .tc := ⟨.hbm, 353, rfl⟩
abbrev main_v278 : Ref sig .tc := ⟨.hbm, 354, rfl⟩
abbrev main_v279 : Ref sig .tc := ⟨.hbm, 355, rfl⟩
abbrev main_v280 : Ref sig .tc := ⟨.hbm, 356, rfl⟩
abbrev main_v281 : Ref sig .tc := ⟨.hbm, 357, rfl⟩
abbrev main_v282 : Ref sig .tc := ⟨.hbm, 358, rfl⟩
abbrev main_v283 : Ref sig .tc := ⟨.hbm, 359, rfl⟩
abbrev main_v284 : Ref sig .tc := ⟨.hbm, 360, rfl⟩
abbrev main_v285 : Ref sig .tc := ⟨.hbm, 361, rfl⟩
abbrev main_v286 : Ref sig .tc := ⟨.hbm, 362, rfl⟩
abbrev main_v287 : Ref sig .tc := ⟨.hbm, 363, rfl⟩
abbrev main_v288 : Ref sig .tc := ⟨.hbm, 364, rfl⟩
abbrev main_v289 : Ref sig .tc := ⟨.hbm, 365, rfl⟩
abbrev main_v290 : Ref sig .tc := ⟨.hbm, 366, rfl⟩
abbrev main_v291 : Ref sig .tc := ⟨.hbm, 367, rfl⟩
abbrev main_v292 : Ref sig .tc := ⟨.hbm, 368, rfl⟩
abbrev main_v293 : Ref sig .tc := ⟨.hbm, 369, rfl⟩
abbrev main_cst_51 : Ref sig .tc := ⟨.hbm, 370, rfl⟩
abbrev main_v294 : Ref sig .tc := ⟨.hbm, 371, rfl⟩
abbrev main_cst_52 : Ref sig .tc := ⟨.hbm, 372, rfl⟩
abbrev main_v295 : Ref sig .tc := ⟨.hbm, 373, rfl⟩
abbrev main_v296 : Ref sig .tc := ⟨.hbm, 374, rfl⟩
abbrev main_v297 : Ref sig .tc := ⟨.hbm, 375, rfl⟩
abbrev main_cst_53 : Ref sig .tc := ⟨.hbm, 376, rfl⟩
abbrev main_v298 : Ref sig .tc := ⟨.hbm, 377, rfl⟩
abbrev main_v299 : Ref sig .tc := ⟨.hbm, 378, rfl⟩
abbrev main_v300 : Ref sig .tc := ⟨.hbm, 379, rfl⟩
abbrev main_cst_54 : Ref sig .tc := ⟨.hbm, 380, rfl⟩
abbrev main_call6_v0 : Ref sig .tc := ⟨.hbm, 381, rfl⟩
abbrev main_call6_v1 : Ref sig .tc := ⟨.hbm, 382, rfl⟩
abbrev main_v301 : Ref sig .tc := ⟨.hbm, 383, rfl⟩
abbrev main_v302 : Ref sig .tc := ⟨.hbm, 384, rfl⟩
abbrev main_c_55 : Ref sig .tc := ⟨.hbm, 385, rfl⟩
abbrev main_v303 : Ref sig .tc := ⟨.hbm, 386, rfl⟩
abbrev main_v304 : Ref sig .tc := ⟨.hbm, 387, rfl⟩
abbrev main_c_56 : Ref sig .tc := ⟨.hbm, 388, rfl⟩
abbrev main_v305 : Ref sig .tc := ⟨.hbm, 389, rfl⟩
abbrev main_v306 : Ref sig .tc := ⟨.hbm, 390, rfl⟩
abbrev main_v307 : Ref sig .tc := ⟨.hbm, 391, rfl⟩
abbrev main_v308 : Ref sig .tc := ⟨.hbm, 392, rfl⟩
abbrev main_v309 : Ref sig .tc := ⟨.hbm, 393, rfl⟩
abbrev main_c_57 : Ref sig .tc := ⟨.hbm, 394, rfl⟩
abbrev main_v310 : Ref sig .tc := ⟨.hbm, 395, rfl⟩
abbrev main_v311 : Ref sig .tc := ⟨.hbm, 396, rfl⟩
abbrev main_c_58 : Ref sig .tc := ⟨.hbm, 397, rfl⟩
abbrev main_v312 : Ref sig .tc := ⟨.hbm, 398, rfl⟩
abbrev main_v313 : Ref sig .tc := ⟨.hbm, 399, rfl⟩
abbrev main_v314 : Ref sig .tc := ⟨.hbm, 400, rfl⟩
abbrev main_v315 : Ref sig .tc := ⟨.hbm, 401, rfl⟩
abbrev main_v316 : Ref sig .tc := ⟨.hbm, 402, rfl⟩
abbrev main_v317 : Ref sig .tc := ⟨.hbm, 403, rfl⟩
abbrev main_c_59 : Ref sig .tc := ⟨.hbm, 404, rfl⟩
abbrev main_v318 : Ref sig .tc := ⟨.hbm, 405, rfl⟩
abbrev main_v319 : Ref sig .tc := ⟨.hbm, 406, rfl⟩
abbrev main_c_60 : Ref sig .tc := ⟨.hbm, 407, rfl⟩
abbrev main_v320 : Ref sig .tc := ⟨.hbm, 408, rfl⟩
abbrev main_v321 : Ref sig .tc := ⟨.hbm, 409, rfl⟩
abbrev main_v322 : Ref sig .tc := ⟨.hbm, 410, rfl⟩
abbrev main_v323 : Ref sig .tc := ⟨.hbm, 411, rfl⟩
abbrev main_v324 : Ref sig .tc := ⟨.hbm, 412, rfl⟩
abbrev main_v325 : Ref sig .tc := ⟨.hbm, 413, rfl⟩
abbrev main_v326 : Ref sig .tc := ⟨.hbm, 414, rfl⟩
abbrev main_v327 : Ref sig .tc := ⟨.hbm, 415, rfl⟩
abbrev main_cst_61 : Ref sig .tc := ⟨.hbm, 416, rfl⟩
abbrev main_v328 : Ref sig .tc := ⟨.hbm, 417, rfl⟩
abbrev main_v329 : Ref sig .tc := ⟨.hbm, 418, rfl⟩
abbrev main_v330 : Ref sig .tc := ⟨.hbm, 419, rfl⟩
abbrev main_v331 : Ref sig .tc := ⟨.hbm, 420, rfl⟩
abbrev main_v332 : Ref sig .tc := ⟨.hbm, 421, rfl⟩
abbrev main_v333 : Ref sig .tc := ⟨.hbm, 422, rfl⟩
abbrev main_call7_cst : Ref sig .tc := ⟨.hbm, 423, rfl⟩
abbrev main_call7_v0 : Ref sig .tc := ⟨.hbm, 424, rfl⟩
abbrev main_v334 : Ref sig .tc := ⟨.hbm, 425, rfl⟩
abbrev main_v335 : Ref sig .tc := ⟨.hbm, 426, rfl⟩
abbrev main_v336 : Ref sig .tc := ⟨.hbm, 427, rfl⟩
abbrev main_v337 : Ref sig .tc := ⟨.hbm, 428, rfl⟩
abbrev main_v338 : Ref sig .tc := ⟨.hbm, 429, rfl⟩
abbrev main_v339 : Ref sig .tc := ⟨.hbm, 430, rfl⟩
abbrev main_cst_62 : Ref sig .tc := ⟨.hbm, 431, rfl⟩
abbrev main_v340 : Ref sig .tc := ⟨.hbm, 432, rfl⟩
abbrev main_v341 : Ref sig .tc := ⟨.hbm, 433, rfl⟩
abbrev main_cst_63 : Ref sig .tc := ⟨.hbm, 434, rfl⟩
abbrev main_v342 : Ref sig .tc := ⟨.hbm, 435, rfl⟩
abbrev main_v343 : Ref sig .tc := ⟨.hbm, 436, rfl⟩
abbrev main_v344 : Ref sig .tc := ⟨.hbm, 437, rfl⟩
abbrev main_v345 : Ref sig .tc := ⟨.hbm, 438, rfl⟩
abbrev main_v346 : Ref sig .tc := ⟨.hbm, 439, rfl⟩
abbrev main_cst_64 : Ref sig .tc := ⟨.hbm, 440, rfl⟩
abbrev main_v347 : Ref sig .tc := ⟨.hbm, 441, rfl⟩
abbrev main_v348 : Ref sig .tc := ⟨.hbm, 442, rfl⟩
abbrev main_cst_65 : Ref sig .tc := ⟨.hbm, 443, rfl⟩
abbrev main_v349 : Ref sig .tc := ⟨.hbm, 444, rfl⟩
abbrev main_v350 : Ref sig .tc := ⟨.hbm, 445, rfl⟩
abbrev main_v351 : Ref sig .tc := ⟨.hbm, 446, rfl⟩
abbrev main_v352 : Ref sig .tc := ⟨.hbm, 447, rfl⟩
abbrev main_cst_66 : Ref sig .tc := ⟨.hbm, 448, rfl⟩
abbrev main_v353 : Ref sig .tc := ⟨.hbm, 449, rfl⟩
abbrev main_v354 : Ref sig .tc := ⟨.hbm, 450, rfl⟩
abbrev main_v355 : Ref sig .tc := ⟨.hbm, 451, rfl⟩
abbrev main_v356 : Ref sig .tc := ⟨.hbm, 452, rfl⟩
abbrev main_v357 : Ref sig .tc := ⟨.hbm, 453, rfl⟩
abbrev main_v358 : Ref sig .tc := ⟨.hbm, 454, rfl⟩
abbrev main_v359 : Ref sig .tc := ⟨.hbm, 455, rfl⟩
abbrev main_v360 : Ref sig .tc := ⟨.hbm, 456, rfl⟩
abbrev main_v361 : Ref sig .tc := ⟨.hbm, 457, rfl⟩
abbrev main_v362 : Ref sig .tc := ⟨.hbm, 458, rfl⟩
abbrev main_v363 : Ref sig .tc := ⟨.hbm, 459, rfl⟩
abbrev main_v364 : Ref sig .tc := ⟨.hbm, 460, rfl⟩
abbrev main_c_67 : Ref sig .tc := ⟨.hbm, 461, rfl⟩
abbrev main_v365 : Ref sig .tc := ⟨.hbm, 462, rfl⟩
abbrev main_v366 : Ref sig .tc := ⟨.hbm, 463, rfl⟩
abbrev main_c_68 : Ref sig .tc := ⟨.hbm, 464, rfl⟩
abbrev main_v367 : Ref sig .tc := ⟨.hbm, 465, rfl⟩
abbrev main_v368 : Ref sig .tc := ⟨.hbm, 466, rfl⟩
abbrev main_c_69 : Ref sig .tc := ⟨.hbm, 467, rfl⟩
abbrev main_v369 : Ref sig .tc := ⟨.hbm, 468, rfl⟩
abbrev main_v370 : Ref sig .tc := ⟨.hbm, 469, rfl⟩
abbrev main_v371 : Ref sig .tc := ⟨.hbm, 470, rfl⟩
abbrev main_v372 : Ref sig .tc := ⟨.hbm, 471, rfl⟩
abbrev main_v373 : Ref sig .tc := ⟨.hbm, 472, rfl⟩
abbrev main_v374 : Ref sig .tc := ⟨.hbm, 473, rfl⟩
abbrev main_v375 : Ref sig .tc := ⟨.hbm, 474, rfl⟩
abbrev main_v376 : Ref sig .tc := ⟨.hbm, 475, rfl⟩
abbrev main_v377 : Ref sig .tc := ⟨.hbm, 476, rfl⟩

abbrev nD : Nat := 1
abbrev τ : Topo := Topo.v7x

variable {F : FTy → Type} [FloatOps F]

class Facts₀ : Prop where
  slices_S16384x2_S16384x1_0_0 : S16384x2.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  slices_S16384x2_S16384x1_0_1 : S16384x2.Slices ![0, 1] S16384x1
  bcast_S_S256 : S_.BroadcastsInDim S256 (![] : Fin 0 → Fin S256.rank)
  bcast_S256_S256x1x1_0 : S256.BroadcastsInDim S256x1x1 (![0] : Fin 1 → Fin S256x1x1.rank)
  bcast_S64_S1x64x1_1 : S64.BroadcastsInDim S1x64x1 (![1] : Fin 1 → Fin S1x64x1.rank)
  bcast_S256x1x1_S256x64x1_0_1_2 : S256x1x1.BroadcastsInDim S256x64x1 (![0, 1, 2] : Fin 3 → Fin S256x64x1.rank)
  bcast_S1x64x1_S256x64x1_0_1_2 : S1x64x1.BroadcastsInDim S256x64x1 (![0, 1, 2] : Fin 3 → Fin S256x64x1.rank)
  bcast_S256x64x1_S256x64x64_0_1_2 : S256x64x1.BroadcastsInDim S256x64x64 (![0, 1, 2] : Fin 3 → Fin S256x64x64.rank)
  shapeCasts_S256x64x64_S1048576 : S256x64x64.ShapeCasts S1048576
  bcast_S64_S1x1x64_2 : S64.BroadcastsInDim S1x1x64 (![2] : Fin 1 → Fin S1x1x64.rank)
  bcast_S256x1x1_S256x1x64_0_1_2 : S256x1x1.BroadcastsInDim S256x1x64 (![0, 1, 2] : Fin 3 → Fin S256x1x64.rank)
  bcast_S1x1x64_S256x1x64_0_1_2 : S1x1x64.BroadcastsInDim S256x1x64 (![0, 1, 2] : Fin 3 → Fin S256x1x64.rank)
  bcast_S256x1x64_S256x64x64_0_1_2 : S256x1x64.BroadcastsInDim S256x64x64 (![0, 1, 2] : Fin 3 → Fin S256x64x64.rank)
  bcast_S1048576_S1x1048576_1 : S1048576.BroadcastsInDim S1x1048576 (![1] : Fin 1 → Fin S1x1048576.rank)
  concatenates_S1x1048576_S1x1048576_S2x1048576_d0 : Shape.Concatenates [S1x1048576, S1x1048576] S2x1048576 0
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S2x262144_S1x262144_0_0 : S2x262144.Slices ![0, 0] S1x262144
  shapeCasts_S1x262144_S262144 : S1x262144.ShapeCasts S262144
  concatenates_S262144_S16384_S278528_d0 : Shape.Concatenates [S262144, S16384] S278528 0
  slices_S2x262144_S1x262144_1_0 : S2x262144.Slices ![1, 0] S1x262144
  bcast_S_S278528 : S_.BroadcastsInDim S278528 (![] : Fin 0 → Fin S278528.rank)
  bcast_S278528_S278528x1_0 : S278528.BroadcastsInDim S278528x1 (![0] : Fin 1 → Fin S278528x1.rank)
  bcast_S278528x1_S278528x128_0_1 : S278528x1.BroadcastsInDim S278528x128 (![0, 1] : Fin 2 → Fin S278528x128.rank)
  bcast_S_S16384x128 : S_.BroadcastsInDim S16384x128 (![] : Fin 0 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  reducesTo_S16384x128_S16384_d1 : S16384x128.ReducesTo [1] S16384
  h_S_ : 0 < S_.numel
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  slices_S2x1048576_S1x1048576_0_0 : S2x1048576.Slices ![0, 0] S1x1048576
  shapeCasts_S1x1048576_S1048576 : S1x1048576.ShapeCasts S1048576
  concatenates_S1048576_S16384_S1064960_d0 : Shape.Concatenates [S1048576, S16384] S1064960 0
  slices_S2x1048576_S1x1048576_1_0 : S2x1048576.Slices ![1, 0] S1x1048576
  bcast_S_S1064960 : S_.BroadcastsInDim S1064960 (![] : Fin 0 → Fin S1064960.rank)
  bcast_S1064960_S1064960x1_0 : S1064960.BroadcastsInDim S1064960x1 (![0] : Fin 1 → Fin S1064960x1.rank)
  bcast_S1064960x1_S1064960x128_0_1 : S1064960x1.BroadcastsInDim S1064960x128 (![0, 1] : Fin 2 → Fin S1064960x128.rank)
  bcast_S256_S256x1_0 : S256.BroadcastsInDim S256x1 (![0] : Fin 1 → Fin S256x1.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  gather_S32x128_S16384x1_S16384x128_1_0_n_n_0_1_1128_wf : GatherDims.WF S32x128 S16384x1 S16384x128 [1] [0] [] [0] [] 1 ![1, 128]
  scatter_S16384_S278528x1_S278528_n_0_0_1_wf : ScatterDims.WF S16384 S278528x1 S278528 [] [0] [0] 1
  dot_S16384x128_S128x128_S16384x128_1_0_0_1_n_n_wf : DotDims.WF S16384x128 S128x128 S16384x128 [1] [0] [0] [1] [] []
  gather_S16384_S278528x1_S278528_n_0_n_n_0_1_1_wf : GatherDims.WF S16384 S278528x1 S278528 [] [0] [] [0] [] 1 ![1]
  gather_S16384x128_S278528x1_S278528x128_1_0_n_n_0_1_1128_wf : GatherDims.WF S16384x128 S278528x1 S278528x128 [1] [0] [] [0] [] 1 ![1, 128]
  scatter_S16384x128_S278528x1_S278528x128_1_0_0_1_wf : ScatterDims.WF S16384x128 S278528x1 S278528x128 [1] [0] [0] 1
  scatter_S16384_S1064960x1_S1064960_n_0_0_1_wf : ScatterDims.WF S16384 S1064960x1 S1064960 [] [0] [0] 1
  gather_S16384_S1064960x1_S1064960_n_0_n_n_0_1_1_wf : GatherDims.WF S16384 S1064960x1 S1064960 [] [0] [] [0] [] 1 ![1]
  gather_S16384x128_S1064960x1_S1064960x128_1_0_n_n_0_1_1128_wf : GatherDims.WF S16384x128 S1064960x1 S1064960x128 [1] [0] [] [0] [] 1 ![1, 128]
  scatter_S16384x128_S1064960x1_S1064960x128_1_0_0_1_wf : ScatterDims.WF S16384x128 S1064960x1 S1064960x128 [1] [0] [0] 1
  gather_S16384x128_S256x1_S256x128_1_0_n_n_0_1_1128_wf : GatherDims.WF S16384x128 S256x1 S256x128 [1] [0] [] [0] [] 1 ![1, 128]
  dot_S256x128_S128x32_S256x32_1_0_0_1_n_n_wf : DotDims.WF S256x128 S128x32 S256x32 [1] [0] [0] [1] [] []

variable [Facts₀]

def gather_S32x128_S16384x1_S16384x128_1_0_n_n_0_1_1128 : GatherDims S32x128 S16384x1 S16384x128 where
  offsetDims := [1]
  collapsedSliceDims := [0]
  operandBatchingDims := []
  startIndicesBatchingDims := []
  startIndexMap := [0]
  indexVectorDim := 1
  sliceSizes := ![1, 128]
  wf := gather_S32x128_S16384x1_S16384x128_1_0_n_n_0_1_1128_wf
def scatter_S16384_S278528x1_S278528_n_0_0_1 : ScatterDims S16384 S278528x1 S278528 where
  updateWindowDims := []
  insertedWindowDims := [0]
  scatterDimsToOperandDims := [0]
  indexVectorDim := 1
  wf := scatter_S16384_S278528x1_S278528_n_0_0_1_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def gather_S16384_S278528x1_S278528_n_0_n_n_0_1_1 : GatherDims S16384 S278528x1 S278528 where
  offsetDims := []
  collapsedSliceDims := [0]
  operandBatchingDims := []
  startIndicesBatchingDims := []
  startIndexMap := [0]
  indexVectorDim := 1
  sliceSizes := ![1]
  wf := gather_S16384_S278528x1_S278528_n_0_n_n_0_1_1_wf
def gather_S16384x128_S278528x1_S278528x128_1_0_n_n_0_1_1128 : GatherDims S16384x128 S278528x1 S278528x128 where
  offsetDims := [1]
  collapsedSliceDims := [0]
  operandBatchingDims := []
  startIndicesBatchingDims := []
  startIndexMap := [0]
  indexVectorDim := 1
  sliceSizes := ![1, 128]
  wf := gather_S16384x128_S278528x1_S278528x128_1_0_n_n_0_1_1128_wf
def scatter_S16384x128_S278528x1_S278528x128_1_0_0_1 : ScatterDims S16384x128 S278528x1 S278528x128 where
  updateWindowDims := [1]
  insertedWindowDims := [0]
  scatterDimsToOperandDims := [0]
  indexVectorDim := 1
  wf := scatter_S16384x128_S278528x1_S278528x128_1_0_0_1_wf
def scatter_S16384_S1064960x1_S1064960_n_0_0_1 : ScatterDims S16384 S1064960x1 S1064960 where
  updateWindowDims := []
  insertedWindowDims := [0]
  scatterDimsToOperandDims := [0]
  indexVectorDim := 1
  wf := scatter_S16384_S1064960x1_S1064960_n_0_0_1_wf
def gather_S16384_S1064960x1_S1064960_n_0_n_n_0_1_1 : GatherDims S16384 S1064960x1 S1064960 where
  offsetDims := []
  collapsedSliceDims := [0]
  operandBatchingDims := []
  startIndicesBatchingDims := []
  startIndexMap := [0]
  indexVectorDim := 1
  sliceSizes := ![1]
  wf := gather_S16384_S1064960x1_S1064960_n_0_n_n_0_1_1_wf
def gather_S16384x128_S1064960x1_S1064960x128_1_0_n_n_0_1_1128 : GatherDims S16384x128 S1064960x1 S1064960x128 where
  offsetDims := [1]
  collapsedSliceDims := [0]
  operandBatchingDims := []
  startIndicesBatchingDims := []
  startIndexMap := [0]
  indexVectorDim := 1
  sliceSizes := ![1, 128]
  wf := gather_S16384x128_S1064960x1_S1064960x128_1_0_n_n_0_1_1128_wf
def scatter_S16384x128_S1064960x1_S1064960x128_1_0_0_1 : ScatterDims S16384x128 S1064960x1 S1064960x128 where
  updateWindowDims := [1]
  insertedWindowDims := [0]
  scatterDimsToOperandDims := [0]
  indexVectorDim := 1
  wf := scatter_S16384x128_S1064960x1_S1064960x128_1_0_0_1_wf
def gather_S16384x128_S256x1_S256x128_1_0_n_n_0_1_1128 : GatherDims S16384x128 S256x1 S256x128 where
  offsetDims := [1]
  collapsedSliceDims := [0]
  operandBatchingDims := []
  startIndicesBatchingDims := []
  startIndexMap := [0]
  indexVectorDim := 1
  sliceSizes := ![1, 128]
  wf := gather_S16384x128_S256x1_S256x128_1_0_n_n_0_1_1128_wf
def dot_S256x128_S128x32_S256x32_1_0_0_1_n_n : DotDims S256x128 S128x32 S256x32 where
  lhsContracting := [1]
  rhsContracting := [0]
  lhsNonContracting := [0]
  rhsNonContracting := [1]
  lhsBatch := []
  rhsBatch := []
  wf := dot_S256x128_S128x32_S256x32_1_0_0_1_n_n_wf

class Facts : Prop extends Facts₀ where

variable [Facts]
-- ==== Proof.Spec.lean ====
/-
  The graph network both programs compute, written once over plain coordinates.

  A node table h : [N, H] is embedded from two label columns, passed through three message-passing layers over an
  arbitrary edge list and one over the block-diagonal fully adjacent edge list (64 nodes a graph), each followed by
  a residual and a layer normalisation, and the first node of every graph is projected to the classes.  The two
  programs arrange the message passing differently; this module states each arrangement (suffix K, suffix R) as a
  function of the inputs, so that the equality of the two is a statement about finite sums of extended reals.
-/
import Idealize.ShloMosaic.PureOps.Ideal
import Mathlib.Algebra.BigOperators.Fin

noncomputable section

open scoped BigOperators

namespace Cert.Spec

open Idealize.ShloMosaic

abbrev N : Nat := 16384
abbrev H : Nat := 128
abbrev E : Nat := 262144
abbrev G : Nat := 256
abbrev C : Nat := 32
abbrev EF : Nat := 1048576

abbrev Mat (n k : Nat) := Fin n → Fin k → EReal
abbrev Col (n : Nat) := Fin n → EReal
abbrev Words (n : Nat) := Fin n → BitVec 32

/-- The inputs, by coordinates. -/
structure Inputs where
  x : Fin N → Fin 2 → BitVec 32
  ei : Fin 2 → Fin E → BitVec 32
  ce : Mat C H
  ne : Mat C H
  Ws : Fin 4 → Mat H H
  bs : Fin 4 → Col H
  lg : Fin 4 → Col H
  lb : Fin 4 → Col H
  oW : Mat H C
  ob : Col C

/-- A table, or a column, of real numbers (no infinity among its entries). -/
def RealM {n k : Nat} (a : Mat n k) : Prop := ∀ i j, ∃ r : ℝ, a i j = r
def RealC {n : Nat} (a : Col n) : Prop := ∀ i, ∃ r : ℝ, a i = r

/-! ## The float literals both programs carry -/

def zero : EReal := Ideal.ofBits .f32 0x00000000#32
def one : EReal := Ideal.ofBits .f32 0x3F800000#32
def c128 : EReal := Ideal.ofBits .f32 0x43000000#32
def eps : EReal := Ideal.ofBits .f32 0x3727C5AC#32
/-- The last layer's scale in the tiled arrangement: the exact value the named constant stands for. -/
def inv65 : EReal := ((1 / 65 : ℝ) : EReal)

/-! ## Indices as jnp reads them -/

/-- A negative index counted from the end: `w + n` when `w` reads negative, else `w` (32-bit words). -/
def wrapIdx (n w : BitVec 32) : BitVec 32 := if w.toInt < 0 then w + n else w

/-- A row number read signed and clamped into `[0, n − 1]` (what a gather does with a start index). -/
def clampRow (n : Nat) (hn : 0 < n) (w : BitVec 32) : Fin n := ⟨min w.toInt.toNat (n - 1), by omega⟩

/-- The row `a[w]` reads: wrap a negative index, then clamp. -/
def takeRow (n : Nat) (hn : 0 < n) (w : BitVec 32) : Fin n := clampRow n hn (wrapIdx (BitVec.ofNat 32 n) w)

/-- An update with index word `w` lands in row `i` of a scatter (no wrapping: out-of-range updates are dropped). -/
def Lands {n : Nat} (w : BitVec 32) (i : Fin n) : Prop := w.toInt = (i.val : ℤ)

instance {n : Nat} (w : BitVec 32) (i : Fin n) : Decidable (Lands w i) := by unfold Lands; infer_instance

/-! ## Pieces shared by the two arrangements -/

/-- A matrix product. -/
def mm {n k m : Nat} (a : Mat n k) (b : Mat k m) : Mat n m := fun i c => ∑ j : Fin k, a i j * b j c

/-- Row mean, row variance and the layer normalisation of a table, as both programs spell them. -/
def rowMean {n : Nat} (hs : Mat n H) : Col n := fun i => Ideal.div (∑ k : Fin H, hs i k) c128
def rowVar {n : Nat} (hs : Mat n H) : Col n :=
  fun i => Ideal.div (∑ k : Fin H, (hs i k - rowMean hs i) * (hs i k - rowMean hs i)) c128
def layerNorm {n : Nat} (hs : Mat n H) (g b : Col H) : Mat n H :=
  fun i k => (hs i k - rowMean hs i) * Ideal.rsqrt (rowVar hs i + eps) * g k + b k

/-- The residual step: the table plus the rectified aggregate, normalised. -/
def resid {n : Nat} (h agg : Mat n H) (g b : Col H) : Mat n H :=
  layerNorm (fun i k => h i k + max (agg i k) zero) g b

/-! ## The tiled arrangement (K) -/

/-- One-hot selector of label `w` against class `j`, as a float. -/
def hot (w : BitVec 32) (j : Fin C) : EReal := if BitVec.ofNat 32 j.val = w then 1 else 0

/-- The embedding as two one-hot products. -/
def embK (I : Inputs) : Mat N H :=
  fun i k => (∑ j : Fin C, hot (I.x i 0) j * I.ce j k) + (∑ j : Fin C, hot (I.x i 1) j * I.ne j k)

/-- In-degree over the real edges plus the self loop, and its inverse square root. -/
def degK (dst : Words E) : Col N := fun i => (zero + ∑ e : Fin E, if Lands (dst e) i then one else 0) + one
def dinvK (dst : Words E) : Col N := fun i => Ideal.rsqrt (degK dst i)

/-- The projected table scaled by the source's factor. -/
def hwsK (h : Mat N H) (W : Mat H H) (dinv : Col N) : Mat N H := fun i k => mm h W i k * dinv i

/-- The sum, over the real edges landing in row `i`, of the scaled row of the edge's source. -/
def aggRawK (hws : Mat N H) (src dst : Words E) : Mat N H :=
  fun i k => zero + ∑ e : Fin E, if Lands (dst e) i then hws (takeRow N (by decide) (src e)) k else 0

/-- One message-passing layer, the destination's factor applied after the sum and the self loop added densely. -/
def layerK (h : Mat N H) (W : Mat H H) (b g bl : Col H) (dinv : Col N) (src dst : Words E) : Mat N H :=
  resid h (fun i k => dinv i * aggRawK (hwsK h W dinv) src dst i k + dinv i * hwsK h W dinv i k + b k) g bl

/-- The graph (block of 64 rows) of a node and a node of a graph. -/
def graphOf (i : Fin N) : Fin G := ⟨i.val / 64, by have h : i.val < 16384 := i.isLt; show i.val / 64 < 256; omega⟩
def nodeOf (g : Fin G) (r : Fin 64) : Fin N :=
  ⟨g.val * 64 + r.val, by have h : g.val < 256 := g.isLt; have := r.isLt; show g.val * 64 + r.val < 16384; omega⟩

/-- The last layer in closed form: the graph's column sum plus the node's own row, scaled by 1/65. -/
def lastK (h : Mat N H) (W : Mat H H) (b g bl : Col H) : Mat N H :=
  resid h (fun i k => ((∑ r : Fin 64, mm h W (nodeOf (graphOf i) r) k) + mm h W i k) * inv65 + b k) g bl

/-- The projection of every graph's first node. -/
def outK (h : Mat N H) (oW : Mat H C) (ob : Col C) : Mat G C :=
  fun g c => (∑ j : Fin H, h (nodeOf g 0) j * oW j c) + ob c

/-- The whole tiled arrangement. -/
def runK (I : Inputs) : Mat G C :=
  let src := I.ei 0
  let dst := I.ei 1
  let dinv := dinvK dst
  let h0 := embK I
  let h1 := layerK h0 (I.Ws 0) (I.bs 0) (I.lg 0) (I.lb 0) dinv src dst
  let h2 := layerK h1 (I.Ws 1) (I.bs 1) (I.lg 1) (I.lb 1) dinv src dst
  let h3 := layerK h2 (I.Ws 2) (I.bs 2) (I.lg 2) (I.lb 2) dinv src dst
  let h4 := lastK h3 (I.Ws 3) (I.bs 3) (I.lg 3) (I.lb 3)
  outK h4 I.oW I.ob

/-! ## The edge-list arrangement (R) -/

/-- The embedding as two row takes. -/
def embR (I : Inputs) : Mat N H :=
  fun i k => I.ce (takeRow C (by decide) (I.x i 0)) k + I.ne (takeRow C (by decide) (I.x i 1)) k

/-- An edge column followed by the N self loops. -/
def withLoops {M : Nat} (v : Words M) : Words (M + N) :=
  fun e => if h : e.val < M then v ⟨e.val, h⟩ else BitVec.ofNat 32 (e.val - M)

/-- In-degree over an edge list (self loops included in the list), and the guarded inverse square root. -/
def degR {M : Nat} (dst : Words M) : Col N := fun i => zero + ∑ e : Fin M, if Lands (dst e) i then one else 0
def dinvR {M : Nat} (dst : Words M) : Col N :=
  fun i => if Ideal.cmp .ogt (degR dst i) zero = 1#1 then Ideal.rsqrt (degR dst i) else zero

/-- One message-passing layer over an edge list: every edge carries the projected source row times both factors. -/
def aggR {M : Nat} (h : Mat N H) (W : Mat H H) (src dst : Words M) : Mat N H :=
  fun i k => zero + ∑ e : Fin M, if Lands (dst e) i then
      mm h W (takeRow N (by decide) (src e)) k
        * (dinvR dst (takeRow N (by decide) (src e)) * dinvR dst (takeRow N (by decide) (dst e)))
    else 0
def layerR {M : Nat} (h : Mat N H) (W : Mat H H) (b g bl : Col H) (src dst : Words M) : Mat N H :=
  resid h (fun i k => aggR h W src dst i k + b k) g bl

/-- The fully adjacent edge list: edge number e = (graph·64 + a)·64 + c goes from node graph·64 + a to node graph·64 + c. -/
def faSrc : Words EF := fun e => BitVec.ofNat 32 (e.val / 4096) * 64#32 + BitVec.ofNat 32 (e.val / 64 % 64)
def faDst : Words EF := fun e => BitVec.ofNat 32 (e.val / 4096) * 64#32 + BitVec.ofNat 32 (e.val % 64)

/-- The projection of the rows `arange(G)·64`. -/
def outR (h : Mat N H) (oW : Mat H C) (ob : Col C) : Mat G C :=
  fun g c => (∑ j : Fin H, h (takeRow N (by decide) (BitVec.ofNat 32 g.val * 64#32)) j * oW j c) + ob c

/-- The whole edge-list arrangement. -/
def runR (I : Inputs) : Mat G C :=
  let src := withLoops (I.ei 0)
  let dst := withLoops (I.ei 1)
  let h0 := embR I
  let h1 := layerR h0 (I.Ws 0) (I.bs 0) (I.lg 0) (I.lb 0) src dst
  let h2 := layerR h1 (I.Ws 1) (I.bs 1) (I.lg 1) (I.lb 1) src dst
  let h3 := layerR h2 (I.Ws 2) (I.bs 2) (I.lg 2) (I.lb 2) src dst
  let h4 := layerR h3 (I.Ws 3) (I.bs 3) (I.lg 3) (I.lb 3) (withLoops faSrc) (withLoops faDst)
  outR h4 I.oW I.ob

/-! ## The domain on which the two agree -/

/-- Every float input is a real number, and every label is a class. -/
structure Good (I : Inputs) : Prop where
  ce : ∀ j k, ∃ r : ℝ, I.ce j k = r
  ne : ∀ j k, ∃ r : ℝ, I.ne j k = r
  Ws : ∀ l j k, ∃ r : ℝ, I.Ws l j k = r
  bs : ∀ l k, ∃ r : ℝ, I.bs l k = r
  lg : ∀ l k, ∃ r : ℝ, I.lg l k = r
  lb : ∀ l k, ∃ r : ℝ, I.lb l k = r
  oW : ∀ j c, ∃ r : ℝ, I.oW j c = r
  ob : ∀ c, ∃ r : ℝ, I.ob c = r
  x : ∀ i a, 0 ≤ (I.x i a).toInt ∧ (I.x i a).toInt < 32

end Cert.Spec

end
-- ==== Proof.SpecIO.lean ====
/-
  The inputs of the network read off the argument arrays as the programs hold them (row-major arrays over literal shapes).
-/
import proofs.«426592_j50886772523112_2_alg».proof.Proof.Spec
import Idealize.ShloMosaic.Lib.ValueIdx
import Idealize.ShloMosaic.Lib.ValueIdxRank1

noncomputable section

namespace Cert.Spec

open Idealize.ShloMosaic Idealize.ShloMosaic.ValueIdx

/-- The coordinate reading of the ten argument arrays the network uses (the third argument, the batch vector, is unused). -/
def ofArrays (x : (⟨2, ![16384, 2]⟩ : Shape).Idx → BitVec 32) (ei : (⟨2, ![2, 262144]⟩ : Shape).Idx → BitVec 32)
    (ce ne : (⟨2, ![32, 128]⟩ : Shape).Idx → EReal) (Ws : (⟨3, ![4, 128, 128]⟩ : Shape).Idx → EReal)
    (bs lg lb : (⟨2, ![4, 128]⟩ : Shape).Idx → EReal) (oW : (⟨2, ![128, 32]⟩ : Shape).Idx → EReal)
    (ob : (⟨1, ![32]⟩ : Shape).Idx → EReal) : Inputs where
  x := fun i a => x (ix2 i a)
  ei := fun a e => ei (ix2 a e)
  ce := fun j k => ce (ix2 j k)
  ne := fun j k => ne (ix2 j k)
  Ws := fun l j k => Ws (ix3 l j k)
  bs := fun l k => bs (ix2 l k)
  lg := fun l k => lg (ix2 l k)
  lb := fun l k => lb (ix2 l k)
  oW := fun j c => oW (ix2 j c)
  ob := fun c => ob (ix1 c)

end Cert.Spec

end
-- ==== Proof.PreDecode.lean ====
/-
  The precondition read back: when the printed test of the inputs is all ones, every float input entry is a real number
  and every label word lies in [0, 32).  The test is a conjunction of nine scalar bits: eight "all |t| < +inf" tests, one
  for each float array, and one "all (0 ≤ x and x < 32)" test on the label array.
-/
import proofs.«426592_j50886772523112_2_alg».proof.Pre_finite_inputs
import proofs.«426592_j50886772523112_2_alg».proof.Proof.Gen.Pre_finite_inputs
import proofs.«426592_j50886772523112_2_alg».proof.Proof.SpecIO
import Idealize.ShloMosaic.Lib.ReduceAll
import Idealize.ShloMosaic.Lib.StableHlo.Predicate

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-- An extended real whose absolute value is below +∞ is a real number. -/
theorem real_of_abs_lt_top (x : EReal)
    (h : FloatOps.cmpf (F := Ideal) (φ := .f32) .olt (FloatOps.hostAbsf (F := Ideal) (φ := .f32) x)
      (Ideal.ofBits .f32 0x7F800000#32) = 1#1) : ∃ r : ℝ, x = r := by
  have htop : Ideal.ofBits .f32 0x7F800000#32 = ⊤ := by simp [Ideal.ofBits, Ideal.ieee]
  rw [htop] at h
  change Ideal.cmp .olt (max x (-x)) ⊤ = 1#1 at h
  unfold Ideal.cmp at h
  rw [StableHlo.Predicate.ofBool_eq_one_iff] at h
  have hlt : max x (-x) < ⊤ := by simpa using h
  rw [max_lt_iff] at hlt
  induction x using EReal.rec with
  | bot => simp at hlt
  | coe r => exact ⟨r, rfl⟩
  | top => simp at hlt

/-- One "all |t| < +inf" test, at any shape: if the reduced bit is one, every entry of the array is a real number. -/
theorem real_of_all {s : Shape} {axes : List (Fin s.rank)} (a : FVec Ideal s .f32)
    (hb : S_.BroadcastsInDim s (![] : Fin 0 → Fin s.rank)) (hr : s.ReducesTo axes S_) (h0 : 0 < S_.numel)
    (h : Host.reduce IntOp.andi
        (cmpf .olt (Host.absf a) (broadcastInDim s ![] hb (constant (F := Ideal) S_ .f32 0x7F800000#32)))
        (constantI S_ 1 1#1) hr h0 ix0 = 1#1) (i : s.Idx) : ∃ r : ℝ, a i = r :=
  real_of_abs_lt_top (a i) (Host.reduce_andi_all _ _ hr h0 ix0 h i)

/-- A word that passes the signed tests "at least 0" and "below 32" reads, signed, in [0, 32). -/
theorem range_of_cmp (w : BitVec 32) (h0 : IntOp.cmpi .sge w 0#32 = 1#1) (h1 : IntOp.cmpi .slt w 32#32 = 1#1) :
    0 ≤ w.toInt ∧ w.toInt < 32 := by
  unfold IntOp.cmpi at h0 h1
  rw [StableHlo.Predicate.ofBool_eq_one_iff] at h0 h1
  simp only [BitVec.sle, BitVec.slt, decide_eq_true_eq] at h0 h1
  have z : (0#32 : BitVec 32).toInt = 0 := by decide
  have t : (32#32 : BitVec 32).toInt = 32 := by decide
  rw [z] at h0
  rw [t] at h1
  exact ⟨h0, h1⟩

/-- The "all (0 ≤ x and x < 32)" test, at any shape: if the reduced bit is one, every word is in [0, 32). -/
theorem range_of_all {s : Shape} {axes : List (Fin s.rank)} (a : IVec s 32)
    (hb : S_.BroadcastsInDim s (![] : Fin 0 → Fin s.rank)) (hr : s.ReducesTo axes S_) (h0 : 0 < S_.numel)
    (h : Host.reduce IntOp.andi
        (andi (cmpi .sge a (broadcastInDim s ![] hb (constantI S_ 32 0#32)))
          (cmpi .slt a (broadcastInDim s ![] hb (constantI S_ 32 32#32))))
        (constantI S_ 1 1#1) hr h0 ix0 = 1#1) (i : s.Idx) : 0 ≤ (a i).toInt ∧ (a i).toInt < 32 := by
  have e := Host.reduce_andi_all _ _ hr h0 ix0 h i
  obtain ⟨e0, e1⟩ := IntOp.andi_eq_one.1 e
  exact range_of_cmp (a i) e0 e1

/-- The precondition decoded: the inputs, read by coordinates, are real tables and labels that are classes. -/
theorem good_of_pre [Cert.Pre_finite_inputs.Facts] (a0 : IVec S16384x2 32) (a1 : IVec S2x262144 32) (a2 : IVec S16384 32)
    (a3 a4 : FVec Ideal S32x128 .f32) (a5 : FVec Ideal S4x128x128 .f32) (a6 a7 a8 : FVec Ideal S4x128 .f32)
    (a9 : FVec Ideal S128x32 .f32) (a10 : FVec Ideal S32 .f32)
    (h : Cert.Pre_finite_inputs.fn (F := Ideal) a0 a1 a2 a3 a4 a5 a6 a7 a8 a9 a10 = fun _ => 1#1) :
    Cert.Spec.Good (Cert.Spec.ofArrays a0 a1 a3 a4 a5 a6 a7 a8 a9 a10) := by
  have e := congrFun h ix0
  dsimp only [Cert.Pre_finite_inputs.fn, Cert.Pre_finite_inputs.fn_part1, Cert.Pre_finite_inputs.fn_part2] at e
  obtain ⟨e, hx⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨h3, h4⟩ := IntOp.andi_eq_one.1 e
  exact
    { ce := fun j k => real_of_all a3 _ _ _ h3 (ix2 j k)
      ne := fun j k => real_of_all a4 _ _ _ h4 (ix2 j k)
      Ws := fun l j k => real_of_all a5 _ _ _ h5 (ix3 l j k)
      bs := fun l k => real_of_all a6 _ _ _ h6 (ix2 l k)
      lg := fun l k => real_of_all a7 _ _ _ h7 (ix2 l k)
      lb := fun l k => real_of_all a8 _ _ _ h8 (ix2 l k)
      oW := fun j c => real_of_all a9 _ _ _ h9 (ix2 j c)
      ob := fun c => real_of_all a10 _ _ _ h10 (ix1 c)
      x := fun i a => range_of_all a0 _ _ _ hx (ix2 i a) }

end Cert.PreDecode

end
-- ==== Proof.LibTakeRows.lean ====
/-
  A row take read at an index.  `x[idx]` of a matrix `x : [N, W]` at a vector of row numbers lowers to a
  `stablehlo.gather` whose start indices are laid out as a column `[E, 1]`: offset axis 1, collapsed axis 0,
  start index map `[0]`, index vector axis 1, slices of one whole row.  Result element `(e, k)` is the
  operand at column `k` of the row `idx[e, 0]`, read as a signed integer and clamped into `[0, N − 1]`.
-/
import Idealize.ShloMosaic.Lib.ValueIdx

noncomputable section

namespace Cert.LibTakeRows

open Idealize.ShloMosaic Idealize.ShloMosaic.ValueIdx

variable {α : Type}

/-- The dimension numbers of a row take, for an operand `[N, W]`, start indices `[E, 1]` and a result `[E, W]`;
    their conditions `wf` are decided on a program's literal shapes. -/
abbrev rowDims (N W E : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- THE ROW TAKE READ AT `(e, k)`: column `k` of the row the start index `idx[e, 0]` names, read signed and
    clamped into `[0, N − 1]`. -/
theorem gather_rows_apply {N W E w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (k : Fin W) :
    Host.gather (rowDims N W E wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    -- axis 0 is collapsed and named by the start index map: the clamped start index, no batch or offset part
    show (rowDims N W E wf).start (ix2 e k) idx 0 + (rowDims N W E wf).batchCoord (ix2 e k) 0
      + (rowDims N W E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N W E wf).startIndexMap from List.mem_singleton.mpr rfl)]
    have hsi : (rowDims N W E wf).siIdx (ix2 e k) ⟨List.idxOf (0 : Fin 2) (rowDims N W E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1 is kept whole: start 0 (not in the start index map), no batch part, offset the result's column
    show (rowDims N W E wf).start (ix2 e k) idx 1 + (rowDims N W E wf).batchCoord (ix2 e k) 1
      + (rowDims N W E wf).offCoord (ix2 e k) 1 = _
    rw [GatherDims.batchCoord_eq_zero _ _ _ List.not_mem_nil]
    unfold GatherDims.start
    have h10 : ¬ (1 : Fin 2) = 0 := by decide
    rw [dif_neg (show (1 : Fin 2) ∉ (rowDims N W E wf).startIndexMap from fun h => h10 (List.mem_singleton.mp h))]
    have hk : (1 : Fin 2) ∈ (rowDims N W E wf).sKept :=
      (GatherDims.mem_sKept _ _).mpr ⟨fun h => h10 (List.mem_singleton.mp h), List.not_mem_nil⟩
    unfold GatherDims.offCoord
    rw [dif_pos hk]
    simp only [Nat.zero_add, Nat.add_zero]
    rfl

end Cert.LibTakeRows

end
-- ==== Proof.LibScatter.lean ====
/-
  The host's scatter read at one index.

  A scatter whose body adds in a commutative monoid leaves, at each operand index, the operand's element plus the sum of
  the updates that land there, whatever the order of the fold (general lemma, any dimension numbers). For the
  two families of dimension numbers of a histogram (operand [N], indices [K,1], updates [K]) and of a row
  scatter-add (operand [R,C], indices [K,1], updates [K,C]) the landing index is computed in closed form: update
  e lands in row "the e-th index read signed", and is dropped when that is outside the operand.
-/
import Mathlib.Data.BitVec
import Mathlib.Algebra.BigOperators.Fin
import Idealize.ShloMosaic.Lib.ValueIdxRank1

open scoped BigOperators

namespace Cert.LibScatter

open Idealize.ShloMosaic Idealize.ShloMosaic.ValueIdx

/-! ## Any scatter whose body adds in a commutative monoid -/

section General
variable {α : Type} [AddCommMonoid α] {s si u : Shape} {w : Nat}

/-- The scatter's fold over ANY list of update positions, read at operand index i: the start value there plus the
    sum, over the list, of the updates whose landing index is i. -/
theorem foldl_add_apply (d : ScatterDims s si u) (idx : IVec si w) (upd : u.Idx → α) (i : s.Idx) :
    ∀ (l : List (Fin u.numel)) (x : s.Idx → α),
      (l.foldl (fun r n =>
          match d.resultIdx? (u.rowMajor.symm n) idx with
          | some k => fun i' => if i' = k then r k + upd (u.rowMajor.symm n) else r i'
          | none => r) x) i
        = x i + (l.map fun n => if d.resultIdx? (u.rowMajor.symm n) idx = some i then upd (u.rowMajor.symm n) else 0).sum := by
  intro l
  induction l with
  | nil => intro x; simp
  | cons n l ih =>
    intro x
    rw [List.foldl_cons, ih, List.map_cons, List.sum_cons, ← add_assoc]
    congr 1
    cases hk : d.resultIdx? (u.rowMajor.symm n) idx with
    | none => simp
    | some k =>
      by_cases hik : i = k
      · subst hik; simp
      · have : ¬ (some k = some i) := fun h => hik (Option.some.inj h).symm
        simp [hik, this]

/-- A scatter with an adding body, read at operand index i: the operand's element plus the sum of all updates
    whose landing index is i. -/
theorem scatter_add_apply (d : ScatterDims s si u) (x : s.Idx → α) (idx : IVec si w) (upd : u.Idx → α) (i : s.Idx) :
    Host.scatter d (fun a b => a + b) x idx upd i
      = x i + ∑ j : u.Idx, if d.resultIdx? j idx = some i then upd j else 0 := by
  unfold Host.scatter
  refine (foldl_add_apply d idx upd i (List.finRange u.numel) x).trans ?_
  rw [← Fin.sum_univ_def]
  congr 1
  exact Equiv.sum_comp u.rowMajor.symm (fun j => if d.resultIdx? j idx = some i then upd j else 0)

end General

/-! ## Row scatter: operand [R,C], indices [K,1], updates [K,C] -/

section Row

/-- The dimension numbers of a row scatter (every update row added to the operand row its index names): the updates' axis 1 is the window, it goes to
    the operand's axis 1; the operand's axis 0 is indexed by the one component of each index vector. -/
abbrev rowDims (R K C : Nat) (wf : ScatterDims.WF ⟨2, ![R, C]⟩ ⟨2, ![K, 1]⟩ ⟨2, ![K, C]⟩ [1] [0] [0] 1) :
    ScatterDims ⟨2, ![R, C]⟩ ⟨2, ![K, 1]⟩ ⟨2, ![K, C]⟩ where
  updateWindowDims := [1]
  insertedWindowDims := [0]
  scatterDimsToOperandDims := [0]
  indexVectorDim := 1
  wf := wf

variable {R K C w : Nat} (wf : ScatterDims.WF ⟨2, ![R, C]⟩ ⟨2, ![K, 1]⟩ ⟨2, ![K, C]⟩ [1] [0] [0] 1)

/-- On the operand's row axis the window starts at the update's row's index, read signed. -/
theorem rowDims_start0 (j : (⟨2, ![K, C]⟩ : Shape).Idx) (idx : IVec ⟨2, ![K, 1]⟩ w) :
    (rowDims R K C wf).start j idx 0 = (idx (ix2 (j 0) 0)).toInt := by
  unfold ScatterDims.start
  rw [dif_pos (show (0 : Fin 2) ∈ (rowDims R K C wf).scatterDimsToOperandDims from List.mem_singleton.mpr rfl)]
  have hsi : (rowDims R K C wf).siIdx j ⟨List.idxOf (0 : Fin 2) (rowDims R K C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the operand's column axis the window starts at 0. -/
theorem rowDims_start1 (j : (⟨2, ![K, C]⟩ : Shape).Idx) (idx : IVec ⟨2, ![K, 1]⟩ w) :
    (rowDims R K C wf).start j idx 1 = 0 := by
  unfold ScatterDims.start
  rw [dif_neg (show (1 : Fin 2) ∉ (rowDims R K C wf).scatterDimsToOperandDims from
    fun h => Nat.one_ne_zero (congrArg Fin.val (List.mem_singleton.mp h)))]

/-- The operand's axes that are not inserted: the column axis alone. -/
theorem rowDims_sKept : (rowDims R K C wf).sKept = [1] := rfl

/-- The row axis is inserted: no window coordinate. -/
theorem rowDims_window0 (j : (⟨2, ![K, C]⟩ : Shape).Idx) : (rowDims R K C wf).window j 0 = 0 := by
  unfold ScatterDims.window
  rw [dif_neg (show (0 : Fin 2) ∉ (rowDims R K C wf).sKept from
    fun h => Nat.one_ne_zero (congrArg Fin.val (List.mem_singleton.mp (rowDims_sKept wf ▸ h))).symm)]

/-- The column axis carries the update's column. -/
theorem rowDims_window1 (j : (⟨2, ![K, C]⟩ : Shape).Idx) : (rowDims R K C wf).window j 1 = (j 1).val := by
  unfold ScatterDims.window
  rw [dif_pos (show (1 : Fin 2) ∈ (rowDims R K C wf).sKept from rowDims_sKept wf ▸ List.mem_singleton.mpr rfl)]
  rfl

/-- WHERE AN UPDATE LANDS: update (e, c) lands at (row, c), row the e-th index read signed, when that row is in
    the operand; it is dropped otherwise. -/
theorem rowDims_resultIdx? (e : Fin K) (c : Fin C) (idx : IVec ⟨2, ![K, 1]⟩ w) :
    (rowDims R K C wf).resultIdx? (ix2 e c) idx
      = if h : 0 ≤ (idx (ix2 e 0)).toInt ∧ (idx (ix2 e 0)).toInt < (R : ℤ) then
          some (ix2 ⟨(idx (ix2 e 0)).toInt.toNat, by omega⟩ c)
        else none := by
  have h0 : (rowDims R K C wf).start (ix2 e c) idx 0 + ((rowDims R K C wf).window (ix2 e c) 0 : ℤ)
      = (idx (ix2 e 0)).toInt := by
    rw [rowDims_start0, rowDims_window0]; simp; rfl
  have h1 : (rowDims R K C wf).start (ix2 e c) idx 1 + ((rowDims R K C wf).window (ix2 e c) 1 : ℤ) = (c.val : ℤ) := by
    rw [rowDims_start1, rowDims_window1]; simp; rfl
  unfold ScatterDims.resultIdx?
  by_cases h : 0 ≤ (idx (ix2 e 0)).toInt ∧ (idx (ix2 e 0)).toInt < (R : ℤ)
  · have hall : ∀ a : Fin 2, 0 ≤ (rowDims R K C wf).start (ix2 e c) idx a + ((rowDims R K C wf).window (ix2 e c) a : ℤ)
        ∧ (rowDims R K C wf).start (ix2 e c) idx a + ((rowDims R K C wf).window (ix2 e c) a : ℤ)
          < ((⟨2, ![R, C]⟩ : Shape).size a : ℤ) := by
      intro a
      match a with
      | ⟨0, _⟩ =>
        show 0 ≤ (rowDims R K C wf).start (ix2 e c) idx 0 + ((rowDims R K C wf).window (ix2 e c) 0 : ℤ)
          ∧ (rowDims R K C wf).start (ix2 e c) idx 0 + ((rowDims R K C wf).window (ix2 e c) 0 : ℤ) < (R : ℤ)
        rw [h0]; exact h
      | ⟨1, _⟩ =>
        show 0 ≤ (rowDims R K C wf).start (ix2 e c) idx 1 + ((rowDims R K C wf).window (ix2 e c) 1 : ℤ)
          ∧ (rowDims R K C wf).start (ix2 e c) idx 1 + ((rowDims R K C wf).window (ix2 e c) 1 : ℤ) < (C : ℤ)
        rw [h1]; exact ⟨Int.natCast_nonneg _, Int.ofNat_lt.mpr c.isLt⟩
    rw [dif_pos hall, dif_pos h]
    congr 1
    funext a
    refine Fin.ext ?_
    match a with
    | ⟨0, _⟩ => show ((rowDims R K C wf).start (ix2 e c) idx 0 + ((rowDims R K C wf).window (ix2 e c) 0 : ℤ)).toNat = _
                rw [h0]
    | ⟨1, _⟩ => show ((rowDims R K C wf).start (ix2 e c) idx 1 + ((rowDims R K C wf).window (ix2 e c) 1 : ℤ)).toNat = _
                rw [h1]; rfl
  · rw [dif_neg h, dif_neg]
    intro hall
    have := hall 0
    rw [h0] at this
    exact h this

/-- The form sums use: update (e, c) lands at (i, c') exactly when the e-th index reads i and the columns agree. -/
theorem rowDims_resultIdx?_eq_some_iff (e : Fin K) (c c' : Fin C) (i : Fin R) (idx : IVec ⟨2, ![K, 1]⟩ w) :
    (rowDims R K C wf).resultIdx? (ix2 e c) idx = some (ix2 i c')
      ↔ (idx (ix2 e 0)).toInt = (i.val : ℤ) ∧ c = c' := by
  rw [rowDims_resultIdx?]
  by_cases h : 0 ≤ (idx (ix2 e 0)).toInt ∧ (idx (ix2 e 0)).toInt < (R : ℤ)
  · rw [dif_pos h]
    constructor
    · intro heq
      have heq := Option.some.inj heq
      have e0 : (idx (ix2 e 0)).toInt.toNat = i.val := congrArg Fin.val (congrFun heq 0)
      have e1 : c = c' := congrFun heq 1
      exact ⟨by omega, e1⟩
    · rintro ⟨ht, rfl⟩
      congr 2
      exact Fin.ext (by show (idx (ix2 e 0)).toInt.toNat = i.val; omega)
  · rw [dif_neg h]
    constructor
    · intro heq; cases heq
    · rintro ⟨ht, -⟩
      exact absurd ⟨by omega, by have := i.isLt; omega⟩ h

end Row

/-! ## Histogram: operand [N], indices [K,1], updates [K] -/

section Hist

/-- The dimension numbers of a histogram (every update added to the operand element its index names): the updates
    have no window axis; the operand's one axis is inserted and indexed by the one component of each index vector. -/
abbrev histDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

variable {N K w : Nat} (wf : ScatterDims.WF ⟨1, ![N]⟩ ⟨2, ![K, 1]⟩ ⟨1, ![K]⟩ [] [0] [0] 1)

/-- The window starts at the update's index, read signed. -/
theorem histDims_start0 (j : (⟨1, ![K]⟩ : Shape).Idx) (idx : IVec ⟨2, ![K, 1]⟩ w) :
    (histDims N K wf).start j idx 0 = (idx (ix2 (j 0) 0)).toInt := by
  unfold ScatterDims.start
  rw [dif_pos (show (0 : Fin 1) ∈ (histDims N K wf).scatterDimsToOperandDims from List.mem_singleton.mpr rfl)]
  have hsi : (histDims N K wf).siIdx j ⟨List.idxOf (0 : Fin 1) (histDims N K wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: no axis is kept, … -/
theorem histDims_sKept : (histDims N K wf).sKept = [] := rfl

/-- … so there is no window coordinate. -/
theorem histDims_window0 (j : (⟨1, ![K]⟩ : Shape).Idx) : (histDims N K wf).window j 0 = 0 := by
  unfold ScatterDims.window
  rw [dif_neg (show (0 : Fin 1) ∉ (histDims N K wf).sKept from fun h => List.not_mem_nil (histDims_sKept wf ▸ h))]

/-- WHERE AN UPDATE LANDS: update e lands at the e-th index read signed, when that is in the operand; it is
    dropped otherwise. -/
theorem histDims_resultIdx? (e : Fin K) (idx : IVec ⟨2, ![K, 1]⟩ w) :
    (histDims N K wf).resultIdx? (ix1 e) idx
      = if h : 0 ≤ (idx (ix2 e 0)).toInt ∧ (idx (ix2 e 0)).toInt < (N : ℤ) then
          some (ix1 ⟨(idx (ix2 e 0)).toInt.toNat, by omega⟩)
        else none := by
  have h0 : (histDims N K wf).start (ix1 e) idx 0 + ((histDims N K wf).window (ix1 e) 0 : ℤ)
      = (idx (ix2 e 0)).toInt := by
    rw [histDims_start0, histDims_window0]; simp; rfl
  unfold ScatterDims.resultIdx?
  by_cases h : 0 ≤ (idx (ix2 e 0)).toInt ∧ (idx (ix2 e 0)).toInt < (N : ℤ)
  · have hall : ∀ a : Fin 1, 0 ≤ (histDims N K wf).start (ix1 e) idx a + ((histDims N K wf).window (ix1 e) a : ℤ)
        ∧ (histDims N K wf).start (ix1 e) idx a + ((histDims N K wf).window (ix1 e) a : ℤ)
          < ((⟨1, ![N]⟩ : Shape).size a : ℤ) := by
      intro a
      match a with
      | ⟨0, _⟩ =>
        show 0 ≤ (histDims N K wf).start (ix1 e) idx 0 + ((histDims N K wf).window (ix1 e) 0 : ℤ)
          ∧ (histDims N K wf).start (ix1 e) idx 0 + ((histDims N K wf).window (ix1 e) 0 : ℤ) < (N : ℤ)
        rw [h0]; exact h
    rw [dif_pos hall, dif_pos h]
    congr 1
    funext a
    refine Fin.ext ?_
    match a with
    | ⟨0, _⟩ => show ((histDims N K wf).start (ix1 e) idx 0 + ((histDims N K wf).window (ix1 e) 0 : ℤ)).toNat = _
                rw [h0]
  · rw [dif_neg h, dif_neg]
    intro hall
    have := hall 0
    rw [h0] at this
    exact h this

/-- The form sums use: update e lands at v exactly when the e-th index reads v. -/
theorem histDims_resultIdx?_eq_some_iff (e : Fin K) (v : Fin N) (idx : IVec ⟨2, ![K, 1]⟩ w) :
    (histDims N K wf).resultIdx? (ix1 e) idx = some (ix1 v) ↔ (idx (ix2 e 0)).toInt = (v.val : ℤ) := by
  rw [histDims_resultIdx?]
  by_cases h : 0 ≤ (idx (ix2 e 0)).toInt ∧ (idx (ix2 e 0)).toInt < (N : ℤ)
  · rw [dif_pos h]
    constructor
    · intro heq
      have heq := Option.some.inj heq
      have e0 : (idx (ix2 e 0)).toInt.toNat = v.val := congrArg Fin.val (congrFun heq 0)
      omega
    · intro ht
      congr 2
      exact Fin.ext (by show (idx (ix2 e 0)).toInt.toNat = v.val; omega)
  · rw [dif_neg h]
    constructor
    · intro heq; cases heq
    · intro ht
      exact absurd ⟨by omega, by have := v.isLt; omega⟩ h

end Hist

/-! ## The two scatters read at an index, as sums over the update rows -/

section Sums

/-- THE ROW SCATTER-ADD AT (i, c), exact arithmetic: the operand's element plus the sum, over the update rows whose
    index reads i, of the row's element in column c. -/
theorem rowDims_scatterAdd_apply {R K C w : Nat} {φ : FTy}
    (wf : ScatterDims.WF ⟨2, ![R, C]⟩ ⟨2, ![K, 1]⟩ ⟨2, ![K, C]⟩ [1] [0] [0] 1)
    (x : FVec Ideal ⟨2, ![R, C]⟩ φ) (idx : IVec ⟨2, ![K, 1]⟩ w) (upd : FVec Ideal ⟨2, ![K, C]⟩ φ) (i : Fin R) (c : Fin C) :
    Host.scatterAdd (rowDims R K C wf) x idx upd (ix2 i c)
      = x (ix2 i c) + ∑ e : Fin K, if (idx (ix2 e 0)).toInt = (i.val : ℤ) then upd (ix2 e c) else 0 := by
  show x (ix2 i c) + ∑ j ∈ Finset.univ.filter (fun j => (rowDims R K C wf).resultIdx? j idx = some (ix2 i c)), upd j = _
  congr 1
  rw [Finset.sum_filter, sum_idx2]
  refine Finset.sum_congr rfl fun e _ => ?_
  simp only [rowDims_resultIdx?_eq_some_iff]
  by_cases ht : (idx (ix2 e 0)).toInt = (i.val : ℤ)
  · simp [ht]
  · simp [ht]

/-- A sum of 32-bit words, each present or absent, is the word of the sum of their values. -/
theorem sum_ite_word {ι : Type} (S : Finset ι) (p : ι → Prop) [DecidablePred p] (f : ι → BitVec 32) :
    (∑ e ∈ S, if p e then f e else 0) = BitVec.ofNat 32 (∑ e ∈ S, if p e then (f e).toNat else 0) := by
  rw [← BitVec.natCast_eq_ofNat, Nat.cast_sum]
  refine Finset.sum_congr rfl fun e _ => ?_
  split_ifs
  · rw [BitVec.natCast_eq_ofNat, BitVec.ofNat_toNat, BitVec.setWidth_eq]
  · simp

/-- THE HISTOGRAM AT v, 32-bit words added with wrap-around: the operand's element plus the word of the sum, over the
    updates whose index reads v, of the update's value. -/
theorem histDims_scatter_apply {N K w : Nat}
    (wf : ScatterDims.WF ⟨1, ![N]⟩ ⟨2, ![K, 1]⟩ ⟨1, ![K]⟩ [] [0] [0] 1)
    (x : IVec ⟨1, ![N]⟩ 32) (idx : IVec ⟨2, ![K, 1]⟩ w) (upd : IVec ⟨1, ![K]⟩ 32) (v : Fin N) :
    Host.scatter (histDims N K wf) IntOp.addi x idx upd (ix1 v)
      = x (ix1 v) + BitVec.ofNat 32 (∑ e : Fin K, if (idx (ix2 e 0)).toInt = (v.val : ℤ) then (upd (ix1 e)).toNat else 0) := by
  have hadd : (IntOp.addi : BitVec 32 → BitVec 32 → BitVec 32) = fun a b => a + b := rfl
  rw [hadd, scatter_add_apply, ← sum_ite_word]
  congr 1
  rw [← Equiv.sum_comp (idxEquiv1 (n := K)).symm]
  refine Finset.sum_congr rfl fun e _ => ?_
  show (if (histDims N K wf).resultIdx? (ix1 e) idx = some (ix1 v) then upd (ix1 e) else 0) = _
  simp only [histDims_resultIdx?_eq_some_iff]

end Sums

end Cert.LibScatter
-- ==== Proof.LibGraphOps.lean ====
/-
  Three host operations of graph code read at an index, for any extents.

  * A histogram of float updates (operand [N], indices [K,1], updates [K], an adding body), at exact arithmetic: the
    operand's element plus the sum of the updates whose index, read signed, names it.
  * A take `a[idx]` of a vector [N] by a column of indices [K,1] (a `stablehlo.gather` collapsing the one axis): entry
    `e` is the operand at the index `idx[e,0]`, read signed and clamped into [0, N − 1].
  * Two vectors joined end to end, read at a position: the first below its length, the second after it.
-/
import proofs.«426592_j50886772523112_2_alg».proof.Proof.LibScatter
import Idealize.ShloMosaic.Lib.Pipeline.Value
import Idealize.ShloMosaic.Lib.ValueIdx
import Idealize.ShloMosaic.Lib.ValueIdxRank1

noncomputable section

open scoped BigOperators

namespace Cert.LibGraphOps

open Idealize.ShloMosaic Idealize.ShloMosaic.ValueIdx Cert.LibScatter

/-- THE FLOAT HISTOGRAM AT v, exact arithmetic: the operand's element plus the sum, over the updates whose index
    reads v, of the update. -/
theorem histDims_scatterAdd_apply {N K w : Nat} {φ : FTy}
    (wf : ScatterDims.WF ⟨1, ![N]⟩ ⟨2, ![K, 1]⟩ ⟨1, ![K]⟩ [] [0] [0] 1)
    (x : FVec Ideal ⟨1, ![N]⟩ φ) (idx : IVec ⟨2, ![K, 1]⟩ w) (upd : FVec Ideal ⟨1, ![K]⟩ φ) (v : Fin N) :
    Host.scatterAdd (histDims N K wf) x idx upd (ix1 v)
      = x (ix1 v) + ∑ e : Fin K, if (idx (ix2 e (0 : Fin 1))).toInt = (v.val : ℤ) then upd (ix1 e) else 0 := by
  show x (ix1 v) + ∑ j ∈ Finset.univ.filter (fun j => (histDims N K wf).resultIdx? j idx = some (ix1 v)), upd j = _
  congr 1
  rw [Finset.sum_filter, ← Equiv.sum_comp (idxEquiv1 (n := K)).symm]
  refine Finset.sum_congr rfl fun e _ => ?_
  show (if (histDims N K wf).resultIdx? (ix1 e) idx = some (ix1 v) then upd (ix1 e) else 0) = _
  simp only [histDims_resultIdx?_eq_some_iff]

variable {α : Type}

/-- The dimension numbers of a take of a vector `[N]` by a column of indices `[K, 1]`. -/
abbrev take1Dims (N K : Nat) (wf : GatherDims.WF ⟨1, ![N]⟩ ⟨2, ![K, 1]⟩ ⟨1, ![K]⟩ [] [0] [] [0] [] 1 ![1]) :
    GatherDims ⟨1, ![N]⟩ ⟨2, ![K, 1]⟩ ⟨1, ![K]⟩ where
  offsetDims := []
  collapsedSliceDims := [0]
  operandBatchingDims := []
  startIndicesBatchingDims := []
  startIndexMap := [0]
  indexVectorDim := 1
  sliceSizes := ![1]
  wf := wf

/-- THE TAKE READ AT `e`: the operand at the index `idx[e, 0]`, read signed and clamped into `[0, N − 1]`. -/
theorem gather_take1_apply {N K w : Nat} (hN : 0 < N)
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (e : Fin K) :
    Host.gather (take1Dims N K wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (take1Dims N K wf).start (ix1 e) idx 0 + (take1Dims N K wf).batchCoord (ix1 e) 0
    + (take1Dims N K wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N K wf).startIndexMap from List.mem_singleton.mpr rfl)]
  have hsi : (take1Dims N K wf).siIdx (ix1 e) ⟨List.idxOf (0 : Fin 1) (take1Dims N K wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- TWO VECTORS JOINED END TO END, read at position `e`: the first vector below its length `a`, the second, at the
    position less `a`, from there on. -/
theorem concatenate_pair1_apply {a b c : Nat} (hc : a + b = c)
    (x₁ : (⟨1, ![a]⟩ : Shape).Idx → α) (x₂ : (⟨1, ![b]⟩ : Shape).Idx → α)
    (h : Shape.Concatenates [(⟨1, ![a]⟩ : Shape), (⟨1, ![b]⟩ : Shape)] (⟨1, ![c]⟩ : Shape) (0 : Fin 1)) (e : Fin c) :
    concatenate (⟨1, ![c]⟩ : Shape) (0 : Fin 1) [⟨(⟨1, ![a]⟩ : Shape), x₁⟩, ⟨(⟨1, ![b]⟩ : Shape), x₂⟩] h (ix1 e)
      = if hlt : e.val < a then x₁ (ix1 ⟨e.val, hlt⟩) else x₂ (ix1 ⟨e.val - a, by have := e.isLt; omega⟩) := by
  by_cases hlt : e.val < a
  · rw [dif_pos hlt]
    exact concatenate_pair_apply_left (0 : Fin 1) x₁ x₂ h (ix1 e) rfl (ix1 ⟨e.val, hlt⟩) (fun b => by
      match b with
      | ⟨0, _⟩ => rfl)
  · rw [dif_neg hlt]
    exact concatenate_pair_apply_right (0 : Fin 1) x₁ x₂ h (ix1 e) rfl rfl (ix1 ⟨e.val - a, by have := e.isLt; omega⟩)
      (fun b hb => by
        match b with
        | ⟨0, _⟩ => exact absurd rfl hb)
      (by show (e.val - a) + a = e.val; omega)

end Cert.LibGraphOps

end
-- ==== Proof.RefCommon.lean ====
/-
  Facts about index words and about the layer normalisation that do not depend on which layer reads them.
-/
import proofs.«426592_j50886772523112_2_alg».proof.Proof.Spec
import proofs.«426592_j50886772523112_2_alg».proof.Proof.LibGraphOps
import Idealize.ShloMosaic.Lib.ValueIdx

noncomputable section

open scoped BigOperators

namespace Cert.RefVal

open Idealize.ShloMosaic Idealize.ShloMosaic.ValueIdx

/-- Closes the equality of one coordinate of two indices built from coordinates. -/
macro "coord" : tactic => `(tactic| first | rfl | omega | (dsimp only; first | done | rfl | omega) | (simp; first | done | omega))

/-- The negative-index select of a take: compare with zero, add the extent, select. -/
theorem wrap_select (n w : BitVec 32) :
    Scalar.select (IntOp.cmpi .slt w 0#32) (IntOp.addi w n) w = Cert.Spec.wrapIdx n w := by
  have h0 : (0#32 : BitVec 32).toInt = 0 := by decide
  unfold Scalar.select IntOp.cmpi IntOp.addi Cert.Spec.wrapIdx
  by_cases h : w.toInt < 0
  · have hs : w.slt 0#32 = true := by unfold BitVec.slt; rw [h0]; exact decide_eq_true h
    rw [if_pos h, if_pos (by show BitVec.ofBool (w.slt 0#32) = 1; rw [hs]; rfl)]
  · have hs : w.slt 0#32 = false := by unfold BitVec.slt; rw [h0]; exact decide_eq_false h
    rw [if_neg h, if_neg (by show ¬ BitVec.ofBool (w.slt 0#32) = 1; rw [hs]; decide)]

/-- A start index that is a wrapped word, clamped, is the row the take reads. -/
theorem clamp_wrap (n : Nat) (hn : 0 < n) (w c : BitVec 32) (h : c = Cert.Spec.wrapIdx (BitVec.ofNat 32 n) w)
    (pf : min c.toInt.toNat (n - 1) < n) :
    (⟨min c.toInt.toNat (n - 1), pf⟩ : Fin n) = Cert.Spec.takeRow n hn w := by
  subst h
  rfl

/-- An edge column joined with the node numbers, read at an edge: the column with its self loops appended. -/
theorem concat_withLoops {M c : Nat} (hc : M + 16384 = c)
    (v : (⟨1, ![M]⟩ : Shape).Idx → BitVec 32)
    (h : Shape.Concatenates [(⟨1, ![M]⟩ : Shape), (⟨1, ![16384]⟩ : Shape)] (⟨1, ![c]⟩ : Shape) (0 : Fin 1)) (e : Fin c) :
    concatenate (⟨1, ![c]⟩ : Shape) (0 : Fin 1)
        [⟨(⟨1, ![M]⟩ : Shape), v⟩, ⟨(⟨1, ![16384]⟩ : Shape), iotaInDim (⟨1, ![16384]⟩ : Shape) 32 0⟩] h (ix1 e)
      = Cert.Spec.withLoops (fun e => v (ix1 e)) (Fin.cast hc.symm e) := by
  rw [Cert.LibGraphOps.concatenate_pair1_apply hc]
  unfold Cert.Spec.withLoops
  by_cases hlt : e.val < M
  · rw [dif_pos hlt, dif_pos (show (Fin.cast hc.symm e).val < M from hlt)]
    rfl
  · rw [dif_neg hlt, dif_neg (show ¬ (Fin.cast hc.symm e).val < M from hlt)]
    rfl

end Cert.RefVal

end
-- ==== Proof.RefEmb.lean ====
/-
  The reference's embedding read at an index: the sum of the two label rows.
-/
import proofs.«426592_j50886772523112_2_alg».proof.Proof.RefRead
import proofs.«426592_j50886772523112_2_alg».proof.Proof.SpecIO
import proofs.«426592_j50886772523112_2_alg».proof.Proof.LibTakeRows
import proofs.«426592_j50886772523112_2_alg».proof.Proof.RefCommon

noncomputable section

open scoped BigOperators

namespace Cert.RefVal

open Cert.ReferenceIdeal Cert.ReferenceIdeal.Read Idealize.ShloMosaic Idealize.ShloMosaic.ValueIdx

variable (x0 : (⟨S16384x2, .i32⟩ : BufTy).Contents (Elt Ideal)) (x1 : (⟨S2x262144, .i32⟩ : BufTy).Contents (Elt Ideal))
  (x3 x4 : (⟨S32x128, .f32⟩ : BufTy).Contents (Elt Ideal)) (x5 : (⟨S4x128x128, .f32⟩ : BufTy).Contents (Elt Ideal))
  (x6 x7 x8 : (⟨S4x128, .f32⟩ : BufTy).Contents (Elt Ideal)) (x9 : (⟨S128x32, .f32⟩ : BufTy).Contents (Elt Ideal))
  (x10 : (⟨S32, .f32⟩ : BufTy).Contents (Elt Ideal))

/-- The first label column, wrapped: operation 6 at a node. -/
theorem lab0_wrapped (i : Fin 16384) :
    val_main_v6 (F := Ideal) x0 (ix1 i) = Cert.Spec.wrapIdx 32#32 (x0 (ix2 i (0 : Fin 2))) := by
  have h1 : val_main_v1 (F := Ideal) x0 (ix1 i) = x0 (ix2 i (0 : Fin 2)) := by
    rw [val_main_v1_apply, val_main_v0_apply]
    exact congrArg x0 (funext fun a => Fin.ext (by match a with | ⟨0, _⟩ => coord | ⟨1, _⟩ => coord))
  rw [val_main_v6_apply, val_main_v3_apply, val_main_v5_apply, val_main_v2_apply, val_main_v4_apply, val_main_c_apply,
    val_main_c_0_apply, h1]
  exact wrap_select _ _

/-- The second label column, wrapped: operation 15 at a node. -/
theorem lab1_wrapped (i : Fin 16384) :
    val_main_v15 (F := Ideal) x0 (ix1 i) = Cert.Spec.wrapIdx 32#32 (x0 (ix2 i (1 : Fin 2))) := by
  have h1 : val_main_v10 (F := Ideal) x0 (ix1 i) = x0 (ix2 i (1 : Fin 2)) := by
    rw [val_main_v10_apply, val_main_v9_apply]
    exact congrArg x0 (funext fun a => Fin.ext (by match a with | ⟨0, _⟩ => coord | ⟨1, _⟩ => coord))
  rw [val_main_v15_apply, val_main_v12_apply, val_main_v14_apply, val_main_v11_apply, val_main_v13_apply, val_main_c_1_apply,
    val_main_c_2_apply, h1]
  exact wrap_select _ _

/-- The program's row take of a 32-row table is the general row take. -/
theorem gather32_eq : gather_S32x128_S16384x1_S16384x128_1_0_n_n_0_1_1128
    = Cert.LibTakeRows.rowDims 32 128 16384 Facts₀.gather_S32x128_S16384x1_S16384x128_1_0_n_n_0_1_1128_wf := rfl

/-- THE EMBEDDING AT (i, k): the class row of the first label plus the neighbour row of the second. -/
theorem ref_h0 (i : Fin 16384) (k : Fin 128) :
    val_main_v18 (F := Ideal) x0 x3 x4 (ix2 i k)
      = Cert.Spec.embR (Cert.Spec.ofArrays x0 x1 x3 x4 x5 x6 x7 x8 x9 x10) i k := by
  have c0 : val_main_v7 (F := Ideal) x0 (ix2 i (0 : Fin 1)) = Cert.Spec.wrapIdx 32#32 (x0 (ix2 i (0 : Fin 2))) := by
    rw [val_main_v7_apply, ← lab0_wrapped]
    exact congrArg _ (funext fun a => Fin.ext (by match a with | ⟨0, _⟩ => rfl))
  have c1 : val_main_v16 (F := Ideal) x0 (ix2 i (0 : Fin 1)) = Cert.Spec.wrapIdx 32#32 (x0 (ix2 i (1 : Fin 2))) := by
    rw [val_main_v16_apply, ← lab1_wrapped]
    exact congrArg _ (funext fun a => Fin.ext (by match a with | ⟨0, _⟩ => rfl))
  have g0 : val_main_v8 (F := Ideal) x0 x3 (ix2 i k)
      = x3 (ix2 (Cert.Spec.takeRow 32 (by decide) (x0 (ix2 i (0 : Fin 2)))) k) := by
    unfold val_main_v8
    rw [gather32_eq, Cert.LibTakeRows.gather_rows_apply (by decide)]
    refine congrArg x3 (congrArg (fun r => ix2 r k) (Fin.ext ?_))
    show min (val_main_v7 (F := Ideal) x0 (ix2 i (0 : Fin 1))).toInt.toNat (32 - 1) = _
    rw [c0]
    rfl
  have g1 : val_main_v17 (F := Ideal) x0 x4 (ix2 i k)
      = x4 (ix2 (Cert.Spec.takeRow 32 (by decide) (x0 (ix2 i (1 : Fin 2)))) k) := by
    unfold val_main_v17
    rw [gather32_eq, Cert.LibTakeRows.gather_rows_apply (by decide)]
    refine congrArg x4 (congrArg (fun r => ix2 r k) (Fin.ext ?_))
    show min (val_main_v16 (F := Ideal) x0 (ix2 i (0 : Fin 1))).toInt.toNat (32 - 1) = _
    rw [c1]
    rfl
  rw [val_main_v18_apply, g0, g1]
  rfl

end Cert.RefVal

end
-- ==== Proof.RefDegLib.lean ====
/-
  The edge list with self loops, the in-degree and the guarded inverse square root of a reference's layer, read at an
  index, for any length of the edge list: two vectors joined end to end, the second an iota over the nodes, are the
  first with the loops appended; the histogram of ones at the destination column is the in-degree; and the select of
  the comparison against zero, the inverse square root and zero is the guarded inverse square root.
-/
import proofs.«426592_j50886772523112_2_alg».proof.Proof.LibGraphOps
import proofs.«426592_j50886772523112_2_alg».proof.Proof.Spec

noncomputable section

open scoped BigOperators

namespace Cert.RefVal

open Idealize.ShloMosaic Idealize.ShloMosaic.ValueIdx

/-- A vector followed by the iota over the nodes is the vector with the self loops appended. -/
theorem concat_iota_withLoops {M c : Nat} (hc : M + 16384 = c)
    (a : (⟨1, ![M]⟩ : Shape).Idx → BitVec 32) (io : (⟨1, ![16384]⟩ : Shape).Idx → BitVec 32)
    (hio : ∀ j : Fin 16384, io (ix1 j) = BitVec.ofNat 32 j.val)
    (h : Shape.Concatenates [(⟨1, ![M]⟩ : Shape), (⟨1, ![16384]⟩ : Shape)] (⟨1, ![c]⟩ : Shape) (0 : Fin 1))
    (e : Fin c) :
    concatenate (⟨1, ![c]⟩ : Shape) (0 : Fin 1) [⟨(⟨1, ![M]⟩ : Shape), a⟩, ⟨(⟨1, ![16384]⟩ : Shape), io⟩] h (ix1 e)
      = Cert.Spec.withLoops (fun e' : Fin M => a (ix1 e')) ⟨e.val, by have := e.isLt; show e.val < M + 16384; omega⟩ := by
  rw [Cert.LibGraphOps.concatenate_pair1_apply hc]
  unfold Cert.Spec.withLoops
  by_cases hlt : e.val < M
  · rw [dif_pos hlt, dif_pos hlt]
  · rw [dif_neg hlt, dif_neg hlt, hio]

/-- The histogram of ones at a column of destinations is the in-degree over the list. -/
theorem hist_degR {K : Nat} (wf : ScatterDims.WF ⟨1, ![16384]⟩ ⟨2, ![K, 1]⟩ ⟨1, ![K]⟩ [] [0] [0] 1)
    (dims : ScatterDims ⟨1, ![16384]⟩ ⟨2, ![K, 1]⟩ ⟨1, ![K]⟩) (hd : dims = Cert.LibScatter.histDims 16384 K wf)
    (zeros : FVec Ideal ⟨1, ![16384]⟩ .f32) (hz : ∀ j, zeros j = Cert.Spec.zero)
    (col : IVec ⟨2, ![K, 1]⟩ 32) (dstv : IVec ⟨1, ![K]⟩ 32) (hcol : ∀ e : Fin K, col (ix2 e 0) = dstv (ix1 e))
    (ones : FVec Ideal ⟨1, ![K]⟩ .f32) (ho : ∀ j, ones j = Cert.Spec.one) (i : Fin 16384) :
    Host.scatterAdd dims zeros col ones (ix1 i) = Cert.Spec.degR (fun e : Fin K => dstv (ix1 e)) i := by
  subst hd
  rw [Cert.LibGraphOps.histDims_scatterAdd_apply]
  unfold Cert.Spec.degR Cert.Spec.Lands
  rw [hz]
  congr 1
  refine Finset.sum_congr rfl fun e _ => ?_
  rw [hcol, ho]

/-- The select of "degree above zero", the inverse square root of the degree and zero. -/
theorem where_dinv (deg zc zw : EReal) (hzc : zc = Cert.Spec.zero) (hzw : zw = Cert.Spec.zero) :
    Scalar.select (FloatOps.cmpf (F := Ideal) (φ := .f32) .ogt deg zc) (FloatOps.hostUnary (F := Ideal) (φ := .f32) .rsqrt deg) zw
      = if Ideal.cmp .ogt deg Cert.Spec.zero = 1#1 then Ideal.rsqrt deg else Cert.Spec.zero := by
  subst hzc hzw
  rfl

end Cert.RefVal

end
-- ==== Proof.RefDeg0.lean ====
/-
  A layer of the reference over the given edge list: the two edge lists with the self loops appended, the in-degree
  over the destination list and its guarded inverse square root, read at an index.
-/
import proofs.«426592_j50886772523112_2_alg».proof.Proof.RefDegLib
import proofs.«426592_j50886772523112_2_alg».proof.Proof.RefRead

noncomputable section

open scoped BigOperators

namespace Cert.RefVal

open Cert.ReferenceIdeal Cert.ReferenceIdeal.Read Cert.ReferenceIdeal.Gen Idealize.ShloMosaic Idealize.ShloMosaic.ValueIdx

variable (x1 : (⟨S2x262144, .i32⟩ : BufTy).Contents (Elt Ideal))

/-- The source row of the edge array, entry by entry. -/
theorem ref_rowA0 (e : Fin 262144) : val_main_v46 (F := Ideal) x1 (ix1 e) = x1 (ix2 (0 : Fin 2) e) := by
  rw [val_main_v46_apply, val_main_v45_apply]
  congr 1
  funext d
  match d with
  | ⟨0, _⟩ => rfl
  | ⟨1, _⟩ => exact Fin.ext (Nat.mod_eq_of_lt e.isLt)

/-- The destination row of the edge array, entry by entry. -/
theorem ref_rowB0 (e : Fin 262144) : val_main_v49 (F := Ideal) x1 (ix1 e) = x1 (ix2 (1 : Fin 2) e) := by
  rw [val_main_v49_apply, val_main_v48_apply]
  congr 1
  funext d
  match d with
  | ⟨0, _⟩ => rfl
  | ⟨1, _⟩ => exact Fin.ext (Nat.mod_eq_of_lt e.isLt)

/-- The source list with the self loops. -/
theorem ref_src0 (e : Fin 278528) :
    val_main_v47 (F := Ideal) x1 (ix1 e) = Cert.Spec.withLoops (fun e' : Fin 262144 => x1 (ix2 (0 : Fin 2) e')) e := by
  unfold val_main_v47
  refine (concat_iota_withLoops (M := 262144) (c := 278528) rfl (val_main_v46 (F := Ideal) x1)
    (val_main_v44 (F := Ideal)) (fun j => rfl) _ e).trans ?_
  rw [funext (ref_rowA0 x1)]
  rfl

/-- The destination list with the self loops. -/
theorem ref_dst0 (e : Fin 278528) :
    val_main_v50 (F := Ideal) x1 (ix1 e) = Cert.Spec.withLoops (fun e' : Fin 262144 => x1 (ix2 (1 : Fin 2) e')) e := by
  unfold val_main_v50
  refine (concat_iota_withLoops (M := 262144) (c := 278528) rfl (val_main_v49 (F := Ideal) x1)
    (val_main_v44 (F := Ideal)) (fun j => rfl) _ e).trans ?_
  rw [funext (ref_rowB0 x1)]
  rfl

/-- The in-degree over the destination list with the self loops. -/
theorem ref_deg0 (i : Fin 16384) :
    val_main_v54 (F := Ideal) x1 (ix1 i)
      = Cert.Spec.degR (Cert.Spec.withLoops (fun e' : Fin 262144 => x1 (ix2 (1 : Fin 2) e'))) i := by
  unfold val_main_v54
  refine (hist_degR (K := 278528) Facts₀.scatter_S16384_S278528x1_S278528_n_0_0_1_wf _ rfl
    (val_main_v52 (F := Ideal)) (fun j => by rw [val_main_v52_apply]; rfl)
    (val_main_v53 (F := Ideal) x1) (val_main_v50 (F := Ideal) x1)
    (fun e => by
      rw [val_main_v53_apply]
      congr 1
      funext d
      match d with
      | ⟨0, _⟩ => rfl)
    (val_main_v51 (F := Ideal)) (fun j => by rw [val_main_v51_apply]; rfl) i).trans ?_
  exact congrArg (fun d : Cert.Spec.Words 278528 => Cert.Spec.degR d i) (funext (ref_dst0 x1))

/-- The guarded inverse square root of the in-degree. -/
theorem ref_dinv0 (i : Fin 16384) :
    val_main_v58 (F := Ideal) x1 (ix1 i)
      = Cert.Spec.dinvR (Cert.Spec.withLoops (fun e' : Fin 262144 => x1 (ix2 (1 : Fin 2) e'))) i := by
  refine (where_dinv (val_main_v54 (F := Ideal) x1 (ix1 i)) (val_main_v55 (F := Ideal) (ix1 i))
    (val_main_call0_v1 (F := Ideal) (ix1 i)) (by rw [val_main_v55_apply]; rfl)
    (by rw [val_main_call0_v1_apply]; rfl)).trans ?_
  unfold Cert.Spec.dinvR
  rw [ref_deg0]

end Cert.RefVal

end
-- ==== Proof.RefNorm0.lean ====
/-
  The layer normalisation that closes a layer of the edge-list arrangement, read at an index: the row mean and the
  row variance of the residual sum (each a sum over the 128 columns divided by 128), the deviation from the mean
  scaled by the inverse square root of the variance plus the small constant, then scaled and shifted by the layer's
  row of the two parameter tables.
-/
import proofs.«426592_j50886772523112_2_alg».proof.Proof.RefRead
import proofs.«426592_j50886772523112_2_alg».proof.Proof.SpecIO
import Idealize.ShloMosaic.Lib.ValueIdx
import Idealize.ShloMosaic.PureOps.Ideal.Laws

noncomputable section

open scoped BigOperators

namespace Cert.RefVal

open Cert.ReferenceIdeal Cert.ReferenceIdeal.Read Idealize.ShloMosaic Idealize.ShloMosaic.ValueIdx

variable (x0 : (⟨S16384x2, .i32⟩ : BufTy).Contents (Elt Ideal)) (x1 : (⟨S2x262144, .i32⟩ : BufTy).Contents (Elt Ideal))
  (x3 x4 : (⟨S32x128, .f32⟩ : BufTy).Contents (Elt Ideal)) (x5 : (⟨S4x128x128, .f32⟩ : BufTy).Contents (Elt Ideal))
  (x6 x7 x8 : (⟨S4x128, .f32⟩ : BufTy).Contents (Elt Ideal)) (x9 : (⟨S128x32, .f32⟩ : BufTy).Contents (Elt Ideal))
  (x10 : (⟨S32, .f32⟩ : BufTy).Contents (Elt Ideal))

/-! ## The layer normalisation after the layer's residual sum, read at an index -/

/-- The residual sum the normalisation reads, by coordinates. -/
abbrev hs0 : Cert.Spec.Mat 16384 128 := fun i k => val_main_v92 (F := Ideal) x0 x1 x3 x4 x5 x6 (ix2 i k)

/-- The row mean: the row's sum over the 128 columns, divided by 128. -/
theorem mean0 (i : Fin 16384) :
    val_main_v100 (F := Ideal) x0 x1 x3 x4 x5 x6 (ix2 i (0 : Fin 1)) = Cert.Spec.rowMean (hs0 x0 x1 x3 x4 x5 x6) i := by
  rw [val_main_v100_apply, val_main_v98_apply, val_main_v97_apply, val_main_v99_apply]
  simp only [val_main_cst_14_apply, val_main_cst_15_apply, Ideal.ofBits_def, Ideal.hostDivf_def, Ideal.ofBits_zero_f32, zero_add]
  unfold Cert.Spec.rowMean Cert.Spec.c128
  refine congrArg (fun s => Ideal.div s _) ?_
  refine Finset.sum_congr rfl fun k _ => congrArg _ (funext fun a => ?_)
  match a with
  | ⟨0, _⟩ => rfl
  | ⟨1, _⟩ => rfl

/-- A column entry broadcast along the row is read at column 0. -/
theorem col_v101 (i : Fin 16384) (k : Fin 128) : idx_main_v101 (ix2 i k) = ix2 i (0 : Fin 1) :=
  funext fun a => match a with | ⟨0, _⟩ => rfl | ⟨1, _⟩ => rfl
theorem col_v108 (i : Fin 16384) (k : Fin 128) : idx_main_v108 (ix2 i k) = ix2 i (0 : Fin 1) :=
  funext fun a => match a with | ⟨0, _⟩ => rfl | ⟨1, _⟩ => rfl
theorem col_v113 (i : Fin 16384) (k : Fin 128) : idx_main_v113 (ix2 i k) = ix2 i (0 : Fin 1) :=
  funext fun a => match a with | ⟨0, _⟩ => rfl | ⟨1, _⟩ => rfl

/-- The row variance: the sum of the squared deviations from the row mean, divided by 128. -/
theorem var0 (i : Fin 16384) :
    val_main_v107 (F := Ideal) x0 x1 x3 x4 x5 x6 (ix2 i (0 : Fin 1)) = Cert.Spec.rowVar (hs0 x0 x1 x3 x4 x5 x6) i := by
  rw [val_main_v107_apply, val_main_v105_apply, val_main_v104_apply, val_main_v106_apply]
  simp only [val_main_cst_16_apply, val_main_cst_17_apply, Ideal.ofBits_def, Ideal.hostDivf_def, Ideal.ofBits_zero_f32, zero_add]
  unfold Cert.Spec.rowVar Cert.Spec.c128
  refine congrArg (fun s => Ideal.div s _) ?_
  refine Finset.sum_congr rfl fun k _ => ?_
  have e : idx_main_v104 (idx_main_v105 (ix2 i (0 : Fin 1))) k = ix2 i k :=
    funext fun a => match a with | ⟨0, _⟩ => rfl | ⟨1, _⟩ => rfl
  rw [e, val_main_v103_apply, val_main_v102_apply, val_main_v101_apply, col_v101, mean0]
  simp only [Ideal.mulf_def, Ideal.subf_def]

/-- The scale and shift rows are the layer's row of the two parameter tables. -/
theorem gamma0 (i : Fin 16384) (k : Fin 128) :
    idx_main_v93 (idx_main_v94 (idx_main_v115 (idx_main_v116 (ix2 i k)))) = ix2 (0 : Fin 4) k :=
  funext fun a => Fin.ext (by
    have hk : k.val < 128 := k.isLt
    match a with
    | ⟨0, _⟩ => rfl
    | ⟨1, _⟩ => show k.val % 128 = k.val; omega)
theorem beta0 (i : Fin 16384) (k : Fin 128) :
    idx_main_v95 (idx_main_v96 (idx_main_v118 (idx_main_v119 (ix2 i k)))) = ix2 (0 : Fin 4) k :=
  funext fun a => Fin.ext (by
    have hk : k.val < 128 := k.isLt
    match a with
    | ⟨0, _⟩ => rfl
    | ⟨1, _⟩ => show k.val % 128 = k.val; omega)

/-- The normalised table is the specification's layer normalisation of the residual sum. -/
theorem ref_norm0 (i : Fin 16384) (k : Fin 128) :
    val_main_v120 (F := Ideal) x0 x1 x3 x4 x5 x6 x7 x8 (ix2 i k)
      = Cert.Spec.layerNorm (fun i k => val_main_v92 (F := Ideal) x0 x1 x3 x4 x5 x6 (ix2 i k))
          ((Cert.Spec.ofArrays x0 x1 x3 x4 x5 x6 x7 x8 x9 x10).lg 0) ((Cert.Spec.ofArrays x0 x1 x3 x4 x5 x6 x7 x8 x9 x10).lb 0) i k := by
  rw [val_main_v120_apply, val_main_v117_apply, val_main_v114_apply, val_main_v109_apply, val_main_v108_apply,
    val_main_v113_apply, val_main_v112_apply, val_main_v111_apply, val_main_v110_apply,
    val_main_v116_apply, val_main_v115_apply, val_main_v94_apply, val_main_v93_apply,
    val_main_v119_apply, val_main_v118_apply, val_main_v96_apply, val_main_v95_apply,
    col_v108, col_v113, mean0, var0, gamma0, beta0]
  simp only [val_main_cst_18_apply, Ideal.ofBits_def, Ideal.addf_def, Ideal.mulf_def, Ideal.subf_def, Ideal.hostUnary_rsqrt_def]
  rfl

end Cert.RefVal

end
-- ==== Proof.RefLayer0.lean ====
/-
  The reference's first message-passing layer read at an index: the projected table, the three takes by the wrapped
  edge columns, the messages, their row scatter-add, the bias, the rectifier and the residual sum; then the layer
  normalisation of that sum.
-/
import proofs.«426592_j50886772523112_2_alg».proof.Proof.RefRead
import proofs.«426592_j50886772523112_2_alg».proof.Proof.SpecIO
import proofs.«426592_j50886772523112_2_alg».proof.Proof.LibTakeRows
import proofs.«426592_j50886772523112_2_alg».proof.Proof.LibGraphOps
import proofs.«426592_j50886772523112_2_alg».proof.Proof.RefCommon
import proofs.«426592_j50886772523112_2_alg».proof.Proof.RefDeg0
import proofs.«426592_j50886772523112_2_alg».proof.Proof.RefNorm0

noncomputable section

open scoped BigOperators

namespace Cert.RefVal

open Cert.ReferenceIdeal Cert.ReferenceIdeal.Read Idealize.ShloMosaic Idealize.ShloMosaic.ValueIdx

variable (x0 : (⟨S16384x2, .i32⟩ : BufTy).Contents (Elt Ideal)) (x1 : (⟨S2x262144, .i32⟩ : BufTy).Contents (Elt Ideal))
  (x3 x4 : (⟨S32x128, .f32⟩ : BufTy).Contents (Elt Ideal)) (x5 : (⟨S4x128x128, .f32⟩ : BufTy).Contents (Elt Ideal))
  (x6 x7 x8 : (⟨S4x128, .f32⟩ : BufTy).Contents (Elt Ideal)) (x9 : (⟨S128x32, .f32⟩ : BufTy).Contents (Elt Ideal))
  (x10 : (⟨S32, .f32⟩ : BufTy).Contents (Elt Ideal))

local notation "SRCW" => Cert.Spec.withLoops (fun e : Fin 262144 => x1 (ix2 (0 : Fin 2) e))
local notation "DSTW" => Cert.Spec.withLoops (fun e : Fin 262144 => x1 (ix2 (1 : Fin 2) e))
local notation "HIN" => (fun (i : Fin 16384) (k : Fin 128) => val_main_v18 (F := Ideal) x0 x3 x4 (ix2 i k))
local notation "WM" => (fun (j k : Fin 128) => x5 (ix3 (0 : Fin 4) j k))
local notation "BV" => (fun (k : Fin 128) => x6 (ix2 (0 : Fin 4) k))
local notation "ROW" => Cert.Spec.takeRow 16384 (by decide)

/-! ## The layer's parameters -/

/-- The weight matrix of the layer: the layer's slice of the stacked weights. -/
theorem l0_W (j k : Fin 128) : val_main_v41 (F := Ideal) x5 (ix2 j k) = x5 (ix3 (0 : Fin 4) j k) := by
  rw [val_main_v41_apply, val_main_v40_apply]
  have hj := j.isLt
  have hk := k.isLt
  exact congrArg x5 (funext fun a => Fin.ext (by
    match a with
    | ⟨0, _⟩ => coord
    | ⟨1, _⟩ => show (j.val * 128 + k.val) / 128 % 128 = j.val; omega
    | ⟨2, _⟩ => show (j.val * 128 + k.val) % 128 = k.val; omega))

/-- The bias of the layer. -/
theorem l0_b (k : Fin 128) : val_main_v43 (F := Ideal) x6 (ix1 k) = x6 (ix2 (0 : Fin 4) k) := by
  rw [val_main_v43_apply, val_main_v42_apply]
  have hk := k.isLt
  exact congrArg x6 (funext fun a => Fin.ext (by match a with | ⟨0, _⟩ => coord | ⟨1, _⟩ => coord))

/-! ## The projected table -/

/-- The projected table at (i, k): the row of the incoming table times the weight column. -/
theorem l0_hw (i : Fin 16384) (k : Fin 128) :
    val_main_v59 (F := Ideal) x0 x3 x4 x5 (ix2 i k) = Cert.Spec.mm HIN WM i k := by
  rw [val_main_v59_apply]
  unfold Cert.Spec.mm
  refine Finset.sum_congr rfl fun j _ => ?_
  refine congrArg₂ (· * ·)
    (congrArg _ (funext fun a => Fin.ext (by match a with | ⟨0, _⟩ => coord | ⟨1, _⟩ => coord))) ?_
  refine Eq.trans ?_ (l0_W _ j k)
  exact congrArg _ (funext fun a => Fin.ext (by match a with | ⟨0, _⟩ => coord | ⟨1, _⟩ => coord))

/-! ## The wrapped index columns of the three takes -/

/-- The source column of the first take, wrapped. -/
theorem l0_srcw (e : Fin 278528) :
    val_main_v65 (F := Ideal) x1 (ix2 e (0 : Fin 1)) = Cert.Spec.wrapIdx 16384#32 (SRCW e) := by
  have h : val_main_v64 (F := Ideal) x1 (ix1 e) = Cert.Spec.wrapIdx 16384#32 (SRCW e) := by
    rw [val_main_v64_apply, val_main_v61_apply, val_main_v63_apply, val_main_v60_apply, val_main_v62_apply,
      val_main_c_7_apply, val_main_c_8_apply, ref_src0]
    exact wrap_select _ _
  rw [val_main_v65_apply, ← h]
  exact congrArg _ (funext fun a => Fin.ext (by match a with | ⟨0, _⟩ => coord))

/-- The destination column of the second take, wrapped. -/
theorem l0_dstw (e : Fin 278528) :
    val_main_v72 (F := Ideal) x1 (ix2 e (0 : Fin 1)) = Cert.Spec.wrapIdx 16384#32 (DSTW e) := by
  have h : val_main_v71 (F := Ideal) x1 (ix1 e) = Cert.Spec.wrapIdx 16384#32 (DSTW e) := by
    rw [val_main_v71_apply, val_main_v68_apply, val_main_v70_apply, val_main_v67_apply, val_main_v69_apply,
      val_main_c_9_apply, val_main_c_10_apply, ref_dst0]
    exact wrap_select _ _
  rw [val_main_v72_apply, ← h]
  exact congrArg _ (funext fun a => Fin.ext (by match a with | ⟨0, _⟩ => coord))

/-- The source column of the row take, wrapped. -/
theorem l0_srcw2 (e : Fin 278528) :
    val_main_v80 (F := Ideal) x1 (ix2 e (0 : Fin 1)) = Cert.Spec.wrapIdx 16384#32 (SRCW e) := by
  have h : val_main_v79 (F := Ideal) x1 (ix1 e) = Cert.Spec.wrapIdx 16384#32 (SRCW e) := by
    rw [val_main_v79_apply, val_main_v76_apply, val_main_v78_apply, val_main_v75_apply, val_main_v77_apply,
      val_main_c_11_apply, val_main_c_12_apply, ref_src0]
    exact wrap_select _ _
  rw [val_main_v80_apply, ← h]
  exact congrArg _ (funext fun a => Fin.ext (by match a with | ⟨0, _⟩ => coord))

/-! ## The takes, the edge factor and the messages -/

/-- The program's take of a node vector by an edge column is the general take. -/
theorem l0_take1_eq : gather_S16384_S278528x1_S278528_n_0_n_n_0_1_1
    = Cert.LibGraphOps.take1Dims 16384 278528 Facts₀.gather_S16384_S278528x1_S278528_n_0_n_n_0_1_1_wf := rfl

/-- The program's row take of the node table by an edge column is the general row take. -/
theorem l0_takeRows_eq : gather_S16384x128_S278528x1_S278528x128_1_0_n_n_0_1_1128
    = Cert.LibTakeRows.rowDims 16384 128 278528 Facts₀.gather_S16384x128_S278528x1_S278528x128_1_0_n_n_0_1_1128_wf := rfl

/-- The program's row scatter is the general row scatter. -/
theorem l0_scatRows_eq : scatter_S16384x128_S278528x1_S278528x128_1_0_0_1
    = Cert.LibScatter.rowDims 16384 278528 128 Facts₀.scatter_S16384x128_S278528x1_S278528x128_1_0_0_1_wf := rfl

/-- The source's factor of an edge. -/
theorem l0_dsrc (e : Fin 278528) :
    val_main_v66 (F := Ideal) x1 (ix1 e) = Cert.Spec.dinvR DSTW (ROW (SRCW e)) := by
  unfold val_main_v66
  rw [l0_take1_eq, Cert.LibGraphOps.gather_take1_apply (by decide),
    clamp_wrap 16384 (by decide) _ _ (l0_srcw _ e), ref_dinv0]

/-- The destination's factor of an edge. -/
theorem l0_ddst (e : Fin 278528) :
    val_main_v73 (F := Ideal) x1 (ix1 e) = Cert.Spec.dinvR DSTW (ROW (DSTW e)) := by
  unfold val_main_v73
  rw [l0_take1_eq, Cert.LibGraphOps.gather_take1_apply (by decide),
    clamp_wrap 16384 (by decide) _ _ (l0_dstw _ e), ref_dinv0]

/-- The projected row of an edge's source. -/
theorem l0_hwsrc (e : Fin 278528) (k : Fin 128) :
    val_main_v81 (F := Ideal) x0 x1 x3 x4 x5 (ix2 e k) = Cert.Spec.mm HIN WM (ROW (SRCW e)) k := by
  unfold val_main_v81
  rw [l0_takeRows_eq, Cert.LibTakeRows.gather_rows_apply (by decide),
    clamp_wrap 16384 (by decide) _ _ (l0_srcw2 _ e), l0_hw]

/-- The message of an edge: the projected source row times the two factors. -/
theorem l0_msg (e : Fin 278528) (k : Fin 128) :
    val_main_v84 (F := Ideal) x0 x1 x3 x4 x5 (ix2 e k)
      = Cert.Spec.mm HIN WM (ROW (SRCW e)) k
          * (Cert.Spec.dinvR DSTW (ROW (SRCW e)) * Cert.Spec.dinvR DSTW (ROW (DSTW e))) := by
  have e83 : val_main_v83 (F := Ideal) x1 (ix2 e k) = val_main_v74 (F := Ideal) x1 (ix1 e) := by
    rw [val_main_v83_apply, val_main_v82_apply]
    exact congrArg _ (funext fun a => Fin.ext (by match a with | ⟨0, _⟩ => coord))
  rw [val_main_v84_apply, l0_hwsrc, e83, val_main_v74_apply, l0_dsrc, l0_ddst]
  rfl

/-! ## The aggregate and the residual sum -/

/-- The row scatter-add at (i, k): the sum of the messages of the edges landing in row i. -/
theorem l0_agg (i : Fin 16384) (k : Fin 128) :
    val_main_v87 (F := Ideal) x0 x1 x3 x4 x5 (ix2 i k) = Cert.Spec.aggR HIN WM SRCW DSTW i k := by
  have e86 : ∀ e : Fin 278528, val_main_v86 (F := Ideal) x1 (ix2 e (0 : Fin 1)) = DSTW e := by
    intro e
    rw [val_main_v86_apply, ← ref_dst0]
    exact congrArg _ (funext fun a => Fin.ext (by match a with | ⟨0, _⟩ => coord))
  unfold val_main_v87 Cert.Spec.aggR
  rw [l0_scatRows_eq, Cert.LibScatter.rowDims_scatterAdd_apply]
  refine congrArg₂ (· + ·) ?_ (Finset.sum_congr rfl fun e _ => ?_)
  · rw [val_main_v85_apply, val_main_cst_13_apply]
    rfl
  · rw [e86, l0_msg]
    rfl

/-- THE RESIDUAL SUM AT (i, k): the incoming table plus the rectified aggregate with its bias. -/
theorem l0_pre (i : Fin 16384) (k : Fin 128) :
    val_main_v92 (F := Ideal) x0 x1 x3 x4 x5 x6 (ix2 i k)
      = HIN i k + max (Cert.Spec.aggR HIN WM SRCW DSTW i k + BV k) Cert.Spec.zero := by
  have e89 : val_main_v89 (F := Ideal) x6 (ix2 i k) = x6 (ix2 (0 : Fin 4) k) := by
    rw [val_main_v89_apply, val_main_v88_apply, ← l0_b x6]
    exact congrArg _ (funext fun a => Fin.ext (by match a with | ⟨0, _⟩ => coord))
  rw [val_main_v92_apply, val_main_v91_apply, val_main_v90_apply, l0_agg, e89, val_main_call1_v0_apply,
    val_main_call1_cst_apply]
  rfl

/-! ## The layer -/

/-- THE FIRST LAYER AT (i, k): the layer normalisation of the residual sum, over the edge list with its self loops. -/
theorem ref_h1 (i : Fin 16384) (k : Fin 128) :
    val_main_v120 (F := Ideal) x0 x1 x3 x4 x5 x6 x7 x8 (ix2 i k)
      = Cert.Spec.layerR (fun i k => val_main_v18 (F := Ideal) x0 x3 x4 (ix2 i k))
          ((Cert.Spec.ofArrays x0 x1 x3 x4 x5 x6 x7 x8 x9 x10).Ws 0) ((Cert.Spec.ofArrays x0 x1 x3 x4 x5 x6 x7 x8 x9 x10).bs 0)
          ((Cert.Spec.ofArrays x0 x1 x3 x4 x5 x6 x7 x8 x9 x10).lg 0) ((Cert.Spec.ofArrays x0 x1 x3 x4 x5 x6 x7 x8 x9 x10).lb 0)
          (Cert.Spec.withLoops ((Cert.Spec.ofArrays x0 x1 x3 x4 x5 x6 x7 x8 x9 x10).ei 0))
          (Cert.Spec.withLoops ((Cert.Spec.ofArrays x0 x1 x3 x4 x5 x6 x7 x8 x9 x10).ei 1)) i k := by
  have hp : (fun (i : Fin 16384) (k : Fin 128) => val_main_v92 (F := Ideal) x0 x1 x3 x4 x5 x6 (ix2 i k))
      = fun i k => HIN i k + max (Cert.Spec.aggR HIN WM SRCW DSTW i k + BV k) Cert.Spec.zero :=
    funext fun i => funext fun k => l0_pre x0 x1 x3 x4 x5 x6 i k
  refine (ref_norm0 x0 x1 x3 x4 x5 x6 x7 x8 x9 x10 i k).trans ?_
  rw [hp]
  unfold Cert.Spec.layerR Cert.Spec.resid
  rfl

end Cert.RefVal

end
-- ==== Proof.RefDeg1.lean ====
/-
  A layer of the reference over the given edge list: the two edge lists with the self loops appended, the in-degree
  over the destination list and its guarded inverse square root, read at an index.
-/
import proofs.«426592_j50886772523112_2_alg».proof.Proof.RefDegLib
import proofs.«426592_j50886772523112_2_alg».proof.Proof.RefRead

noncomputable section

open scoped BigOperators

namespace Cert.RefVal

open Cert.ReferenceIdeal Cert.ReferenceIdeal.Read Cert.ReferenceIdeal.Gen Idealize.ShloMosaic Idealize.ShloMosaic.ValueIdx

variable (x1 : (⟨S2x262144, .i32⟩ : BufTy).Contents (Elt Ideal))

/-- The source row of the edge array, entry by entry. -/
theorem ref_rowA1 (e : Fin 262144) : val_main_v127 (F := Ideal) x1 (ix1 e) = x1 (ix2 (0 : Fin 2) e) := by
  rw [val_main_v127_apply, val_main_v126_apply]
  congr 1
  funext d
  match d with
  | ⟨0, _⟩ => rfl
  | ⟨1, _⟩ => exact Fin.ext (Nat.mod_eq_of_lt e.isLt)

/-- The destination row of the edge array, entry by entry. -/
theorem ref_rowB1 (e : Fin 262144) : val_main_v130 (F := Ideal) x1 (ix1 e) = x1 (ix2 (1 : Fin 2) e) := by
  rw [val_main_v130_apply, val_main_v129_apply]
  congr 1
  funext d
  match d with
  | ⟨0, _⟩ => rfl
  | ⟨1, _⟩ => exact Fin.ext (Nat.mod_eq_of_lt e.isLt)

/-- The source list with the self loops. -/
theorem ref_src1 (e : Fin 278528) :
    val_main_v128 (F := Ideal) x1 (ix1 e) = Cert.Spec.withLoops (fun e' : Fin 262144 => x1 (ix2 (0 : Fin 2) e')) e := by
  unfold val_main_v128
  refine (concat_iota_withLoops (M := 262144) (c := 278528) rfl (val_main_v127 (F := Ideal) x1)
    (val_main_v125 (F := Ideal)) (fun j => rfl) _ e).trans ?_
  rw [funext (ref_rowA1 x1)]
  rfl

/-- The destination list with the self loops. -/
theorem ref_dst1 (e : Fin 278528) :
    val_main_v131 (F := Ideal) x1 (ix1 e) = Cert.Spec.withLoops (fun e' : Fin 262144 => x1 (ix2 (1 : Fin 2) e')) e := by
  unfold val_main_v131
  refine (concat_iota_withLoops (M := 262144) (c := 278528) rfl (val_main_v130 (F := Ideal) x1)
    (val_main_v125 (F := Ideal)) (fun j => rfl) _ e).trans ?_
  rw [funext (ref_rowB1 x1)]
  rfl

/-- The in-degree over the destination list with the self loops. -/
theorem ref_deg1 (i : Fin 16384) :
    val_main_v135 (F := Ideal) x1 (ix1 i)
      = Cert.Spec.degR (Cert.Spec.withLoops (fun e' : Fin 262144 => x1 (ix2 (1 : Fin 2) e'))) i := by
  unfold val_main_v135
  refine (hist_degR (K := 278528) Facts₀.scatter_S16384_S278528x1_S278528_n_0_0_1_wf _ rfl
    (val_main_v133 (F := Ideal)) (fun j => by rw [val_main_v133_apply]; rfl)
    (val_main_v134 (F := Ideal) x1) (val_main_v131 (F := Ideal) x1)
    (fun e => by
      rw [val_main_v134_apply]
      congr 1
      funext d
      match d with
      | ⟨0, _⟩ => rfl)
    (val_main_v132 (F := Ideal)) (fun j => by rw [val_main_v132_apply]; rfl) i).trans ?_
  exact congrArg (fun d : Cert.Spec.Words 278528 => Cert.Spec.degR d i) (funext (ref_dst1 x1))

/-- The guarded inverse square root of the in-degree. -/
theorem ref_dinv1 (i : Fin 16384) :
    val_main_v139 (F := Ideal) x1 (ix1 i)
      = Cert.Spec.dinvR (Cert.Spec.withLoops (fun e' : Fin 262144 => x1 (ix2 (1 : Fin 2) e'))) i := by
  refine (where_dinv (val_main_v135 (F := Ideal) x1 (ix1 i)) (val_main_v136 (F := Ideal) (ix1 i))
    (val_main_call2_v1 (F := Ideal) (ix1 i)) (by rw [val_main_v136_apply]; rfl)
    (by rw [val_main_call2_v1_apply]; rfl)).trans ?_
  unfold Cert.Spec.dinvR
  rw [ref_deg1]

end Cert.RefVal

end
-- ==== Proof.RefNorm1.lean ====
/-
  The layer normalisation that closes a layer of the edge-list arrangement, read at an index: the row mean and the
  row variance of the residual sum (each a sum over the 128 columns divided by 128), the deviation from the mean
  scaled by the inverse square root of the variance plus the small constant, then scaled and shifted by the layer's
  row of the two parameter tables.
-/
import proofs.«426592_j50886772523112_2_alg».proof.Proof.RefRead
import proofs.«426592_j50886772523112_2_alg».proof.Proof.SpecIO
import Idealize.ShloMosaic.Lib.ValueIdx
import Idealize.ShloMosaic.PureOps.Ideal.Laws

noncomputable section

open scoped BigOperators

namespace Cert.RefVal

open Cert.ReferenceIdeal Cert.ReferenceIdeal.Read Idealize.ShloMosaic Idealize.ShloMosaic.ValueIdx

variable (x0 : (⟨S16384x2, .i32⟩ : BufTy).Contents (Elt Ideal)) (x1 : (⟨S2x262144, .i32⟩ : BufTy).Contents (Elt Ideal))
  (x3 x4 : (⟨S32x128, .f32⟩ : BufTy).Contents (Elt Ideal)) (x5 : (⟨S4x128x128, .f32⟩ : BufTy).Contents (Elt Ideal))
  (x6 x7 x8 : (⟨S4x128, .f32⟩ : BufTy).Contents (Elt Ideal)) (x9 : (⟨S128x32, .f32⟩ : BufTy).Contents (Elt Ideal))
  (x10 : (⟨S32, .f32⟩ : BufTy).Contents (Elt Ideal))

/-! ## The layer normalisation after the layer's residual sum, read at an index -/

/-- The residual sum the normalisation reads, by coordinates. -/
abbrev hs1 : Cert.Spec.Mat 16384 128 := fun i k => val_main_v173 (F := Ideal) x0 x1 x3 x4 x5 x6 x7 x8 (ix2 i k)

/-- The row mean: the row's sum over the 128 columns, divided by 128. -/
theorem mean1 (i : Fin 16384) :
    val_main_v181 (F := Ideal) x0 x1 x3 x4 x5 x6 x7 x8 (ix2 i (0 : Fin 1)) = Cert.Spec.rowMean (hs1 x0 x1 x3 x4 x5 x6 x7 x8) i := by
  rw [val_main_v181_apply, val_main_v179_apply, val_main_v178_apply, val_main_v180_apply]
  simp only [val_main_cst_30_apply, val_main_cst_31_apply, Ideal.ofBits_def, Ideal.hostDivf_def, Ideal.ofBits_zero_f32, zero_add]
  unfold Cert.Spec.rowMean Cert.Spec.c128
  refine congrArg (fun s => Ideal.div s _) ?_
  refine Finset.sum_congr rfl fun k _ => congrArg _ (funext fun a => ?_)
  match a with
  | ⟨0, _⟩ => rfl
  | ⟨1, _⟩ => rfl

/-- A column entry broadcast along the row is read at column 0. -/
theorem col_v182 (i : Fin 16384) (k : Fin 128) : idx_main_v182 (ix2 i k) = ix2 i (0 : Fin 1) :=
  funext fun a => match a with | ⟨0, _⟩ => rfl | ⟨1, _⟩ => rfl
theorem col_v189 (i : Fin 16384) (k : Fin 128) : idx_main_v189 (ix2 i k) = ix2 i (0 : Fin 1) :=
  funext fun a => match a with | ⟨0, _⟩ => rfl | ⟨1, _⟩ => rfl
theorem col_v194 (i : Fin 16384) (k : Fin 128) : idx_main_v194 (ix2 i k) = ix2 i (0 : Fin 1) :=
  funext fun a => match a with | ⟨0, _⟩ => rfl | ⟨1, _⟩ => rfl

/-- The row variance: the sum of the squared deviations from the row mean, divided by 128. -/
theorem var1 (i : Fin 16384) :
    val_main_v188 (F := Ideal) x0 x1 x3 x4 x5 x6 x7 x8 (ix2 i (0 : Fin 1)) = Cert.Spec.rowVar (hs1 x0 x1 x3 x4 x5 x6 x7 x8) i := by
  rw [val_main_v188_apply, val_main_v186_apply, val_main_v185_apply, val_main_v187_apply]
  simp only [val_main_cst_32_apply, val_main_cst_33_apply, Ideal.ofBits_def, Ideal.hostDivf_def, Ideal.ofBits_zero_f32, zero_add]
  unfold Cert.Spec.rowVar Cert.Spec.c128
  refine congrArg (fun s => Ideal.div s _) ?_
  refine Finset.sum_congr rfl fun k _ => ?_
  have e : idx_main_v185 (idx_main_v186 (ix2 i (0 : Fin 1))) k = ix2 i k :=
    funext fun a => match a with | ⟨0, _⟩ => rfl | ⟨1, _⟩ => rfl
  rw [e, val_main_v184_apply, val_main_v183_apply, val_main_v182_apply, col_v182, mean1]
  simp only [Ideal.mulf_def, Ideal.subf_def]

/-- The scale and shift rows are the layer's row of the two parameter tables. -/
theorem gamma1 (i : Fin 16384) (k : Fin 128) :
    idx_main_v174 (idx_main_v175 (idx_main_v196 (idx_main_v197 (ix2 i k)))) = ix2 (1 : Fin 4) k :=
  funext fun a => Fin.ext (by
    have hk : k.val < 128 := k.isLt
    match a with
    | ⟨0, _⟩ => rfl
    | ⟨1, _⟩ => show k.val % 128 = k.val; omega)
theorem beta1 (i : Fin 16384) (k : Fin 128) :
    idx_main_v176 (idx_main_v177 (idx_main_v199 (idx_main_v200 (ix2 i k)))) = ix2 (1 : Fin 4) k :=
  funext fun a => Fin.ext (by
    have hk : k.val < 128 := k.isLt
    match a with
    | ⟨0, _⟩ => rfl
    | ⟨1, _⟩ => show k.val % 128 = k.val; omega)

/-- The normalised table is the specification's layer normalisation of the residual sum. -/
theorem ref_norm1 (i : Fin 16384) (k : Fin 128) :
    val_main_v201 (F := Ideal) x0 x1 x3 x4 x5 x6 x7 x8 (ix2 i k)
      = Cert.Spec.layerNorm (fun i k => val_main_v173 (F := Ideal) x0 x1 x3 x4 x5 x6 x7 x8 (ix2 i k))
          ((Cert.Spec.ofArrays x0 x1 x3 x4 x5 x6 x7 x8 x9 x10).lg 1) ((Cert.Spec.ofArrays x0 x1 x3 x4 x5 x6 x7 x8 x9 x10).lb 1) i k := by
  rw [val_main_v201_apply, val_main_v198_apply, val_main_v195_apply, val_main_v190_apply, val_main_v189_apply,
    val_main_v194_apply, val_main_v193_apply, val_main_v192_apply, val_main_v191_apply,
    val_main_v197_apply, val_main_v196_apply, val_main_v175_apply, val_main_v174_apply,
    val_main_v200_apply, val_main_v199_apply, val_main_v177_apply, val_main_v176_apply,
    col_v189, col_v194, mean1, var1, gamma1, beta1]
  simp only [val_main_cst_34_apply, Ideal.ofBits_def, Ideal.addf_def, Ideal.mulf_def, Ideal.subf_def, Ideal.hostUnary_rsqrt_def]
  rfl

end Cert.RefVal

end
-- ==== Proof.RefLayer1.lean ====
/-
  The reference's second message-passing layer read at an index: the projected table, the three takes by the wrapped
  edge columns, the messages, their row scatter-add, the bias, the rectifier and the residual sum; then the layer
  normalisation of that sum.
-/
import proofs.«426592_j50886772523112_2_alg».proof.Proof.RefRead
import proofs.«426592_j50886772523112_2_alg».proof.Proof.SpecIO
import proofs.«426592_j50886772523112_2_alg».proof.Proof.LibTakeRows
import proofs.«426592_j50886772523112_2_alg».proof.Proof.LibGraphOps
import proofs.«426592_j50886772523112_2_alg».proof.Proof.RefCommon
import proofs.«426592_j50886772523112_2_alg».proof.Proof.RefDeg1
import proofs.«426592_j50886772523112_2_alg».proof.Proof.RefNorm1

noncomputable section

open scoped BigOperators

namespace Cert.RefVal

open Cert.ReferenceIdeal Cert.ReferenceIdeal.Read Idealize.ShloMosaic Idealize.ShloMosaic.ValueIdx

variable (x0 : (⟨S16384x2, .i32⟩ : BufTy).Contents (Elt Ideal)) (x1 : (⟨S2x262144, .i32⟩ : BufTy).Contents (Elt Ideal))
  (x3 x4 : (⟨S32x128, .f32⟩ : BufTy).Contents (Elt Ideal)) (x5 : (⟨S4x128x128, .f32⟩ : BufTy).Contents (Elt Ideal))
  (x6 x7 x8 : (⟨S4x128, .f32⟩ : BufTy).Contents (Elt Ideal)) (x9 : (⟨S128x32, .f32⟩ : BufTy).Contents (Elt Ideal))
  (x10 : (⟨S32, .f32⟩ : BufTy).Contents (Elt Ideal))

local notation "SRCW" => Cert.Spec.withLoops (fun e : Fin 262144 => x1 (ix2 (0 : Fin 2) e))
local notation "DSTW" => Cert.Spec.withLoops (fun e : Fin 262144 => x1 (ix2 (1 : Fin 2) e))
local notation "HIN" => (fun (i : Fin 16384) (k : Fin 128) => val_main_v120 (F := Ideal) x0 x1 x3 x4 x5 x6 x7 x8 (ix2 i k))
local notation "WM" => (fun (j k : Fin 128) => x5 (ix3 (1 : Fin 4) j k))
local notation "BV" => (fun (k : Fin 128) => x6 (ix2 (1 : Fin 4) k))
local notation "ROW" => Cert.Spec.takeRow 16384 (by decide)

/-! ## The layer's parameters -/

/-- The weight matrix of the layer: the layer's slice of the stacked weights. -/
theorem l1_W (j k : Fin 128) : val_main_v122 (F := Ideal) x5 (ix2 j k) = x5 (ix3 (1 : Fin 4) j k) := by
  rw [val_main_v122_apply, val_main_v121_apply]
  have hj := j.isLt
  have hk := k.isLt
  exact congrArg x5 (funext fun a => Fin.ext (by
    match a with
    | ⟨0, _⟩ => coord
    | ⟨1, _⟩ => show (j.val * 128 + k.val) / 128 % 128 = j.val; omega
    | ⟨2, _⟩ => show (j.val * 128 + k.val) % 128 = k.val; omega))

/-- The bias of the layer. -/
theorem l1_b (k : Fin 128) : val_main_v124 (F := Ideal) x6 (ix1 k) = x6 (ix2 (1 : Fin 4) k) := by
  rw [val_main_v124_apply, val_main_v123_apply]
  have hk := k.isLt
  exact congrArg x6 (funext fun a => Fin.ext (by match a with | ⟨0, _⟩ => coord | ⟨1, _⟩ => coord))

/-! ## The projected table -/

/-- The projected table at (i, k): the row of the incoming table times the weight column. -/
theorem l1_hw (i : Fin 16384) (k : Fin 128) :
    val_main_v140 (F := Ideal) x0 x1 x3 x4 x5 x6 x7 x8 (ix2 i k) = Cert.Spec.mm HIN WM i k := by
  rw [val_main_v140_apply]
  unfold Cert.Spec.mm
  refine Finset.sum_congr rfl fun j _ => ?_
  refine congrArg₂ (· * ·)
    (congrArg _ (funext fun a => Fin.ext (by match a with | ⟨0, _⟩ => coord | ⟨1, _⟩ => coord))) ?_
  refine Eq.trans ?_ (l1_W _ j k)
  exact congrArg _ (funext fun a => Fin.ext (by match a with | ⟨0, _⟩ => coord | ⟨1, _⟩ => coord))

/-! ## The wrapped index columns of the three takes -/

/-- The source column of the first take, wrapped. -/
theorem l1_srcw (e : Fin 278528) :
    val_main_v146 (F := Ideal) x1 (ix2 e (0 : Fin 1)) = Cert.Spec.wrapIdx 16384#32 (SRCW e) := by
  have h : val_main_v145 (F := Ideal) x1 (ix1 e) = Cert.Spec.wrapIdx 16384#32 (SRCW e) := by
    rw [val_main_v145_apply, val_main_v142_apply, val_main_v144_apply, val_main_v141_apply, val_main_v143_apply,
      val_main_c_23_apply, val_main_c_24_apply, ref_src1]
    exact wrap_select _ _
  rw [val_main_v146_apply, ← h]
  exact congrArg _ (funext fun a => Fin.ext (by match a with | ⟨0, _⟩ => coord))

/-- The destination column of the second take, wrapped. -/
theorem l1_dstw (e : Fin 278528) :
    val_main_v153 (F := Ideal) x1 (ix2 e (0 : Fin 1)) = Cert.Spec.wrapIdx 16384#32 (DSTW e) := by
  have h : val_main_v152 (F := Ideal) x1 (ix1 e) = Cert.Spec.wrapIdx 16384#32 (DSTW e) := by
    rw [val_main_v152_apply, val_main_v149_apply, val_main_v151_apply, val_main_v148_apply, val_main_v150_apply,
      val_main_c_25_apply, val_main_c_26_apply, ref_dst1]
    exact wrap_select _ _
  rw [val_main_v153_apply, ← h]
  exact congrArg _ (funext fun a => Fin.ext (by match a with | ⟨0, _⟩ => coord))

/-- The source column of the row take, wrapped. -/
theorem l1_srcw2 (e : Fin 278528) :
    val_main_v161 (F := Ideal) x1 (ix2 e (0 : Fin 1)) = Cert.Spec.wrapIdx 16384#32 (SRCW e) := by
  have h : val_main_v160 (F := Ideal) x1 (ix1 e) = Cert.Spec.wrapIdx 16384#32 (SRCW e) := by
    rw [val_main_v160_apply, val_main_v157_apply, val_main_v159_apply, val_main_v156_apply, val_main_v158_apply,
      val_main_c_27_apply, val_main_c_28_apply, ref_src1]
    exact wrap_select _ _
  rw [val_main_v161_apply, ← h]
  exact congrArg _ (funext fun a => Fin.ext (by match a with | ⟨0, _⟩ => coord))

/-! ## The takes, the edge factor and the messages -/

/-- The program's take of a node vector by an edge column is the general take. -/
theorem l1_take1_eq : gather_S16384_S278528x1_S278528_n_0_n_n_0_1_1
    = Cert.LibGraphOps.take1Dims 16384 278528 Facts₀.gather_S16384_S278528x1_S278528_n_0_n_n_0_1_1_wf := rfl

/-- The program's row take of the node table by an edge column is the general row take. -/
theorem l1_takeRows_eq : gather_S16384x128_S278528x1_S278528x128_1_0_n_n_0_1_1128
    = Cert.LibTakeRows.rowDims 16384 128 278528 Facts₀.gather_S16384x128_S278528x1_S278528x128_1_0_n_n_0_1_1128_wf := rfl

/-- The program's row scatter is the general row scatter. -/
theorem l1_scatRows_eq : scatter_S16384x128_S278528x1_S278528x128_1_0_0_1
    = Cert.LibScatter.rowDims 16384 278528 128 Facts₀.scatter_S16384x128_S278528x1_S278528x128_1_0_0_1_wf := rfl

/-- The source's factor of an edge. -/
theorem l1_dsrc (e : Fin 278528) :
    val_main_v147 (F := Ideal) x1 (ix1 e) = Cert.Spec.dinvR DSTW (ROW (SRCW e)) := by
  unfold val_main_v147
  rw [l1_take1_eq, Cert.LibGraphOps.gather_take1_apply (by decide),
    clamp_wrap 16384 (by decide) _ _ (l1_srcw _ e), ref_dinv1]

/-- The destination's factor of an edge. -/
theorem l1_ddst (e : Fin 278528) :
    val_main_v154 (F := Ideal) x1 (ix1 e) = Cert.Spec.dinvR DSTW (ROW (DSTW e)) := by
  unfold val_main_v154
  rw [l1_take1_eq, Cert.LibGraphOps.gather_take1_apply (by decide),
    clamp_wrap 16384 (by decide) _ _ (l1_dstw _ e), ref_dinv1]

/-- The projected row of an edge's source. -/
theorem l1_hwsrc (e : Fin 278528) (k : Fin 128) :
    val_main_v162 (F := Ideal) x0 x1 x3 x4 x5 x6 x7 x8 (ix2 e k) = Cert.Spec.mm HIN WM (ROW (SRCW e)) k := by
  unfold val_main_v162
  rw [l1_takeRows_eq, Cert.LibTakeRows.gather_rows_apply (by decide),
    clamp_wrap 16384 (by decide) _ _ (l1_srcw2 _ e), l1_hw]

/-- The message of an edge: the projected source row times the two factors. -/
theorem l1_msg (e : Fin 278528) (k : Fin 128) :
    val_main_v165 (F := Ideal) x0 x1 x3 x4 x5 x6 x7 x8 (ix2 e k)
      = Cert.Spec.mm HIN WM (ROW (SRCW e)) k
          * (Cert.Spec.dinvR DSTW (ROW (SRCW e)) * Cert.Spec.dinvR DSTW (ROW (DSTW e))) := by
  have e83 : val_main_v164 (F := Ideal) x1 (ix2 e k) = val_main_v155 (F := Ideal) x1 (ix1 e) := by
    rw [val_main_v164_apply, val_main_v163_apply]
    exact congrArg _ (funext fun a => Fin.ext (by match a with | ⟨0, _⟩ => coord))
  rw [val_main_v165_apply, l1_hwsrc, e83, val_main_v155_apply, l1_dsrc, l1_ddst]
  rfl

/-! ## The aggregate and the residual sum -/

/-- The row scatter-add at (i, k): the sum of the messages of the edges landing in row i. -/
theorem l1_agg (i : Fin 16384) (k : Fin 128) :
    val_main_v168 (F := Ideal) x0 x1 x3 x4 x5 x6 x7 x8 (ix2 i k) = Cert.Spec.aggR HIN WM SRCW DSTW i k := by
  have e86 : ∀ e : Fin 278528, val_main_v167 (F := Ideal) x1 (ix2 e (0 : Fin 1)) = DSTW e := by
    intro e
    rw [val_main_v167_apply, ← ref_dst1]
    exact congrArg _ (funext fun a => Fin.ext (by match a with | ⟨0, _⟩ => coord))
  unfold val_main_v168 Cert.Spec.aggR
  rw [l1_scatRows_eq, Cert.LibScatter.rowDims_scatterAdd_apply]
  refine congrArg₂ (· + ·) ?_ (Finset.sum_congr rfl fun e _ => ?_)
  · rw [val_main_v166_apply, val_main_cst_29_apply]
    rfl
  · rw [e86, l1_msg]
    rfl

/-- THE RESIDUAL SUM AT (i, k): the incoming table plus the rectified aggregate with its bias. -/
theorem l1_pre (i : Fin 16384) (k : Fin 128) :
    val_main_v173 (F := Ideal) x0 x1 x3 x4 x5 x6 x7 x8 (ix2 i k)
      = HIN i k + max (Cert.Spec.aggR HIN WM SRCW DSTW i k + BV k) Cert.Spec.zero := by
  have e89 : val_main_v170 (F := Ideal) x6 (ix2 i k) = x6 (ix2 (1 : Fin 4) k) := by
    rw [val_main_v170_apply, val_main_v169_apply, ← l1_b x6]
    exact congrArg _ (funext fun a => Fin.ext (by match a with | ⟨0, _⟩ => coord))
  rw [val_main_v173_apply, val_main_v172_apply, val_main_v171_apply, l1_agg, e89, val_main_call3_v0_apply,
    val_main_call3_cst_apply]
  rfl

/-! ## The layer -/

/-- THE SECOND LAYER AT (i, k): the layer normalisation of the residual sum, over the edge list with its self loops. -/
theorem ref_h2 (i : Fin 16384) (k : Fin 128) :
    val_main_v201 (F := Ideal) x0 x1 x3 x4 x5 x6 x7 x8 (ix2 i k)
      = Cert.Spec.layerR (fun i k => val_main_v120 (F := Ideal) x0 x1 x3 x4 x5 x6 x7 x8 (ix2 i k))
          ((Cert.Spec.ofArrays x0 x1 x3 x4 x5 x6 x7 x8 x9 x10).Ws 1) ((Cert.Spec.ofArrays x0 x1 x3 x4 x5 x6 x7 x8 x9 x10).bs 1)
          ((Cert.Spec.ofArrays x0 x1 x3 x4 x5 x6 x7 x8 x9 x10).lg 1) ((Cert.Spec.ofArrays x0 x1 x3 x4 x5 x6 x7 x8 x9 x10).lb 1)
          (Cert.Spec.withLoops ((Cert.Spec.ofArrays x0 x1 x3 x4 x5 x6 x7 x8 x9 x10).ei 0))
          (Cert.Spec.withLoops ((Cert.Spec.ofArrays x0 x1 x3 x4 x5 x6 x7 x8 x9 x10).ei 1)) i k := by
  have hp : (fun (i : Fin 16384) (k : Fin 128) => val_main_v173 (F := Ideal) x0 x1 x3 x4 x5 x6 x7 x8 (ix2 i k))
      = fun i k => HIN i k + max (Cert.Spec.aggR HIN WM SRCW DSTW i k + BV k) Cert.Spec.zero :=
    funext fun i => funext fun k => l1_pre x0 x1 x3 x4 x5 x6 x7 x8 i k
  refine (ref_norm1 x0 x1 x3 x4 x5 x6 x7 x8 x9 x10 i k).trans ?_
  rw [hp]
  unfold Cert.Spec.layerR Cert.Spec.resid
  rfl

end Cert.RefVal

end
-- ==== Proof.RefDeg2.lean ====
/-
  A layer of the reference over the given edge list: the two edge lists with the self loops appended, the in-degree
  over the destination list and its guarded inverse square root, read at an index.
-/
import proofs.«426592_j50886772523112_2_alg».proof.Proof.RefDegLib
import proofs.«426592_j50886772523112_2_alg».proof.Proof.RefRead

noncomputable section

open scoped BigOperators

namespace Cert.RefVal

open Cert.ReferenceIdeal Cert.ReferenceIdeal.Read Cert.ReferenceIdeal.Gen Idealize.ShloMosaic Idealize.ShloMosaic.ValueIdx

variable (x1 : (⟨S2x262144, .i32⟩ : BufTy).Contents (Elt Ideal))

/-- The source row of the edge array, entry by entry. -/
theorem ref_rowA2 (e : Fin 262144) : val_main_v208 (F := Ideal) x1 (ix1 e) = x1 (ix2 (0 : Fin 2) e) := by
  rw [val_main_v208_apply, val_main_v207_apply]
  congr 1
  funext d
  match d with
  | ⟨0, _⟩ => rfl
  | ⟨1, _⟩ => exact Fin.ext (Nat.mod_eq_of_lt e.isLt)

/-- The destination row of the edge array, entry by entry. -/
theorem ref_rowB2 (e : Fin 262144) : val_main_v211 (F := Ideal) x1 (ix1 e) = x1 (ix2 (1 : Fin 2) e) := by
  rw [val_main_v211_apply, val_main_v210_apply]
  congr 1
  funext d
  match d with
  | ⟨0, _⟩ => rfl
  | ⟨1, _⟩ => exact Fin.ext (Nat.mod_eq_of_lt e.isLt)

/-- The source list with the self loops. -/
theorem ref_src2 (e : Fin 278528) :
    val_main_v209 (F := Ideal) x1 (ix1 e) = Cert.Spec.withLoops (fun e' : Fin 262144 => x1 (ix2 (0 : Fin 2) e')) e := by
  unfold val_main_v209
  refine (concat_iota_withLoops (M := 262144) (c := 278528) rfl (val_main_v208 (F := Ideal) x1)
    (val_main_v206 (F := Ideal)) (fun j => rfl) _ e).trans ?_
  rw [funext (ref_rowA2 x1)]
  rfl

/-- The destination list with the self loops. -/
theorem ref_dst2 (e : Fin 278528) :
    val_main_v212 (F := Ideal) x1 (ix1 e) = Cert.Spec.withLoops (fun e' : Fin 262144 => x1 (ix2 (1 : Fin 2) e')) e := by
  unfold val_main_v212
  refine (concat_iota_withLoops (M := 262144) (c := 278528) rfl (val_main_v211 (F := Ideal) x1)
    (val_main_v206 (F := Ideal)) (fun j => rfl) _ e).trans ?_
  rw [funext (ref_rowB2 x1)]
  rfl

/-- The in-degree over the destination list with the self loops. -/
theorem ref_deg2 (i : Fin 16384) :
    val_main_v216 (F := Ideal) x1 (ix1 i)
      = Cert.Spec.degR (Cert.Spec.withLoops (fun e' : Fin 262144 => x1 (ix2 (1 : Fin 2) e'))) i := by
  unfold val_main_v216
  refine (hist_degR (K := 278528) Facts₀.scatter_S16384_S278528x1_S278528_n_0_0_1_wf _ rfl
    (val_main_v214 (F := Ideal)) (fun j => by rw [val_main_v214_apply]; rfl)
    (val_main_v215 (F := Ideal) x1) (val_main_v212 (F := Ideal) x1)
    (fun e => by
      rw [val_main_v215_apply]
      congr 1
      funext d
      match d with
      | ⟨0, _⟩ => rfl)
    (val_main_v213 (F := Ideal)) (fun j => by rw [val_main_v213_apply]; rfl) i).trans ?_
  exact congrArg (fun d : Cert.Spec.Words 278528 => Cert.Spec.degR d i) (funext (ref_dst2 x1))

/-- The guarded inverse square root of the in-degree. -/
theorem ref_dinv2 (i : Fin 16384) :
    val_main_v220 (F := Ideal) x1 (ix1 i)
      = Cert.Spec.dinvR (Cert.Spec.withLoops (fun e' : Fin 262144 => x1 (ix2 (1 : Fin 2) e'))) i := by
  refine (where_dinv (val_main_v216 (F := Ideal) x1 (ix1 i)) (val_main_v217 (F := Ideal) (ix1 i))
    (val_main_call4_v1 (F := Ideal) (ix1 i)) (by rw [val_main_v217_apply]; rfl)
    (by rw [val_main_call4_v1_apply]; rfl)).trans ?_
  unfold Cert.Spec.dinvR
  rw [ref_deg2]

end Cert.RefVal

end
-- ==== Proof.RefNorm2.lean ====
/-
  The layer normalisation that closes a layer of the edge-list arrangement, read at an index: the row mean and the
  row variance of the residual sum (each a sum over the 128 columns divided by 128), the deviation from the mean
  scaled by the inverse square root of the variance plus the small constant, then scaled and shifted by the layer's
  row of the two parameter tables.
-/
import proofs.«426592_j50886772523112_2_alg».proof.Proof.RefRead
import proofs.«426592_j50886772523112_2_alg».proof.Proof.SpecIO
import Idealize.ShloMosaic.Lib.ValueIdx
import Idealize.ShloMosaic.PureOps.Ideal.Laws

noncomputable section

open scoped BigOperators

namespace Cert.RefVal

open Cert.ReferenceIdeal Cert.ReferenceIdeal.Read Idealize.ShloMosaic Idealize.ShloMosaic.ValueIdx

variable (x0 : (⟨S16384x2, .i32⟩ : BufTy).Contents (Elt Ideal)) (x1 : (⟨S2x262144, .i32⟩ : BufTy).Contents (Elt Ideal))
  (x3 x4 : (⟨S32x128, .f32⟩ : BufTy).Contents (Elt Ideal)) (x5 : (⟨S4x128x128, .f32⟩ : BufTy).Contents (Elt Ideal))
  (x6 x7 x8 : (⟨S4x128, .f32⟩ : BufTy).Contents (Elt Ideal)) (x9 : (⟨S128x32, .f32⟩ : BufTy).Contents (Elt Ideal))
  (x10 : (⟨S32, .f32⟩ : BufTy).Contents (Elt Ideal))

/-! ## The layer normalisation after the layer's residual sum, read at an index -/

/-- The residual sum the normalisation reads, by coordinates. -/
abbrev hs2 : Cert.Spec.Mat 16384 128 := fun i k => val_main_v254 (F := Ideal) x0 x1 x3 x4 x5 x6 x7 x8 (ix2 i k)

/-- The row mean: the row's sum over the 128 columns, divided by 128. -/
theorem mean2 (i : Fin 16384) :
    val_main_v262 (F := Ideal) x0 x1 x3 x4 x5 x6 x7 x8 (ix2 i (0 : Fin 1)) = Cert.Spec.rowMean (hs2 x0 x1 x3 x4 x5 x6 x7 x8) i := by
  rw [val_main_v262_apply, val_main_v260_apply, val_main_v259_apply, val_main_v261_apply]
  simp only [val_main_cst_46_apply, val_main_cst_47_apply, Ideal.ofBits_def, Ideal.hostDivf_def, Ideal.ofBits_zero_f32, zero_add]
  unfold Cert.Spec.rowMean Cert.Spec.c128
  refine congrArg (fun s => Ideal.div s _) ?_
  refine Finset.sum_congr rfl fun k _ => congrArg _ (funext fun a => ?_)
  match a with
  | ⟨0, _⟩ => rfl
  | ⟨1, _⟩ => rfl

/-- A column entry broadcast along the row is read at column 0. -/
theorem col_v263 (i : Fin 16384) (k : Fin 128) : idx_main_v263 (ix2 i k) = ix2 i (0 : Fin 1) :=
  funext fun a => match a with | ⟨0, _⟩ => rfl | ⟨1, _⟩ => rfl
theorem col_v270 (i : Fin 16384) (k : Fin 128) : idx_main_v270 (ix2 i k) = ix2 i (0 : Fin 1) :=
  funext fun a => match a with | ⟨0, _⟩ => rfl | ⟨1, _⟩ => rfl
theorem col_v275 (i : Fin 16384) (k : Fin 128) : idx_main_v275 (ix2 i k) = ix2 i (0 : Fin 1) :=
  funext fun a => match a with | ⟨0, _⟩ => rfl | ⟨1, _⟩ => rfl

/-- The row variance: the sum of the squared deviations from the row mean, divided by 128. -/
theorem var2 (i : Fin 16384) :
    val_main_v269 (F := Ideal) x0 x1 x3 x4 x5 x6 x7 x8 (ix2 i (0 : Fin 1)) = Cert.Spec.rowVar (hs2 x0 x1 x3 x4 x5 x6 x7 x8) i := by
  rw [val_main_v269_apply, val_main_v267_apply, val_main_v266_apply, val_main_v268_apply]
  simp only [val_main_cst_48_apply, val_main_cst_49_apply, Ideal.ofBits_def, Ideal.hostDivf_def, Ideal.ofBits_zero_f32, zero_add]
  unfold Cert.Spec.rowVar Cert.Spec.c128
  refine congrArg (fun s => Ideal.div s _) ?_
  refine Finset.sum_congr rfl fun k _ => ?_
  have e : idx_main_v266 (idx_main_v267 (ix2 i (0 : Fin 1))) k = ix2 i k :=
    funext fun a => match a with | ⟨0, _⟩ => rfl | ⟨1, _⟩ => rfl
  rw [e, val_main_v265_apply, val_main_v264_apply, val_main_v263_apply, col_v263, mean2]
  simp only [Ideal.mulf_def, Ideal.subf_def]

/-- The scale and shift rows are the layer's row of the two parameter tables. -/
theorem gamma2 (i : Fin 16384) (k : Fin 128) :
    idx_main_v255 (idx_main_v256 (idx_main_v277 (idx_main_v278 (ix2 i k)))) = ix2 (2 : Fin 4) k :=
  funext fun a => Fin.ext (by
    have hk : k.val < 128 := k.isLt
    match a with
    | ⟨0, _⟩ => rfl
    | ⟨1, _⟩ => show k.val % 128 = k.val; omega)
theorem beta2 (i : Fin 16384) (k : Fin 128) :
    idx_main_v257 (idx_main_v258 (idx_main_v280 (idx_main_v281 (ix2 i k)))) = ix2 (2 : Fin 4) k :=
  funext fun a => Fin.ext (by
    have hk : k.val < 128 := k.isLt
    match a with
    | ⟨0, _⟩ => rfl
    | ⟨1, _⟩ => show k.val % 128 = k.val; omega)

/-- The normalised table is the specification's layer normalisation of the residual sum. -/
theorem ref_norm2 (i : Fin 16384) (k : Fin 128) :
    val_main_v282 (F := Ideal) x0 x1 x3 x4 x5 x6 x7 x8 (ix2 i k)
      = Cert.Spec.layerNorm (fun i k => val_main_v254 (F := Ideal) x0 x1 x3 x4 x5 x6 x7 x8 (ix2 i k))
          ((Cert.Spec.ofArrays x0 x1 x3 x4 x5 x6 x7 x8 x9 x10).lg 2) ((Cert.Spec.ofArrays x0 x1 x3 x4 x5 x6 x7 x8 x9 x10).lb 2) i k := by
  rw [val_main_v282_apply, val_main_v279_apply, val_main_v276_apply, val_main_v271_apply, val_main_v270_apply,
    val_main_v275_apply, val_main_v274_apply, val_main_v273_apply, val_main_v272_apply,
    val_main_v278_apply, val_main_v277_apply, val_main_v256_apply, val_main_v255_apply,
    val_main_v281_apply, val_main_v280_apply, val_main_v258_apply, val_main_v257_apply,
    col_v270, col_v275, mean2, var2, gamma2, beta2]
  simp only [val_main_cst_50_apply, Ideal.ofBits_def, Ideal.addf_def, Ideal.mulf_def, Ideal.subf_def, Ideal.hostUnary_rsqrt_def]
  rfl

end Cert.RefVal

end
-- ==== Proof.RefLayer2.lean ====
/-
  The reference's third message-passing layer read at an index: the projected table, the three takes by the wrapped
  edge columns, the messages, their row scatter-add, the bias, the rectifier and the residual sum; then the layer
  normalisation of that sum.
-/
import proofs.«426592_j50886772523112_2_alg».proof.Proof.RefRead
import proofs.«426592_j50886772523112_2_alg».proof.Proof.SpecIO
import proofs.«426592_j50886772523112_2_alg».proof.Proof.LibTakeRows
import proofs.«426592_j50886772523112_2_alg».proof.Proof.LibGraphOps
import proofs.«426592_j50886772523112_2_alg».proof.Proof.RefCommon
import proofs.«426592_j50886772523112_2_alg».proof.Proof.RefDeg2
import proofs.«426592_j50886772523112_2_alg».proof.Proof.RefNorm2

noncomputable section

open scoped BigOperators

namespace Cert.RefVal

open Cert.ReferenceIdeal Cert.ReferenceIdeal.Read Idealize.ShloMosaic Idealize.ShloMosaic.ValueIdx

variable (x0 : (⟨S16384x2, .i32⟩ : BufTy).Contents (Elt Ideal)) (x1 : (⟨S2x262144, .i32⟩ : BufTy).Contents (Elt Ideal))
  (x3 x4 : (⟨S32x128, .f32⟩ : BufTy).Contents (Elt Ideal)) (x5 : (⟨S4x128x128, .f32⟩ : BufTy).Contents (Elt Ideal))
  (x6 x7 x8 : (⟨S4x128, .f32⟩ : BufTy).Contents (Elt Ideal)) (x9 : (⟨S128x32, .f32⟩ : BufTy).Contents (Elt Ideal))
  (x10 : (⟨S32, .f32⟩ : BufTy).Contents (Elt Ideal))

local notation "SRCW" => Cert.Spec.withLoops (fun e : Fin 262144 => x1 (ix2 (0 : Fin 2) e))
local notation "DSTW" => Cert.Spec.withLoops (fun e : Fin 262144 => x1 (ix2 (1 : Fin 2) e))
local notation "HIN" => (fun (i : Fin 16384) (k : Fin 128) => val_main_v201 (F := Ideal) x0 x1 x3 x4 x5 x6 x7 x8 (ix2 i k))
local notation "WM" => (fun (j k : Fin 128) => x5 (ix3 (2 : Fin 4) j k))
local notation "BV" => (fun (k : Fin 128) => x6 (ix2 (2 : Fin 4) k))
local notation "ROW" => Cert.Spec.takeRow 16384 (by decide)

/-! ## The layer's parameters -/

/-- The weight matrix of the layer: the layer's slice of the stacked weights. -/
theorem l2_W (j k : Fin 128) : val_main_v203 (F := Ideal) x5 (ix2 j k) = x5 (ix3 (2 : Fin 4) j k) := by
  rw [val_main_v203_apply, val_main_v202_apply]
  have hj := j.isLt
  have hk := k.isLt
  exact congrArg x5 (funext fun a => Fin.ext (by
    match a with
    | ⟨0, _⟩ => coord
    | ⟨1, _⟩ => show (j.val * 128 + k.val) / 128 % 128 = j.val; omega
    | ⟨2, _⟩ => show (j.val * 128 + k.val) % 128 = k.val; omega))

/-- The bias of the layer. -/
theorem l2_b (k : Fin 128) : val_main_v205 (F := Ideal) x6 (ix1 k) = x6 (ix2 (2 : Fin 4) k) := by
  rw [val_main_v205_apply, val_main_v204_apply]
  have hk := k.isLt
  exact congrArg x6 (funext fun a => Fin.ext (by match a with | ⟨0, _⟩ => coord | ⟨1, _⟩ => coord))

/-! ## The projected table -/

/-- The projected table at (i, k): the row of the incoming table times the weight column. -/
theorem l2_hw (i : Fin 16384) (k : Fin 128) :
    val_main_v221 (F := Ideal) x0 x1 x3 x4 x5 x6 x7 x8 (ix2 i k) = Cert.Spec.mm HIN WM i k := by
  rw [val_main_v221_apply]
  unfold Cert.Spec.mm
  refine Finset.sum_congr rfl fun j _ => ?_
  refine congrArg₂ (· * ·)
    (congrArg _ (funext fun a => Fin.ext (by match a with | ⟨0, _⟩ => coord | ⟨1, _⟩ => coord))) ?_
  refine Eq.trans ?_ (l2_W _ j k)
  exact congrArg _ (funext fun a => Fin.ext (by match a with | ⟨0, _⟩ => coord | ⟨1, _⟩ => coord))

/-! ## The wrapped index columns of the three takes -/

/-- The source column of the first take, wrapped. -/
theorem l2_srcw (e : Fin 278528) :
    val_main_v227 (F := Ideal) x1 (ix2 e (0 : Fin 1)) = Cert.Spec.wrapIdx 16384#32 (SRCW e) := by
  have h : val_main_v226 (F := Ideal) x1 (ix1 e) = Cert.Spec.wrapIdx 16384#32 (SRCW e) := by
    rw [val_main_v226_apply, val_main_v223_apply, val_main_v225_apply, val_main_v222_apply, val_main_v224_apply,
      val_main_c_39_apply, val_main_c_40_apply, ref_src2]
    exact wrap_select _ _
  rw [val_main_v227_apply, ← h]
  exact congrArg _ (funext fun a => Fin.ext (by match a with | ⟨0, _⟩ => coord))

/-- The destination column of the second take, wrapped. -/
theorem l2_dstw (e : Fin 278528) :
    val_main_v234 (F := Ideal) x1 (ix2 e (0 : Fin 1)) = Cert.Spec.wrapIdx 16384#32 (DSTW e) := by
  have h : val_main_v233 (F := Ideal) x1 (ix1 e) = Cert.Spec.wrapIdx 16384#32 (DSTW e) := by
    rw [val_main_v233_apply, val_main_v230_apply, val_main_v232_apply, val_main_v229_apply, val_main_v231_apply,
      val_main_c_41_apply, val_main_c_42_apply, ref_dst2]
    exact wrap_select _ _
  rw [val_main_v234_apply, ← h]
  exact congrArg _ (funext fun a => Fin.ext (by match a with | ⟨0, _⟩ => coord))

/-- The source column of the row take, wrapped. -/
theorem l2_srcw2 (e : Fin 278528) :
    val_main_v242 (F := Ideal) x1 (ix2 e (0 : Fin 1)) = Cert.Spec.wrapIdx 16384#32 (SRCW e) := by
  have h : val_main_v241 (F := Ideal) x1 (ix1 e) = Cert.Spec.wrapIdx 16384#32 (SRCW e) := by
    rw [val_main_v241_apply, val_main_v238_apply, val_main_v240_apply, val_main_v237_apply, val_main_v239_apply,
      val_main_c_43_apply, val_main_c_44_apply, ref_src2]
    exact wrap_select _ _
  rw [val_main_v242_apply, ← h]
  exact congrArg _ (funext fun a => Fin.ext (by match a with | ⟨0, _⟩ => coord))

/-! ## The takes, the edge factor and the messages -/

/-- The program's take of a node vector by an edge column is the general take. -/
theorem l2_take1_eq : gather_S16384_S278528x1_S278528_n_0_n_n_0_1_1
    = Cert.LibGraphOps.take1Dims 16384 278528 Facts₀.gather_S16384_S278528x1_S278528_n_0_n_n_0_1_1_wf := rfl

/-- The program's row take of the node table by an edge column is the general row take. -/
theorem l2_takeRows_eq : gather_S16384x128_S278528x1_S278528x128_1_0_n_n_0_1_1128
    = Cert.LibTakeRows.rowDims 16384 128 278528 Facts₀.gather_S16384x128_S278528x1_S278528x128_1_0_n_n_0_1_1128_wf := rfl

/-- The program's row scatter is the general row scatter. -/
theorem l2_scatRows_eq : scatter_S16384x128_S278528x1_S278528x128_1_0_0_1
    = Cert.LibScatter.rowDims 16384 278528 128 Facts₀.scatter_S16384x128_S278528x1_S278528x128_1_0_0_1_wf := rfl

/-- The source's factor of an edge. -/
theorem l2_dsrc (e : Fin 278528) :
    val_main_v228 (F := Ideal) x1 (ix1 e) = Cert.Spec.dinvR DSTW (ROW (SRCW e)) := by
  unfold val_main_v228
  rw [l2_take1_eq, Cert.LibGraphOps.gather_take1_apply (by decide),
    clamp_wrap 16384 (by decide) _ _ (l2_srcw _ e), ref_dinv2]

/-- The destination's factor of an edge. -/
theorem l2_ddst (e : Fin 278528) :
    val_main_v235 (F := Ideal) x1 (ix1 e) = Cert.Spec.dinvR DSTW (ROW (DSTW e)) := by
  unfold val_main_v235
  rw [l2_take1_eq, Cert.LibGraphOps.gather_take1_apply (by decide),
    clamp_wrap 16384 (by decide) _ _ (l2_dstw _ e), ref_dinv2]

/-- The projected row of an edge's source. -/
theorem l2_hwsrc (e : Fin 278528) (k : Fin 128) :
    val_main_v243 (F := Ideal) x0 x1 x3 x4 x5 x6 x7 x8 (ix2 e k) = Cert.Spec.mm HIN WM (ROW (SRCW e)) k := by
  unfold val_main_v243
  rw [l2_takeRows_eq, Cert.LibTakeRows.gather_rows_apply (by decide),
    clamp_wrap 16384 (by decide) _ _ (l2_srcw2 _ e), l2_hw]

/-- The message of an edge: the projected source row times the two factors. -/
theorem l2_msg (e : Fin 278528) (k : Fin 128) :
    val_main_v246 (F := Ideal) x0 x1 x3 x4 x5 x6 x7 x8 (ix2 e k)
      = Cert.Spec.mm HIN WM (ROW (SRCW e)) k
          * (Cert.Spec.dinvR DSTW (ROW (SRCW e)) * Cert.Spec.dinvR DSTW (ROW (DSTW e))) := by
  have e83 : val_main_v245 (F := Ideal) x1 (ix2 e k) = val_main_v236 (F := Ideal) x1 (ix1 e) := by
    rw [val_main_v245_apply, val_main_v244_apply]
    exact congrArg _ (funext fun a => Fin.ext (by match a with | ⟨0, _⟩ => coord))
  rw [val_main_v246_apply, l2_hwsrc, e83, val_main_v236_apply, l2_dsrc, l2_ddst]
  rfl

/-! ## The aggregate and the residual sum -/

/-- The row scatter-add at (i, k): the sum of the messages of the edges landing in row i. -/
theorem l2_agg (i : Fin 16384) (k : Fin 128) :
    val_main_v249 (F := Ideal) x0 x1 x3 x4 x5 x6 x7 x8 (ix2 i k) = Cert.Spec.aggR HIN WM SRCW DSTW i k := by
  have e86 : ∀ e : Fin 278528, val_main_v248 (F := Ideal) x1 (ix2 e (0 : Fin 1)) = DSTW e := by
    intro e
    rw [val_main_v248_apply, ← ref_dst2]
    exact congrArg _ (funext fun a => Fin.ext (by match a with | ⟨0, _⟩ => coord))
  unfold val_main_v249 Cert.Spec.aggR
  rw [l2_scatRows_eq, Cert.LibScatter.rowDims_scatterAdd_apply]
  refine congrArg₂ (· + ·) ?_ (Finset.sum_congr rfl fun e _ => ?_)
  · rw [val_main_v247_apply, val_main_cst_45_apply]
    rfl
  · rw [e86, l2_msg]
    rfl

/-- THE RESIDUAL SUM AT (i, k): the incoming table plus the rectified aggregate with its bias. -/
theorem l2_pre (i : Fin 16384) (k : Fin 128) :
    val_main_v254 (F := Ideal) x0 x1 x3 x4 x5 x6 x7 x8 (ix2 i k)
      = HIN i k + max (Cert.Spec.aggR HIN WM SRCW DSTW i k + BV k) Cert.Spec.zero := by
  have e89 : val_main_v251 (F := Ideal) x6 (ix2 i k) = x6 (ix2 (2 : Fin 4) k) := by
    rw [val_main_v251_apply, val_main_v250_apply, ← l2_b x6]
    exact congrArg _ (funext fun a => Fin.ext (by match a with | ⟨0, _⟩ => coord))
  rw [val_main_v254_apply, val_main_v253_apply, val_main_v252_apply, l2_agg, e89, val_main_call5_v0_apply,
    val_main_call5_cst_apply]
  rfl

/-! ## The layer -/

/-- THE THIRD LAYER AT (i, k): the layer normalisation of the residual sum, over the edge list with its self loops. -/
theorem ref_h3 (i : Fin 16384) (k : Fin 128) :
    val_main_v282 (F := Ideal) x0 x1 x3 x4 x5 x6 x7 x8 (ix2 i k)
      = Cert.Spec.layerR (fun i k => val_main_v201 (F := Ideal) x0 x1 x3 x4 x5 x6 x7 x8 (ix2 i k))
          ((Cert.Spec.ofArrays x0 x1 x3 x4 x5 x6 x7 x8 x9 x10).Ws 2) ((Cert.Spec.ofArrays x0 x1 x3 x4 x5 x6 x7 x8 x9 x10).bs 2)
          ((Cert.Spec.ofArrays x0 x1 x3 x4 x5 x6 x7 x8 x9 x10).lg 2) ((Cert.Spec.ofArrays x0 x1 x3 x4 x5 x6 x7 x8 x9 x10).lb 2)
          (Cert.Spec.withLoops ((Cert.Spec.ofArrays x0 x1 x3 x4 x5 x6 x7 x8 x9 x10).ei 0))
          (Cert.Spec.withLoops ((Cert.Spec.ofArrays x0 x1 x3 x4 x5 x6 x7 x8 x9 x10).ei 1)) i k := by
  have hp : (fun (i : Fin 16384) (k : Fin 128) => val_main_v254 (F := Ideal) x0 x1 x3 x4 x5 x6 x7 x8 (ix2 i k))
      = fun i k => HIN i k + max (Cert.Spec.aggR HIN WM SRCW DSTW i k + BV k) Cert.Spec.zero :=
    funext fun i => funext fun k => l2_pre x0 x1 x3 x4 x5 x6 x7 x8 i k
  refine (ref_norm2 x0 x1 x3 x4 x5 x6 x7 x8 x9 x10 i k).trans ?_
  rw [hp]
  unfold Cert.Spec.layerR Cert.Spec.resid
  rfl

end Cert.RefVal

end
-- ==== Proof.RefOut.lean ====
/-
  The reference's output read at an index: the rows arange(256)·64 of the last table, taken with jnp's
  negative-index wrap and the gather's clamp, times the output weights, plus the output bias.
-/
import proofs.«426592_j50886772523112_2_alg».proof.Proof.RefRead
import proofs.«426592_j50886772523112_2_alg».proof.Proof.SpecIO
import proofs.«426592_j50886772523112_2_alg».proof.Proof.LibTakeRows
import Idealize.ShloMosaic.Lib.Affine

noncomputable section

open scoped BigOperators

namespace Cert.RefVal

open Cert.ReferenceIdeal Cert.ReferenceIdeal.Gen Cert.ReferenceIdeal.Read Idealize.ShloMosaic Idealize.ShloMosaic.ValueIdx

/-- jnp's negative-index step: where the word reads negative, the extent is added. -/
theorem select_wrap (n w : BitVec 32) :
    Scalar.select (IntOp.cmpi .slt w 0#32) (IntOp.addi w n) w = Cert.Spec.wrapIdx n w := by
  unfold Scalar.select Cert.Spec.wrapIdx IntOp.addi
  have h0 : (0#32 : BitVec 32).toInt = 0 := by decide
  have hiff : IntOp.cmpi .slt w 0#32 = 1#1 ↔ w.toInt < 0 := by rw [IntOp.cmpi_slt, h0]
  by_cases h : w.toInt < 0
  · rw [if_pos h]; exact if_pos (hiff.mpr h)
  · rw [if_neg h]; exact if_neg (fun hc => h (hiff.mp hc))

/-- The row numbers of the output: arange(256)·64, wrapped. -/
theorem v371_at (g : Fin 256) :
    val_main_v371 (F := Ideal) (ix1 g) = Cert.Spec.wrapIdx 16384#32 (BitVec.ofNat 32 g.val * 64#32) := by
  rw [val_main_v371_apply, val_main_v368_apply, val_main_v370_apply, val_main_v366_apply, val_main_v364_apply,
    val_main_v365_apply, val_main_v367_apply, val_main_v369_apply, val_main_c_67_apply, val_main_c_68_apply,
    val_main_c_69_apply]
  exact select_wrap _ _

theorem ref_out (x0 : (⟨S16384x2, .i32⟩ : BufTy).Contents (Elt Ideal)) (x1 : (⟨S2x262144, .i32⟩ : BufTy).Contents (Elt Ideal))
    (x3 x4 : (⟨S32x128, .f32⟩ : BufTy).Contents (Elt Ideal)) (x5 : (⟨S4x128x128, .f32⟩ : BufTy).Contents (Elt Ideal))
    (x6 x7 x8 : (⟨S4x128, .f32⟩ : BufTy).Contents (Elt Ideal)) (x9 : (⟨S128x32, .f32⟩ : BufTy).Contents (Elt Ideal))
    (x10 : (⟨S32, .f32⟩ : BufTy).Contents (Elt Ideal)) (g : Fin 256) (c : Fin 32) :
    val_main_v377 (F := Ideal) x0 x1 x3 x4 x5 x6 x7 x8 x9 x10 (ix2 g c)
      = Cert.Spec.outR (fun i k => val_main_v363 (F := Ideal) x0 x1 x3 x4 x5 x6 x7 x8 (ix2 i k))
          (Cert.Spec.ofArrays x0 x1 x3 x4 x5 x6 x7 x8 x9 x10).oW (Cert.Spec.ofArrays x0 x1 x3 x4 x5 x6 x7 x8 x9 x10).ob g c := by
  rw [val_main_v377_apply]
  rw [val_main_v374_apply]
  rw [val_main_v376_apply, val_main_v375_apply]
  rw [Ideal.addf_def]
  unfold Cert.Spec.outR
  refine congrArg₂ (· + ·) ?_ ?_
  · refine Finset.sum_congr rfl fun k _ => ?_
    have hl : lidx_main_v374 (ix2 g c) k = ix2 g k := by
      funext a; match a with | ⟨0, _⟩ => rfl | ⟨1, _⟩ => rfl
    have hr : ridx_main_v374 (ix2 g c) k = ix2 k c := by
      funext a; match a with | ⟨0, _⟩ => rfl | ⟨1, _⟩ => rfl
    rw [hl, hr]
    refine congrArg₂ (· * ·) ?_ rfl
    unfold val_main_v373
    have hd : gather_S16384x128_S256x1_S256x128_1_0_n_n_0_1_1128
        = Cert.LibTakeRows.rowDims 16384 128 256 Facts₀.gather_S16384x128_S256x1_S256x128_1_0_n_n_0_1_1128_wf := rfl
    rw [hd]
    refine (Cert.LibTakeRows.gather_rows_apply (N := 16384) (by decide) _ _ _ g k).trans ?_
    have hi : idx_main_v372 (ix2 g (0 : Fin 1)) = ix1 g := by
      funext a; match a with | ⟨0, _⟩ => rfl
    have hv : val_main_v372 (F := Ideal) (ix2 g (0 : Fin 1))
        = Cert.Spec.wrapIdx 16384#32 (BitVec.ofNat 32 g.val * 64#32) := by
      rw [val_main_v372_apply, hi, v371_at]
    refine congrArg (fun r : Fin 16384 => val_main_v363 (F := Ideal) x0 x1 x3 x4 x5 x6 x7 x8 (ix2 r k)) (Fin.ext ?_)
    show min (val_main_v372 (F := Ideal) (ix2 g (0 : Fin 1))).toInt.toNat (16384 - 1) = _
    rw [hv]
    rfl
  · show x10 (idx_main_v375 (idx_main_v376 (ix2 g c))) = x10 (ix1 c)
    refine congrArg x10 ?_
    funext a; match a with | ⟨0, _⟩ => rfl

end Cert.RefVal

end
-- ==== Proof.RefEdges.lean ====
/-
  The fully adjacent edge list as the reference computes it, read at an edge number: edge e = (g·64 + a)·64 + c of
  the block-diagonal list goes from node g·64 + a to node g·64 + c, and the 16384 self loops follow.
-/
import proofs.«426592_j50886772523112_2_alg».proof.Proof.RefRead
import proofs.«426592_j50886772523112_2_alg».proof.Proof.SpecIO
import proofs.«426592_j50886772523112_2_alg».proof.Proof.LibGraphOps

noncomputable section

namespace Cert.RefVal

open Cert.ReferenceIdeal Cert.ReferenceIdeal.Gen Cert.ReferenceIdeal.Read Idealize.ShloMosaic Idealize.ShloMosaic.ValueIdx

/-- arange(256)·64 at a graph. -/
theorem v21_at (g : Fin 256) : val_main_v21 (F := Ideal) (ix1 g) = BitVec.ofNat 32 g.val * 64#32 := by
  rw [val_main_v21_apply, val_main_v19_apply, val_main_v20_apply, val_main_c_3_apply]
  rfl

/-- The source table [256, 64, 64]: the graph's offset plus the second coordinate. -/
theorem v28_at (g : Fin 256) (a c : Fin 64) :
    val_main_v28 (F := Ideal) (ix3 g a c) = BitVec.ofNat 32 g.val * 64#32 + BitVec.ofNat 32 a.val := by
  rw [val_main_v28_apply, val_main_v27_apply, val_main_v25_apply, val_main_v26_apply, val_main_v23_apply,
    val_main_v24_apply, val_main_v22_apply]
  have h1 : idx_main_v23 (idx_main_v25 (idx_main_v28 (ix3 g a c))) = ix1 g := by
    funext b; match b with | ⟨0, _⟩ => rfl
  rw [h1, v21_at]
  rfl

/-- The destination table [256, 64, 64]: the graph's offset plus the third coordinate. -/
theorem v35_at (g : Fin 256) (a c : Fin 64) :
    val_main_v35 (F := Ideal) (ix3 g a c) = BitVec.ofNat 32 g.val * 64#32 + BitVec.ofNat 32 c.val := by
  rw [val_main_v35_apply, val_main_v34_apply, val_main_v32_apply, val_main_v33_apply, val_main_v30_apply,
    val_main_v31_apply, val_main_v22_apply]
  have h1 : idx_main_v30 (idx_main_v32 (idx_main_v35 (ix3 g a c))) = ix1 g := by
    funext b; match b with | ⟨0, _⟩ => rfl
  rw [h1, v21_at]
  rfl

/-- The row-major coordinates of an edge number. -/
theorem idx29_eq (e : Fin 1048576) :
    idx_main_v29 (ix1 e) = ix3 (⟨e.val / 4096, by have := e.isLt; omega⟩ : Fin 256)
      (⟨e.val / 64 % 64, by omega⟩ : Fin 64) (⟨e.val % 64, by omega⟩ : Fin 64) := by
  funext b; match b with | ⟨0, _⟩ => rfl | ⟨1, _⟩ => rfl | ⟨2, _⟩ => rfl

theorem v29_at (e : Fin 1048576) : val_main_v29 (F := Ideal) (ix1 e) = Cert.Spec.faSrc e := by
  rw [val_main_v29_apply, idx29_eq, v28_at]
  rfl

theorem v36_at (e : Fin 1048576) : val_main_v36 (F := Ideal) (ix1 e) = Cert.Spec.faDst e := by
  rw [val_main_v36_apply]
  have h : idx_main_v36 (ix1 e) = idx_main_v29 (ix1 e) := rfl
  rw [h, idx29_eq, v35_at]
  rfl

/-- The two rows of the stacked pair. -/
theorem v39_row0 (e : Fin 1048576) : val_main_v39 (F := Ideal) (ix2 (0 : Fin 2) e) = val_main_v29 (F := Ideal) (ix1 e) := by
  unfold val_main_v39
  refine (concatenate_pair_apply_left (t := S2x1048576) (s₁ := S1x1048576) (s₂ := S1x1048576) (0 : Fin 2) _ _ _ (ix2 (0 : Fin 2) e) rfl (ix2 (0 : Fin 1) e) (fun b => ?_)).trans ?_
  · match b with | ⟨0, _⟩ => rfl | ⟨1, _⟩ => rfl
  · rw [val_main_v37_apply]
    refine congrArg _ ?_
    funext b; match b with | ⟨0, _⟩ => rfl

theorem v39_row1 (e : Fin 1048576) : val_main_v39 (F := Ideal) (ix2 (1 : Fin 2) e) = val_main_v36 (F := Ideal) (ix1 e) := by
  unfold val_main_v39
  refine (concatenate_pair_apply_right (t := S2x1048576) (s₁ := S1x1048576) (s₂ := S1x1048576) (0 : Fin 2) _ _ _ (ix2 (1 : Fin 2) e) rfl rfl (ix2 (0 : Fin 1) e) (fun b hb => ?_) rfl).trans ?_
  · match b with | ⟨0, _⟩ => exact absurd rfl hb | ⟨1, _⟩ => rfl
  · rw [val_main_v38_apply]
    refine congrArg _ ?_
    funext b; match b with | ⟨0, _⟩ => rfl

theorem v289_at (e : Fin 1048576) : val_main_v289 (F := Ideal) (ix1 e) = Cert.Spec.faSrc e := by
  rw [val_main_v289_apply, val_main_v288_apply]
  have h : idx_main_v288 (idx_main_v289 (ix1 e)) = ix2 (0 : Fin 2) e := by
    funext b
    match b with
    | ⟨0, _⟩ => rfl
    | ⟨1, _⟩ => exact Fin.ext (Nat.mod_eq_of_lt e.isLt)
  rw [h, v39_row0, v29_at]

theorem v292_at (e : Fin 1048576) : val_main_v292 (F := Ideal) (ix1 e) = Cert.Spec.faDst e := by
  rw [val_main_v292_apply, val_main_v291_apply]
  have h : idx_main_v291 (idx_main_v292 (ix1 e)) = ix2 (1 : Fin 2) e := by
    funext b
    match b with
    | ⟨0, _⟩ => rfl
    | ⟨1, _⟩ => exact Fin.ext (Nat.mod_eq_of_lt e.isLt)
  rw [h, v39_row1, v36_at]

/-- The source column of the last layer: the block-diagonal sources, then the self loops. -/
theorem ref_fa_src (e : Fin 1064960) :
    val_main_v290 (F := Ideal) (ix1 e) = Cert.Spec.withLoops Cert.Spec.faSrc e := by
  unfold val_main_v290
  refine (Cert.LibGraphOps.concatenate_pair1_apply (a := 1048576) (b := 16384) (c := 1064960) rfl _ _ _ e).trans ?_
  unfold Cert.Spec.withLoops
  by_cases hlt : e.val < 1048576
  · rw [dif_pos hlt, dif_pos hlt]
    exact v289_at ⟨e.val, hlt⟩
  · rw [dif_neg hlt, dif_neg hlt]
    rfl

/-- The destination column of the last layer. -/
theorem ref_fa_dst (e : Fin 1064960) :
    val_main_v293 (F := Ideal) (ix1 e) = Cert.Spec.withLoops Cert.Spec.faDst e := by
  unfold val_main_v293
  refine (Cert.LibGraphOps.concatenate_pair1_apply (a := 1048576) (b := 16384) (c := 1064960) rfl _ _ _ e).trans ?_
  unfold Cert.Spec.withLoops
  by_cases hlt : e.val < 1048576
  · rw [dif_pos hlt, dif_pos hlt]
    exact v292_at ⟨e.val, hlt⟩
  · rw [dif_neg hlt, dif_neg hlt]
    rfl

end Cert.RefVal

end
-- ==== Proof.RefDeg3.lean ====
/-
  The last layer of the reference, over the fully adjacent edge list with the self loops: the in-degree over the
  destination list and its guarded inverse square root, read at an index, stated over the destination list's stage.
-/
import proofs.«426592_j50886772523112_2_alg».proof.Proof.RefDegLib
import proofs.«426592_j50886772523112_2_alg».proof.Proof.RefRead

noncomputable section

open scoped BigOperators

namespace Cert.RefVal

open Cert.ReferenceIdeal Cert.ReferenceIdeal.Read Cert.ReferenceIdeal.Gen Idealize.ShloMosaic Idealize.ShloMosaic.ValueIdx

/-- The destination list as a column, entry by entry. -/
theorem ref_col3 (e : Fin 1064960) :
    val_main_v296 (F := Ideal) (ix2 e (0 : Fin 1)) = val_main_v293 (F := Ideal) (ix1 e) := by
  rw [val_main_v296_apply]
  exact congrArg (val_main_v293 (F := Ideal)) (funext fun d => match d with | ⟨0, _⟩ => rfl)

/-- The in-degree over the last layer's destination list. -/
theorem ref_deg3 (i : Fin 16384) :
    val_main_v297 (F := Ideal) (ix1 i)
      = Cert.Spec.degR (fun e : Fin 1064960 => val_main_v293 (F := Ideal) (ix1 e)) i := by
  unfold val_main_v297
  exact hist_degR (K := 1064960) Facts₀.scatter_S16384_S1064960x1_S1064960_n_0_0_1_wf _ rfl
    (val_main_v295 (F := Ideal)) (fun j => by rw [val_main_v295_apply]; rfl)
    (val_main_v296 (F := Ideal)) (val_main_v293 (F := Ideal)) ref_col3
    (val_main_v294 (F := Ideal)) (fun j => by rw [val_main_v294_apply]; rfl) i

/-- The guarded inverse square root of the last layer's in-degree. -/
theorem ref_dinv3 (i : Fin 16384) :
    val_main_v301 (F := Ideal) (ix1 i)
      = Cert.Spec.dinvR (fun e : Fin 1064960 => val_main_v293 (F := Ideal) (ix1 e)) i := by
  rw [val_main_v301_apply, val_main_v299_apply, val_main_v300_apply]
  rw [where_dinv _ _ _
    (show val_main_v298 (F := Ideal) (ix1 i) = Cert.Spec.zero by rw [val_main_v298_apply]; rfl)
    (show val_main_call6_v1 (F := Ideal) (ix1 i) = Cert.Spec.zero by rw [val_main_call6_v1_apply]; rfl)]
  unfold Cert.Spec.dinvR
  rw [ref_deg3]

end Cert.RefVal

end
-- ==== Proof.RefNorm3.lean ====
/-
  The layer normalisation that closes a layer of the edge-list arrangement, read at an index: the row mean and the
  row variance of the residual sum (each a sum over the 128 columns divided by 128), the deviation from the mean
  scaled by the inverse square root of the variance plus the small constant, then scaled and shifted by the layer's
  row of the two parameter tables.
-/
import proofs.«426592_j50886772523112_2_alg».proof.Proof.RefRead
import proofs.«426592_j50886772523112_2_alg».proof.Proof.SpecIO
import Idealize.ShloMosaic.Lib.ValueIdx
import Idealize.ShloMosaic.PureOps.Ideal.Laws

noncomputable section

open scoped BigOperators

namespace Cert.RefVal

open Cert.ReferenceIdeal Cert.ReferenceIdeal.Read Idealize.ShloMosaic Idealize.ShloMosaic.ValueIdx

variable (x0 : (⟨S16384x2, .i32⟩ : BufTy).Contents (Elt Ideal)) (x1 : (⟨S2x262144, .i32⟩ : BufTy).Contents (Elt Ideal))
  (x3 x4 : (⟨S32x128, .f32⟩ : BufTy).Contents (Elt Ideal)) (x5 : (⟨S4x128x128, .f32⟩ : BufTy).Contents (Elt Ideal))
  (x6 x7 x8 : (⟨S4x128, .f32⟩ : BufTy).Contents (Elt Ideal)) (x9 : (⟨S128x32, .f32⟩ : BufTy).Contents (Elt Ideal))
  (x10 : (⟨S32, .f32⟩ : BufTy).Contents (Elt Ideal))

/-! ## The layer normalisation after the layer's residual sum, read at an index -/

/-- The residual sum the normalisation reads, by coordinates. -/
abbrev hs3 : Cert.Spec.Mat 16384 128 := fun i k => val_main_v335 (F := Ideal) x0 x1 x3 x4 x5 x6 x7 x8 (ix2 i k)

/-- The row mean: the row's sum over the 128 columns, divided by 128. -/
theorem mean3 (i : Fin 16384) :
    val_main_v343 (F := Ideal) x0 x1 x3 x4 x5 x6 x7 x8 (ix2 i (0 : Fin 1)) = Cert.Spec.rowMean (hs3 x0 x1 x3 x4 x5 x6 x7 x8) i := by
  rw [val_main_v343_apply, val_main_v341_apply, val_main_v340_apply, val_main_v342_apply]
  simp only [val_main_cst_62_apply, val_main_cst_63_apply, Ideal.ofBits_def, Ideal.hostDivf_def, Ideal.ofBits_zero_f32, zero_add]
  unfold Cert.Spec.rowMean Cert.Spec.c128
  refine congrArg (fun s => Ideal.div s _) ?_
  refine Finset.sum_congr rfl fun k _ => congrArg _ (funext fun a => ?_)
  match a with
  | ⟨0, _⟩ => rfl
  | ⟨1, _⟩ => rfl

/-- A column entry broadcast along the row is read at column 0. -/
theorem col_v344 (i : Fin 16384) (k : Fin 128) : idx_main_v344 (ix2 i k) = ix2 i (0 : Fin 1) :=
  funext fun a => match a with | ⟨0, _⟩ => rfl | ⟨1, _⟩ => rfl
theorem col_v351 (i : Fin 16384) (k : Fin 128) : idx_main_v351 (ix2 i k) = ix2 i (0 : Fin 1) :=
  funext fun a => match a with | ⟨0, _⟩ => rfl | ⟨1, _⟩ => rfl
theorem col_v356 (i : Fin 16384) (k : Fin 128) : idx_main_v356 (ix2 i k) = ix2 i (0 : Fin 1) :=
  funext fun a => match a with | ⟨0, _⟩ => rfl | ⟨1, _⟩ => rfl

/-- The row variance: the sum of the squared deviations from the row mean, divided by 128. -/
theorem var3 (i : Fin 16384) :
    val_main_v350 (F := Ideal) x0 x1 x3 x4 x5 x6 x7 x8 (ix2 i (0 : Fin 1)) = Cert.Spec.rowVar (hs3 x0 x1 x3 x4 x5 x6 x7 x8) i := by
  rw [val_main_v350_apply, val_main_v348_apply, val_main_v347_apply, val_main_v349_apply]
  simp only [val_main_cst_64_apply, val_main_cst_65_apply, Ideal.ofBits_def, Ideal.hostDivf_def, Ideal.ofBits_zero_f32, zero_add]
  unfold Cert.Spec.rowVar Cert.Spec.c128
  refine congrArg (fun s => Ideal.div s _) ?_
  refine Finset.sum_congr rfl fun k _ => ?_
  have e : idx_main_v347 (idx_main_v348 (ix2 i (0 : Fin 1))) k = ix2 i k :=
    funext fun a => match a with | ⟨0, _⟩ => rfl | ⟨1, _⟩ => rfl
  rw [e, val_main_v346_apply, val_main_v345_apply, val_main_v344_apply, col_v344, mean3]
  simp only [Ideal.mulf_def, Ideal.subf_def]

/-- The scale and shift rows are the layer's row of the two parameter tables. -/
theorem gamma3 (i : Fin 16384) (k : Fin 128) :
    idx_main_v336 (idx_main_v337 (idx_main_v358 (idx_main_v359 (ix2 i k)))) = ix2 (3 : Fin 4) k :=
  funext fun a => Fin.ext (by
    have hk : k.val < 128 := k.isLt
    match a with
    | ⟨0, _⟩ => rfl
    | ⟨1, _⟩ => show k.val % 128 = k.val; omega)
theorem beta3 (i : Fin 16384) (k : Fin 128) :
    idx_main_v338 (idx_main_v339 (idx_main_v361 (idx_main_v362 (ix2 i k)))) = ix2 (3 : Fin 4) k :=
  funext fun a => Fin.ext (by
    have hk : k.val < 128 := k.isLt
    match a with
    | ⟨0, _⟩ => rfl
    | ⟨1, _⟩ => show k.val % 128 = k.val; omega)

/-- The normalised table is the specification's layer normalisation of the residual sum. -/
theorem ref_norm3 (i : Fin 16384) (k : Fin 128) :
    val_main_v363 (F := Ideal) x0 x1 x3 x4 x5 x6 x7 x8 (ix2 i k)
      = Cert.Spec.layerNorm (fun i k => val_main_v335 (F := Ideal) x0 x1 x3 x4 x5 x6 x7 x8 (ix2 i k))
          ((Cert.Spec.ofArrays x0 x1 x3 x4 x5 x6 x7 x8 x9 x10).lg 3) ((Cert.Spec.ofArrays x0 x1 x3 x4 x5 x6 x7 x8 x9 x10).lb 3) i k := by
  rw [val_main_v363_apply, val_main_v360_apply, val_main_v357_apply, val_main_v352_apply, val_main_v351_apply,
    val_main_v356_apply, val_main_v355_apply, val_main_v354_apply, val_main_v353_apply,
    val_main_v359_apply, val_main_v358_apply, val_main_v337_apply, val_main_v336_apply,
    val_main_v362_apply, val_main_v361_apply, val_main_v339_apply, val_main_v338_apply,
    col_v351, col_v356, mean3, var3, gamma3, beta3]
  simp only [val_main_cst_66_apply, Ideal.ofBits_def, Ideal.addf_def, Ideal.mulf_def, Ideal.subf_def, Ideal.hostUnary_rsqrt_def]
  rfl

end Cert.RefVal

end
-- ==== Proof.RefLast.lean ====
/-
  The reference's last layer read at an index: the projected table, the rows taken by the wrapped and clamped source
  numbers, every edge's message scaled by the inverse square roots of the degrees at its two ends, the messages summed
  by destination, the bias, the rectification and the residual sum; the layer normalisation closes it.
-/
import proofs.«426592_j50886772523112_2_alg».proof.Proof.RefRead
import proofs.«426592_j50886772523112_2_alg».proof.Proof.SpecIO
import proofs.«426592_j50886772523112_2_alg».proof.Proof.RefOut
import proofs.«426592_j50886772523112_2_alg».proof.Proof.RefEdges
import proofs.«426592_j50886772523112_2_alg».proof.Proof.RefDeg3
import proofs.«426592_j50886772523112_2_alg».proof.Proof.RefNorm3
import proofs.«426592_j50886772523112_2_alg».proof.Proof.LibTakeRows
import proofs.«426592_j50886772523112_2_alg».proof.Proof.LibGraphOps
import proofs.«426592_j50886772523112_2_alg».proof.Proof.LibScatter

noncomputable section

open scoped BigOperators

namespace Cert.RefVal

open Cert.ReferenceIdeal Cert.ReferenceIdeal.Gen Cert.ReferenceIdeal.Read Idealize.ShloMosaic Idealize.ShloMosaic.ValueIdx

/-! ## The weights and the bias of the last layer -/

theorem v284_at (x5 : (⟨S4x128x128, .f32⟩ : BufTy).Contents (Elt Ideal)) (j k : Fin 128) :
    val_main_v284 (F := Ideal) x5 (ix2 j k) = x5 (ix3 (3 : Fin 4) j k) := by
  rw [val_main_v284_apply, val_main_v283_apply]
  refine congrArg x5 ?_
  funext a
  match a with
  | ⟨0, _⟩ => rfl
  | ⟨1, _⟩ => exact Fin.ext (by show (j.val * 128 + k.val) / 128 % 128 = j.val; omega)
  | ⟨2, _⟩ => exact Fin.ext (by show (j.val * 128 + k.val) % 128 = k.val; omega)

theorem v286_at (x6 : (⟨S4x128, .f32⟩ : BufTy).Contents (Elt Ideal)) (k : Fin 128) :
    val_main_v286 (F := Ideal) x6 (ix1 k) = x6 (ix2 (3 : Fin 4) k) := by
  rw [val_main_v286_apply, val_main_v285_apply]
  refine congrArg x6 ?_
  funext a
  match a with
  | ⟨0, _⟩ => rfl
  | ⟨1, _⟩ => exact Fin.ext (Nat.mod_eq_of_lt k.isLt)

theorem v332_at (x6 : (⟨S4x128, .f32⟩ : BufTy).Contents (Elt Ideal)) (i : Fin 16384) (k : Fin 128) :
    val_main_v332 (F := Ideal) x6 (ix2 i k) = x6 (ix2 (3 : Fin 4) k) := by
  rw [val_main_v332_apply, val_main_v331_apply]
  have h : idx_main_v331 (idx_main_v332 (ix2 i k)) = ix1 k := by
    funext a; match a with | ⟨0, _⟩ => rfl
  rw [h, v286_at]

/-! ## The three index columns, wrapped -/

theorem v308_at (e : Fin 1064960) :
    val_main_v308 (F := Ideal) (ix2 e (0 : Fin 1)) = Cert.Spec.wrapIdx 16384#32 (Cert.Spec.withLoops Cert.Spec.faSrc e) := by
  rw [val_main_v308_apply]
  have h : idx_main_v308 (ix2 e (0 : Fin 1)) = ix1 e := by
    funext a; match a with | ⟨0, _⟩ => rfl
  rw [h, val_main_v307_apply, val_main_v304_apply, val_main_v306_apply, val_main_v303_apply, val_main_v305_apply,
    val_main_c_55_apply, val_main_c_56_apply, ref_fa_src]
  exact select_wrap _ _

theorem v315_at (e : Fin 1064960) :
    val_main_v315 (F := Ideal) (ix2 e (0 : Fin 1)) = Cert.Spec.wrapIdx 16384#32 (Cert.Spec.withLoops Cert.Spec.faDst e) := by
  rw [val_main_v315_apply]
  have h : idx_main_v315 (ix2 e (0 : Fin 1)) = ix1 e := by
    funext a; match a with | ⟨0, _⟩ => rfl
  rw [h, val_main_v314_apply, val_main_v311_apply, val_main_v313_apply, val_main_v310_apply, val_main_v312_apply,
    val_main_c_57_apply, val_main_c_58_apply, ref_fa_dst]
  exact select_wrap _ _

theorem v323_at (e : Fin 1064960) :
    val_main_v323 (F := Ideal) (ix2 e (0 : Fin 1)) = Cert.Spec.wrapIdx 16384#32 (Cert.Spec.withLoops Cert.Spec.faSrc e) := by
  rw [val_main_v323_apply]
  have h : idx_main_v323 (ix2 e (0 : Fin 1)) = ix1 e := by
    funext a; match a with | ⟨0, _⟩ => rfl
  rw [h, val_main_v322_apply, val_main_v319_apply, val_main_v321_apply, val_main_v318_apply, val_main_v320_apply,
    val_main_c_59_apply, val_main_c_60_apply, ref_fa_src]
  exact select_wrap _ _

theorem v329_at (e : Fin 1064960) :
    val_main_v329 (F := Ideal) (ix2 e (0 : Fin 1)) = Cert.Spec.withLoops Cert.Spec.faDst e := by
  rw [val_main_v329_apply]
  have h : idx_main_v329 (ix2 e (0 : Fin 1)) = ix1 e := by
    funext a; match a with | ⟨0, _⟩ => rfl
  rw [h, ref_fa_dst]

/-! ## The factor of an edge: dinv at its source times dinv at its destination -/

/-- The destination column as the specification names it. -/
theorem dst_eq : (fun e : Fin 1064960 => val_main_v293 (F := Ideal) (ix1 e)) = Cert.Spec.withLoops Cert.Spec.faDst :=
  funext ref_fa_dst

theorem v301_at (i : Fin 16384) :
    val_main_v301 (F := Ideal) (ix1 i) = Cert.Spec.dinvR (Cert.Spec.withLoops Cert.Spec.faDst) i := by
  rw [ref_dinv3, dst_eq]

theorem v309_at (e : Fin 1064960) :
    val_main_v309 (F := Ideal) (ix1 e)
      = Cert.Spec.dinvR (Cert.Spec.withLoops Cert.Spec.faDst)
          (Cert.Spec.takeRow Cert.Spec.N (by decide) (Cert.Spec.withLoops Cert.Spec.faSrc e)) := by
  unfold val_main_v309
  have hd : gather_S16384_S1064960x1_S1064960_n_0_n_n_0_1_1
      = Cert.LibGraphOps.take1Dims 16384 1064960 Facts₀.gather_S16384_S1064960x1_S1064960_n_0_n_n_0_1_1_wf := rfl
  rw [hd]
  refine (Cert.LibGraphOps.gather_take1_apply (N := 16384) (by decide) _ _ _ e).trans ?_
  rw [v301_at]
  refine congrArg (Cert.Spec.dinvR (Cert.Spec.withLoops Cert.Spec.faDst)) (Fin.ext ?_)
  show min (val_main_v308 (F := Ideal) (ix2 e (0 : Fin 1))).toInt.toNat (16384 - 1) = _
  rw [v308_at]
  rfl

theorem v316_at (e : Fin 1064960) :
    val_main_v316 (F := Ideal) (ix1 e)
      = Cert.Spec.dinvR (Cert.Spec.withLoops Cert.Spec.faDst)
          (Cert.Spec.takeRow Cert.Spec.N (by decide) (Cert.Spec.withLoops Cert.Spec.faDst e)) := by
  unfold val_main_v316
  have hd : gather_S16384_S1064960x1_S1064960_n_0_n_n_0_1_1
      = Cert.LibGraphOps.take1Dims 16384 1064960 Facts₀.gather_S16384_S1064960x1_S1064960_n_0_n_n_0_1_1_wf := rfl
  rw [hd]
  refine (Cert.LibGraphOps.gather_take1_apply (N := 16384) (by decide) _ _ _ e).trans ?_
  rw [v301_at]
  refine congrArg (Cert.Spec.dinvR (Cert.Spec.withLoops Cert.Spec.faDst)) (Fin.ext ?_)
  show min (val_main_v315 (F := Ideal) (ix2 e (0 : Fin 1))).toInt.toNat (16384 - 1) = _
  rw [v315_at]
  rfl

theorem v317_at (e : Fin 1064960) :
    val_main_v317 (F := Ideal) (ix1 e)
      = Cert.Spec.dinvR (Cert.Spec.withLoops Cert.Spec.faDst)
          (Cert.Spec.takeRow Cert.Spec.N (by decide) (Cert.Spec.withLoops Cert.Spec.faSrc e))
        * Cert.Spec.dinvR (Cert.Spec.withLoops Cert.Spec.faDst)
          (Cert.Spec.takeRow Cert.Spec.N (by decide) (Cert.Spec.withLoops Cert.Spec.faDst e)) := by
  rw [val_main_v317_apply, Ideal.mulf_def, v309_at, v316_at]

theorem v326_at (e : Fin 1064960) (k : Fin 128) :
    val_main_v326 (F := Ideal) (ix2 e k) = val_main_v317 (F := Ideal) (ix1 e) := by
  rw [val_main_v326_apply, val_main_v325_apply]
  refine congrArg _ ?_
  funext a; match a with | ⟨0, _⟩ => rfl

/-! ## The projected table, its rows taken by source, the messages and their sum by destination -/

section
variable (x0 : (⟨S16384x2, .i32⟩ : BufTy).Contents (Elt Ideal)) (x1 : (⟨S2x262144, .i32⟩ : BufTy).Contents (Elt Ideal))
    (x3 x4 : (⟨S32x128, .f32⟩ : BufTy).Contents (Elt Ideal)) (x5 : (⟨S4x128x128, .f32⟩ : BufTy).Contents (Elt Ideal))
    (x6 x7 x8 : (⟨S4x128, .f32⟩ : BufTy).Contents (Elt Ideal))

theorem v302_at (i : Fin 16384) (k : Fin 128) :
    val_main_v302 (F := Ideal) x0 x1 x3 x4 x5 x6 x7 x8 (ix2 i k)
      = Cert.Spec.mm (fun i k => val_main_v282 (F := Ideal) x0 x1 x3 x4 x5 x6 x7 x8 (ix2 i k))
          (fun j k => x5 (ix3 (3 : Fin 4) j k)) i k := by
  rw [val_main_v302_apply]
  unfold Cert.Spec.mm
  refine Finset.sum_congr rfl fun j _ => ?_
  have hl : lidx_main_v302 (ix2 i k) j = ix2 i j := by
    funext a; match a with | ⟨0, _⟩ => rfl | ⟨1, _⟩ => rfl
  have hr : ridx_main_v302 (ix2 i k) j = ix2 j k := by
    funext a; match a with | ⟨0, _⟩ => rfl | ⟨1, _⟩ => rfl
  rw [hl, hr, v284_at]

theorem v324_at (e : Fin 1064960) (k : Fin 128) :
    val_main_v324 (F := Ideal) x0 x1 x3 x4 x5 x6 x7 x8 (ix2 e k)
      = Cert.Spec.mm (fun i k => val_main_v282 (F := Ideal) x0 x1 x3 x4 x5 x6 x7 x8 (ix2 i k))
          (fun j k => x5 (ix3 (3 : Fin 4) j k))
          (Cert.Spec.takeRow Cert.Spec.N (by decide) (Cert.Spec.withLoops Cert.Spec.faSrc e)) k := by
  unfold val_main_v324
  have hd : gather_S16384x128_S1064960x1_S1064960x128_1_0_n_n_0_1_1128
      = Cert.LibTakeRows.rowDims 16384 128 1064960 Facts₀.gather_S16384x128_S1064960x1_S1064960x128_1_0_n_n_0_1_1128_wf := rfl
  rw [hd]
  refine (Cert.LibTakeRows.gather_rows_apply (N := 16384) (by decide) _ _ _ e k).trans ?_
  rw [v302_at]
  refine congrArg (fun r : Fin 16384 => Cert.Spec.mm (fun i k => val_main_v282 (F := Ideal) x0 x1 x3 x4 x5 x6 x7 x8 (ix2 i k))
    (fun j k => x5 (ix3 (3 : Fin 4) j k)) r k) (Fin.ext ?_)
  show min (val_main_v323 (F := Ideal) (ix2 e (0 : Fin 1))).toInt.toNat (16384 - 1) = _
  rw [v323_at]
  rfl

theorem v327_at (e : Fin 1064960) (k : Fin 128) :
    val_main_v327 (F := Ideal) x0 x1 x3 x4 x5 x6 x7 x8 (ix2 e k)
      = Cert.Spec.mm (fun i k => val_main_v282 (F := Ideal) x0 x1 x3 x4 x5 x6 x7 x8 (ix2 i k))
          (fun j k => x5 (ix3 (3 : Fin 4) j k))
          (Cert.Spec.takeRow Cert.Spec.N (by decide) (Cert.Spec.withLoops Cert.Spec.faSrc e)) k
        * (Cert.Spec.dinvR (Cert.Spec.withLoops Cert.Spec.faDst)
            (Cert.Spec.takeRow Cert.Spec.N (by decide) (Cert.Spec.withLoops Cert.Spec.faSrc e))
          * Cert.Spec.dinvR (Cert.Spec.withLoops Cert.Spec.faDst)
            (Cert.Spec.takeRow Cert.Spec.N (by decide) (Cert.Spec.withLoops Cert.Spec.faDst e))) := by
  rw [val_main_v327_apply, Ideal.mulf_def, v324_at, v326_at, v317_at]

theorem v328_at (i : Fin 16384) (k : Fin 128) : val_main_v328 (F := Ideal) (ix2 i k) = Cert.Spec.zero := by
  rw [val_main_v328_apply, val_main_cst_61_apply]
  rfl

theorem v330_at (i : Fin 16384) (k : Fin 128) :
    val_main_v330 (F := Ideal) x0 x1 x3 x4 x5 x6 x7 x8 (ix2 i k)
      = Cert.Spec.aggR (fun i k => val_main_v282 (F := Ideal) x0 x1 x3 x4 x5 x6 x7 x8 (ix2 i k))
          (fun j k => x5 (ix3 (3 : Fin 4) j k)) (Cert.Spec.withLoops Cert.Spec.faSrc) (Cert.Spec.withLoops Cert.Spec.faDst) i k := by
  unfold val_main_v330
  have hd : scatter_S16384x128_S1064960x1_S1064960x128_1_0_0_1
      = Cert.LibScatter.rowDims 16384 1064960 128 Facts₀.scatter_S16384x128_S1064960x1_S1064960x128_1_0_0_1_wf := rfl
  rw [hd]
  refine (Cert.LibScatter.rowDims_scatterAdd_apply _ _ _ _ i k).trans ?_
  rw [v328_at]
  unfold Cert.Spec.aggR
  refine congrArg (fun s => Cert.Spec.zero + s) ?_
  refine Finset.sum_congr rfl fun e _ => ?_
  rw [v329_at, v327_at]
  exact if_congr Iff.rfl rfl rfl

/-- The residual sum of the last layer: the table plus the rectified aggregate with its bias. -/
theorem ref_sum3 (i : Fin 16384) (k : Fin 128) :
    val_main_v335 (F := Ideal) x0 x1 x3 x4 x5 x6 x7 x8 (ix2 i k)
      = val_main_v282 (F := Ideal) x0 x1 x3 x4 x5 x6 x7 x8 (ix2 i k)
        + max (Cert.Spec.aggR (fun i k => val_main_v282 (F := Ideal) x0 x1 x3 x4 x5 x6 x7 x8 (ix2 i k))
            (fun j k => x5 (ix3 (3 : Fin 4) j k)) (Cert.Spec.withLoops Cert.Spec.faSrc) (Cert.Spec.withLoops Cert.Spec.faDst) i k
          + x6 (ix2 (3 : Fin 4) k)) Cert.Spec.zero := by
  rw [val_main_v335_apply, val_main_v334_apply, val_main_v333_apply, Ideal.addf_def, Ideal.maximumf_def, Ideal.addf_def,
    v330_at, v332_at, val_main_call7_v0_apply, val_main_call7_cst_apply]
  rfl

end

/-- The last layer of the reference at an index: the message-passing layer over the fully adjacent edge list with its
    self loops, applied to the table the third layer left. -/
theorem ref_h4 (x0 : (⟨S16384x2, .i32⟩ : BufTy).Contents (Elt Ideal)) (x1 : (⟨S2x262144, .i32⟩ : BufTy).Contents (Elt Ideal))
    (x3 x4 : (⟨S32x128, .f32⟩ : BufTy).Contents (Elt Ideal)) (x5 : (⟨S4x128x128, .f32⟩ : BufTy).Contents (Elt Ideal))
    (x6 x7 x8 : (⟨S4x128, .f32⟩ : BufTy).Contents (Elt Ideal))
    (x9 : (⟨S128x32, .f32⟩ : BufTy).Contents (Elt Ideal)) (x10 : (⟨S32, .f32⟩ : BufTy).Contents (Elt Ideal))
    (i : Fin 16384) (k : Fin 128) :
    val_main_v363 (F := Ideal) x0 x1 x3 x4 x5 x6 x7 x8 (ix2 i k)
      = Cert.Spec.layerR (fun i k => val_main_v282 (F := Ideal) x0 x1 x3 x4 x5 x6 x7 x8 (ix2 i k))
          ((Cert.Spec.ofArrays x0 x1 x3 x4 x5 x6 x7 x8 x9 x10).Ws 3) ((Cert.Spec.ofArrays x0 x1 x3 x4 x5 x6 x7 x8 x9 x10).bs 3)
          ((Cert.Spec.ofArrays x0 x1 x3 x4 x5 x6 x7 x8 x9 x10).lg 3) ((Cert.Spec.ofArrays x0 x1 x3 x4 x5 x6 x7 x8 x9 x10).lb 3)
          (Cert.Spec.withLoops Cert.Spec.faSrc) (Cert.Spec.withLoops Cert.Spec.faDst) i k := by
  have h : (fun (i : Fin 16384) (k : Fin 128) => val_main_v335 (F := Ideal) x0 x1 x3 x4 x5 x6 x7 x8 (ix2 i k))
      = fun i k => val_main_v282 (F := Ideal) x0 x1 x3 x4 x5 x6 x7 x8 (ix2 i k)
        + max (Cert.Spec.aggR (fun i k => val_main_v282 (F := Ideal) x0 x1 x3 x4 x5 x6 x7 x8 (ix2 i k))
            ((Cert.Spec.ofArrays x0 x1 x3 x4 x5 x6 x7 x8 x9 x10).Ws 3) (Cert.Spec.withLoops Cert.Spec.faSrc) (Cert.Spec.withLoops Cert.Spec.faDst) i k
          + (Cert.Spec.ofArrays x0 x1 x3 x4 x5 x6 x7 x8 x9 x10).bs 3 k) Cert.Spec.zero :=
    funext fun i => funext fun k => ref_sum3 x0 x1 x3 x4 x5 x6 x7 x8 i k
  refine (ref_norm3 x0 x1 x3 x4 x5 x6 x7 x8 x9 x10 i k).trans ?_
  rw [h]
  rfl

end Cert.RefVal

end
-- ==== Proof.RefChain.lean ====
/-
  The edge-list arrangement read off the reference program whole: its embedding, its four message-passing layers and
  its output projection, each read at an index as the matching piece of the specification, compose to `runR`.
-/
import proofs.«426592_j50886772523112_2_alg».proof.Proof.RefRead
import proofs.«426592_j50886772523112_2_alg».proof.Proof.SpecIO
import proofs.«426592_j50886772523112_2_alg».proof.Proof.RefEmb
import proofs.«426592_j50886772523112_2_alg».proof.Proof.RefLayer0
import proofs.«426592_j50886772523112_2_alg».proof.Proof.RefLayer1
import proofs.«426592_j50886772523112_2_alg».proof.Proof.RefLayer2
import proofs.«426592_j50886772523112_2_alg».proof.Proof.RefLast
import proofs.«426592_j50886772523112_2_alg».proof.Proof.RefOut

noncomputable section

namespace Cert.RefVal

open Cert.ReferenceIdeal Cert.ReferenceIdeal.Gen Cert.ReferenceIdeal.Read Idealize.ShloMosaic Idealize.ShloMosaic.ValueIdx
/-- The reference's result at (graph, class) is the edge-list arrangement of the inputs read by coordinates. -/
theorem ref_value (x0 : (⟨S16384x2, .i32⟩ : BufTy).Contents (Elt Ideal)) (x1 : (⟨S2x262144, .i32⟩ : BufTy).Contents (Elt Ideal))
    (x3 x4 : (⟨S32x128, .f32⟩ : BufTy).Contents (Elt Ideal)) (x5 : (⟨S4x128x128, .f32⟩ : BufTy).Contents (Elt Ideal))
    (x6 x7 x8 : (⟨S4x128, .f32⟩ : BufTy).Contents (Elt Ideal)) (x9 : (⟨S128x32, .f32⟩ : BufTy).Contents (Elt Ideal))
    (x10 : (⟨S32, .f32⟩ : BufTy).Contents (Elt Ideal)) (g : Fin 256) (c : Fin 32) :
    val_main_v377 (F := Ideal) x0 x1 x3 x4 x5 x6 x7 x8 x9 x10 (ix2 g c)
      = Cert.Spec.runR (Cert.Spec.ofArrays x0 x1 x3 x4 x5 x6 x7 x8 x9 x10) g c := by
  have e0 : (fun i k => val_main_v18 (F := Ideal) x0 x3 x4 (ix2 i k)) = Cert.Spec.embR (Cert.Spec.ofArrays x0 x1 x3 x4 x5 x6 x7 x8 x9 x10) :=
    funext fun i => funext fun k => ref_h0 ..
  have e1 : (fun i k => val_main_v120 (F := Ideal) x0 x1 x3 x4 x5 x6 x7 x8 (ix2 i k))
      = Cert.Spec.layerR (fun i k => val_main_v18 (F := Ideal) x0 x3 x4 (ix2 i k))
          ((Cert.Spec.ofArrays x0 x1 x3 x4 x5 x6 x7 x8 x9 x10).Ws 0) ((Cert.Spec.ofArrays x0 x1 x3 x4 x5 x6 x7 x8 x9 x10).bs 0) ((Cert.Spec.ofArrays x0 x1 x3 x4 x5 x6 x7 x8 x9 x10).lg 0) ((Cert.Spec.ofArrays x0 x1 x3 x4 x5 x6 x7 x8 x9 x10).lb 0) (Cert.Spec.withLoops ((Cert.Spec.ofArrays x0 x1 x3 x4 x5 x6 x7 x8 x9 x10).ei 0)) (Cert.Spec.withLoops ((Cert.Spec.ofArrays x0 x1 x3 x4 x5 x6 x7 x8 x9 x10).ei 1)) :=
    funext fun i => funext fun k => ref_h1 ..
  have e2 : (fun i k => val_main_v201 (F := Ideal) x0 x1 x3 x4 x5 x6 x7 x8 (ix2 i k))
      = Cert.Spec.layerR (fun i k => val_main_v120 (F := Ideal) x0 x1 x3 x4 x5 x6 x7 x8 (ix2 i k))
          ((Cert.Spec.ofArrays x0 x1 x3 x4 x5 x6 x7 x8 x9 x10).Ws 1) ((Cert.Spec.ofArrays x0 x1 x3 x4 x5 x6 x7 x8 x9 x10).bs 1) ((Cert.Spec.ofArrays x0 x1 x3 x4 x5 x6 x7 x8 x9 x10).lg 1) ((Cert.Spec.ofArrays x0 x1 x3 x4 x5 x6 x7 x8 x9 x10).lb 1) (Cert.Spec.withLoops ((Cert.Spec.ofArrays x0 x1 x3 x4 x5 x6 x7 x8 x9 x10).ei 0)) (Cert.Spec.withLoops ((Cert.Spec.ofArrays x0 x1 x3 x4 x5 x6 x7 x8 x9 x10).ei 1)) :=
    funext fun i => funext fun k => ref_h2 ..
  have e3 : (fun i k => val_main_v282 (F := Ideal) x0 x1 x3 x4 x5 x6 x7 x8 (ix2 i k))
      = Cert.Spec.layerR (fun i k => val_main_v201 (F := Ideal) x0 x1 x3 x4 x5 x6 x7 x8 (ix2 i k))
          ((Cert.Spec.ofArrays x0 x1 x3 x4 x5 x6 x7 x8 x9 x10).Ws 2) ((Cert.Spec.ofArrays x0 x1 x3 x4 x5 x6 x7 x8 x9 x10).bs 2) ((Cert.Spec.ofArrays x0 x1 x3 x4 x5 x6 x7 x8 x9 x10).lg 2) ((Cert.Spec.ofArrays x0 x1 x3 x4 x5 x6 x7 x8 x9 x10).lb 2) (Cert.Spec.withLoops ((Cert.Spec.ofArrays x0 x1 x3 x4 x5 x6 x7 x8 x9 x10).ei 0)) (Cert.Spec.withLoops ((Cert.Spec.ofArrays x0 x1 x3 x4 x5 x6 x7 x8 x9 x10).ei 1)) :=
    funext fun i => funext fun k => ref_h3 ..
  have e4 : (fun i k => val_main_v363 (F := Ideal) x0 x1 x3 x4 x5 x6 x7 x8 (ix2 i k))
      = Cert.Spec.layerR (fun i k => val_main_v282 (F := Ideal) x0 x1 x3 x4 x5 x6 x7 x8 (ix2 i k))
          ((Cert.Spec.ofArrays x0 x1 x3 x4 x5 x6 x7 x8 x9 x10).Ws 3) ((Cert.Spec.ofArrays x0 x1 x3 x4 x5 x6 x7 x8 x9 x10).bs 3) ((Cert.Spec.ofArrays x0 x1 x3 x4 x5 x6 x7 x8 x9 x10).lg 3) ((Cert.Spec.ofArrays x0 x1 x3 x4 x5 x6 x7 x8 x9 x10).lb 3) (Cert.Spec.withLoops Cert.Spec.faSrc) (Cert.Spec.withLoops Cert.Spec.faDst) :=
    funext fun i => funext fun k => ref_h4 ..
  rw [ref_out x0 x1 x3 x4 x5 x6 x7 x8 x9 x10 g c, e4, e3, e2, e1, e0]
  rfl

end Cert.RefVal

end
-- ==== Proof.LibStretch.lean ====
/-
  A long straight line of host operations read at one buffer, stretch by stretch.

  When each operation of the line writes exactly one buffer, and the list of those result references is known, "no
  operation from position k on writes r" is one membership test in a list of references. A buffer that is not
  written from position k on holds after the whole line what it holds after the first k operations; cutting once
  more at i ≤ k, it holds what the operations i … k-1 leave when run from the contents the first i left. A proof
  reads a long line this way: it names the contents after a prefix, runs a short stretch over them, and reads the
  stretch's inputs back as the whole line's contents (they are not written again either).
-/
import Mathlib.Data.List.Forall2
import Idealize.ShloMosaic.Lib.StableHlo.Run

namespace Cert.LibStretch

open Idealize.ShloMosaic Idealize.ShloMosaic.StableHlo

variable {τ : Topo} {sig : RefSig} {Val : EltTy → Type}

/-- Operation by operation, the line writes exactly the buffers of the references ys. -/
def WritesAre (ops : List (HloOp τ sig Val)) (ys : List (Ref sig .tc)) : Prop :=
  List.Forall₂ (fun op y => op.writes = {Proc.devRef .tc y}) ops ys

/-- A reference outside the list is written by no operation of the line. -/
theorem not_mem_writes {ops : List (HloOp τ sig Val)} {ys : List (Ref sig .tc)} (h : WritesAre ops ys)
    {r : Ref sig .tc} (hr : r ∉ ys) : ∀ op ∈ ops, Proc.devRef (τ := τ) .tc r ∉ op.writes := by
  induction h with
  | nil => intro op hop; exact absurd hop List.not_mem_nil
  | cons hxy _ ih =>
    intro op hop
    rcases List.mem_cons.mp hop with e | hop
    · subst e
      rw [hxy, Finset.mem_singleton]
      exact devRef_ne_of_ne fun e => hr (e ▸ List.mem_cons_self)
    · exact ih (fun hm => hr (List.mem_cons_of_mem _ hm)) op hop

/-- Two lines run one after the other. -/
theorem after_cat : ∀ (l₁ l₂ : List (HloOp τ sig Val)) (W : Valuation τ sig Val),
    after (l₁ ++ l₂) W = after l₂ (after l₁ W)
  | [], _, _ => rfl
  | op :: l₁, l₂, W => by rw [List.cons_append, after_cons, after_cons, after_cat l₁ l₂]

/-- The contents after the first i operations of the line (a name of its own, so that a proof can set the prefix aside
    as one object while it computes with a stretch that follows it). -/
def pre (ops : List (HloOp τ sig Val)) (i : Nat) (W : Valuation τ sig Val) : Valuation τ sig Val := after (ops.take i) W

/-- A buffer no operation from position k on writes holds, after the line, what it holds after the first k. -/
theorem after_eq_take {ops : List (HloOp τ sig Val)} {ys : List (Ref sig .tc)} (h : WritesAre ops ys) (k : Nat)
    (W : Valuation τ sig Val) (r : Ref sig .tc) (hr : r ∉ ys.drop k) :
    after ops W (Proc.devRef .tc r) = after (ops.take k) W (Proc.devRef .tc r) := by
  conv_lhs => rw [← List.take_append_drop k ops]
  rw [after_cat, after_of_forall_not_mem _ _ (not_mem_writes (List.forall₂_drop k h) hr)]

/-- The same, the prefix named. -/
theorem after_eq_pre {ops : List (HloOp τ sig Val)} {ys : List (Ref sig .tc)} (h : WritesAre ops ys) (k : Nat)
    (W : Valuation τ sig Val) (r : Ref sig .tc) (hr : r ∉ ys.drop k) :
    after ops W (Proc.devRef .tc r) = pre ops k W (Proc.devRef .tc r) :=
  after_eq_take h k W r hr

/-- The same, cut once more at i ≤ k: the operations i … k-1 run from what the first i left. -/
theorem after_eq_stretch {ops : List (HloOp τ sig Val)} {ys : List (Ref sig .tc)} (h : WritesAre ops ys) (i k : Nat)
    (hik : i ≤ k) (W : Valuation τ sig Val) (r : Ref sig .tc) (hr : r ∉ ys.drop k) :
    after ops W (Proc.devRef .tc r) = after ((ops.take k).drop i) (pre ops i W) (Proc.devRef .tc r) := by
  rw [after_eq_take h k W r hr]
  conv_lhs => rw [← List.take_append_drop i (ops.take k)]
  rw [after_cat, List.take_take, Nat.min_eq_left hik]
  rfl

end Cert.LibStretch
-- ==== Proof.LibSsa.lean ====
/-
  A straight line of host operations in single-assignment form, read one operation at a time.

  When each operation of a line writes exactly one buffer and the list of the written references is known, the line
  is in single-assignment form where every reference occurs once in that list. The contents of the buffer the
  operation at position k writes are then, after the WHOLE line, that operation's function applied to the contents,
  after the WHOLE line, of its operand buffers: the result buffer is not written again after position k, so it keeps
  what the operation gave it; and no operand is written at or after position k, so what the operation read (the
  contents after the first k operations) is what the operand still holds at the end. Both side conditions are
  membership tests in a tail of the list of written references. One such one-step equation per kind of operation
  (no operand, one, two, three, a reshape) turns a long line into a system of equations between final contents,
  each of which mentions only final contents.
-/
import proofs.«426592_j50886772523112_2_alg».proof.Proof.LibStretch

namespace Cert.LibSsa

open Idealize.ShloMosaic Idealize.ShloMosaic.StableHlo Cert.LibStretch

variable {τ : Topo} {sig : RefSig} {Val : EltTy → Type}
variable {ops : List (HloOp τ sig Val)} {ys : List (Ref sig .tc)}

/-- A buffer not written after position k holds, after the line, what the operation at position k leaves in it when
    run from the contents after the first k operations. -/
theorem after_at (h : WritesAre ops ys) (k : Nat) (W : Valuation τ sig Val) (op : HloOp τ sig Val)
    (hop : ops[k]? = some op) (y : Ref sig .tc) (hy : y ∉ ys.drop (k + 1)) :
    after ops W (Proc.devRef .tc y) = op.result (after (ops.take k) W) (Proc.devRef .tc y) := by
  rw [after_eq_take h (k + 1) W y hy, List.take_succ, hop, Option.toList_some, after_cat, after_cons, after_nil]

/-- A buffer not written at or after position k holds after the first k operations what it holds after the line. -/
theorem read_take (h : WritesAre ops ys) (k : Nat) (W : Valuation τ sig Val) (x : Ref sig .tc)
    (hx : x ∉ ys.drop k) :
    after (ops.take k) W (Proc.devRef .tc x) = after ops W (Proc.devRef .tc x) :=
  (after_eq_take h k W x hx).symm

/-- A reference the line never writes keeps its contents. -/
theorem keeps (h : WritesAre ops ys) (W : Valuation τ sig Val) (r : Ref sig .tc) (hr : r ∉ ys) :
    after ops W (Proc.devRef .tc r) = W (Proc.devRef .tc r) :=
  after_of_forall_not_mem ops W (not_mem_writes h hr)

/-- One step, no operand: the result buffer of a constant at position k, not written again, holds the constant. -/
theorem at_nullary (h : WritesAre ops ys) (k : Nat) (W : Valuation τ sig Val) {y : Ref sig .tc}
    (v : y.ty.Contents Val) (hy0) (hop : ops[k]? = some (nullary y v hy0)) (hy : y ∉ ys.drop (k + 1)) :
    after ops W (Proc.devRef .tc y) = v := by
  rw [after_at h k W _ hop y hy]; exact nullary_result y v hy0 _

/-- One step, one operand: the result buffer holds the function of the operand's final contents. -/
theorem at_unary (h : WritesAre ops ys) (k : Nat) (W : Valuation τ sig Val) {x y : Ref sig .tc}
    (f : x.ty.Contents Val → y.ty.Contents Val) (hx0 hy0) (hop : ops[k]? = some (unary x y f hx0 hy0))
    (hy : y ∉ ys.drop (k + 1)) (hx : x ∉ ys.drop k) :
    after ops W (Proc.devRef .tc y) = f (after ops W (Proc.devRef .tc x)) := by
  rw [after_at h k W _ hop y hy, ← read_take h k W x hx]; exact unary_result x y f hx0 hy0 _

/-- One step, two operands: the result buffer holds the function of the two operands' final contents. -/
theorem at_binary (h : WritesAre ops ys) (k : Nat) (W : Valuation τ sig Val) {a b y : Ref sig .tc}
    (f : a.ty.Contents Val → b.ty.Contents Val → y.ty.Contents Val) (ha0 hb0 hy0)
    (hop : ops[k]? = some (binary a b y f ha0 hb0 hy0))
    (hy : y ∉ ys.drop (k + 1)) (ha : a ∉ ys.drop k) (hb : b ∉ ys.drop k) :
    after ops W (Proc.devRef .tc y) = f (after ops W (Proc.devRef .tc a)) (after ops W (Proc.devRef .tc b)) := by
  rw [after_at h k W _ hop y hy, ← read_take h k W a ha, ← read_take h k W b hb]
  exact binary_result a b y f ha0 hb0 hy0 _

/-- One step, three operands: the result buffer holds the function of the three operands' final contents. -/
theorem at_ternary (h : WritesAre ops ys) (k : Nat) (W : Valuation τ sig Val) {c a b y : Ref sig .tc}
    (f : c.ty.Contents Val → a.ty.Contents Val → b.ty.Contents Val → y.ty.Contents Val) (hc0 ha0 hb0 hy0)
    (hop : ops[k]? = some (ternary c a b y f hc0 ha0 hb0 hy0))
    (hy : y ∉ ys.drop (k + 1)) (hc : c ∉ ys.drop k) (ha : a ∉ ys.drop k) (hb : b ∉ ys.drop k) :
    after ops W (Proc.devRef .tc y)
      = f (after ops W (Proc.devRef .tc c)) (after ops W (Proc.devRef .tc a)) (after ops W (Proc.devRef .tc b)) := by
  rw [after_at h k W _ hop y hy, ← read_take h k W c hc, ← read_take h k W a ha, ← read_take h k W b hb]
  exact ternary_result c a b y f hc0 ha0 hb0 hy0 _

/-- One step, a reshape: the result buffer holds the operand's final contents, in row-major order at its own shape. -/
theorem at_reshape (h : WritesAre ops ys) (k : Nat) (W : Valuation τ sig Val) {x y : Ref sig .tc}
    (he : x.ty.elt = y.ty.elt) (hn : x.ty.shape.ShapeCasts y.ty.shape) (hx0 hy0)
    (hop : ops[k]? = some (reshape x y he hn hx0 hy0)) (hy : y ∉ ys.drop (k + 1)) (hx : x ∉ ys.drop k) :
    after ops W (Proc.devRef .tc y) = fun i => he ▸ shapeCast y.ty.shape (after ops W (Proc.devRef .tc x)) hn i := by
  rw [after_at h k W _ hop y hy, ← read_take h k W x hx]; exact reshape_result x y he hn hx0 hy0 _

/-- Proves that a literal line writes, operation by operation, the references of a literal list of the same length:
    each step is the operation's set of written buffers, by computation. -/
macro "writes_are" : tactic =>
  `(tactic| (unfold Cert.LibStretch.WritesAre
             repeat (first | exact List.Forall₂.nil | refine List.Forall₂.cons rfl ?_)))

end Cert.LibSsa
-- ==== Proof.LibSsaT.lean ====
/-
  One-step equations of a single-assignment line of host operations, over typed references.

  Inside a module-local function an operation is stated over typed references: its function acts between the types the
  references carry, and the buffers' own types are reached by a transport along each reference's type equation. Read
  through that transport, the one-step equations keep the operation's function at the head of the right-hand side, so
  that comparing such an equation with a statement over literal buffers never has to open the function.
-/
import proofs.«426592_j50886772523112_2_alg».proof.Proof.LibSsa

namespace Cert.LibSsa

open Idealize.ShloMosaic Idealize.ShloMosaic.StableHlo Cert.LibStretch

variable {τ : Topo} {sig : RefSig} {Val : EltTy → Type}
variable {ops : List (HloOp τ sig Val)} {ys : List (Ref sig .tc)}

/-- Reading a typed reference's buffer back at the reference's type undoes storing at it. -/
theorem ofBuf_toBuf {T : BufTy} (y : TRef sig T) (v : T.Contents Val) : y.ofBuf (y.toBuf v) = v := by
  obtain ⟨r, hr, _, _⟩ := y
  subst hr
  rfl

/-- One step over typed references, no operand. -/
theorem at_tnullary (h : WritesAre ops ys) (k : Nat) (W : Valuation τ sig Val) {Ty : BufTy} (y : TRef sig Ty)
    (v : Ty.Contents Val) (hop : ops[k]? = some (TRef.nullary y v)) (hy : y.ref ∉ ys.drop (k + 1)) :
    y.ofBuf (after ops W (Proc.devRef .tc y.ref)) = v := by
  rw [at_nullary h k W _ _ hop hy]; exact ofBuf_toBuf y _

/-- One step over typed references, one operand. -/
theorem at_tunary (h : WritesAre ops ys) (k : Nat) (W : Valuation τ sig Val) {Tx Ty : BufTy} (x : TRef sig Tx)
    (y : TRef sig Ty) (f : Tx.Contents Val → Ty.Contents Val) (hop : ops[k]? = some (TRef.unary x y f))
    (hy : y.ref ∉ ys.drop (k + 1)) (hx : x.ref ∉ ys.drop k) :
    y.ofBuf (after ops W (Proc.devRef .tc y.ref)) = f (x.ofBuf (after ops W (Proc.devRef .tc x.ref))) := by
  rw [at_unary h k W _ _ _ hop hy hx]; exact ofBuf_toBuf y _

/-- One step over typed references, two operands. -/
theorem at_tbinary (h : WritesAre ops ys) (k : Nat) (W : Valuation τ sig Val) {Ta Tb Ty : BufTy} (a : TRef sig Ta)
    (b : TRef sig Tb) (y : TRef sig Ty) (f : Ta.Contents Val → Tb.Contents Val → Ty.Contents Val)
    (hop : ops[k]? = some (TRef.binary a b y f))
    (hy : y.ref ∉ ys.drop (k + 1)) (ha : a.ref ∉ ys.drop k) (hb : b.ref ∉ ys.drop k) :
    y.ofBuf (after ops W (Proc.devRef .tc y.ref))
      = f (a.ofBuf (after ops W (Proc.devRef .tc a.ref))) (b.ofBuf (after ops W (Proc.devRef .tc b.ref))) := by
  rw [at_binary h k W _ _ _ _ hop hy ha hb]; exact ofBuf_toBuf y _

/-- One step over typed references, three operands. -/
theorem at_tternary (h : WritesAre ops ys) (k : Nat) (W : Valuation τ sig Val) {Tc Ta Tb Ty : BufTy} (c : TRef sig Tc)
    (a : TRef sig Ta) (b : TRef sig Tb) (y : TRef sig Ty)
    (f : Tc.Contents Val → Ta.Contents Val → Tb.Contents Val → Ty.Contents Val)
    (hop : ops[k]? = some (TRef.ternary c a b y f))
    (hy : y.ref ∉ ys.drop (k + 1)) (hc : c.ref ∉ ys.drop k) (ha : a.ref ∉ ys.drop k) (hb : b.ref ∉ ys.drop k) :
    y.ofBuf (after ops W (Proc.devRef .tc y.ref))
      = f (c.ofBuf (after ops W (Proc.devRef .tc c.ref))) (a.ofBuf (after ops W (Proc.devRef .tc a.ref)))
          (b.ofBuf (after ops W (Proc.devRef .tc b.ref))) := by
  rw [at_ternary h k W _ _ _ _ _ hop hy hc ha hb]; exact ofBuf_toBuf y _

end Cert.LibSsa
-- ==== Proof.LibSsaTL.lean ====
/-
  One-step equations of a single-assignment line of host operations, over typed references that carry the buffer's
  own type.

  A typed reference to a literal buffer, typed at that buffer's own type, moves contents along an equation that is
  reflexivity: reading and storing through it are the identity. For such references the one-step equations hold
  between the buffers' final contents themselves, with no transport on either side; an operation printed at a literal
  type that the buffer's type computes to is such an operation.
-/
import proofs.«426592_j50886772523112_2_alg».proof.Proof.LibSsaT

namespace Cert.LibSsa

open Idealize.ShloMosaic Idealize.ShloMosaic.StableHlo Cert.LibStretch

variable {τ : Topo} {sig : RefSig} {Val : EltTy → Type}
variable {ops : List (HloOp τ sig Val)} {ys : List (Ref sig .tc)}

/-- One step over typed references at the buffers' own types, no operand. -/
theorem at_lnullary (h : WritesAre ops ys) (k : Nat) (W : Valuation τ sig Val) {y : Ref sig .tc} (hyd hys)
    (v : y.ty.Contents Val) (hop : ops[k]? = some (TRef.nullary (TRef.of (T := y.ty) y rfl hyd hys) v))
    (hy : y ∉ ys.drop (k + 1)) :
    after ops W (Proc.devRef .tc y) = v :=
  at_tnullary h k W (TRef.of (T := y.ty) y rfl hyd hys) v hop hy

/-- One step over typed references at the buffers' own types, one operand. -/
theorem at_lunary (h : WritesAre ops ys) (k : Nat) (W : Valuation τ sig Val) {x y : Ref sig .tc} (hxd hxs hyd hys)
    (f : x.ty.Contents Val → y.ty.Contents Val)
    (hop : ops[k]? = some (TRef.unary (TRef.of (T := x.ty) x rfl hxd hxs) (TRef.of (T := y.ty) y rfl hyd hys) f))
    (hy : y ∉ ys.drop (k + 1)) (hx : x ∉ ys.drop k) :
    after ops W (Proc.devRef .tc y) = f (after ops W (Proc.devRef .tc x)) :=
  at_tunary h k W (TRef.of (T := x.ty) x rfl hxd hxs) (TRef.of (T := y.ty) y rfl hyd hys) f hop hy hx

/-- One step over typed references at the buffers' own types, two operands. -/
theorem at_lbinary (h : WritesAre ops ys) (k : Nat) (W : Valuation τ sig Val) {a b y : Ref sig .tc}
    (had has hbd hbs hyd hys) (f : a.ty.Contents Val → b.ty.Contents Val → y.ty.Contents Val)
    (hop : ops[k]? = some (TRef.binary (TRef.of (T := a.ty) a rfl had has) (TRef.of (T := b.ty) b rfl hbd hbs)
      (TRef.of (T := y.ty) y rfl hyd hys) f))
    (hy : y ∉ ys.drop (k + 1)) (ha : a ∉ ys.drop k) (hb : b ∉ ys.drop k) :
    after ops W (Proc.devRef .tc y) = f (after ops W (Proc.devRef .tc a)) (after ops W (Proc.devRef .tc b)) :=
  at_tbinary h k W (TRef.of (T := a.ty) a rfl had has) (TRef.of (T := b.ty) b rfl hbd hbs)
    (TRef.of (T := y.ty) y rfl hyd hys) f hop hy ha hb

/-- One step over typed references at the buffers' own types, three operands. -/
theorem at_lternary (h : WritesAre ops ys) (k : Nat) (W : Valuation τ sig Val) {c a b y : Ref sig .tc}
    (hcd hcs had has hbd hbs hyd hys)
    (f : c.ty.Contents Val → a.ty.Contents Val → b.ty.Contents Val → y.ty.Contents Val)
    (hop : ops[k]? = some (TRef.ternary (TRef.of (T := c.ty) c rfl hcd hcs) (TRef.of (T := a.ty) a rfl had has)
      (TRef.of (T := b.ty) b rfl hbd hbs) (TRef.of (T := y.ty) y rfl hyd hys) f))
    (hy : y ∉ ys.drop (k + 1)) (hc : c ∉ ys.drop k) (ha : a ∉ ys.drop k) (hb : b ∉ ys.drop k) :
    after ops W (Proc.devRef .tc y)
      = f (after ops W (Proc.devRef .tc c)) (after ops W (Proc.devRef .tc a)) (after ops W (Proc.devRef .tc b)) :=
  at_tternary h k W (TRef.of (T := c.ty) c rfl hcd hcs) (TRef.of (T := a.ty) a rfl had has)
    (TRef.of (T := b.ty) b rfl hbd hbs) (TRef.of (T := y.ty) y rfl hyd hys) f hop hy hc ha hb

end Cert.LibSsa
-- ==== Proof.LibSsaIdx.lean ====
/-
  Side conditions of the one-step equations of a single-assignment line, by arithmetic on the references' indices.

  The one-step equations ask that a reference does not occur in a tail of the list of the written references. When the
  written references' indices, in the order of the line, are consecutive numbers a, a+1, a+2, …, the tail from
  position k on holds exactly the indices from a+k on, so a reference whose index is below a+k is not in that tail:
  each side condition becomes one comparison of two numbers. A line given as a concatenation of shorter lines writes
  the concatenation of what the shorter lines write.
-/
import proofs.«426592_j50886772523112_2_alg».proof.Proof.LibSsaTL

namespace Cert.LibSsa

open Idealize.ShloMosaic Idealize.ShloMosaic.StableHlo Cert.LibStretch

variable {τ : Topo} {sig : RefSig} {Val : EltTy → Type}

/-- In a list of references whose indices are the consecutive numbers from a on, a reference with an index below
    a + k does not occur from position k on. -/
theorem not_mem_drop_of_idx_lt {ys : List (Ref sig .tc)} {a : Nat}
    (h : ys.map (fun r => r.idx.val) = List.range' a ys.length) (k : Nat) (r : Ref sig .tc)
    (hr : r.idx.val < a + k) : r ∉ ys.drop k := by
  intro hm
  have hv : r.idx.val ∈ (ys.drop k).map (fun r => r.idx.val) := List.mem_map_of_mem hm
  rw [List.map_drop, h, List.drop_range', List.mem_range'_1] at hv
  omega

/-- A reference with an index below all the written ones is not written. -/
theorem not_mem_of_idx_lt {ys : List (Ref sig .tc)} {a : Nat}
    (h : ys.map (fun r => r.idx.val) = List.range' a ys.length) (r : Ref sig .tc)
    (hr : r.idx.val < a) : r ∉ ys :=
  not_mem_drop_of_idx_lt h 0 r (by omega)

/-- Two lines one after the other write what the first writes, then what the second writes. -/
theorem writesAre_append {l₁ l₂ : List (HloOp τ sig Val)} {ys₁ ys₂ : List (Ref sig .tc)}
    (h₁ : WritesAre l₁ ys₁) (h₂ : WritesAre l₂ ys₂) : WritesAre (l₁ ++ l₂) (ys₁ ++ ys₂) := by
  unfold WritesAre at h₁ h₂ ⊢
  induction h₁ with
  | nil => exact h₂
  | cons h _ ih => exact List.Forall₂.cons h ih

/-- The comparison of a literal reference's index with a literal number, by computation. -/
macro "idx_lt" : tactic => `(tactic| decide)

end Cert.LibSsa
-- ==== Proof.RefRun.lean ====
/-
  The reference's run: every weakly fair execution of the reference program ends with its result buffer at the
  last stage of the staged reading of its 466 operations, applied to the launch contents of the arguments, and with
  the arguments unchanged.

  The program is a straight line of host operations in single-assignment form. Its run leaves every buffer at the
  fold of the operations' results over the launch contents; read one operation at a time, the fold at an
  operation's result buffer is that operation's stage of the arguments' contents (the table of one-step theorems),
  and no operation writes an argument.
-/
import proofs.«426592_j50886772523112_2_alg».proof.Proof.RefMainEq
import proofs.«426592_j50886772523112_2_alg».proof.Proof.RefTab8

noncomputable section

namespace Cert.RefRun

open Cert.ReferenceIdeal Cert.ReferenceIdeal.Value Cert.ReferenceIdeal.Read Idealize.ShloMosaic Idealize.ShloMosaic.TcCoe Idealize.ShloMosaic.StableHlo Idealize.SL.Sem

/-- On every device, from any memory with zero counters: every weakly fair execution of the reference's @main
    terminates with the result at the last stage of the arguments' launch contents, and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v377)
          = val_main_v377 (F := Ideal) (m ((c.tc : Thread nD τ).loc main_arg0)) (m ((c.tc : Thread nD τ).loc main_arg1))
              (m ((c.tc : Thread nD τ).loc main_arg3)) (m ((c.tc : Thread nD τ).loc main_arg4))
              (m ((c.tc : Thread nD τ).loc main_arg5)) (m ((c.tc : Thread nD τ).loc main_arg6))
              (m ((c.tc : Thread nD τ).loc main_arg7)) (m ((c.tc : Thread nD τ).loc main_arg8))
              (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      ⟨(h c main_v377).trans (at_main_v377 (launchContents m c)),
       (h c main_arg0).trans (keep_main_arg0 (launchContents m c)),
       (h c main_arg1).trans (keep_main_arg1 (launchContents m c)),
       (h c main_arg2).trans (keep_main_arg2 (launchContents m c)),
       (h c main_arg3).trans (keep_main_arg3 (launchContents m c)),
       (h c main_arg4).trans (keep_main_arg4 (launchContents m c)),
       (h c main_arg5).trans (keep_main_arg5 (launchContents m c)),
       (h c main_arg6).trans (keep_main_arg6 (launchContents m c)),
       (h c main_arg7).trans (keep_main_arg7 (launchContents m c)),
       (h c main_arg8).trans (keep_main_arg8 (launchContents m c)),
       (h c main_arg9).trans (keep_main_arg9 (launchContents m c)),
       (h c main_arg10).trans (keep_main_arg10 (launchContents m c))⟩)
    (run_seq scopedRefs_eq scopedSems_eq defs main (fun _ => ops) main_eq (fun _ => ops_sub) m ρ
      (fun _ => ops_fresh))

end Cert.RefRun

end
-- ==== Proof.AlgBasics.lean ====
/-
  The float literals as real numbers, extended reals that are real numbers and what keeps them real, and the index
  words of the two arrangements read as row numbers.
-/
import proofs.«426592_j50886772523112_2_alg».proof.Proof.Spec
import Mathlib.Analysis.Real.Sqrt
import Mathlib.Data.EReal.Operations
import Mathlib.Algebra.BigOperators.Fin
import Mathlib.Algebra.Order.BigOperators.Group.Finset

noncomputable section

open scoped BigOperators

namespace Cert.Spec

open Idealize.ShloMosaic

/-! ## The literals -/

theorem zero_eq : zero = 0 := by
  unfold zero; simp [Ideal.ofBits, Ideal.ieee]

theorem one_eq : one = 1 := by
  unfold one
  rw [show (1 : EReal) = ((1 : ℝ) : EReal) by norm_cast]
  simp [Ideal.ofBits, Ideal.ieee, -EReal.coe_mul]; norm_num

theorem c128_eq : c128 = ((128 : ℝ) : EReal) := by
  unfold c128
  simp [Ideal.ofBits, Ideal.ieee, -EReal.coe_mul]; norm_num

theorem eps_eq : ∃ r : ℝ, 0 < r ∧ eps = (r : EReal) := by
  unfold eps
  refine ⟨10995116 * (2 : ℝ) ^ (-40 : ℤ), by positivity, ?_⟩
  simp [Ideal.ofBits, Ideal.ieee, -EReal.coe_mul]

/-! ## Extended reals that are real numbers -/

/-- An extended real that is a real number. -/
def IsR (x : EReal) : Prop := ∃ r : ℝ, x = (r : EReal)

theorem IsR.coe (r : ℝ) : IsR (r : EReal) := ⟨r, rfl⟩

theorem isR_zero : IsR 0 := ⟨0, rfl⟩

theorem isR_one : IsR 1 := ⟨1, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem isR_max {x y : EReal} (hx : IsR x) (hy : IsR y) : IsR (max x y) := by
  obtain ⟨a, rfl⟩ := hx; obtain ⟨b, rfl⟩ := hy; exact ⟨max a b, coe_max a b⟩

theorem IsR.ite {p : Prop} [Decidable p] {x y : EReal} (hx : IsR x) (hy : IsR y) : IsR (if p then x else y) := by
  split <;> assumption

/-- A finite sum of coerced reals is the coerced sum. -/
theorem coe_sum {ι : Type} (s : Finset ι) (f : ι → ℝ) :
    (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

theorem IsR.sum {ι : Type} (s : Finset ι) (f : ι → EReal) (h : ∀ i ∈ s, IsR (f i)) : IsR (∑ i ∈ s, f i) := by
  classical
  have : ∀ i ∈ s, f i = (((f i).toReal : ℝ) : EReal) := by
    intro i hi; obtain ⟨r, hr⟩ := h i hi; rw [hr]; rfl
  rw [Finset.sum_congr rfl this, coe_sum]; exact ⟨_, rfl⟩

/-- A coerced choice is the choice of the coerced values. -/
theorem coe_ite (p : Prop) [Decidable p] (a b : ℝ) :
    (if p then (a : EReal) else (b : EReal)) = ((if p then a else b : ℝ) : EReal) := by
  split <;> rfl

theorem coe_ite_zero (p : Prop) [Decidable p] (a : ℝ) :
    (if p then (a : EReal) else 0) = ((if p then a else 0 : ℝ) : EReal) := by
  split <;> rfl

/-- Division by the literal 128 of a real. -/
theorem div_c128 (r : ℝ) : Ideal.div (r : EReal) c128 = ((r * (1 / 128) : ℝ) : EReal) := by
  rw [c128_eq, Ideal.div_coe (by norm_num)]; exact (EReal.coe_mul _ _).symm

/-- The inverse square root of a positive real. -/
theorem rsqrt_pos (r : ℝ) (h : 0 < r) : Ideal.rsqrt (r : EReal) = (((Real.sqrt r)⁻¹ : ℝ) : EReal) := by
  rw [Ideal.rsqrt_coe, if_neg (not_lt.mpr h.le), if_neg h.ne']

theorem rsqrt_pos_pos (r : ℝ) (h : 0 < r) : 0 < (Real.sqrt r)⁻¹ := inv_pos.mpr (Real.sqrt_pos.mpr h)

/-! ## Tables of real numbers -/

theorem RealM.mm {n k m : Nat} {a : Mat n k} {b : Mat k m} (ha : RealM a) (hb : RealM b) : RealM (mm a b) :=
  fun i c => IsR.sum _ _ fun j _ => IsR.mul (ha i j) (hb j c)

theorem rowMean_real {n : Nat} {hs : Mat n H} (h : RealM hs) : RealC (rowMean hs) := by
  intro i
  obtain ⟨s, hs'⟩ := IsR.sum Finset.univ (fun k => hs i k) (fun k _ => h i k)
  unfold rowMean
  rw [hs', div_c128]; exact ⟨_, rfl⟩

/-- The row variance of a real table is a real number that is not negative. -/
theorem rowVar_real {n : Nat} {hs : Mat n H} (h : RealM hs) (i : Fin n) : ∃ v : ℝ, 0 ≤ v ∧ rowVar hs i = (v : EReal) := by
  choose r hr using h
  obtain ⟨m, hm⟩ := rowMean_real (hs := hs) (fun i j => ⟨r i j, hr i j⟩) i
  refine ⟨(∑ k : Fin H, (r i k - m) * (r i k - m)) * (1 / 128), ?_, ?_⟩
  · exact mul_nonneg (Finset.sum_nonneg fun k _ => mul_self_nonneg _) (by norm_num)
  · unfold rowVar
    rw [hm]
    simp only [hr, ← EReal.coe_sub, ← EReal.coe_mul]
    rw [coe_sum, div_c128]

theorem RealM.layerNorm {n : Nat} {hs : Mat n H} {g b : Col H} (h : RealM hs) (hg : RealC g) (hb : RealC b) :
    RealM (layerNorm hs g b) := by
  intro i k
  obtain ⟨v, hv0, hv⟩ := rowVar_real h i
  obtain ⟨e, he0, he⟩ := eps_eq
  have hr : IsR (Ideal.rsqrt (rowVar hs i + eps)) := by
    rw [hv, he, ← EReal.coe_add, rsqrt_pos _ (by linarith)]; exact ⟨_, rfl⟩
  exact IsR.add (IsR.mul (IsR.mul (IsR.sub (h i k) (rowMean_real h i)) hr) (hg k)) (hb k)

theorem RealM.resid {n : Nat} {h agg : Mat n H} {g b : Col H} (hh : RealM h) (ha : RealM agg) (hg : RealC g)
    (hb : RealC b) : RealM (resid h agg g b) :=
  RealM.layerNorm (fun i k => IsR.add (hh i k) (isR_max (ha i k) (zero_eq ▸ isR_zero))) hg hb

/-! ## Index words as row numbers -/

/-- A small natural number as a 32-bit word reads back as itself. -/
theorem toInt_ofNat_small (m : Nat) (h : m < 2147483648) : (BitVec.ofNat 32 m).toInt = (m : ℤ) := by
  rw [BitVec.toInt_eq_toNat_cond, BitVec.toNat_ofNat]
  have h2 : m % 2 ^ 32 = m := Nat.mod_eq_of_lt (by omega)
  rw [h2, if_pos (by omega)]

/-- A word that reads as a row number of the table is taken as that row. -/
theorem takeRow_val {n : Nat} (hn : 0 < n) (w : BitVec 32) (h0 : 0 ≤ w.toInt) (h1 : w.toInt < n) :
    (takeRow n hn w).val = w.toInt.toNat := by
  unfold takeRow wrapIdx clampRow
  rw [if_neg (not_lt.mpr h0)]
  show min w.toInt.toNat (n - 1) = w.toInt.toNat
  omega

theorem takeRow_lands {n : Nat} (hn : 0 < n) (w : BitVec 32) (i : Fin n) (h : Lands w i) : takeRow n hn w = i := by
  unfold Lands at h
  apply Fin.ext
  rw [takeRow_val hn w (by omega) (by have := i.isLt; omega)]
  omega

theorem lands_ofNat_iff {n : Nat} (hn : n ≤ 2147483648) (e i : Fin n) :
    Lands (BitVec.ofNat 32 e.val) i ↔ e = i := by
  unfold Lands
  rw [toInt_ofNat_small _ (by have := e.isLt; omega)]
  constructor
  · intro h; apply Fin.ext; omega
  · rintro rfl; rfl

theorem takeRow_ofNat {n : Nat} (hn : 0 < n) (hn' : n ≤ 2147483648) (e : Fin n) :
    takeRow n hn (BitVec.ofNat 32 e.val) = e :=
  takeRow_lands hn _ e ((lands_ofNat_iff hn' e e).mpr rfl)

end Cert.Spec

end
-- ==== Proof.AlgEmbed.lean ====
/-
  The embedding: the product of a label's one-hot row with a table is the table's row at the label, so the two
  arrangements embed alike when every label is a class; and the embedded table is real.
-/
import proofs.«426592_j50886772523112_2_alg».proof.Proof.AlgBasics

noncomputable section

open scoped BigOperators

namespace Cert.Spec

open Idealize.ShloMosaic

/-! ## The embedding: a one-hot product is a row take -/

/-- A class number as a word is the label exactly when it is the row the label takes. -/
theorem ofNat_eq_iff (w : BitVec 32) (h0 : 0 ≤ w.toInt) (h1 : w.toInt < 32) (j : Fin C) :
    BitVec.ofNat 32 j.val = w ↔ j = takeRow C (by decide) w := by
  have hj : j.val < 32 := j.isLt
  constructor
  · intro h
    have hl : Lands w j := by
      unfold Lands; rw [← h]; exact toInt_ofNat_small _ (by omega)
    exact (takeRow_lands _ w j hl).symm
  · intro h
    have hv : j.val = w.toInt.toNat := by
      rw [h]; exact takeRow_val _ w h0 (by exact_mod_cast h1)
    apply BitVec.eq_of_toInt_eq
    rw [toInt_ofNat_small _ (by omega)]; omega

/-- The one-hot row of a label times a table is the table's row at the label. -/
theorem hot_sum (t : Mat C H) (w : BitVec 32) (h0 : 0 ≤ w.toInt) (h1 : w.toInt < 32) (k : Fin H) :
    (∑ j : Fin C, hot w j * t j k) = t (takeRow C (by decide) w) k := by
  unfold hot
  simp only [ofNat_eq_iff w h0 h1, ite_mul, one_mul, zero_mul]
  rw [Finset.sum_ite_eq' Finset.univ (takeRow C (by decide) w) (fun j => t j k), if_pos (Finset.mem_univ _)]

theorem embK_eq_embR (I : Inputs) (hI : Good I) : embK I = embR I := by
  funext i k
  unfold embK embR
  rw [hot_sum _ _ (hI.x i 0).1 (hI.x i 0).2, hot_sum _ _ (hI.x i 1).1 (hI.x i 1).2]

theorem embR_real (I : Inputs) (hI : Good I) : RealM (embR I) :=
  fun _ _ => IsR.add (hI.ce _ _) (hI.ne _ _)

end Cert.Spec

end
-- ==== Proof.AlgDeg.lean ====
/-
  The edge list with one self loop a node appended: sums over it split into the edges and the loops, the in-degree
  over it is the in-degree over the edges plus one, a real number at least one, so the guarded inverse square root
  is the plain one and is a positive real.
-/
import proofs.«426592_j50886772523112_2_alg».proof.Proof.AlgBasics

noncomputable section

open scoped BigOperators

namespace Cert.Spec

open Idealize.ShloMosaic

/-! ## The edge list with the self loops appended -/

theorem withLoops_castAdd {M : Nat} (v : Words M) (e : Fin M) : withLoops v (Fin.castAdd N e) = v e := by
  unfold withLoops
  have h : (Fin.castAdd N e).val < M := e.isLt
  rw [dif_pos h]; rfl

theorem withLoops_natAdd {M : Nat} (v : Words M) (e : Fin N) :
    withLoops v (Fin.natAdd M e) = BitVec.ofNat 32 e.val := by
  unfold withLoops
  have h : ¬ (Fin.natAdd M e).val < M := by simp [Fin.natAdd]
  rw [dif_neg h]
  congr 1
  simp [Fin.natAdd]

/-- A sum over the extended edge list is the sum over the edges plus the sum over the loops. -/
theorem sum_withLoops {M : Nat} (F : Fin (M + N) → EReal) :
    (∑ e : Fin (M + N), F e) = (∑ e : Fin M, F (Fin.castAdd N e)) + ∑ e : Fin N, F (Fin.natAdd M e) :=
  Fin.sum_univ_add F

/-- The in-degree over the extended list: the in-degree over the edges, and one for the node's own loop. -/
theorem degR_withLoops {M : Nat} (dst : Words M) (i : Fin N) :
    degR (withLoops dst) i = (zero + ∑ e : Fin M, if Lands (dst e) i then one else 0) + one := by
  unfold degR
  rw [sum_withLoops]
  simp only [withLoops_castAdd, withLoops_natAdd, lands_ofNat_iff (n := N) (by decide)]
  rw [Finset.sum_ite_eq' Finset.univ i (fun _ => one), if_pos (Finset.mem_univ _), add_assoc]

theorem ite_one_zero (p : Prop) [Decidable p] :
    (if p then (1 : EReal) else 0) = ((if p then (1 : ℝ) else 0 : ℝ) : EReal) := by
  split <;> simp

/-- The in-degree with the loop is a real number, at least one. -/
theorem degR_withLoops_real {M : Nat} (dst : Words M) (i : Fin N) :
    ∃ c : ℝ, 1 ≤ c ∧ degR (withLoops dst) i = (c : EReal) := by
  refine ⟨(∑ e : Fin M, if Lands (dst e) i then (1 : ℝ) else 0) + 1, ?_, ?_⟩
  · have : 0 ≤ ∑ e : Fin M, if Lands (dst e) i then (1 : ℝ) else 0 :=
      Finset.sum_nonneg fun e _ => by split <;> norm_num
    linarith
  · rw [degR_withLoops, zero_eq, one_eq, zero_add]
    simp only [ite_one_zero]
    rw [coe_sum, EReal.coe_add, EReal.coe_one]

theorem cmp_ogt_pos (c : ℝ) (h : 0 < c) : Ideal.cmp .ogt (c : EReal) zero = 1#1 := by
  have h' : (0 : EReal) < (c : EReal) := by exact_mod_cast h
  rw [zero_eq]; simp [Ideal.cmp, h']

/-- The guarded inverse square root over the extended list is the plain one, a positive real. -/
theorem dinvR_withLoops_real {M : Nat} (dst : Words M) (i : Fin N) :
    ∃ d : ℝ, 0 < d ∧ dinvR (withLoops dst) i = (d : EReal)
      ∧ Ideal.rsqrt (degR (withLoops dst) i) = (d : EReal) := by
  obtain ⟨c, hc1, hc⟩ := degR_withLoops_real dst i
  have hc0 : 0 < c := by linarith
  refine ⟨(Real.sqrt c)⁻¹, rsqrt_pos_pos c hc0, ?_, ?_⟩
  · unfold dinvR
    rw [hc, if_pos (cmp_ogt_pos c hc0), rsqrt_pos c hc0]
  · rw [hc, rsqrt_pos c hc0]

theorem degK_eq (dst : Words E) (i : Fin N) : degK dst i = degR (withLoops dst) i := by
  rw [degR_withLoops]; rfl

theorem dinvR_withLoops (dst : Words E) : dinvR (withLoops dst) = dinvK dst := by
  funext i
  obtain ⟨d, _, h1, h2⟩ := dinvR_withLoops_real dst i
  unfold dinvK
  rw [h1, degK_eq, h2]

theorem dinvK_real (dst : Words E) (i : Fin N) : ∃ d : ℝ, 0 < d ∧ dinvK dst i = (d : EReal) := by
  obtain ⟨d, hd, h1, _⟩ := dinvR_withLoops_real dst i
  exact ⟨d, hd, by rw [← dinvR_withLoops, h1]⟩

end Cert.Spec

end
-- ==== Proof.AlgLayer.lean ====
/-
  One message-passing layer: the aggregate of the tiled arrangement (the destination's factor applied after the sum
  over the edges, the self term added densely) is the aggregate over the edge list with the self loops, entry by
  entry, when the table and the weights are real; and a layer keeps a real table real.
-/
import proofs.«426592_j50886772523112_2_alg».proof.Proof.AlgBasics
import proofs.«426592_j50886772523112_2_alg».proof.Proof.AlgDeg

noncomputable section

open scoped BigOperators

namespace Cert.Spec

open Idealize.ShloMosaic

/-! ## One message-passing layer -/

theorem isR_zeroLit : IsR zero := zero_eq ▸ isR_zero

/-- One entry of the aggregate over real numbers: the destination's factor goes into the sum over the edges, and the
    dense self term is the loop's term. -/
theorem agg_alg {ι : Type} [Fintype ι] (L : ι → Prop) [DecidablePred L] (ms ds : ι → ℝ) (di mi : ℝ) :
    (di : EReal) * (zero + ∑ e : ι, if L e then ((ms e : ℝ) : EReal) * ((ds e : ℝ) : EReal) else 0)
        + (di : EReal) * ((mi : EReal) * (di : EReal))
      = zero + ((∑ e : ι, if L e then ((ms e : ℝ) : EReal) * (((ds e : ℝ) : EReal) * (di : EReal)) else 0)
          + (mi : EReal) * ((di : EReal) * (di : EReal))) := by
  rw [zero_eq]
  simp only [← EReal.coe_mul, coe_ite_zero, coe_sum, zero_add, ← EReal.coe_add]
  congr 1
  rw [Finset.mul_sum]
  congr 1
  · refine Finset.sum_congr rfl fun e _ => ?_
    split_ifs <;> ring
  · ring

/-- The two aggregates agree at every entry. -/
theorem agg_eq (h : Mat N H) (W : Mat H H) (src dst : Words E) (hh : RealM h) (hW : RealM W) (i : Fin N)
    (k : Fin H) :
    dinvK dst i * aggRawK (hwsK h W (dinvK dst)) src dst i k + dinvK dst i * hwsK h W (dinvK dst) i k
      = aggR h W (withLoops src) (withLoops dst) i k := by
  choose mr hmr using RealM.mm hh hW
  have hd : ∀ j, ∃ d : ℝ, dinvK dst j = (d : EReal) := fun j => (dinvK_real dst j).imp fun _ h => h.2
  choose dr hdr using hd
  unfold aggR aggRawK hwsK
  rw [dinvR_withLoops, sum_withLoops]
  simp only [withLoops_castAdd, withLoops_natAdd, lands_ofNat_iff (n := N) (by decide),
    takeRow_ofNat (n := N) (by decide) (by decide)]
  rw [Finset.sum_ite_eq' Finset.univ i (fun e => mm h W e k * (dinvK dst e * dinvK dst e)),
    if_pos (Finset.mem_univ _)]
  have hedge : ∀ e : Fin E,
      (if Lands (dst e) i then mm h W (takeRow N (by decide) (src e)) k
          * (dinvK dst (takeRow N (by decide) (src e)) * dinvK dst (takeRow N (by decide) (dst e))) else 0)
        = (if Lands (dst e) i then mm h W (takeRow N (by decide) (src e)) k
          * (dinvK dst (takeRow N (by decide) (src e)) * dinvK dst i) else 0) := by
    intro e
    split_ifs with hL
    · rw [takeRow_lands _ _ _ hL]
    · rfl
  simp only [hedge]
  simp only [hmr, hdr]
  exact agg_alg (fun e => Lands (dst e) i) (fun e => mr (takeRow N (by decide) (src e)) k)
    (fun e => dr (takeRow N (by decide) (src e))) (dr i) (mr i k)

theorem layerK_eq_layerR (h : Mat N H) (W : Mat H H) (b g bl : Col H) (src dst : Words E) (hh : RealM h)
    (hW : RealM W) :
    layerK h W b g bl (dinvK dst) src dst = layerR h W b g bl (withLoops src) (withLoops dst) := by
  unfold layerK layerR
  refine congrArg (fun a => resid h a g bl) ?_
  funext i k
  rw [agg_eq h W src dst hh hW i k]

/-- A layer over an extended edge list keeps a real table real. -/
theorem layerR_real {M : Nat} (h : Mat N H) (W : Mat H H) (b g bl : Col H) (src dst : Words M) (hh : RealM h)
    (hW : RealM W) (hb : RealC b) (hg : RealC g) (hbl : RealC bl) :
    RealM (layerR h W b g bl (withLoops src) (withLoops dst)) := by
  have hd : ∀ j, IsR (dinvR (withLoops dst) j) := fun j => by
    obtain ⟨d, _, h1, _⟩ := dinvR_withLoops_real dst j
    exact ⟨d, h1⟩
  have hm := RealM.mm hh hW
  refine RealM.resid hh (fun i k => IsR.add ?_ (hb k)) hg hbl
  unfold aggR
  exact IsR.add isR_zeroLit
    (IsR.sum _ _ fun e _ => IsR.ite (IsR.mul (hm _ _) (IsR.mul (hd _) (hd _))) isR_zero)

end Cert.Spec

end
-- ==== Proof.AlgLast.lean ====
/-
  The last layer and the projection, as identities between finite sums of extended reals.

  The fully adjacent edge list joins every ordered pair of nodes of a graph (64 nodes a graph) and is followed by
  one self loop a node.  Every node therefore has in-degree 65, every edge carries the factor 1/65, and the sum
  over the edges landing in a node is the column sum of the node's graph plus the node's own row.
-/
import proofs.«426592_j50886772523112_2_alg».proof.Proof.Spec
import proofs.«426592_j50886772523112_2_alg».proof.Proof.AlgBasics
import Mathlib.Algebra.BigOperators.Fin
import Mathlib.Algebra.BigOperators.Group.Finset.Basic
import Mathlib.Data.EReal.Basic

noncomputable section

open scoped BigOperators

namespace Cert.Spec

open Idealize.ShloMosaic

/-! ## Literals -/

theorem zero_eq_coe : zero = ((0 : ℝ) : EReal) := by
  unfold zero; simp [Ideal.ofBits, Ideal.ieee]

theorem one_eq_coe : one = ((1 : ℝ) : EReal) := by
  unfold one; simp [Ideal.ofBits, Ideal.ieee, -EReal.coe_mul]; norm_num

/-! ## Small index words -/

/-- A word whose unsigned value is below the row count reads the same signed. -/
theorem toInt_of_toNat (w : BitVec 32) (v : Nat) (hv : v < N) (hw : w.toNat = v) : w.toInt = (v : ℤ) := by
  have hv' : v < 16384 := hv
  rw [BitVec.toInt_eq_toNat_cond, hw]
  split <;> omega

/-- A word whose unsigned value is below the row count names that row: no wrap, no clamp. -/
theorem takeRow_of_toNat (w : BitVec 32) (v : Nat) (hv : v < N) (hw : w.toNat = v) :
    takeRow N (by decide) w = ⟨v, hv⟩ := by
  have hv' : v < 16384 := hv
  have hi := toInt_of_toNat w v hv hw
  unfold takeRow wrapIdx
  rw [if_neg (by omega)]
  unfold clampRow
  apply Fin.ext
  show min w.toInt.toNat (N - 1) = v
  rw [hi]
  show min (v : ℤ).toNat (16384 - 1) = v
  omega

/-- A word whose unsigned value is below the row count lands in the row of that value only. -/
theorem lands_iff_of_toNat (w : BitVec 32) (v : Nat) (hv : v < N) (hw : w.toNat = v) (i : Fin N) :
    Lands w i ↔ v = i.val := by
  have hi := toInt_of_toNat w v hv hw
  unfold Lands
  rw [hi]
  constructor <;> intro h <;> omega

theorem faSrc_toNat (e : Fin EF) : (faSrc e).toNat = e.val / 4096 * 64 + e.val / 64 % 64 := by
  have he : e.val < 1048576 := e.isLt
  unfold faSrc
  simp only [BitVec.toNat_add, BitVec.toNat_mul, BitVec.toNat_ofNat]
  omega

theorem faDst_toNat (e : Fin EF) : (faDst e).toNat = e.val / 4096 * 64 + e.val % 64 := by
  have he : e.val < 1048576 := e.isLt
  unfold faDst
  simp only [BitVec.toNat_add, BitVec.toNat_mul, BitVec.toNat_ofNat]
  omega

theorem loop_toNat (j : Fin N) : (BitVec.ofNat 32 j.val).toNat = j.val := by
  have hj : j.val < 16384 := j.isLt
  simp only [BitVec.toNat_ofNat]
  omega

theorem lands_faDst (e : Fin EF) (i : Fin N) : Lands (faDst e) i ↔ e.val / 4096 * 64 + e.val % 64 = i.val := by
  have he : e.val < 1048576 := e.isLt
  exact lands_iff_of_toNat _ _ (by show _ < 16384; omega) (faDst_toNat e) i

theorem takeRow_faSrc (e : Fin EF) :
    (takeRow N (by decide) (faSrc e)).val = e.val / 4096 * 64 + e.val / 64 % 64 := by
  have he : e.val < 1048576 := e.isLt
  rw [takeRow_of_toNat _ _ (by show _ < 16384; omega) (faSrc_toNat e)]

/-! ## The projection -/

theorem outK_eq_outR (h : Mat N H) (oW : Mat H C) (ob : Col C) : outK h oW ob = outR h oW ob := by
  funext g c
  unfold outK outR
  have hg : g.val < 256 := g.isLt
  have hrow : takeRow N (by decide) (BitVec.ofNat 32 g.val * 64#32) = nodeOf g 0 := by
    rw [takeRow_of_toNat _ (g.val * 64) (by show g.val * 64 < 16384; omega)
      (by simp only [BitVec.toNat_mul, BitVec.toNat_ofNat]; omega)]
    apply Fin.ext
    show g.val * 64 = g.val * 64 + 0
    omega
  rw [hrow]

/-! ## The edges landing in a node -/

/-- The sum over an edge list followed by the self loops: the edges, then the one loop of the node. -/
theorem sum_lands_withLoops (src dst : Words EF) (i : Fin N) (F : BitVec 32 → BitVec 32 → EReal) :
    (∑ e : Fin (EF + N), if Lands (withLoops dst e) i then F (withLoops src e) (withLoops dst e) else 0)
      = (∑ e : Fin EF, if Lands (dst e) i then F (src e) (dst e) else 0)
        + F (BitVec.ofNat 32 i.val) (BitVec.ofNat 32 i.val) := by
  have hc : ∀ (v : Words EF) (e : Fin EF), withLoops v (Fin.castAdd N e) = v e := by
    intro v e
    unfold withLoops
    rw [dif_pos (show (Fin.castAdd N e).val < EF from e.isLt)]
    rfl
  have hn : ∀ (v : Words EF) (j : Fin N), withLoops v (Fin.natAdd EF j) = BitVec.ofNat 32 j.val := by
    intro v j
    unfold withLoops
    rw [dif_neg (by show ¬ (EF + j.val < EF); omega)]
    show BitVec.ofNat 32 (EF + j.val - EF) = _
    rw [Nat.add_sub_cancel_left]
  rw [Fin.sum_univ_add]
  refine congrArg₂ (· + ·) ?_ ?_
  · apply Finset.sum_congr rfl
    intro e _
    rw [hc, hc]
  · simp only [hn]
    rw [Finset.sum_eq_single i]
    · rw [if_pos]
      exact (lands_iff_of_toNat _ i.val i.isLt (loop_toNat i) i).mpr rfl
    · intro j _ hne
      rw [if_neg]
      intro hl
      apply hne
      apply Fin.ext
      exact (lands_iff_of_toNat _ j.val j.isLt (loop_toNat j) i).mp hl
    · intro hni
      exact absurd (Finset.mem_univ i) hni

/-- The fully adjacent edges landing in node `i`: one from every node of the graph of `i`. -/
theorem sum_fa (i : Fin N) (F : Fin N → EReal) :
    (∑ e : Fin EF, if Lands (faDst e) i then F (takeRow N (by decide) (faSrc e)) else 0)
      = ∑ a : Fin 64, F (nodeOf (graphOf i) a) := by
  have hi : i.val < 16384 := i.isLt
  rw [← Finset.sum_filter]
  refine Finset.sum_nbij' (fun e => (⟨e.val / 64 % 64, Nat.mod_lt _ (by norm_num)⟩ : Fin 64))
    (fun a => (⟨(i.val / 64 * 64 + a.val) * 64 + i.val % 64, by
      have := a.isLt; show _ < 1048576; omega⟩ : Fin EF)) ?_ ?_ ?_ ?_ ?_
  · intro e _
    exact Finset.mem_univ _
  · intro a _
    have ha := a.isLt
    rw [Finset.mem_filter]
    refine ⟨Finset.mem_univ _, ?_⟩
    rw [lands_faDst]
    show ((i.val / 64 * 64 + a.val) * 64 + i.val % 64) / 4096 * 64
      + ((i.val / 64 * 64 + a.val) * 64 + i.val % 64) % 64 = i.val
    omega
  · intro e he
    rw [Finset.mem_filter, lands_faDst] at he
    have hlt : e.val < 1048576 := e.isLt
    apply Fin.ext
    show (i.val / 64 * 64 + e.val / 64 % 64) * 64 + i.val % 64 = e.val
    omega
  · intro a _
    have ha := a.isLt
    apply Fin.ext
    show ((i.val / 64 * 64 + a.val) * 64 + i.val % 64) / 64 % 64 = a.val
    omega
  · intro e he
    rw [Finset.mem_filter, lands_faDst] at he
    have hlt : e.val < 1048576 := e.isLt
    congr 1
    apply Fin.ext
    rw [takeRow_faSrc]
    show e.val / 4096 * 64 + e.val / 64 % 64 = i.val / 64 * 64 + e.val / 64 % 64
    omega

/-! ## Degrees and factors -/

theorem degR_fa (i : Fin N) : degR (withLoops faDst) i = ((65 : ℝ) : EReal) := by
  unfold degR
  have h1 := sum_lands_withLoops faDst faDst i (fun _ _ => one)
  beta_reduce at h1
  have h2 := sum_fa i (fun _ => one)
  beta_reduce at h2
  rw [h1, h2, zero_eq_coe, one_eq_coe, coe_sum]
  simp only [Finset.sum_const, Finset.card_univ, Fintype.card_fin, nsmul_eq_mul]
  rw [← EReal.coe_add, ← EReal.coe_add]
  norm_num

theorem dinvR_fa (i : Fin N) : dinvR (withLoops faDst) i = (((Real.sqrt 65)⁻¹ : ℝ) : EReal) := by
  unfold dinvR
  rw [degR_fa, zero_eq_coe]
  have hc : Ideal.cmp .ogt ((65 : ℝ) : EReal) ((0 : ℝ) : EReal) = 1#1 := by
    show BitVec.ofBool (decide (((0 : ℝ) : EReal) < ((65 : ℝ) : EReal))) = 1#1
    rw [decide_eq_true (EReal.coe_lt_coe_iff.mpr (by norm_num))]
    rfl
  rw [if_pos hc, Ideal.rsqrt_coe, if_neg (by norm_num), if_neg (by norm_num)]

theorem dinvR_fa_mul (i j : Fin N) : dinvR (withLoops faDst) i * dinvR (withLoops faDst) j = inv65 := by
  rw [dinvR_fa, dinvR_fa, ← EReal.coe_mul]
  unfold inv65
  congr 1
  rw [← mul_inv, Real.mul_self_sqrt (by norm_num), one_div]

/-! ## The aggregate -/

theorem aggR_fa (h : Mat N H) (W : Mat H H) (i : Fin N) (k : Fin H) :
    aggR h W (withLoops faSrc) (withLoops faDst) i k
      = (∑ a : Fin 64, mm h W (nodeOf (graphOf i) a) k * inv65) + mm h W i k * inv65 := by
  unfold aggR
  simp only [dinvR_fa_mul]
  have h1 := sum_lands_withLoops faSrc faDst i (fun s _ => mm h W (takeRow N (by decide) s) k * inv65)
  beta_reduce at h1
  have h2 := sum_fa i (fun s => mm h W s k * inv65)
  beta_reduce at h2
  rw [h1, h2, zero_eq_coe, EReal.coe_zero, zero_add, takeRow_of_toNat _ i.val i.isLt (loop_toNat i)]

theorem mm_real (h : Mat N H) (W : Mat H H) (hh : RealM h) (hW : RealM W) (k : Fin H) :
    ∃ M : Fin N → ℝ, ∀ i, mm h W i k = ((M i : ℝ) : EReal) := by
  choose hr hhr using hh
  choose Wr hWr using hW
  refine ⟨fun i => ∑ j : Fin H, hr i j * Wr j k, fun i => ?_⟩
  unfold mm
  rw [← coe_sum]
  apply Finset.sum_congr rfl
  intro j _
  rw [hhr, hWr, EReal.coe_mul]

theorem lastK_eq_layerR (h : Mat N H) (W : Mat H H) (b g bl : Col H) (hh : RealM h) (hW : RealM W) :
    lastK h W b g bl = layerR h W b g bl (withLoops faSrc) (withLoops faDst) := by
  unfold lastK layerR
  refine congrArg (fun a => resid h a g bl) ?_
  funext i k
  rw [aggR_fa]
  obtain ⟨M, hM⟩ := mm_real h W hh hW k
  simp only [hM]
  unfold inv65
  congr 1
  simp only [← EReal.coe_mul, coe_sum, ← EReal.coe_add]
  congr 1
  rw [add_mul, Finset.sum_mul]

end Cert.Spec

end
-- ==== Proof.Alg.lean ====
/-
  The two arrangements of the network compute the same function on good inputs: the embeddings agree, each of the
  three layers over the given edge list agrees and keeps the table real, the last layer in closed form is the layer
  over the fully adjacent edge list, and the two projections read the same rows.
-/
import proofs.«426592_j50886772523112_2_alg».proof.Proof.AlgEmbed
import proofs.«426592_j50886772523112_2_alg».proof.Proof.AlgLayer
import proofs.«426592_j50886772523112_2_alg».proof.Proof.AlgLast

noncomputable section

open scoped BigOperators

namespace Cert.Spec

open Idealize.ShloMosaic

theorem runK_eq_runR (I : Inputs) (hI : Good I) : runK I = runR I := by
  have hW : ∀ l, RealM (I.Ws l) := fun l => hI.Ws l
  have hb : ∀ l, RealC (I.bs l) := fun l => hI.bs l
  have hg : ∀ l, RealC (I.lg l) := fun l => hI.lg l
  have hl : ∀ l, RealC (I.lb l) := fun l => hI.lb l
  have e0 : embK I = embR I := embK_eq_embR I hI
  have r0 : RealM (embR I) := embR_real I hI
  have e1 := layerK_eq_layerR (embR I) (I.Ws 0) (I.bs 0) (I.lg 0) (I.lb 0) (I.ei 0) (I.ei 1) r0 (hW 0)
  have r1 := layerR_real (embR I) (I.Ws 0) (I.bs 0) (I.lg 0) (I.lb 0) (I.ei 0) (I.ei 1) r0 (hW 0) (hb 0) (hg 0)
    (hl 0)
  have e2 := layerK_eq_layerR _ (I.Ws 1) (I.bs 1) (I.lg 1) (I.lb 1) (I.ei 0) (I.ei 1) r1 (hW 1)
  have r2 := layerR_real _ (I.Ws 1) (I.bs 1) (I.lg 1) (I.lb 1) (I.ei 0) (I.ei 1) r1 (hW 1) (hb 1) (hg 1) (hl 1)
  have e3 := layerK_eq_layerR _ (I.Ws 2) (I.bs 2) (I.lg 2) (I.lb 2) (I.ei 0) (I.ei 1) r2 (hW 2)
  have r3 := layerR_real _ (I.Ws 2) (I.bs 2) (I.lg 2) (I.lb 2) (I.ei 0) (I.ei 1) r2 (hW 2) (hb 2) (hg 2) (hl 2)
  have e4 := lastK_eq_layerR _ (I.Ws 3) (I.bs 3) (I.lg 3) (I.lb 3) r3 (hW 3)
  unfold runK runR
  dsimp only
  rw [e0, e1, e2, e3, e4, outK_eq_outR]

end Cert.Spec

end
-- ==== Proof.LibKeepdims.lean ====
/-
  Row-wise reductions with a kept unit axis, read at an index: the column forms a `jnp.mean(x, axis=-1, keepdims=True)`
  inside a kernel body goes through, which the value library's list of layout lemmas does not carry — a vector `[a]`
  cast to a column `[a, 1]`, a column `[a, 1]` broadcast along rows to `[a, b]`, a lane sum of `[a, b]` over its second
  axis read as the sum over that axis's coordinate — and a matrix product `[n, K] × [K, m]` into a zero accumulator
  read as the sum over the contracted coordinate, for any dimension record whose operand indices are the plain ones.
  All statements are over indices built from coordinates of literal `Fin` types (`ix1`, `ix2`).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Idealize.ShloMosaic.Keepdims

open Idealize.ShloMosaic Idealize.ShloMosaic.ValueIdx

variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of `[a, b]` over its second axis, at the ideal values, read at row `p`: the sum over the row. -/
theorem multiReduction_add_rows {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

/-- A matrix product `[n, K] × [K, m]` into the zero accumulator, at the ideal values, read at `(p, h)`: the sum over the
    contracted coordinate — for any dimension record contracting the left operand's second axis with the right
    operand's first (the four coordinate facts `hl0 … hr1` are `fun _ _ => rfl` at a literal record). -/
theorem matmul_zero_apply {n K m : ℕ} {φ₁ φ₂ : FTy}
    (d : DotDims (⟨2, ![n, K]⟩ : Shape) (⟨2, ![K, m]⟩ : Shape) (⟨2, ![n, m]⟩ : Shape))
    (hr : d.contr.rank = 1) (hs : d.contr.size ⟨0, by omega⟩ = K)
    (hl0 : ∀ (j : (⟨2, ![n, m]⟩ : Shape).Idx) (k : d.contr.Idx), (d.lhsIdx j k 0).val = (j 0).val)
    (hl1 : ∀ (j : (⟨2, ![n, m]⟩ : Shape).Idx) (k : d.contr.Idx), (d.lhsIdx j k 1).val = (k ⟨0, by omega⟩).val)
    (hr0 : ∀ (j : (⟨2, ![n, m]⟩ : Shape).Idx) (k : d.contr.Idx), (d.rhsIdx j k 0).val = (k ⟨0, by omega⟩).val)
    (hr1 : ∀ (j : (⟨2, ![n, m]⟩ : Shape).Idx) (k : d.contr.Idx), (d.rhsIdx j k 1).val = (j 1).val)
    (prec : Option ContractPrecision) (lhs : FVec Ideal (⟨2, ![n, K]⟩ : Shape) φ₁) (rhs : FVec Ideal (⟨2, ![K, m]⟩ : Shape) φ₂)
    (p : Fin n) (h : Fin m) :
    FloatOps.matmul d prec lhs rhs (constant (⟨2, ![n, m]⟩ : Shape) .f32 0x00000000#32) (ix2 p h)
      = ∑ k : Fin K, lhs (ix2 p k) * rhs (ix2 k h) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p h) ((contrEquiv1 d K hr hs).symm k) = ix2 p k := funext fun ax => Fin.ext (by
    match ax with
    | ⟨0, _⟩ => exact hl0 _ _
    | ⟨1, _⟩ => exact (hl1 _ _).trans hk)
  have er : d.rhsIdx (ix2 p h) ((contrEquiv1 d K hr hs).symm k) = ix2 k h := funext fun ax => Fin.ext (by
    match ax with
    | ⟨0, _⟩ => exact (hr0 _ _).trans hk
    | ⟨1, _⟩ => exact hr1 _ _)
  rw [el, er]

end Idealize.ShloMosaic.Keepdims

end
-- ==== Proof.KEmbed.lean ====
/-
  The value of the embedding: the output array holds, at node row i and column k, the one-hot row of the node's
  first label against the class table plus the one-hot row of its second label against the neighbour table. The
  grid's eight points each write back one block of 2048 rows; row i lies in block i / 2048, so the blocks cover
  the output.
-/
import proofs.«426592_j50886772523112_2_alg».proof.Proof.Gen.KernelIdeal.Frame
import proofs.«426592_j50886772523112_2_alg».proof.Proof.LibKeepdims
import proofs.«426592_j50886772523112_2_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.KVal

open Idealize.ShloMosaic Idealize.ShloMosaic.TcCoe Idealize.ShloMosaic.ValueIdx Idealize.ShloMosaic.Keepdims
open Idealize.ShloMosaic.Pipeline (Dat)
open Cert.KernelIdeal Cert.KernelIdeal.Gen

/-- The float of a widened equality bit is the one-hot selector: 1 when the class number is the label, else 0. -/
theorem hot_word (w : BitVec 32) (j : Fin 32) :
    (FloatOps.sitofp (F := Ideal) .f32 ((IntOp.cmpi .eq (BitVec.ofNat 32 j.val) w).setWidth 32) : EReal) = Cert.Spec.hot w j := by
  unfold Cert.Spec.hot
  by_cases h : BitVec.ofNat 32 j.val = w
  · have e : IntOp.cmpi .eq (BitVec.ofNat 32 j.val) w = 1#1 := by simp [IntOp.cmpi, h]
    rw [if_pos h, e]
    show ((((1#1 : BitVec 1).setWidth 32).toInt : ℝ) : EReal) = 1
    rw [show ((1#1 : BitVec 1).setWidth 32).toInt = 1 from by decide]
    simp
  · have hb : (BitVec.ofNat 32 j.val == w) = false := beq_eq_false_iff_ne.mpr h
    have e : IntOp.cmpi .eq (BitVec.ofNat 32 j.val) w = 0#1 := by simp [IntOp.cmpi, hb]
    rw [if_neg h, e]
    show ((((0#1 : BitVec 1).setWidth 32).toInt : ℝ) : EReal) = 0
    rw [show ((0#1 : BitVec 1).setWidth 32).toInt = 0 from by decide]
    simp

/-- The one-hot table of a label column against the class numbers, at row p and class j. -/
theorem onehot_apply (v : IVec S2048x1 32) (p : Fin 2048) (j : Fin 32) :
    (sitofp .f32 (extui 32 (cmpi .eq (iota .tc S2048x32 32 [1] iota_S2048x32_d1_w32)
      (broadcastTo S2048x32 v broadcasts_S2048x1_S2048x32)) natLt_1_32) : FVec Ideal S2048x32 .f32) (ix2 p j)
      = Cert.Spec.hot (v (ix2 p (0 : Fin 1))) j := by
  show FloatOps.sitofp (F := Ideal) .f32 ((IntOp.cmpi .eq (iota .tc S2048x32 32 [1] iota_S2048x32_d1_w32 (ix2 p j))
      (broadcastTo S2048x32 v broadcasts_S2048x1_S2048x32 (ix2 p j))).setWidth 32) = _
  rw [iota_single_apply, Keepdims.broadcastTo_a1_ab_apply]
  exact hot_word _ j

/-- The two label columns of a block of label pairs. -/
theorem label_col0 (x0 : IVec S2048x2 32) (p : Fin 2048) :
    extractStridedSlice S2048x1 ![0, 0] x0 slices_S2048x2_o0_0_S2048x1 (ix2 p (0 : Fin 1)) = x0 (ix2 p (0 : Fin 2)) :=
  extractStridedSlice_apply _ x0 _ _ _ fun a => by
    match a with
    | ⟨0, _⟩ => show p.val = 0 + p.val; omega
    | ⟨1, _⟩ => rfl
theorem label_col1 (x0 : IVec S2048x2 32) (p : Fin 2048) :
    extractStridedSlice S2048x1 ![0, 1] x0 slices_S2048x2_o0_1_S2048x1 (ix2 p (0 : Fin 1)) = x0 (ix2 p (1 : Fin 2)) :=
  extractStridedSlice_apply _ x0 _ _ _ fun a => by
    match a with
    | ⟨0, _⟩ => show p.val = 0 + p.val; omega
    | ⟨1, _⟩ => rfl

/-- The embedding's payload at an index: the two one-hot rows of the node's labels against the two tables. -/
theorem embed_pay_apply (x0 : IVec S2048x2 32) (x1 x2 : FVec Ideal S32x128 .f32) (p : Fin 2048) (k : Fin 128) :
    k0_pay1 (F := Ideal) x0 x1 x2 (ix2 p k)
      = (∑ j : Fin 32, Cert.Spec.hot (x0 (ix2 p (0 : Fin 2))) j * x1 (ix2 j k))
        + (∑ j : Fin 32, Cert.Spec.hot (x0 (ix2 p (1 : Fin 2))) j * x2 (ix2 j k)) := by
  unfold k0_pay1
  refine (addf_apply _ _ _).trans ?_
  congr 1
  · refine (matmul_zero_apply dot_S2048x32_S32x128_S2048x128_1_0_0_1_n_n rfl rfl (fun _ _ => rfl) (fun _ _ => rfl)
      (fun _ _ => rfl) (fun _ _ => rfl) (some .fp32) _ _ p k).trans ?_
    refine Finset.sum_congr rfl fun j _ => ?_
    rw [onehot_apply, label_col0]
  · refine (matmul_zero_apply dot_S2048x32_S32x128_S2048x128_1_0_0_1_n_n rfl rfl (fun _ _ => rfl) (fun _ _ => rfl)
      (fun _ _ => rfl) (fun _ _ => rfl) (some .fp32) _ _ p k).trans ?_
    refine Finset.sum_congr rfl fun j _ => ?_
    rw [onehot_apply, label_col1]

theorem zero_offsets0 : (![0, 0] : Fin 2 → Nat) = fun _ => 0 := funext fun a => by fin_cases a <;> rfl

/-- The label window and the output window move down one block of 2048 rows per point; the two tables stay whole. -/
theorem embed_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of block t, as a row of the node table. -/
def blockRow (t : Fin cfg0.N) (p : Fin 2048) : Fin 16384 :=
  ⟨t.val * 2048 + p.val, by have h : t.val < 8 := lt_of_lt_of_eq t.isLt N_0; have := p.isLt; omega⟩

section
variable (V : (c : Dev nD) → (b : Ref sig .tc) → Buf (Elt Ideal) ((c : Thread nD τ).loc b))

/-- The three input arrays of the embedding and its output array, by their literal types. -/
abbrev embA0 (c : Dev nD) : S16384x2.Idx → BitVec 32 := V c (Pipeline.arrRef spec0 0)
abbrev embA1 (c : Dev nD) : S32x128.Idx → EReal := V c (Pipeline.arrRef spec0 1)
abbrev embA2 (c : Dev nD) : S32x128.Idx → EReal := V c (Pipeline.arrRef spec0 2)
abbrev embOut (c : Dev nD) : S16384x128.Idx → EReal := (dat0 (F := Ideal) V c).arrAt 3 cfg0.N

/-- The embedded table, as one function of the region's three input arrays. -/
def embedG (c : Dev nD) : S16384x128.Idx → EReal := fun i =>
  (∑ j : Fin 32, Cert.Spec.hot (embA0 V c (ix2 (i 0) (0 : Fin 2))) j * embA1 V c (ix2 j (i 1)))
    + (∑ j : Fin 32, Cert.Spec.hot (embA0 V c (ix2 (i 0) (1 : Fin 2))) j * embA2 V c (ix2 j (i 1)))

/-- The label block at point t is rows 2048·t … 2048·t + 2047 of the label array. -/
theorem embed_blk0 (c : Dev nD) (t : Fin cfg0.N) (p : Fin 2048) (a : Fin 2) :
    (iblk0 V c 0 t : IVec S2048x2 32) (ix2 p a) = embA0 V c (ix2 (blockRow t p) a) := by
  obtain ⟨e0, e1, -⟩ := embed_idx t
  unfold iblk0
  rw [View.read_apply]
  show V c (Pipeline.arrRef spec0 0) _ = V c (Pipeline.arrRef spec0 0) _
  congr 1
  funext b
  apply Fin.ext
  match b with
  | ⟨0, _⟩ => show win0_0.index t (0 : Fin 2) * 2048 + 1 * p.val = t.val * 2048 + p.val; rw [e0]; omega
  | ⟨1, _⟩ => show win0_0.index t (1 : Fin 2) * 2 + 1 * a.val = a.val; rw [e1]; omega

/-- Each table's block is the whole table. -/
theorem embed_blk1 (c : Dev nD) (t : Fin cfg0.N) (y : S32x128.Idx) :
    (iblk0 V c 1 t : FVec Ideal S32x128 .f32) y = embA1 V c y := by
  obtain ⟨-, -, e0, e1, -⟩ := embed_idx t
  unfold iblk0
  rw [View.read_apply]
  show V c (Pipeline.arrRef spec0 1) _ = V c (Pipeline.arrRef spec0 1) _
  congr 1
  funext b
  apply Fin.ext
  match b with
  | ⟨0, _⟩ => show win0_1.index t (0 : Fin 2) * 32 + 1 * (y 0).val = (y 0).val; rw [e0]; omega
  | ⟨1, _⟩ => show win0_1.index t (1 : Fin 2) * 128 + 1 * (y 1).val = (y 1).val; rw [e1]; omega

theorem embed_blk2 (c : Dev nD) (t : Fin cfg0.N) (y : S32x128.Idx) :
    (iblk0 V c 2 t : FVec Ideal S32x128 .f32) y = embA2 V c y := by
  obtain ⟨-, -, -, -, e0, e1, -⟩ := embed_idx t
  unfold iblk0
  rw [View.read_apply]
  show V c (Pipeline.arrRef spec0 2) _ = V c (Pipeline.arrRef spec0 2) _
  congr 1
  funext b
  apply Fin.ext
  match b with
  | ⟨0, _⟩ => show win0_2.index t (0 : Fin 2) * 32 + 1 * (y 0).val = (y 0).val; rw [e0]; omega
  | ⟨1, _⟩ => show win0_2.index t (1 : Fin 2) * 128 + 1 * (y 1).val = (y 1).val; rw [e1]; omega

/-- What point t writes back is block t of the embedded table. -/
theorem embed_flushed (c : Dev nD) (t : Fin cfg0.N) :
    (dat0 (F := Ideal) V c).flushed 3 t = ((cfg0.win 3).blk t).view.read (Elt Ideal) (embedG V c) := by
  show (cfg0.win 3).cut (grid0.coords t) ((dat0 (F := Ideal) V c).after 3 t) = _
  rw [after0_3]
  unfold out0_3
  rw [View.canon_unit_zero zero_offsets0]
  simp only [View.ld_unit_zero (S := S2048x2) zero_offsets0, View.ld_unit_zero (S := S32x128) zero_offsets0]
  obtain ⟨-, -, -, -, -, -, e0, e1⟩ := embed_idx t
  funext y
  obtain ⟨p, q, rfl⟩ : ∃ (p : Fin 2048) (q : Fin 128), y = ix2 p q := ⟨y 0, y 1, eq_ix2 y⟩
  have hemb : ((cfg0.win 3).blk t).view.emb (ix2 p q) = ix2 (blockRow t p) q := by
    funext b; apply Fin.ext
    match b with
    | ⟨0, _⟩ => show win0_3.index t (0 : Fin 2) * 2048 + 1 * p.val = t.val * 2048 + p.val; rw [e0]; omega
    | ⟨1, _⟩ => show win0_3.index t (1 : Fin 2) * 128 + 1 * q.val = q.val; rw [e1]; omega
  show k0_pay1 (F := Ideal) (iblk0 V c 0 t) (iblk0 V c 1 t) (iblk0 V c 2 t) (ix2 p q) = embedG V c (((cfg0.win 3).blk t).view.emb (ix2 p q))
  rw [hemb]
  refine (embed_pay_apply (iblk0 V c 0 t) (iblk0 V c 1 t) (iblk0 V c 2 t) p q).trans ?_
  unfold embedG
  simp only [embed_blk0, embed_blk1, embed_blk2]

/-- The embedding's output array after the region, entry by entry. -/
theorem embed_value (c : Dev nD) (i : Fin 16384) (k : Fin 128) :
    embOut V c (ix2 i k)
      = (∑ j : Fin 32, Cert.Spec.hot (embA0 V c (ix2 i (0 : Fin 2))) j * embA1 V c (ix2 j k))
        + (∑ j : Fin 32, Cert.Spec.hot (embA0 V c (ix2 i (1 : Fin 2))) j * embA2 V c (ix2 j k)) := by
  have h : (dat0 (F := Ideal) V c).arrAt 3 cfg0.N = embedG V c :=
    (dat0 (F := Ideal) V c).arrAt_eq_of_cover 3 (embedG V c) (fun t _ => embed_flushed V c t) fun x => by
      have hx : (x 0 : Nat) < 16384 := (x 0).isLt
      have hN : cfg0.N = 8 := N_0
      let t : Fin cfg0.N := ⟨(x 0 : Nat) / 2048, by rw [hN]; omega⟩
      refine ⟨t, flush0_3 t, ?_⟩
      show x ∈ ((View.whole main_v0).slice (win0_3.rect t)).set
      rw [View.set_slice_whole, Rect.mem_set_unit]
      obtain ⟨-, -, -, -, -, -, e0, e1⟩ := embed_idx t
      have ht : t.val = (x 0 : Nat) / 2048 := rfl
      intro a
      have h1 : (x 1 : Nat) < 128 := (x 1).isLt
      match a with
      | ⟨0, _⟩ => show win0_3.index t (0 : Fin 2) * 2048 ≤ (x 0 : Nat) ∧ (x 0 : Nat) < win0_3.index t (0 : Fin 2) * 2048 + 2048
                  rw [e0, ht]; omega
      | ⟨1, _⟩ => show win0_3.index t (1 : Fin 2) * 128 ≤ (x 1 : Nat) ∧ (x 1 : Nat) < win0_3.index t (1 : Fin 2) * 128 + 128
                  rw [e1]; omega
  exact (congrFun h (ix2 i k)).trans rfl
end

end Cert.KVal

end
-- ==== Proof.KLin1.lean ====
/-
  The projected and scaled table a linear-scaled region leaves: every row of the output array is the row of the node
  table times the weight matrix, scaled by the row's factor.  The region's blocks are whole rows (2048 to a grid
  point), its body one whole-block store, so the array after the region is the body's arithmetic read row by row.
-/
import proofs.«426592_j50886772523112_2_alg».proof.Proof.Gen.KernelIdeal.Frame
import proofs.«426592_j50886772523112_2_alg».proof.Proof.Spec
import proofs.«426592_j50886772523112_2_alg».proof.Proof.LibKeepdims
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KVal

open Idealize.ShloMosaic Idealize.ShloMosaic.TcCoe Idealize.SL.Sem
open Idealize.ShloMosaic.Pipeline (Dat)
open Idealize.ShloMosaic.ValueIdx Idealize.ShloMosaic.Keepdims
open Cert.KernelIdeal Cert.KernelIdeal.Gen

variable (V : (c : Dev nD) → (b : Ref sig .tc) → Buf (Elt Ideal) ((c : Thread nD τ).loc b))

theorem lin1_hz : (![0, 0] : Fin 2 → Nat) = fun _ => 0 := funext fun a => by fin_cases a <;> rfl

/-- The body's arithmetic at row `p` and column `q` of a block: the block's row times the weights' column, scaled by
    the row's factor (the narrowing to sixteen bits is the identity on extended reals). -/
theorem lin1_pay (x0 : Vec Ideal S2048x128 .f32) (x1 : Vec Ideal S128x128 .f32) (x2 : Vec Ideal S2048x1 .f32)
    (p : Fin 2048) (q : Fin 128) :
    k1_pay1 (F := Ideal) x0 x1 x2 (ix2 p q)
      = (∑ j : Fin 128, x0 (ix2 p j) * x1 (ix2 j q)) * x2 (ix2 p (0 : Fin 1)) := by
  unfold k1_pay1
  refine (mulf_apply _ _ _).trans ?_
  refine congr (congrArg HMul.hMul ?_) ?_
  · refine (matmul_zero_apply dot_S2048x128_S128x128_S2048x128_1_0_0_1_n_n rfl rfl (fun _ _ => rfl) (fun _ _ => rfl)
      (fun _ _ => rfl) (fun _ _ => rfl) none _ _ p q).trans ?_
    refine Finset.sum_congr rfl fun j _ => ?_
    rw [truncf_apply, truncf_apply, shapeCast_self, shapeCast_self]
  · refine (broadcastTo_a1_ab_apply _ _ p q).trans ?_
    rw [shapeCast_self]

/-- The printed index maps over the grid: windows 0, 2 and 3 move by whole blocks of rows with the point, window 1
    stays on its one block. -/
theorem lin1_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The grid has eight points. -/
theorem lin1_lt (t : Fin cfg1.N) : t.val < 8 := by have h := t.isLt; have e : cfg1.N = 8 := N_1; omega

/-- Row `p` of the node table's block at point `t` is row `2048 t + p` of the table. -/
theorem lin1_blk0 (c : Dev nD) (t : Fin cfg1.N) (p : Fin 2048) (j : Fin 128) (i : Fin 16384)
    (hi : i.val = 2048 * t.val + p.val) :
    (iblk1 V c 0 t : Vec Ideal S2048x128 .f32) (ix2 p j)
      = (V c (Pipeline.arrRef spec1 0) : S16384x128.Idx → EReal) (ix2 i j) := by
  obtain ⟨e0, e1, -⟩ := lin1_idx t
  unfold iblk1
  rw [View.read_apply]
  have hemb : (((cfg1.win 0).blk t).view.emb (ix2 p j) : S16384x128.Idx) = ix2 i j := by
    funext a
    apply Fin.ext
    match a with
    | ⟨0, _⟩ => show win1_0.index t (0 : Fin 2) * 2048 + 1 * p.val = i.val; rw [e0, hi]; omega
    | ⟨1, _⟩ => show win1_0.index t (1 : Fin 2) * 128 + 1 * j.val = j.val; rw [e1]; omega
  exact congrArg (V c (Pipeline.arrRef spec1 0) : S16384x128.Idx → EReal) hemb

/-- The weights' block at every point is the whole matrix. -/
theorem lin1_blk1 (c : Dev nD) (t : Fin cfg1.N) (j : Fin 128) (q : Fin 128) :
    (iblk1 V c 1 t : Vec Ideal S128x128 .f32) (ix2 j q)
      = (V c (Pipeline.arrRef spec1 1) : S128x128.Idx → EReal) (ix2 j q) := by
  obtain ⟨-, -, e0, e1, -⟩ := lin1_idx t
  unfold iblk1
  rw [View.read_apply]
  have hemb : (((cfg1.win 1).blk t).view.emb (ix2 j q) : S128x128.Idx) = ix2 j q := by
    funext a
    apply Fin.ext
    match a with
    | ⟨0, _⟩ => show win1_1.index t (0 : Fin 2) * 128 + 1 * j.val = j.val; rw [e0]; omega
    | ⟨1, _⟩ => show win1_1.index t (1 : Fin 2) * 128 + 1 * q.val = q.val; rw [e1]; omega
  exact congrArg (V c (Pipeline.arrRef spec1 1) : S128x128.Idx → EReal) hemb

/-- Row `p` of the factor column's block at point `t` is row `2048 t + p` of the column. -/
theorem lin1_blk2 (c : Dev nD) (t : Fin cfg1.N) (p : Fin 2048) (i : Fin 16384)
    (hi : i.val = 2048 * t.val + p.val) :
    (iblk1 V c 2 t : Vec Ideal S2048x1 .f32) (ix2 p (0 : Fin 1))
      = (V c (Pipeline.arrRef spec1 2) : S16384x1.Idx → EReal) (ix2 i (0 : Fin 1)) := by
  obtain ⟨-, -, -, -, e0, e1, -⟩ := lin1_idx t
  unfold iblk1
  rw [View.read_apply]
  have hemb : (((cfg1.win 2).blk t).view.emb (ix2 p (0 : Fin 1)) : S16384x1.Idx) = ix2 i (0 : Fin 1) := by
    funext a
    apply Fin.ext
    match a with
    | ⟨0, _⟩ => show win1_2.index t (0 : Fin 2) * 2048 + 1 * p.val = i.val; rw [e0, hi]; omega
    | ⟨1, _⟩ => show win1_2.index t (1 : Fin 2) * 1 + 1 * 0 = 0; rw [e1]
  exact congrArg (V c (Pipeline.arrRef spec1 2) : S16384x1.Idx → EReal) hemb

/-- The whole output table as one function of the three arrays the region finds. -/
def lin1G (c : Dev nD) : S16384x128.Idx → EReal := fun y =>
  Cert.Spec.hwsK (fun i j => (V c (Pipeline.arrRef spec1 0) : S16384x128.Idx → EReal) (ix2 i j))
    (fun j k => (V c (Pipeline.arrRef spec1 1) : S128x128.Idx → EReal) (ix2 j k))
    (fun i => (V c (Pipeline.arrRef spec1 2) : S16384x1.Idx → EReal) (ix2 i (0 : Fin 1))) (y 0) (y 1)

/-- What point `t` writes back is block `t` of that table. -/
theorem lin1_flushed (c : Dev nD) (t : Fin cfg1.N) :
    (dat1 (F := Ideal) V c).flushed 3 t = ((cfg1.win 3).blk t).view.read (Elt Ideal) (lin1G V c) := by
  show (cfg1.win 3).cut (grid1.coords t) ((dat1 (F := Ideal) V c).after 3 t) = _
  rw [after1_3]
  unfold out1_3
  rw [View.canon_unit_zero lin1_hz]
  simp only [View.ld_unit_zero (S := S2048x128) lin1_hz, View.ld_unit_zero (S := S128x128) lin1_hz,
    View.ld_unit_zero (S := S2048x1) lin1_hz]
  funext y
  obtain ⟨p, q, rfl⟩ : ∃ (p : Fin 2048) (q : Fin 128), y = ix2 p q := ⟨y 0, y 1, eq_ix2 y⟩
  have ht := lin1_lt t
  obtain ⟨-, -, -, -, -, -, e0, e1⟩ := lin1_idx t
  have hi : 2048 * t.val + p.val < 16384 := by have := p.isLt; omega
  refine (lin1_pay (iblk1 V c 0 t) (iblk1 V c 1 t) (iblk1 V c 2 t) p q).trans ?_
  rw [View.read_apply]
  have hemb : ((cfg1.win 3).blk t).view.emb (ix2 p q) = (ix2 (⟨2048 * t.val + p.val, hi⟩ : Fin 16384) q : S16384x128.Idx) := by
    funext a
    apply Fin.ext
    match a with
    | ⟨0, _⟩ => show win1_3.index t (0 : Fin 2) * 2048 + 1 * p.val = 2048 * t.val + p.val; rw [e0]; omega
    | ⟨1, _⟩ => show win1_3.index t (1 : Fin 2) * 128 + 1 * q.val = q.val; rw [e1]; omega
  refine Eq.trans ?_ (congrArg (lin1G V c) hemb).symm
  show _ = Cert.Spec.hwsK _ _ _ (⟨2048 * t.val + p.val, hi⟩ : Fin 16384) q
  unfold Cert.Spec.hwsK Cert.Spec.mm
  rw [lin1_blk2 V c t p ⟨2048 * t.val + p.val, hi⟩ rfl]
  refine congrArg (· * _) (Finset.sum_congr rfl fun j _ => ?_)
  rw [lin1_blk0 V c t p j ⟨2048 * t.val + p.val, hi⟩ rfl, lin1_blk1 V c t j q]

/-- Every row of the table is in the block of the point its number divided by 2048 names. -/
theorem lin1_cover (y : S16384x128.Idx) :
    ∃ t : Fin cfg1.N, (cfg1.win 3).flush t = true ∧ y ∈ ((cfg1.win 3).blk t).view.set := by
  have h0 : (y 0).val < 16384 := idx2_lt0 y
  have h1 : (y 1).val < 128 := idx2_lt1 y
  have hN : cfg1.N = 8 := N_1
  let t : Fin cfg1.N := ⟨(y 0).val / 2048, by omega⟩
  obtain ⟨-, -, -, -, -, -, e0, e1⟩ := lin1_idx t
  refine ⟨t, flush1_3 t, ?_⟩
  show y ∈ ((View.whole main_v15).slice (win1_3.rect t)).set
  rw [View.set_slice_whole, Rect.mem_set_unit]
  intro a
  match a with
  | ⟨0, _⟩ =>
    show win1_3.index t (0 : Fin 2) * 2048 ≤ (y 0).val ∧ (y 0).val < win1_3.index t (0 : Fin 2) * 2048 + 2048
    rw [e0]; show (y 0).val / 2048 * 2048 ≤ (y 0).val ∧ (y 0).val < (y 0).val / 2048 * 2048 + 2048; omega
  | ⟨1, _⟩ =>
    show win1_3.index t (1 : Fin 2) * 128 ≤ (y 1).val ∧ (y 1).val < win1_3.index t (1 : Fin 2) * 128 + 128
    rw [e1]; omega

/-- The output array after region 1 is that table. -/
theorem lin1_final (c : Dev nD) : (dat1 (F := Ideal) V c).arrAt 3 cfg1.N = lin1G V c :=
  (dat1 (F := Ideal) V c).arrAt_eq_of_cover 3 (lin1G V c) (fun t _ => lin1_flushed V c t) lin1_cover

/-- The output array after region 1, row by row: the node table times the weights, scaled by the row's factor. -/
theorem lin1_value (c : Dev nD) (i : Fin 16384) (k : Fin 128) :
    ((dat1 (F := Ideal) V c).arrAt 3 cfg1.N : S16384x128.Idx → EReal) (ix2 i k)
      = Cert.Spec.hwsK (fun i j => (V c (Pipeline.arrRef spec1 0) : S16384x128.Idx → EReal) (ix2 i j))
          (fun j k => (V c (Pipeline.arrRef spec1 1) : S128x128.Idx → EReal) (ix2 j k))
          (fun i => (V c (Pipeline.arrRef spec1 2) : S16384x1.Idx → EReal) (ix2 i (0 : Fin 1))) i k := by
  rw [lin1_final V c]
  rfl

end Cert.KVal

end
-- ==== Proof.KLin3.lean ====
/-
  The projected and scaled table a linear-scaled region leaves: every row of the output array is the row of the node
  table times the weight matrix, scaled by the row's factor.  The region's blocks are whole rows (2048 to a grid
  point), its body one whole-block store, so the array after the region is the body's arithmetic read row by row.
-/
import proofs.«426592_j50886772523112_2_alg».proof.Proof.Gen.KernelIdeal.Frame
import proofs.«426592_j50886772523112_2_alg».proof.Proof.Spec
import proofs.«426592_j50886772523112_2_alg».proof.Proof.LibKeepdims
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KVal

open Idealize.ShloMosaic Idealize.ShloMosaic.TcCoe Idealize.SL.Sem
open Idealize.ShloMosaic.Pipeline (Dat)
open Idealize.ShloMosaic.ValueIdx Idealize.ShloMosaic.Keepdims
open Cert.KernelIdeal Cert.KernelIdeal.Gen

variable (V : (c : Dev nD) → (b : Ref sig .tc) → Buf (Elt Ideal) ((c : Thread nD τ).loc b))

theorem lin3_hz : (![0, 0] : Fin 2 → Nat) = fun _ => 0 := funext fun a => by fin_cases a <;> rfl

/-- The body's arithmetic at row `p` and column `q` of a block: the block's row times the weights' column, scaled by
    the row's factor (the narrowing to sixteen bits is the identity on extended reals). -/
theorem lin3_pay (x0 : Vec Ideal S2048x128 .f32) (x1 : Vec Ideal S128x128 .f32) (x2 : Vec Ideal S2048x1 .f32)
    (p : Fin 2048) (q : Fin 128) :
    k3_pay1 (F := Ideal) x0 x1 x2 (ix2 p q)
      = (∑ j : Fin 128, x0 (ix2 p j) * x1 (ix2 j q)) * x2 (ix2 p (0 : Fin 1)) := by
  unfold k3_pay1
  refine (mulf_apply _ _ _).trans ?_
  refine congr (congrArg HMul.hMul ?_) ?_
  · refine (matmul_zero_apply dot_S2048x128_S128x128_S2048x128_1_0_0_1_n_n rfl rfl (fun _ _ => rfl) (fun _ _ => rfl)
      (fun _ _ => rfl) (fun _ _ => rfl) none _ _ p q).trans ?_
    refine Finset.sum_congr rfl fun j _ => ?_
    rw [truncf_apply, truncf_apply, shapeCast_self, shapeCast_self]
  · refine (broadcastTo_a1_ab_apply _ _ p q).trans ?_
    rw [shapeCast_self]

/-- The printed index maps over the grid: windows 0, 2 and 3 move by whole blocks of rows with the point, window 1
    stays on its one block. -/
theorem lin3_idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The grid has eight points. -/
theorem lin3_lt (t : Fin cfg3.N) : t.val < 8 := by have h := t.isLt; have e : cfg3.N = 8 := N_3; omega

/-- Row `p` of the node table's block at point `t` is row `2048 t + p` of the table. -/
theorem lin3_blk0 (c : Dev nD) (t : Fin cfg3.N) (p : Fin 2048) (j : Fin 128) (i : Fin 16384)
    (hi : i.val = 2048 * t.val + p.val) :
    (iblk3 V c 0 t : Vec Ideal S2048x128 .f32) (ix2 p j)
      = (V c (Pipeline.arrRef spec3 0) : S16384x128.Idx → EReal) (ix2 i j) := by
  obtain ⟨e0, e1, -⟩ := lin3_idx t
  unfold iblk3
  rw [View.read_apply]
  have hemb : (((cfg3.win 0).blk t).view.emb (ix2 p j) : S16384x128.Idx) = ix2 i j := by
    funext a
    apply Fin.ext
    match a with
    | ⟨0, _⟩ => show win3_0.index t (0 : Fin 2) * 2048 + 1 * p.val = i.val; rw [e0, hi]; omega
    | ⟨1, _⟩ => show win3_0.index t (1 : Fin 2) * 128 + 1 * j.val = j.val; rw [e1]; omega
  exact congrArg (V c (Pipeline.arrRef spec3 0) : S16384x128.Idx → EReal) hemb

/-- The weights' block at every point is the whole matrix. -/
theorem lin3_blk1 (c : Dev nD) (t : Fin cfg3.N) (j : Fin 128) (q : Fin 128) :
    (iblk3 V c 1 t : Vec Ideal S128x128 .f32) (ix2 j q)
      = (V c (Pipeline.arrRef spec3 1) : S128x128.Idx → EReal) (ix2 j q) := by
  obtain ⟨-, -, e0, e1, -⟩ := lin3_idx t
  unfold iblk3
  rw [View.read_apply]
  have hemb : (((cfg3.win 1).blk t).view.emb (ix2 j q) : S128x128.Idx) = ix2 j q := by
    funext a
    apply Fin.ext
    match a with
    | ⟨0, _⟩ => show win3_1.index t (0 : Fin 2) * 128 + 1 * j.val = j.val; rw [e0]; omega
    | ⟨1, _⟩ => show win3_1.index t (1 : Fin 2) * 128 + 1 * q.val = q.val; rw [e1]; omega
  exact congrArg (V c (Pipeline.arrRef spec3 1) : S128x128.Idx → EReal) hemb

/-- Row `p` of the factor column's block at point `t` is row `2048 t + p` of the column. -/
theorem lin3_blk2 (c : Dev nD) (t : Fin cfg3.N) (p : Fin 2048) (i : Fin 16384)
    (hi : i.val = 2048 * t.val + p.val) :
    (iblk3 V c 2 t : Vec Ideal S2048x1 .f32) (ix2 p (0 : Fin 1))
      = (V c (Pipeline.arrRef spec3 2) : S16384x1.Idx → EReal) (ix2 i (0 : Fin 1)) := by
  obtain ⟨-, -, -, -, e0, e1, -⟩ := lin3_idx t
  unfold iblk3
  rw [View.read_apply]
  have hemb : (((cfg3.win 2).blk t).view.emb (ix2 p (0 : Fin 1)) : S16384x1.Idx) = ix2 i (0 : Fin 1) := by
    funext a
    apply Fin.ext
    match a with
    | ⟨0, _⟩ => show win3_2.index t (0 : Fin 2) * 2048 + 1 * p.val = i.val; rw [e0, hi]; omega
    | ⟨1, _⟩ => show win3_2.index t (1 : Fin 2) * 1 + 1 * 0 = 0; rw [e1]
  exact congrArg (V c (Pipeline.arrRef spec3 2) : S16384x1.Idx → EReal) hemb

/-- The whole output table as one function of the three arrays the region finds. -/
def lin3G (c : Dev nD) : S16384x128.Idx → EReal := fun y =>
  Cert.Spec.hwsK (fun i j => (V c (Pipeline.arrRef spec3 0) : S16384x128.Idx → EReal) (ix2 i j))
    (fun j k => (V c (Pipeline.arrRef spec3 1) : S128x128.Idx → EReal) (ix2 j k))
    (fun i => (V c (Pipeline.arrRef spec3 2) : S16384x1.Idx → EReal) (ix2 i (0 : Fin 1))) (y 0) (y 1)

/-- What point `t` writes back is block `t` of that table. -/
theorem lin3_flushed (c : Dev nD) (t : Fin cfg3.N) :
    (dat3 (F := Ideal) V c).flushed 3 t = ((cfg3.win 3).blk t).view.read (Elt Ideal) (lin3G V c) := by
  show (cfg3.win 3).cut (grid3.coords t) ((dat3 (F := Ideal) V c).after 3 t) = _
  rw [after3_3]
  unfold out3_3
  rw [View.canon_unit_zero lin3_hz]
  simp only [View.ld_unit_zero (S := S2048x128) lin3_hz, View.ld_unit_zero (S := S128x128) lin3_hz,
    View.ld_unit_zero (S := S2048x1) lin3_hz]
  funext y
  obtain ⟨p, q, rfl⟩ : ∃ (p : Fin 2048) (q : Fin 128), y = ix2 p q := ⟨y 0, y 1, eq_ix2 y⟩
  have ht := lin3_lt t
  obtain ⟨-, -, -, -, -, -, e0, e1⟩ := lin3_idx t
  have hi : 2048 * t.val + p.val < 16384 := by have := p.isLt; omega
  refine (lin3_pay (iblk3 V c 0 t) (iblk3 V c 1 t) (iblk3 V c 2 t) p q).trans ?_
  rw [View.read_apply]
  have hemb : ((cfg3.win 3).blk t).view.emb (ix2 p q) = (ix2 (⟨2048 * t.val + p.val, hi⟩ : Fin 16384) q : S16384x128.Idx) := by
    funext a
    apply Fin.ext
    match a with
    | ⟨0, _⟩ => show win3_3.index t (0 : Fin 2) * 2048 + 1 * p.val = 2048 * t.val + p.val; rw [e0]; omega
    | ⟨1, _⟩ => show win3_3.index t (1 : Fin 2) * 128 + 1 * q.val = q.val; rw [e1]; omega
  refine Eq.trans ?_ (congrArg (lin3G V c) hemb).symm
  show _ = Cert.Spec.hwsK _ _ _ (⟨2048 * t.val + p.val, hi⟩ : Fin 16384) q
  unfold Cert.Spec.hwsK Cert.Spec.mm
  rw [lin3_blk2 V c t p ⟨2048 * t.val + p.val, hi⟩ rfl]
  refine congrArg (· * _) (Finset.sum_congr rfl fun j _ => ?_)
  rw [lin3_blk0 V c t p j ⟨2048 * t.val + p.val, hi⟩ rfl, lin3_blk1 V c t j q]

/-- Every row of the table is in the block of the point its number divided by 2048 names. -/
theorem lin3_cover (y : S16384x128.Idx) :
    ∃ t : Fin cfg3.N, (cfg3.win 3).flush t = true ∧ y ∈ ((cfg3.win 3).blk t).view.set := by
  have h0 : (y 0).val < 16384 := idx2_lt0 y
  have h1 : (y 1).val < 128 := idx2_lt1 y
  have hN : cfg3.N = 8 := N_3
  let t : Fin cfg3.N := ⟨(y 0).val / 2048, by omega⟩
  obtain ⟨-, -, -, -, -, -, e0, e1⟩ := lin3_idx t
  refine ⟨t, flush3_3 t, ?_⟩
  show y ∈ ((View.whole main_v38).slice (win3_3.rect t)).set
  rw [View.set_slice_whole, Rect.mem_set_unit]
  intro a
  match a with
  | ⟨0, _⟩ =>
    show win3_3.index t (0 : Fin 2) * 2048 ≤ (y 0).val ∧ (y 0).val < win3_3.index t (0 : Fin 2) * 2048 + 2048
    rw [e0]; show (y 0).val / 2048 * 2048 ≤ (y 0).val ∧ (y 0).val < (y 0).val / 2048 * 2048 + 2048; omega
  | ⟨1, _⟩ =>
    show win3_3.index t (1 : Fin 2) * 128 ≤ (y 1).val ∧ (y 1).val < win3_3.index t (1 : Fin 2) * 128 + 128
    rw [e1]; omega

/-- The output array after region 3 is that table. -/
theorem lin3_final (c : Dev nD) : (dat3 (F := Ideal) V c).arrAt 3 cfg3.N = lin3G V c :=
  (dat3 (F := Ideal) V c).arrAt_eq_of_cover 3 (lin3G V c) (fun t _ => lin3_flushed V c t) lin3_cover

/-- The output array after region 3, row by row: the node table times the weights, scaled by the row's factor. -/
theorem lin3_value (c : Dev nD) (i : Fin 16384) (k : Fin 128) :
    ((dat3 (F := Ideal) V c).arrAt 3 cfg3.N : S16384x128.Idx → EReal) (ix2 i k)
      = Cert.Spec.hwsK (fun i j => (V c (Pipeline.arrRef spec3 0) : S16384x128.Idx → EReal) (ix2 i j))
          (fun j k => (V c (Pipeline.arrRef spec3 1) : S128x128.Idx → EReal) (ix2 j k))
          (fun i => (V c (Pipeline.arrRef spec3 2) : S16384x1.Idx → EReal) (ix2 i (0 : Fin 1))) i k := by
  rw [lin3_final V c]
  rfl

end Cert.KVal

end
-- ==== Proof.KLin5.lean ====
/-
  The projected and scaled table a linear-scaled region leaves: every row of the output array is the row of the node
  table times the weight matrix, scaled by the row's factor.  The region's blocks are whole rows (2048 to a grid
  point), its body one whole-block store, so the array after the region is the body's arithmetic read row by row.
-/
import proofs.«426592_j50886772523112_2_alg».proof.Proof.Gen.KernelIdeal.Frame
import proofs.«426592_j50886772523112_2_alg».proof.Proof.Spec
import proofs.«426592_j50886772523112_2_alg».proof.Proof.LibKeepdims
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KVal

open Idealize.ShloMosaic Idealize.ShloMosaic.TcCoe Idealize.SL.Sem
open Idealize.ShloMosaic.Pipeline (Dat)
open Idealize.ShloMosaic.ValueIdx Idealize.ShloMosaic.Keepdims
open Cert.KernelIdeal Cert.KernelIdeal.Gen

variable (V : (c : Dev nD) → (b : Ref sig .tc) → Buf (Elt Ideal) ((c : Thread nD τ).loc b))

theorem lin5_hz : (![0, 0] : Fin 2 → Nat) = fun _ => 0 := funext fun a => by fin_cases a <;> rfl

/-- The body's arithmetic at row `p` and column `q` of a block: the block's row times the weights' column, scaled by
    the row's factor (the narrowing to sixteen bits is the identity on extended reals). -/
theorem lin5_pay (x0 : Vec Ideal S2048x128 .f32) (x1 : Vec Ideal S128x128 .f32) (x2 : Vec Ideal S2048x1 .f32)
    (p : Fin 2048) (q : Fin 128) :
    k5_pay1 (F := Ideal) x0 x1 x2 (ix2 p q)
      = (∑ j : Fin 128, x0 (ix2 p j) * x1 (ix2 j q)) * x2 (ix2 p (0 : Fin 1)) := by
  unfold k5_pay1
  refine (mulf_apply _ _ _).trans ?_
  refine congr (congrArg HMul.hMul ?_) ?_
  · refine (matmul_zero_apply dot_S2048x128_S128x128_S2048x128_1_0_0_1_n_n rfl rfl (fun _ _ => rfl) (fun _ _ => rfl)
      (fun _ _ => rfl) (fun _ _ => rfl) none _ _ p q).trans ?_
    refine Finset.sum_congr rfl fun j _ => ?_
    rw [truncf_apply, truncf_apply, shapeCast_self, shapeCast_self]
  · refine (broadcastTo_a1_ab_apply _ _ p q).trans ?_
    rw [shapeCast_self]

/-- The printed index maps over the grid: windows 0, 2 and 3 move by whole blocks of rows with the point, window 1
    stays on its one block. -/
theorem lin5_idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- The grid has eight points. -/
theorem lin5_lt (t : Fin cfg5.N) : t.val < 8 := by have h := t.isLt; have e : cfg5.N = 8 := N_5; omega

/-- Row `p` of the node table's block at point `t` is row `2048 t + p` of the table. -/
theorem lin5_blk0 (c : Dev nD) (t : Fin cfg5.N) (p : Fin 2048) (j : Fin 128) (i : Fin 16384)
    (hi : i.val = 2048 * t.val + p.val) :
    (iblk5 V c 0 t : Vec Ideal S2048x128 .f32) (ix2 p j)
      = (V c (Pipeline.arrRef spec5 0) : S16384x128.Idx → EReal) (ix2 i j) := by
  obtain ⟨e0, e1, -⟩ := lin5_idx t
  unfold iblk5
  rw [View.read_apply]
  have hemb : (((cfg5.win 0).blk t).view.emb (ix2 p j) : S16384x128.Idx) = ix2 i j := by
    funext a
    apply Fin.ext
    match a with
    | ⟨0, _⟩ => show win5_0.index t (0 : Fin 2) * 2048 + 1 * p.val = i.val; rw [e0, hi]; omega
    | ⟨1, _⟩ => show win5_0.index t (1 : Fin 2) * 128 + 1 * j.val = j.val; rw [e1]; omega
  exact congrArg (V c (Pipeline.arrRef spec5 0) : S16384x128.Idx → EReal) hemb

/-- The weights' block at every point is the whole matrix. -/
theorem lin5_blk1 (c : Dev nD) (t : Fin cfg5.N) (j : Fin 128) (q : Fin 128) :
    (iblk5 V c 1 t : Vec Ideal S128x128 .f32) (ix2 j q)
      = (V c (Pipeline.arrRef spec5 1) : S128x128.Idx → EReal) (ix2 j q) := by
  obtain ⟨-, -, e0, e1, -⟩ := lin5_idx t
  unfold iblk5
  rw [View.read_apply]
  have hemb : (((cfg5.win 1).blk t).view.emb (ix2 j q) : S128x128.Idx) = ix2 j q := by
    funext a
    apply Fin.ext
    match a with
    | ⟨0, _⟩ => show win5_1.index t (0 : Fin 2) * 128 + 1 * j.val = j.val; rw [e0]; omega
    | ⟨1, _⟩ => show win5_1.index t (1 : Fin 2) * 128 + 1 * q.val = q.val; rw [e1]; omega
  exact congrArg (V c (Pipeline.arrRef spec5 1) : S128x128.Idx → EReal) hemb

/-- Row `p` of the factor column's block at point `t` is row `2048 t + p` of the column. -/
theorem lin5_blk2 (c : Dev nD) (t : Fin cfg5.N) (p : Fin 2048) (i : Fin 16384)
    (hi : i.val = 2048 * t.val + p.val) :
    (iblk5 V c 2 t : Vec Ideal S2048x1 .f32) (ix2 p (0 : Fin 1))
      = (V c (Pipeline.arrRef spec5 2) : S16384x1.Idx → EReal) (ix2 i (0 : Fin 1)) := by
  obtain ⟨-, -, -, -, e0, e1, -⟩ := lin5_idx t
  unfold iblk5
  rw [View.read_apply]
  have hemb : (((cfg5.win 2).blk t).view.emb (ix2 p (0 : Fin 1)) : S16384x1.Idx) = ix2 i (0 : Fin 1) := by
    funext a
    apply Fin.ext
    match a with
    | ⟨0, _⟩ => show win5_2.index t (0 : Fin 2) * 2048 + 1 * p.val = i.val; rw [e0, hi]; omega
    | ⟨1, _⟩ => show win5_2.index t (1 : Fin 2) * 1 + 1 * 0 = 0; rw [e1]
  exact congrArg (V c (Pipeline.arrRef spec5 2) : S16384x1.Idx → EReal) hemb

/-- The whole output table as one function of the three arrays the region finds. -/
def lin5G (c : Dev nD) : S16384x128.Idx → EReal := fun y =>
  Cert.Spec.hwsK (fun i j => (V c (Pipeline.arrRef spec5 0) : S16384x128.Idx → EReal) (ix2 i j))
    (fun j k => (V c (Pipeline.arrRef spec5 1) : S128x128.Idx → EReal) (ix2 j k))
    (fun i => (V c (Pipeline.arrRef spec5 2) : S16384x1.Idx → EReal) (ix2 i (0 : Fin 1))) (y 0) (y 1)

/-- What point `t` writes back is block `t` of that table. -/
theorem lin5_flushed (c : Dev nD) (t : Fin cfg5.N) :
    (dat5 (F := Ideal) V c).flushed 3 t = ((cfg5.win 3).blk t).view.read (Elt Ideal) (lin5G V c) := by
  show (cfg5.win 3).cut (grid5.coords t) ((dat5 (F := Ideal) V c).after 3 t) = _
  rw [after5_3]
  unfold out5_3
  rw [View.canon_unit_zero lin5_hz]
  simp only [View.ld_unit_zero (S := S2048x128) lin5_hz, View.ld_unit_zero (S := S128x128) lin5_hz,
    View.ld_unit_zero (S := S2048x1) lin5_hz]
  funext y
  obtain ⟨p, q, rfl⟩ : ∃ (p : Fin 2048) (q : Fin 128), y = ix2 p q := ⟨y 0, y 1, eq_ix2 y⟩
  have ht := lin5_lt t
  obtain ⟨-, -, -, -, -, -, e0, e1⟩ := lin5_idx t
  have hi : 2048 * t.val + p.val < 16384 := by have := p.isLt; omega
  refine (lin5_pay (iblk5 V c 0 t) (iblk5 V c 1 t) (iblk5 V c 2 t) p q).trans ?_
  rw [View.read_apply]
  have hemb : ((cfg5.win 3).blk t).view.emb (ix2 p q) = (ix2 (⟨2048 * t.val + p.val, hi⟩ : Fin 16384) q : S16384x128.Idx) := by
    funext a
    apply Fin.ext
    match a with
    | ⟨0, _⟩ => show win5_3.index t (0 : Fin 2) * 2048 + 1 * p.val = 2048 * t.val + p.val; rw [e0]; omega
    | ⟨1, _⟩ => show win5_3.index t (1 : Fin 2) * 128 + 1 * q.val = q.val; rw [e1]; omega
  refine Eq.trans ?_ (congrArg (lin5G V c) hemb).symm
  show _ = Cert.Spec.hwsK _ _ _ (⟨2048 * t.val + p.val, hi⟩ : Fin 16384) q
  unfold Cert.Spec.hwsK Cert.Spec.mm
  rw [lin5_blk2 V c t p ⟨2048 * t.val + p.val, hi⟩ rfl]
  refine congrArg (· * _) (Finset.sum_congr rfl fun j _ => ?_)
  rw [lin5_blk0 V c t p j ⟨2048 * t.val + p.val, hi⟩ rfl, lin5_blk1 V c t j q]

/-- Every row of the table is in the block of the point its number divided by 2048 names. -/
theorem lin5_cover (y : S16384x128.Idx) :
    ∃ t : Fin cfg5.N, (cfg5.win 3).flush t = true ∧ y ∈ ((cfg5.win 3).blk t).view.set := by
  have h0 : (y 0).val < 16384 := idx2_lt0 y
  have h1 : (y 1).val < 128 := idx2_lt1 y
  have hN : cfg5.N = 8 := N_5
  let t : Fin cfg5.N := ⟨(y 0).val / 2048, by omega⟩
  obtain ⟨-, -, -, -, -, -, e0, e1⟩ := lin5_idx t
  refine ⟨t, flush5_3 t, ?_⟩
  show y ∈ ((View.whole main_v61).slice (win5_3.rect t)).set
  rw [View.set_slice_whole, Rect.mem_set_unit]
  intro a
  match a with
  | ⟨0, _⟩ =>
    show win5_3.index t (0 : Fin 2) * 2048 ≤ (y 0).val ∧ (y 0).val < win5_3.index t (0 : Fin 2) * 2048 + 2048
    rw [e0]; show (y 0).val / 2048 * 2048 ≤ (y 0).val ∧ (y 0).val < (y 0).val / 2048 * 2048 + 2048; omega
  | ⟨1, _⟩ =>
    show win5_3.index t (1 : Fin 2) * 128 ≤ (y 1).val ∧ (y 1).val < win5_3.index t (1 : Fin 2) * 128 + 128
    rw [e1]; omega

/-- The output array after region 5 is that table. -/
theorem lin5_final (c : Dev nD) : (dat5 (F := Ideal) V c).arrAt 3 cfg5.N = lin5G V c :=
  (dat5 (F := Ideal) V c).arrAt_eq_of_cover 3 (lin5G V c) (fun t _ => lin5_flushed V c t) lin5_cover

/-- The output array after region 5, row by row: the node table times the weights, scaled by the row's factor. -/
theorem lin5_value (c : Dev nD) (i : Fin 16384) (k : Fin 128) :
    ((dat5 (F := Ideal) V c).arrAt 3 cfg5.N : S16384x128.Idx → EReal) (ix2 i k)
      = Cert.Spec.hwsK (fun i j => (V c (Pipeline.arrRef spec5 0) : S16384x128.Idx → EReal) (ix2 i j))
          (fun j k => (V c (Pipeline.arrRef spec5 1) : S128x128.Idx → EReal) (ix2 j k))
          (fun i => (V c (Pipeline.arrRef spec5 2) : S16384x1.Idx → EReal) (ix2 i (0 : Fin 1))) i k := by
  rw [lin5_final V c]
  rfl

end Cert.KVal

end
-- ==== Proof.KHostLib.lean ====
/-
  Layout steps of the host code between the tiled regions, read at an index: a vector set up as a column of start
  indices, the negative-index select of a take, a row take whose start index is known, and a row (a matrix, an
  edge row) cut out of a stacked table, flattened and set up again.
-/
import proofs.«426592_j50886772523112_2_alg».proof.Proof.Gen.KernelIdeal.Launch
import proofs.«426592_j50886772523112_2_alg».proof.Proof.Spec
import proofs.«426592_j50886772523112_2_alg».proof.Proof.LibSsa
import proofs.«426592_j50886772523112_2_alg».proof.Proof.LibGraphOps
import proofs.«426592_j50886772523112_2_alg».proof.Proof.LibTakeRows
import proofs.«426592_j50886772523112_2_alg».proof.Proof.LibScatter
import Idealize.ShloMosaic.Lib.IdealHost
import Idealize.ShloMosaic.Lib.ValueLayout

set_option maxRecDepth 4096

noncomputable section

open scoped BigOperators

namespace Cert.KVal

open Cert.KernelIdeal Cert.KernelIdeal.Gen Idealize.ShloMosaic Idealize.ShloMosaic.StableHlo
open Idealize.ShloMosaic.ValueIdx Cert.LibStretch Cert.LibSsa

/-- The negative-index select of a take, word by word: a row number that reads negative is counted from the end. -/
theorem wrap_select (w : BitVec 32) :
    Scalar.select (IntOp.cmpi .slt w 0#32) (IntOp.addi w 16384#32) w = Cert.Spec.wrapIdx (BitVec.ofNat 32 16384) w := by
  unfold Scalar.select IntOp.cmpi IntOp.addi Cert.Spec.wrapIdx
  by_cases h : w.toInt < 0
  · have hs : w.slt 0#32 = true := by simp [BitVec.slt, h]
    simp [hs, h]
  · have hs : w.slt 0#32 = false := by simp [BitVec.slt, h]
    simp [hs, h]

/-- A column made of a vector reads the vector. -/
theorem col_apply {α : Type} (x : S262144.Idx → α) (e : Fin 262144) :
    broadcastInDim S262144x1 ![0] bcast_S262144_S262144x1_0 x (ix2 e (0 : Fin 1)) = x (ix1 e) := by
  refine broadcastInDim_apply _ _ x _ (ix1 e) fun a => ?_
  match a with
  | ⟨0, _⟩ => rfl

/-- A row take whose start index is known: the operand's row at the index clamped into the table. -/
theorem take_rows_at {α : Type} (x : S16384x128.Idx → α) (idx : IVec S262144x1 32) (e : Fin 262144) (k : Fin 128)
    (w : BitVec 32) (hw : idx (ix2 e (0 : Fin 1)) = w) :
    Host.gather gather_S16384x128_S262144x1_S262144x128_1_0_n_n_0_1_1128 x idx (ix2 e k)
      = x (ix2 (Cert.Spec.clampRow 16384 (by decide) w) k) := by
  subst hw
  exact Cert.LibTakeRows.gather_rows_apply (N := 16384) (W := 128) (E := 262144) (by decide)
    gather_S16384x128_S262144x1_S262144x128_1_0_n_n_0_1_1128_wf x idx e k

/-- Row r of a four-row table, cut out, flattened and set up as a one-row table again. -/
theorem row_chain {α : Type} (x : S4x128.Idx → α) (r : Nat) (hr : r < 4) (h1 : S4x128.Slices ![r, 0] S1x128)
    (h2 : S1x128.ShapeCasts S128) (h3 : S128.ShapeCasts S1x128) (k : Fin 128) :
    shapeCast S1x128 (shapeCast S128 (extractStridedSlice S1x128 ![r, 0] x h1) h2) h3 (ix2 (0 : Fin 1) k)
      = x (ix2 (⟨r, hr⟩ : Fin 4) k) := by
  refine (shapeCast_a_1a_apply _ h3 0 k).trans ((shapeCast_1a_a_apply _ h2 k).trans ?_)
  refine extractStridedSlice_apply _ x h1 _ _ fun a => ?_
  match a with
  | ⟨0, _⟩ => rfl
  | ⟨1, _⟩ => exact (Nat.zero_add _).symm

/-- Matrix r of a stack of four, cut out and read as a matrix. -/
theorem mat_chain {α : Type} (x : S4x128x128.Idx → α) (r : Nat) (hr : r < 4)
    (h1 : S4x128x128.Slices ![r, 0, 0] S1x128x128) (h2 : S1x128x128.ShapeCasts S128x128) (j k : Fin 128) :
    shapeCast S128x128 (extractStridedSlice S1x128x128 ![r, 0, 0] x h1) h2 (ix2 j k)
      = x (ix3 (⟨r, hr⟩ : Fin 4) j k) := by
  refine (shapeCast_1ab_ab_apply _ h2 j k).trans ?_
  refine extractStridedSlice_apply _ x h1 _ _ fun a => ?_
  match a with
  | ⟨0, _⟩ => rfl
  | ⟨1, _⟩ => exact (Nat.zero_add _).symm
  | ⟨2, _⟩ => exact (Nat.zero_add _).symm

/-- Row r of the edge list, cut out and read as a vector. -/
theorem edge_chain {α : Type} (x : S2x262144.Idx → α) (r : Nat) (hr : r < 2)
    (h1 : S2x262144.Slices ![r, 0] S1x262144) (h2 : S1x262144.ShapeCasts S262144) (e : Fin 262144) :
    shapeCast S262144 (extractStridedSlice S1x262144 ![r, 0] x h1) h2 (ix1 e) = x (ix2 (⟨r, hr⟩ : Fin 2) e) := by
  refine (shapeCast_1a_a_apply _ h2 e).trans ?_
  refine extractStridedSlice_apply _ x h1 _ _ fun a => ?_
  match a with
  | ⟨0, _⟩ => rfl
  | ⟨1, _⟩ => exact (Nat.zero_add _).symm

end Cert.KVal

end
-- ==== Proof.KHost1.lean ====
/-
  The host code in front of the first message-passing region, read at an index: the two rows of the edge list, the
  inverse square root of the in-degree over the real edges plus the self loop, and the first layer's matrix.
-/
import proofs.«426592_j50886772523112_2_alg».proof.Proof.KHostLib
import proofs.«426592_j50886772523112_2_alg».proof.Proof.LibKeepdims

set_option maxRecDepth 4096

noncomputable section

open scoped BigOperators

namespace Cert.KVal

open Cert.KernelIdeal Cert.KernelIdeal.Gen Idealize.ShloMosaic Idealize.ShloMosaic.StableHlo
open Idealize.ShloMosaic.ValueIdx Cert.LibStretch Cert.LibSsa

/-- The buffers this stretch writes, in order. -/
abbrev ys1 : List (Ref sig .tc) :=
  [main_v1, main_v2, main_v3, main_v4, main_cst, main_v5, main_cst_0, main_v6, main_v7, main_v8, main_cst_1, main_v9,
   main_v10, main_v11, main_v12, main_v13, main_v14]

theorem writes1 : WritesAre (hostOps1 : List (HloOp τ sig (Elt Ideal))) ys1 := by writes_are

variable (W : Valuation τ sig (Elt Ideal))

theorem keeps1 (r : Ref sig .tc) (hr : r ∉ ys1) :
    after hostOps1 W (Proc.devRef .tc r) = W (Proc.devRef .tc r) := keeps writes1 W r hr

/-! ### The stretch as equations between final contents -/

theorem v1_eq1 : after hostOps1 W (Proc.devRef .tc main_v1)
    = extractStridedSlice S1x262144 ![0, 0] (after hostOps1 W (Proc.devRef .tc main_arg1)) slices_S2x262144_S1x262144_0_0 :=
  at_unary writes1 0 W _ _ _ rfl (by decide) (by decide)
theorem v2_eq1 : after hostOps1 W (Proc.devRef .tc main_v2)
    = shapeCast S262144 (after hostOps1 W (Proc.devRef .tc main_v1)) shapeCasts_S1x262144_S262144 :=
  at_reshape (x := main_v1) (y := main_v2) writes1 1 W rfl shapeCasts_S1x262144_S262144 _ _ rfl (by decide) (by decide)
theorem v3_eq1 : after hostOps1 W (Proc.devRef .tc main_v3)
    = extractStridedSlice S1x262144 ![1, 0] (after hostOps1 W (Proc.devRef .tc main_arg1)) slices_S2x262144_S1x262144_1_0 :=
  at_unary writes1 2 W _ _ _ rfl (by decide) (by decide)
theorem v4_eq1 : after hostOps1 W (Proc.devRef .tc main_v4)
    = shapeCast S262144 (after hostOps1 W (Proc.devRef .tc main_v3)) shapeCasts_S1x262144_S262144 :=
  at_reshape (x := main_v3) (y := main_v4) writes1 3 W rfl shapeCasts_S1x262144_S262144 _ _ rfl (by decide) (by decide)
theorem cst_eq1 : after hostOps1 W (Proc.devRef .tc main_cst) = constant (F := Ideal) S_ .f32 0x3F800000#32 :=
  at_nullary writes1 4 W _ _ rfl (by decide)
theorem v5_eq1 : after hostOps1 W (Proc.devRef .tc main_v5)
    = broadcastInDim S262144 ![] bcast_S_S262144 (after hostOps1 W (Proc.devRef .tc main_cst)) :=
  at_unary writes1 5 W _ _ _ rfl (by decide) (by decide)
theorem cst0_eq1 : after hostOps1 W (Proc.devRef .tc main_cst_0) = constant (F := Ideal) S_ .f32 0x00000000#32 :=
  at_nullary writes1 6 W _ _ rfl (by decide)
theorem v6_eq1 : after hostOps1 W (Proc.devRef .tc main_v6)
    = broadcastInDim S16384 ![] bcast_S_S16384 (after hostOps1 W (Proc.devRef .tc main_cst_0)) :=
  at_unary writes1 7 W _ _ _ rfl (by decide) (by decide)
theorem v7_eq1 : after hostOps1 W (Proc.devRef .tc main_v7)
    = broadcastInDim S262144x1 ![0] bcast_S262144_S262144x1_0 (after hostOps1 W (Proc.devRef .tc main_v4)) :=
  at_unary writes1 8 W _ _ _ rfl (by decide) (by decide)
theorem v8_eq1 : after hostOps1 W (Proc.devRef .tc main_v8)
    = Host.scatterAdd (F := Ideal) (φ := .f32) scatter_S16384_S262144x1_S262144_n_0_0_1
        (after hostOps1 W (Proc.devRef .tc main_v6)) (after hostOps1 W (Proc.devRef .tc main_v7))
        (after hostOps1 W (Proc.devRef .tc main_v5)) :=
  at_ternary writes1 9 W _ _ _ _ _ rfl (by decide) (by decide) (by decide) (by decide)
theorem cst1_eq1 : after hostOps1 W (Proc.devRef .tc main_cst_1) = constant (F := Ideal) S_ .f32 0x3F800000#32 :=
  at_nullary writes1 10 W _ _ rfl (by decide)
theorem v9_eq1 : after hostOps1 W (Proc.devRef .tc main_v9)
    = broadcastInDim S16384 ![] bcast_S_S16384 (after hostOps1 W (Proc.devRef .tc main_cst_1)) :=
  at_unary writes1 11 W _ _ _ rfl (by decide) (by decide)
theorem v10_eq1 : after hostOps1 W (Proc.devRef .tc main_v10)
    = addf (F := Ideal) (φ := .f32) (after hostOps1 W (Proc.devRef .tc main_v8)) (after hostOps1 W (Proc.devRef .tc main_v9)) :=
  at_binary writes1 12 W _ _ _ _ rfl (by decide) (by decide) (by decide)
theorem v11_eq1 : after hostOps1 W (Proc.devRef .tc main_v11)
    = Host.rsqrt (F := Ideal) (φ := .f32) (after hostOps1 W (Proc.devRef .tc main_v10)) :=
  at_unary writes1 13 W _ _ _ rfl (by decide) (by decide)
theorem v12_eq1 : after hostOps1 W (Proc.devRef .tc main_v12)
    = shapeCast S16384x1 (after hostOps1 W (Proc.devRef .tc main_v11)) shapeCasts_S16384_S16384x1 :=
  at_reshape (x := main_v11) (y := main_v12) writes1 14 W rfl shapeCasts_S16384_S16384x1 _ _ rfl (by decide) (by decide)
theorem v13_eq1 : after hostOps1 W (Proc.devRef .tc main_v13)
    = extractStridedSlice S1x128x128 ![0, 0, 0] (after hostOps1 W (Proc.devRef .tc main_arg5))
        slices_S4x128x128_S1x128x128_0_0_0 :=
  at_unary writes1 15 W _ _ _ rfl (by decide) (by decide)
theorem v14_eq1 : after hostOps1 W (Proc.devRef .tc main_v14)
    = shapeCast S128x128 (after hostOps1 W (Proc.devRef .tc main_v13)) shapeCasts_S1x128x128_S128x128 :=
  at_reshape (x := main_v13) (y := main_v14) writes1 16 W rfl shapeCasts_S1x128x128_S128x128 _ _ rfl (by decide) (by decide)

/-! ### Reading the stretch at an index -/

/-- The sources: row 0 of the edge list. -/
theorem host1_v2 (e : Fin 262144) : after hostOps1 W (Proc.devRef .tc main_v2) (ix1 e)
    = W (Proc.devRef .tc main_arg1) (ix2 (0 : Fin 2) e) := by
  rw [v2_eq1, v1_eq1, keeps1 W main_arg1 (by decide)]
  exact edge_chain _ 0 (by decide) _ _ e

/-- The destinations: row 1 of the edge list. -/
theorem host1_v4 (e : Fin 262144) : after hostOps1 W (Proc.devRef .tc main_v4) (ix1 e)
    = W (Proc.devRef .tc main_arg1) (ix2 (1 : Fin 2) e) := by
  rw [v4_eq1, v3_eq1, keeps1 W main_arg1 (by decide)]
  exact edge_chain _ 1 (by decide) _ _ e

/-- The first layer's matrix. -/
theorem host1_v14 (j k : Fin 128) : after hostOps1 W (Proc.devRef .tc main_v14) (ix2 j k)
    = W (Proc.devRef .tc main_arg5) (ix3 (0 : Fin 4) j k) := by
  rw [v14_eq1, v13_eq1, keeps1 W main_arg5 (by decide)]
  exact mat_chain _ 0 (by decide) _ _ j k

theorem v7_apply1 (e : Fin 262144) : after hostOps1 W (Proc.devRef .tc main_v7) (ix2 e (0 : Fin 1))
    = W (Proc.devRef .tc main_arg1) (ix2 (1 : Fin 2) e) := by
  rw [v7_eq1]
  exact (col_apply _ e).trans (host1_v4 W e)

theorem v5_apply1 (e : Fin 262144) : after hostOps1 W (Proc.devRef .tc main_v5) (ix1 e) = Cert.Spec.one := by
  rw [v5_eq1]
  exact (broadcastInDim_scalar_apply _ _ _).trans (congrFun (cst_eq1 W) ix0)

theorem v6_apply1 (i : Fin 16384) : after hostOps1 W (Proc.devRef .tc main_v6) (ix1 i) = Cert.Spec.zero := by
  rw [v6_eq1]
  exact (broadcastInDim_scalar_apply _ _ _).trans (congrFun (cst0_eq1 W) ix0)

theorem v9_apply1 (i : Fin 16384) : after hostOps1 W (Proc.devRef .tc main_v9) (ix1 i) = Cert.Spec.one := by
  rw [v9_eq1]
  exact (broadcastInDim_scalar_apply _ _ _).trans (congrFun (cst1_eq1 W) ix0)

/-- The histogram of the destinations, as a float. -/
theorem v8_apply1 (i : Fin 16384) : after hostOps1 W (Proc.devRef .tc main_v8) (ix1 i)
    = Cert.Spec.zero + ∑ e : Fin 262144,
        if Cert.Spec.Lands (W (Proc.devRef .tc main_arg1) (ix2 (1 : Fin 2) e)) i then Cert.Spec.one else 0 := by
  rw [v8_eq1]
  refine (Cert.LibGraphOps.histDims_scatterAdd_apply (N := 16384) (K := 262144)
    scatter_S16384_S262144x1_S262144_n_0_0_1_wf _ _ _ i).trans ?_
  rw [v6_apply1 W i]
  refine congrArg (Cert.Spec.zero + ·) (Finset.sum_congr rfl fun e _ => ?_)
  rw [v7_apply1 W e, v5_apply1 W e]
  rfl

/-- The inverse square root of the in-degree, as a column. -/
theorem host1_v12 (i : Fin 16384) : after hostOps1 W (Proc.devRef .tc main_v12) (ix2 i (0 : Fin 1))
    = Cert.Spec.dinvK (fun e => W (Proc.devRef .tc main_arg1) (ix2 (1 : Fin 2) e)) i := by
  rw [v12_eq1]
  refine (Idealize.ShloMosaic.Keepdims.shapeCast_a_a1_apply _ _ i 0).trans ?_
  rw [v11_eq1]
  unfold Host.rsqrt Cert.Spec.dinvK Cert.Spec.degK
  rw [Ideal.hostUnary_rsqrt_def, v10_eq1, addf_apply, v8_apply1 W i, v9_apply1 W i]

end Cert.KVal

end
-- ==== Proof.KHost2.lean ====
/-
  The host code of message-passing layer 0 (between tiled regions 1 and 2), read at an index: the scatter-add,
  over the destinations, of the rows the sources name in the scaled projected table, and the layer's bias and
  normalisation rows.
-/
import proofs.«426592_j50886772523112_2_alg».proof.Proof.KHostLib

set_option maxRecDepth 4096

noncomputable section

open scoped BigOperators

namespace Cert.KVal

open Cert.KernelIdeal Cert.KernelIdeal.Gen Idealize.ShloMosaic Idealize.ShloMosaic.StableHlo
open Idealize.ShloMosaic.ValueIdx Cert.LibStretch Cert.LibSsa

/-- The buffers this stretch writes, in order. -/
abbrev ys2 : List (Ref sig .tc) :=
  [main_c, main_v16, main_v17, main_c_2, main_v18, main_v19, main_v20, main_v21, main_v22, main_cst_3, main_v23,
   main_v24, main_v25, main_v26, main_v27, main_v28, main_v29, main_v30, main_v31, main_v32, main_v33, main_v34]

theorem writes2 : WritesAre (hostOps2 : List (HloOp τ sig (Elt Ideal))) ys2 := by writes_are

variable (W : Valuation τ sig (Elt Ideal))

theorem keeps2 (r : Ref sig .tc) (hr : r ∉ ys2) :
    after hostOps2 W (Proc.devRef .tc r) = W (Proc.devRef .tc r) := keeps writes2 W r hr

/-! ### The stretch as equations between final contents -/

theorem c_eq2 : after hostOps2 W (Proc.devRef .tc main_c) = constantI S_ 32 0#32 :=
  at_nullary writes2 0 W _ _ rfl (by decide)
theorem v16_eq2 : after hostOps2 W (Proc.devRef .tc main_v16)
    = broadcastInDim S262144 ![] bcast_S_S262144 (after hostOps2 W (Proc.devRef .tc main_c)) :=
  at_unary writes2 1 W _ _ _ rfl (by decide) (by decide)
theorem v17_eq2 : after hostOps2 W (Proc.devRef .tc main_v17)
    = cmpi .slt (after hostOps2 W (Proc.devRef .tc main_v2)) (after hostOps2 W (Proc.devRef .tc main_v16)) :=
  at_binary writes2 2 W _ _ _ _ rfl (by decide) (by decide) (by decide)
theorem c2_eq2 : after hostOps2 W (Proc.devRef .tc main_c_2) = constantI S_ 32 16384#32 :=
  at_nullary writes2 3 W _ _ rfl (by decide)
theorem v18_eq2 : after hostOps2 W (Proc.devRef .tc main_v18)
    = broadcastInDim S262144 ![] bcast_S_S262144 (after hostOps2 W (Proc.devRef .tc main_c_2)) :=
  at_unary writes2 4 W _ _ _ rfl (by decide) (by decide)
theorem v19_eq2 : after hostOps2 W (Proc.devRef .tc main_v19)
    = addi (after hostOps2 W (Proc.devRef .tc main_v2)) (after hostOps2 W (Proc.devRef .tc main_v18)) :=
  at_binary writes2 5 W _ _ _ _ rfl (by decide) (by decide) (by decide)
theorem v20_eq2 : after hostOps2 W (Proc.devRef .tc main_v20)
    = select (after hostOps2 W (Proc.devRef .tc main_v17)) (after hostOps2 W (Proc.devRef .tc main_v19))
        (after hostOps2 W (Proc.devRef .tc main_v2)) :=
  at_ternary writes2 6 W _ _ _ _ _ rfl (by decide) (by decide) (by decide) (by decide)
theorem v21_eq2 : after hostOps2 W (Proc.devRef .tc main_v21)
    = broadcastInDim S262144x1 ![0] bcast_S262144_S262144x1_0 (after hostOps2 W (Proc.devRef .tc main_v20)) :=
  at_unary writes2 7 W _ _ _ rfl (by decide) (by decide)
theorem v22_eq2 : after hostOps2 W (Proc.devRef .tc main_v22)
    = Host.gather (α := Ideal .f32) gather_S16384x128_S262144x1_S262144x128_1_0_n_n_0_1_1128
        (after hostOps2 W (Proc.devRef .tc main_v15)) (after hostOps2 W (Proc.devRef .tc main_v21)) :=
  at_binary writes2 8 W _ _ _ _ rfl (by decide) (by decide) (by decide)
theorem cst3_eq2 : after hostOps2 W (Proc.devRef .tc main_cst_3) = constant (F := Ideal) S_ .f32 0x00000000#32 :=
  at_nullary writes2 9 W _ _ rfl (by decide)
theorem v23_eq2 : after hostOps2 W (Proc.devRef .tc main_v23)
    = broadcastInDim S16384x128 ![] bcast_S_S16384x128 (after hostOps2 W (Proc.devRef .tc main_cst_3)) :=
  at_unary writes2 10 W _ _ _ rfl (by decide) (by decide)
theorem v24_eq2 : after hostOps2 W (Proc.devRef .tc main_v24)
    = broadcastInDim S262144x1 ![0] bcast_S262144_S262144x1_0 (after hostOps2 W (Proc.devRef .tc main_v4)) :=
  at_unary writes2 11 W _ _ _ rfl (by decide) (by decide)
theorem v25_eq2 : after hostOps2 W (Proc.devRef .tc main_v25)
    = Host.scatterAdd (F := Ideal) (φ := .f32) scatter_S16384x128_S262144x1_S262144x128_1_0_0_1
        (after hostOps2 W (Proc.devRef .tc main_v23)) (after hostOps2 W (Proc.devRef .tc main_v24))
        (after hostOps2 W (Proc.devRef .tc main_v22)) :=
  at_ternary writes2 12 W _ _ _ _ _ rfl (by decide) (by decide) (by decide) (by decide)

/-! ### Reading the stretch at an index -/

/-- The source index after the negative-index select. -/
theorem v20_apply2 (e : Fin 262144) : after hostOps2 W (Proc.devRef .tc main_v20) (ix1 e)
    = Cert.Spec.wrapIdx (BitVec.ofNat 32 16384) (W (Proc.devRef .tc main_v2) (ix1 e)) := by
  rw [v20_eq2, select_apply, v17_eq2, v19_eq2, v16_eq2, v18_eq2, c_eq2, c2_eq2, keeps2 W main_v2 (by decide)]
  show Scalar.select (IntOp.cmpi .slt _ (broadcastInDim S262144 ![] bcast_S_S262144 (constantI S_ 32 0#32) (ix1 e)))
    (IntOp.addi _ (broadcastInDim S262144 ![] bcast_S_S262144 (constantI S_ 32 16384#32) (ix1 e))) _ = _
  rw [broadcastInDim_scalar_apply, broadcastInDim_scalar_apply]
  exact wrap_select _

theorem v21_apply2 (e : Fin 262144) : after hostOps2 W (Proc.devRef .tc main_v21) (ix2 e (0 : Fin 1))
    = Cert.Spec.wrapIdx (BitVec.ofNat 32 16384) (W (Proc.devRef .tc main_v2) (ix1 e)) := by
  rw [v21_eq2]
  exact (col_apply _ e).trans (v20_apply2 W e)

theorem v24_apply2 (e : Fin 262144) : after hostOps2 W (Proc.devRef .tc main_v24) (ix2 e (0 : Fin 1))
    = W (Proc.devRef .tc main_v4) (ix1 e) := by
  rw [v24_eq2]
  exact (col_apply _ e).trans (congrFun (keeps2 W main_v4 (by decide)) (ix1 e))

/-- The gathered rows. -/
theorem v22_apply2 (e : Fin 262144) (k : Fin 128) : after hostOps2 W (Proc.devRef .tc main_v22) (ix2 e k)
    = W (Proc.devRef .tc main_v15) (ix2 (Cert.Spec.takeRow 16384 (by decide) (W (Proc.devRef .tc main_v2) (ix1 e))) k) := by
  rw [v22_eq2, keeps2 W main_v15 (by decide)]
  exact take_rows_at _ _ e k _ (v21_apply2 W e)

theorem v23_apply2 (i : Fin 16384) (k : Fin 128) :
    after hostOps2 W (Proc.devRef .tc main_v23) (ix2 i k) = Cert.Spec.zero := by
  rw [v23_eq2]
  exact (broadcastInDim_scalar_apply _ _ _).trans (congrFun (cst3_eq2 W) ix0)

theorem host2_v25 (i : Fin 16384) (k : Fin 128) :
    after hostOps2 W (Proc.devRef .tc main_v25) (ix2 i k)
      = Cert.Spec.aggRawK (fun i k => W (Proc.devRef .tc main_v15) (ix2 i k)) (fun e => W (Proc.devRef .tc main_v2) (ix1 e))
          (fun e => W (Proc.devRef .tc main_v4) (ix1 e)) i k := by
  rw [v25_eq2]
  refine (Cert.LibScatter.rowDims_scatterAdd_apply (R := 16384) (K := 262144) (C := 128)
    scatter_S16384x128_S262144x1_S262144x128_1_0_0_1_wf _ _ _ i k).trans ?_
  unfold Cert.Spec.aggRawK
  rw [v23_apply2 W i k]
  refine congrArg (Cert.Spec.zero + ·) (Finset.sum_congr rfl fun e _ => ?_)
  rw [v24_apply2 W e, v22_apply2 W e k]
  rfl

/-! ### The layer's bias and normalisation rows -/

theorem v26_eq2 : after hostOps2 W (Proc.devRef .tc main_v26)
    = extractStridedSlice S1x128 ![0, 0] (after hostOps2 W (Proc.devRef .tc main_arg6)) slices_S4x128_S1x128_0_0 :=
  at_unary writes2 13 W _ _ _ rfl (by decide) (by decide)
theorem v27_eq2 : after hostOps2 W (Proc.devRef .tc main_v27)
    = shapeCast S128 (after hostOps2 W (Proc.devRef .tc main_v26)) shapeCasts_S1x128_S128 :=
  at_reshape (x := main_v26) (y := main_v27) writes2 14 W rfl shapeCasts_S1x128_S128 _ _ rfl (by decide) (by decide)
theorem v28_eq2 : after hostOps2 W (Proc.devRef .tc main_v28)
    = extractStridedSlice S1x128 ![0, 0] (after hostOps2 W (Proc.devRef .tc main_arg7)) slices_S4x128_S1x128_0_0 :=
  at_unary writes2 15 W _ _ _ rfl (by decide) (by decide)
theorem v29_eq2 : after hostOps2 W (Proc.devRef .tc main_v29)
    = shapeCast S128 (after hostOps2 W (Proc.devRef .tc main_v28)) shapeCasts_S1x128_S128 :=
  at_reshape (x := main_v28) (y := main_v29) writes2 16 W rfl shapeCasts_S1x128_S128 _ _ rfl (by decide) (by decide)
theorem v30_eq2 : after hostOps2 W (Proc.devRef .tc main_v30)
    = extractStridedSlice S1x128 ![0, 0] (after hostOps2 W (Proc.devRef .tc main_arg8)) slices_S4x128_S1x128_0_0 :=
  at_unary writes2 17 W _ _ _ rfl (by decide) (by decide)
theorem v31_eq2 : after hostOps2 W (Proc.devRef .tc main_v31)
    = shapeCast S128 (after hostOps2 W (Proc.devRef .tc main_v30)) shapeCasts_S1x128_S128 :=
  at_reshape (x := main_v30) (y := main_v31) writes2 18 W rfl shapeCasts_S1x128_S128 _ _ rfl (by decide) (by decide)
theorem v32_eq2 : after hostOps2 W (Proc.devRef .tc main_v32)
    = shapeCast S1x128 (after hostOps2 W (Proc.devRef .tc main_v27)) shapeCasts_S128_S1x128 :=
  at_reshape (x := main_v27) (y := main_v32) writes2 19 W rfl shapeCasts_S128_S1x128 _ _ rfl (by decide) (by decide)
theorem v33_eq2 : after hostOps2 W (Proc.devRef .tc main_v33)
    = shapeCast S1x128 (after hostOps2 W (Proc.devRef .tc main_v29)) shapeCasts_S128_S1x128 :=
  at_reshape (x := main_v29) (y := main_v33) writes2 20 W rfl shapeCasts_S128_S1x128 _ _ rfl (by decide) (by decide)
theorem v34_eq2 : after hostOps2 W (Proc.devRef .tc main_v34)
    = shapeCast S1x128 (after hostOps2 W (Proc.devRef .tc main_v31)) shapeCasts_S128_S1x128 :=
  at_reshape (x := main_v31) (y := main_v34) writes2 21 W rfl shapeCasts_S128_S1x128 _ _ rfl (by decide) (by decide)

theorem host2_v32 (k : Fin 128) : after hostOps2 W (Proc.devRef .tc main_v32) (ix2 (0 : Fin 1) k)
    = W (Proc.devRef .tc main_arg6) (ix2 (0 : Fin 4) k) := by
  rw [v32_eq2, v27_eq2, v26_eq2, keeps2 W main_arg6 (by decide)]
  exact row_chain _ 0 (by decide) _ _ _ k

theorem host2_v33 (k : Fin 128) : after hostOps2 W (Proc.devRef .tc main_v33) (ix2 (0 : Fin 1) k)
    = W (Proc.devRef .tc main_arg7) (ix2 (0 : Fin 4) k) := by
  rw [v33_eq2, v29_eq2, v28_eq2, keeps2 W main_arg7 (by decide)]
  exact row_chain _ 0 (by decide) _ _ _ k

theorem host2_v34 (k : Fin 128) : after hostOps2 W (Proc.devRef .tc main_v34) (ix2 (0 : Fin 1) k)
    = W (Proc.devRef .tc main_arg8) (ix2 (0 : Fin 4) k) := by
  rw [v34_eq2, v31_eq2, v30_eq2, keeps2 W main_arg8 (by decide)]
  exact row_chain _ 0 (by decide) _ _ _ k

end Cert.KVal

end
-- ==== Proof.KHost4.lean ====
/-
  The host code of message-passing layer 1 (between tiled regions 3 and 4), read at an index: the scatter-add,
  over the destinations, of the rows the sources name in the scaled projected table, and the layer's bias and
  normalisation rows.
-/
import proofs.«426592_j50886772523112_2_alg».proof.Proof.KHostLib

set_option maxRecDepth 4096

noncomputable section

open scoped BigOperators

namespace Cert.KVal

open Cert.KernelIdeal Cert.KernelIdeal.Gen Idealize.ShloMosaic Idealize.ShloMosaic.StableHlo
open Idealize.ShloMosaic.ValueIdx Cert.LibStretch Cert.LibSsa

/-- The buffers this stretch writes, in order. -/
abbrev ys4 : List (Ref sig .tc) :=
  [main_c_4, main_v39, main_v40, main_c_5, main_v41, main_v42, main_v43, main_v44, main_v45, main_cst_6, main_v46,
   main_v47, main_v48, main_v49, main_v50, main_v51, main_v52, main_v53, main_v54, main_v55, main_v56, main_v57]

theorem writes4 : WritesAre (hostOps4 : List (HloOp τ sig (Elt Ideal))) ys4 := by writes_are

variable (W : Valuation τ sig (Elt Ideal))

theorem keeps4 (r : Ref sig .tc) (hr : r ∉ ys4) :
    after hostOps4 W (Proc.devRef .tc r) = W (Proc.devRef .tc r) := keeps writes4 W r hr

/-! ### The stretch as equations between final contents -/

theorem c_eq4 : after hostOps4 W (Proc.devRef .tc main_c_4) = constantI S_ 32 0#32 :=
  at_nullary writes4 0 W _ _ rfl (by decide)
theorem v16_eq4 : after hostOps4 W (Proc.devRef .tc main_v39)
    = broadcastInDim S262144 ![] bcast_S_S262144 (after hostOps4 W (Proc.devRef .tc main_c_4)) :=
  at_unary writes4 1 W _ _ _ rfl (by decide) (by decide)
theorem v17_eq4 : after hostOps4 W (Proc.devRef .tc main_v40)
    = cmpi .slt (after hostOps4 W (Proc.devRef .tc main_v2)) (after hostOps4 W (Proc.devRef .tc main_v39)) :=
  at_binary writes4 2 W _ _ _ _ rfl (by decide) (by decide) (by decide)
theorem c2_eq4 : after hostOps4 W (Proc.devRef .tc main_c_5) = constantI S_ 32 16384#32 :=
  at_nullary writes4 3 W _ _ rfl (by decide)
theorem v18_eq4 : after hostOps4 W (Proc.devRef .tc main_v41)
    = broadcastInDim S262144 ![] bcast_S_S262144 (after hostOps4 W (Proc.devRef .tc main_c_5)) :=
  at_unary writes4 4 W _ _ _ rfl (by decide) (by decide)
theorem v19_eq4 : after hostOps4 W (Proc.devRef .tc main_v42)
    = addi (after hostOps4 W (Proc.devRef .tc main_v2)) (after hostOps4 W (Proc.devRef .tc main_v41)) :=
  at_binary writes4 5 W _ _ _ _ rfl (by decide) (by decide) (by decide)
theorem v20_eq4 : after hostOps4 W (Proc.devRef .tc main_v43)
    = select (after hostOps4 W (Proc.devRef .tc main_v40)) (after hostOps4 W (Proc.devRef .tc main_v42))
        (after hostOps4 W (Proc.devRef .tc main_v2)) :=
  at_ternary writes4 6 W _ _ _ _ _ rfl (by decide) (by decide) (by decide) (by decide)
theorem v21_eq4 : after hostOps4 W (Proc.devRef .tc main_v44)
    = broadcastInDim S262144x1 ![0] bcast_S262144_S262144x1_0 (after hostOps4 W (Proc.devRef .tc main_v43)) :=
  at_unary writes4 7 W _ _ _ rfl (by decide) (by decide)
theorem v22_eq4 : after hostOps4 W (Proc.devRef .tc main_v45)
    = Host.gather (α := Ideal .f32) gather_S16384x128_S262144x1_S262144x128_1_0_n_n_0_1_1128
        (after hostOps4 W (Proc.devRef .tc main_v38)) (after hostOps4 W (Proc.devRef .tc main_v44)) :=
  at_binary writes4 8 W _ _ _ _ rfl (by decide) (by decide) (by decide)
theorem cst3_eq4 : after hostOps4 W (Proc.devRef .tc main_cst_6) = constant (F := Ideal) S_ .f32 0x00000000#32 :=
  at_nullary writes4 9 W _ _ rfl (by decide)
theorem v23_eq4 : after hostOps4 W (Proc.devRef .tc main_v46)
    = broadcastInDim S16384x128 ![] bcast_S_S16384x128 (after hostOps4 W (Proc.devRef .tc main_cst_6)) :=
  at_unary writes4 10 W _ _ _ rfl (by decide) (by decide)
theorem v24_eq4 : after hostOps4 W (Proc.devRef .tc main_v47)
    = broadcastInDim S262144x1 ![0] bcast_S262144_S262144x1_0 (after hostOps4 W (Proc.devRef .tc main_v4)) :=
  at_unary writes4 11 W _ _ _ rfl (by decide) (by decide)
theorem v25_eq4 : after hostOps4 W (Proc.devRef .tc main_v48)
    = Host.scatterAdd (F := Ideal) (φ := .f32) scatter_S16384x128_S262144x1_S262144x128_1_0_0_1
        (after hostOps4 W (Proc.devRef .tc main_v46)) (after hostOps4 W (Proc.devRef .tc main_v47))
        (after hostOps4 W (Proc.devRef .tc main_v45)) :=
  at_ternary writes4 12 W _ _ _ _ _ rfl (by decide) (by decide) (by decide) (by decide)

/-! ### Reading the stretch at an index -/

/-- The source index after the negative-index select. -/
theorem v20_apply4 (e : Fin 262144) : after hostOps4 W (Proc.devRef .tc main_v43) (ix1 e)
    = Cert.Spec.wrapIdx (BitVec.ofNat 32 16384) (W (Proc.devRef .tc main_v2) (ix1 e)) := by
  rw [v20_eq4, select_apply, v17_eq4, v19_eq4, v16_eq4, v18_eq4, c_eq4, c2_eq4, keeps4 W main_v2 (by decide)]
  show Scalar.select (IntOp.cmpi .slt _ (broadcastInDim S262144 ![] bcast_S_S262144 (constantI S_ 32 0#32) (ix1 e)))
    (IntOp.addi _ (broadcastInDim S262144 ![] bcast_S_S262144 (constantI S_ 32 16384#32) (ix1 e))) _ = _
  rw [broadcastInDim_scalar_apply, broadcastInDim_scalar_apply]
  exact wrap_select _

theorem v21_apply4 (e : Fin 262144) : after hostOps4 W (Proc.devRef .tc main_v44) (ix2 e (0 : Fin 1))
    = Cert.Spec.wrapIdx (BitVec.ofNat 32 16384) (W (Proc.devRef .tc main_v2) (ix1 e)) := by
  rw [v21_eq4]
  exact (col_apply _ e).trans (v20_apply4 W e)

theorem v24_apply4 (e : Fin 262144) : after hostOps4 W (Proc.devRef .tc main_v47) (ix2 e (0 : Fin 1))
    = W (Proc.devRef .tc main_v4) (ix1 e) := by
  rw [v24_eq4]
  exact (col_apply _ e).trans (congrFun (keeps4 W main_v4 (by decide)) (ix1 e))

/-- The gathered rows. -/
theorem v22_apply4 (e : Fin 262144) (k : Fin 128) : after hostOps4 W (Proc.devRef .tc main_v45) (ix2 e k)
    = W (Proc.devRef .tc main_v38) (ix2 (Cert.Spec.takeRow 16384 (by decide) (W (Proc.devRef .tc main_v2) (ix1 e))) k) := by
  rw [v22_eq4, keeps4 W main_v38 (by decide)]
  exact take_rows_at _ _ e k _ (v21_apply4 W e)

theorem v23_apply4 (i : Fin 16384) (k : Fin 128) :
    after hostOps4 W (Proc.devRef .tc main_v46) (ix2 i k) = Cert.Spec.zero := by
  rw [v23_eq4]
  exact (broadcastInDim_scalar_apply _ _ _).trans (congrFun (cst3_eq4 W) ix0)

theorem host4_v48 (i : Fin 16384) (k : Fin 128) :
    after hostOps4 W (Proc.devRef .tc main_v48) (ix2 i k)
      = Cert.Spec.aggRawK (fun i k => W (Proc.devRef .tc main_v38) (ix2 i k)) (fun e => W (Proc.devRef .tc main_v2) (ix1 e))
          (fun e => W (Proc.devRef .tc main_v4) (ix1 e)) i k := by
  rw [v25_eq4]
  refine (Cert.LibScatter.rowDims_scatterAdd_apply (R := 16384) (K := 262144) (C := 128)
    scatter_S16384x128_S262144x1_S262144x128_1_0_0_1_wf _ _ _ i k).trans ?_
  unfold Cert.Spec.aggRawK
  rw [v23_apply4 W i k]
  refine congrArg (Cert.Spec.zero + ·) (Finset.sum_congr rfl fun e _ => ?_)
  rw [v24_apply4 W e, v22_apply4 W e k]
  rfl

/-! ### The layer's bias and normalisation rows -/

theorem v26_eq4 : after hostOps4 W (Proc.devRef .tc main_v49)
    = extractStridedSlice S1x128 ![1, 0] (after hostOps4 W (Proc.devRef .tc main_arg6)) slices_S4x128_S1x128_1_0 :=
  at_unary writes4 13 W _ _ _ rfl (by decide) (by decide)
theorem v27_eq4 : after hostOps4 W (Proc.devRef .tc main_v50)
    = shapeCast S128 (after hostOps4 W (Proc.devRef .tc main_v49)) shapeCasts_S1x128_S128 :=
  at_reshape (x := main_v49) (y := main_v50) writes4 14 W rfl shapeCasts_S1x128_S128 _ _ rfl (by decide) (by decide)
theorem v28_eq4 : after hostOps4 W (Proc.devRef .tc main_v51)
    = extractStridedSlice S1x128 ![1, 0] (after hostOps4 W (Proc.devRef .tc main_arg7)) slices_S4x128_S1x128_1_0 :=
  at_unary writes4 15 W _ _ _ rfl (by decide) (by decide)
theorem v29_eq4 : after hostOps4 W (Proc.devRef .tc main_v52)
    = shapeCast S128 (after hostOps4 W (Proc.devRef .tc main_v51)) shapeCasts_S1x128_S128 :=
  at_reshape (x := main_v51) (y := main_v52) writes4 16 W rfl shapeCasts_S1x128_S128 _ _ rfl (by decide) (by decide)
theorem v30_eq4 : after hostOps4 W (Proc.devRef .tc main_v53)
    = extractStridedSlice S1x128 ![1, 0] (after hostOps4 W (Proc.devRef .tc main_arg8)) slices_S4x128_S1x128_1_0 :=
  at_unary writes4 17 W _ _ _ rfl (by decide) (by decide)
theorem v31_eq4 : after hostOps4 W (Proc.devRef .tc main_v54)
    = shapeCast S128 (after hostOps4 W (Proc.devRef .tc main_v53)) shapeCasts_S1x128_S128 :=
  at_reshape (x := main_v53) (y := main_v54) writes4 18 W rfl shapeCasts_S1x128_S128 _ _ rfl (by decide) (by decide)
theorem v32_eq4 : after hostOps4 W (Proc.devRef .tc main_v55)
    = shapeCast S1x128 (after hostOps4 W (Proc.devRef .tc main_v50)) shapeCasts_S128_S1x128 :=
  at_reshape (x := main_v50) (y := main_v55) writes4 19 W rfl shapeCasts_S128_S1x128 _ _ rfl (by decide) (by decide)
theorem v33_eq4 : after hostOps4 W (Proc.devRef .tc main_v56)
    = shapeCast S1x128 (after hostOps4 W (Proc.devRef .tc main_v52)) shapeCasts_S128_S1x128 :=
  at_reshape (x := main_v52) (y := main_v56) writes4 20 W rfl shapeCasts_S128_S1x128 _ _ rfl (by decide) (by decide)
theorem v34_eq4 : after hostOps4 W (Proc.devRef .tc main_v57)
    = shapeCast S1x128 (after hostOps4 W (Proc.devRef .tc main_v54)) shapeCasts_S128_S1x128 :=
  at_reshape (x := main_v54) (y := main_v57) writes4 21 W rfl shapeCasts_S128_S1x128 _ _ rfl (by decide) (by decide)

theorem host4_v55 (k : Fin 128) : after hostOps4 W (Proc.devRef .tc main_v55) (ix2 (0 : Fin 1) k)
    = W (Proc.devRef .tc main_arg6) (ix2 (1 : Fin 4) k) := by
  rw [v32_eq4, v27_eq4, v26_eq4, keeps4 W main_arg6 (by decide)]
  exact row_chain _ 1 (by decide) _ _ _ k

theorem host4_v56 (k : Fin 128) : after hostOps4 W (Proc.devRef .tc main_v56) (ix2 (0 : Fin 1) k)
    = W (Proc.devRef .tc main_arg7) (ix2 (1 : Fin 4) k) := by
  rw [v33_eq4, v29_eq4, v28_eq4, keeps4 W main_arg7 (by decide)]
  exact row_chain _ 1 (by decide) _ _ _ k

theorem host4_v57 (k : Fin 128) : after hostOps4 W (Proc.devRef .tc main_v57) (ix2 (0 : Fin 1) k)
    = W (Proc.devRef .tc main_arg8) (ix2 (1 : Fin 4) k) := by
  rw [v34_eq4, v31_eq4, v30_eq4, keeps4 W main_arg8 (by decide)]
  exact row_chain _ 1 (by decide) _ _ _ k

end Cert.KVal

end
-- ==== Proof.KHost6.lean ====
/-
  The host code of message-passing layer 2 (between tiled regions 5 and 6), read at an index: the scatter-add,
  over the destinations, of the rows the sources name in the scaled projected table, and the layer's bias and
  normalisation rows.
-/
import proofs.«426592_j50886772523112_2_alg».proof.Proof.KHostLib

set_option maxRecDepth 4096

noncomputable section

open scoped BigOperators

namespace Cert.KVal

open Cert.KernelIdeal Cert.KernelIdeal.Gen Idealize.ShloMosaic Idealize.ShloMosaic.StableHlo
open Idealize.ShloMosaic.ValueIdx Cert.LibStretch Cert.LibSsa

/-- The buffers this stretch writes, in order. -/
abbrev ys6 : List (Ref sig .tc) :=
  [main_c_7, main_v62, main_v63, main_c_8, main_v64, main_v65, main_v66, main_v67, main_v68, main_cst_9, main_v69,
   main_v70, main_v71, main_v72, main_v73, main_v74, main_v75, main_v76, main_v77, main_v78, main_v79, main_v80]

theorem writes6 : WritesAre (hostOps6 : List (HloOp τ sig (Elt Ideal))) ys6 := by writes_are

variable (W : Valuation τ sig (Elt Ideal))

theorem keeps6 (r : Ref sig .tc) (hr : r ∉ ys6) :
    after hostOps6 W (Proc.devRef .tc r) = W (Proc.devRef .tc r) := keeps writes6 W r hr

/-! ### The stretch as equations between final contents -/

theorem c_eq6 : after hostOps6 W (Proc.devRef .tc main_c_7) = constantI S_ 32 0#32 :=
  at_nullary writes6 0 W _ _ rfl (by decide)
theorem v16_eq6 : after hostOps6 W (Proc.devRef .tc main_v62)
    = broadcastInDim S262144 ![] bcast_S_S262144 (after hostOps6 W (Proc.devRef .tc main_c_7)) :=
  at_unary writes6 1 W _ _ _ rfl (by decide) (by decide)
theorem v17_eq6 : after hostOps6 W (Proc.devRef .tc main_v63)
    = cmpi .slt (after hostOps6 W (Proc.devRef .tc main_v2)) (after hostOps6 W (Proc.devRef .tc main_v62)) :=
  at_binary writes6 2 W _ _ _ _ rfl (by decide) (by decide) (by decide)
theorem c2_eq6 : after hostOps6 W (Proc.devRef .tc main_c_8) = constantI S_ 32 16384#32 :=
  at_nullary writes6 3 W _ _ rfl (by decide)
theorem v18_eq6 : after hostOps6 W (Proc.devRef .tc main_v64)
    = broadcastInDim S262144 ![] bcast_S_S262144 (after hostOps6 W (Proc.devRef .tc main_c_8)) :=
  at_unary writes6 4 W _ _ _ rfl (by decide) (by decide)
theorem v19_eq6 : after hostOps6 W (Proc.devRef .tc main_v65)
    = addi (after hostOps6 W (Proc.devRef .tc main_v2)) (after hostOps6 W (Proc.devRef .tc main_v64)) :=
  at_binary writes6 5 W _ _ _ _ rfl (by decide) (by decide) (by decide)
theorem v20_eq6 : after hostOps6 W (Proc.devRef .tc main_v66)
    = select (after hostOps6 W (Proc.devRef .tc main_v63)) (after hostOps6 W (Proc.devRef .tc main_v65))
        (after hostOps6 W (Proc.devRef .tc main_v2)) :=
  at_ternary writes6 6 W _ _ _ _ _ rfl (by decide) (by decide) (by decide) (by decide)
theorem v21_eq6 : after hostOps6 W (Proc.devRef .tc main_v67)
    = broadcastInDim S262144x1 ![0] bcast_S262144_S262144x1_0 (after hostOps6 W (Proc.devRef .tc main_v66)) :=
  at_unary writes6 7 W _ _ _ rfl (by decide) (by decide)
theorem v22_eq6 : after hostOps6 W (Proc.devRef .tc main_v68)
    = Host.gather (α := Ideal .f32) gather_S16384x128_S262144x1_S262144x128_1_0_n_n_0_1_1128
        (after hostOps6 W (Proc.devRef .tc main_v61)) (after hostOps6 W (Proc.devRef .tc main_v67)) :=
  at_binary writes6 8 W _ _ _ _ rfl (by decide) (by decide) (by decide)
theorem cst3_eq6 : after hostOps6 W (Proc.devRef .tc main_cst_9) = constant (F := Ideal) S_ .f32 0x00000000#32 :=
  at_nullary writes6 9 W _ _ rfl (by decide)
theorem v23_eq6 : after hostOps6 W (Proc.devRef .tc main_v69)
    = broadcastInDim S16384x128 ![] bcast_S_S16384x128 (after hostOps6 W (Proc.devRef .tc main_cst_9)) :=
  at_unary writes6 10 W _ _ _ rfl (by decide) (by decide)
theorem v24_eq6 : after hostOps6 W (Proc.devRef .tc main_v70)
    = broadcastInDim S262144x1 ![0] bcast_S262144_S262144x1_0 (after hostOps6 W (Proc.devRef .tc main_v4)) :=
  at_unary writes6 11 W _ _ _ rfl (by decide) (by decide)
theorem v25_eq6 : after hostOps6 W (Proc.devRef .tc main_v71)
    = Host.scatterAdd (F := Ideal) (φ := .f32) scatter_S16384x128_S262144x1_S262144x128_1_0_0_1
        (after hostOps6 W (Proc.devRef .tc main_v69)) (after hostOps6 W (Proc.devRef .tc main_v70))
        (after hostOps6 W (Proc.devRef .tc main_v68)) :=
  at_ternary writes6 12 W _ _ _ _ _ rfl (by decide) (by decide) (by decide) (by decide)

/-! ### Reading the stretch at an index -/

/-- The source index after the negative-index select. -/
theorem v20_apply6 (e : Fin 262144) : after hostOps6 W (Proc.devRef .tc main_v66) (ix1 e)
    = Cert.Spec.wrapIdx (BitVec.ofNat 32 16384) (W (Proc.devRef .tc main_v2) (ix1 e)) := by
  rw [v20_eq6, select_apply, v17_eq6, v19_eq6, v16_eq6, v18_eq6, c_eq6, c2_eq6, keeps6 W main_v2 (by decide)]
  show Scalar.select (IntOp.cmpi .slt _ (broadcastInDim S262144 ![] bcast_S_S262144 (constantI S_ 32 0#32) (ix1 e)))
    (IntOp.addi _ (broadcastInDim S262144 ![] bcast_S_S262144 (constantI S_ 32 16384#32) (ix1 e))) _ = _
  rw [broadcastInDim_scalar_apply, broadcastInDim_scalar_apply]
  exact wrap_select _

theorem v21_apply6 (e : Fin 262144) : after hostOps6 W (Proc.devRef .tc main_v67) (ix2 e (0 : Fin 1))
    = Cert.Spec.wrapIdx (BitVec.ofNat 32 16384) (W (Proc.devRef .tc main_v2) (ix1 e)) := by
  rw [v21_eq6]
  exact (col_apply _ e).trans (v20_apply6 W e)

theorem v24_apply6 (e : Fin 262144) : after hostOps6 W (Proc.devRef .tc main_v70) (ix2 e (0 : Fin 1))
    = W (Proc.devRef .tc main_v4) (ix1 e) := by
  rw [v24_eq6]
  exact (col_apply _ e).trans (congrFun (keeps6 W main_v4 (by decide)) (ix1 e))

/-- The gathered rows. -/
theorem v22_apply6 (e : Fin 262144) (k : Fin 128) : after hostOps6 W (Proc.devRef .tc main_v68) (ix2 e k)
    = W (Proc.devRef .tc main_v61) (ix2 (Cert.Spec.takeRow 16384 (by decide) (W (Proc.devRef .tc main_v2) (ix1 e))) k) := by
  rw [v22_eq6, keeps6 W main_v61 (by decide)]
  exact take_rows_at _ _ e k _ (v21_apply6 W e)

theorem v23_apply6 (i : Fin 16384) (k : Fin 128) :
    after hostOps6 W (Proc.devRef .tc main_v69) (ix2 i k) = Cert.Spec.zero := by
  rw [v23_eq6]
  exact (broadcastInDim_scalar_apply _ _ _).trans (congrFun (cst3_eq6 W) ix0)

theorem host6_v71 (i : Fin 16384) (k : Fin 128) :
    after hostOps6 W (Proc.devRef .tc main_v71) (ix2 i k)
      = Cert.Spec.aggRawK (fun i k => W (Proc.devRef .tc main_v61) (ix2 i k)) (fun e => W (Proc.devRef .tc main_v2) (ix1 e))
          (fun e => W (Proc.devRef .tc main_v4) (ix1 e)) i k := by
  rw [v25_eq6]
  refine (Cert.LibScatter.rowDims_scatterAdd_apply (R := 16384) (K := 262144) (C := 128)
    scatter_S16384x128_S262144x1_S262144x128_1_0_0_1_wf _ _ _ i k).trans ?_
  unfold Cert.Spec.aggRawK
  rw [v23_apply6 W i k]
  refine congrArg (Cert.Spec.zero + ·) (Finset.sum_congr rfl fun e _ => ?_)
  rw [v24_apply6 W e, v22_apply6 W e k]
  rfl

/-! ### The layer's bias and normalisation rows -/

theorem v26_eq6 : after hostOps6 W (Proc.devRef .tc main_v72)
    = extractStridedSlice S1x128 ![2, 0] (after hostOps6 W (Proc.devRef .tc main_arg6)) slices_S4x128_S1x128_2_0 :=
  at_unary writes6 13 W _ _ _ rfl (by decide) (by decide)
theorem v27_eq6 : after hostOps6 W (Proc.devRef .tc main_v73)
    = shapeCast S128 (after hostOps6 W (Proc.devRef .tc main_v72)) shapeCasts_S1x128_S128 :=
  at_reshape (x := main_v72) (y := main_v73) writes6 14 W rfl shapeCasts_S1x128_S128 _ _ rfl (by decide) (by decide)
theorem v28_eq6 : after hostOps6 W (Proc.devRef .tc main_v74)
    = extractStridedSlice S1x128 ![2, 0] (after hostOps6 W (Proc.devRef .tc main_arg7)) slices_S4x128_S1x128_2_0 :=
  at_unary writes6 15 W _ _ _ rfl (by decide) (by decide)
theorem v29_eq6 : after hostOps6 W (Proc.devRef .tc main_v75)
    = shapeCast S128 (after hostOps6 W (Proc.devRef .tc main_v74)) shapeCasts_S1x128_S128 :=
  at_reshape (x := main_v74) (y := main_v75) writes6 16 W rfl shapeCasts_S1x128_S128 _ _ rfl (by decide) (by decide)
theorem v30_eq6 : after hostOps6 W (Proc.devRef .tc main_v76)
    = extractStridedSlice S1x128 ![2, 0] (after hostOps6 W (Proc.devRef .tc main_arg8)) slices_S4x128_S1x128_2_0 :=
  at_unary writes6 17 W _ _ _ rfl (by decide) (by decide)
theorem v31_eq6 : after hostOps6 W (Proc.devRef .tc main_v77)
    = shapeCast S128 (after hostOps6 W (Proc.devRef .tc main_v76)) shapeCasts_S1x128_S128 :=
  at_reshape (x := main_v76) (y := main_v77) writes6 18 W rfl shapeCasts_S1x128_S128 _ _ rfl (by decide) (by decide)
theorem v32_eq6 : after hostOps6 W (Proc.devRef .tc main_v78)
    = shapeCast S1x128 (after hostOps6 W (Proc.devRef .tc main_v73)) shapeCasts_S128_S1x128 :=
  at_reshape (x := main_v73) (y := main_v78) writes6 19 W rfl shapeCasts_S128_S1x128 _ _ rfl (by decide) (by decide)
theorem v33_eq6 : after hostOps6 W (Proc.devRef .tc main_v79)
    = shapeCast S1x128 (after hostOps6 W (Proc.devRef .tc main_v75)) shapeCasts_S128_S1x128 :=
  at_reshape (x := main_v75) (y := main_v79) writes6 20 W rfl shapeCasts_S128_S1x128 _ _ rfl (by decide) (by decide)
theorem v34_eq6 : after hostOps6 W (Proc.devRef .tc main_v80)
    = shapeCast S1x128 (after hostOps6 W (Proc.devRef .tc main_v77)) shapeCasts_S128_S1x128 :=
  at_reshape (x := main_v77) (y := main_v80) writes6 21 W rfl shapeCasts_S128_S1x128 _ _ rfl (by decide) (by decide)

theorem host6_v78 (k : Fin 128) : after hostOps6 W (Proc.devRef .tc main_v78) (ix2 (0 : Fin 1) k)
    = W (Proc.devRef .tc main_arg6) (ix2 (2 : Fin 4) k) := by
  rw [v32_eq6, v27_eq6, v26_eq6, keeps6 W main_arg6 (by decide)]
  exact row_chain _ 2 (by decide) _ _ _ k

theorem host6_v79 (k : Fin 128) : after hostOps6 W (Proc.devRef .tc main_v79) (ix2 (0 : Fin 1) k)
    = W (Proc.devRef .tc main_arg7) (ix2 (2 : Fin 4) k) := by
  rw [v33_eq6, v29_eq6, v28_eq6, keeps6 W main_arg7 (by decide)]
  exact row_chain _ 2 (by decide) _ _ _ k

theorem host6_v80 (k : Fin 128) : after hostOps6 W (Proc.devRef .tc main_v80) (ix2 (0 : Fin 1) k)
    = W (Proc.devRef .tc main_arg8) (ix2 (2 : Fin 4) k) := by
  rw [v34_eq6, v31_eq6, v30_eq6, keeps6 W main_arg8 (by decide)]
  exact row_chain _ 2 (by decide) _ _ _ k

end Cert.KVal

end
-- ==== Proof.KHostS.lean ====
/-
  The short host stretches between the tiled regions, read at an index: the later layers' matrices, the last
  layer's bias and normalisation rows, the first node of every graph and the output bias.
-/
import proofs.«426592_j50886772523112_2_alg».proof.Proof.KHostLib

set_option maxRecDepth 4096

noncomputable section

open scoped BigOperators

namespace Cert.KVal

open Cert.KernelIdeal Cert.KernelIdeal.Gen Idealize.ShloMosaic Idealize.ShloMosaic.StableHlo
open Idealize.ShloMosaic.ValueIdx Cert.LibStretch Cert.LibSsa

variable (W : Valuation τ sig (Elt Ideal))

/-! ## Stretch 3: matrix 1 of the stack -/

/-- The buffers this stretch writes, in order. -/
abbrev ys3 : List (Ref sig .tc) := [main_v36, main_v37]

theorem writes3 : WritesAre (hostOps3 : List (HloOp τ sig (Elt Ideal))) ys3 := by writes_are

theorem keeps3 (r : Ref sig .tc) (hr : r ∉ ys3) :
    after hostOps3 W (Proc.devRef .tc r) = W (Proc.devRef .tc r) := keeps writes3 W r hr

theorem v36_eq3 : after hostOps3 W (Proc.devRef .tc main_v36)
    = extractStridedSlice S1x128x128 ![1, 0, 0] (after hostOps3 W (Proc.devRef .tc main_arg5))
        slices_S4x128x128_S1x128x128_1_0_0 :=
  at_unary writes3 0 W _ _ _ rfl (by decide) (by decide)
theorem v37_eq3 : after hostOps3 W (Proc.devRef .tc main_v37)
    = shapeCast S128x128 (after hostOps3 W (Proc.devRef .tc main_v36)) shapeCasts_S1x128x128_S128x128 :=
  at_reshape (x := main_v36) (y := main_v37) writes3 1 W rfl shapeCasts_S1x128x128_S128x128 _ _ rfl (by decide) (by decide)

theorem host3_v37 (j k : Fin 128) : after hostOps3 W (Proc.devRef .tc main_v37) (ix2 j k)
    = W (Proc.devRef .tc main_arg5) (ix3 (1 : Fin 4) j k) := by
  rw [v37_eq3, v36_eq3, keeps3 W main_arg5 (by decide)]
  exact mat_chain _ 1 (by decide) _ _ j k

/-! ## Stretch 5: matrix 2 of the stack -/

/-- The buffers this stretch writes, in order. -/
abbrev ys5 : List (Ref sig .tc) := [main_v59, main_v60]

theorem writes5 : WritesAre (hostOps5 : List (HloOp τ sig (Elt Ideal))) ys5 := by writes_are

theorem keeps5 (r : Ref sig .tc) (hr : r ∉ ys5) :
    after hostOps5 W (Proc.devRef .tc r) = W (Proc.devRef .tc r) := keeps writes5 W r hr

theorem v59_eq5 : after hostOps5 W (Proc.devRef .tc main_v59)
    = extractStridedSlice S1x128x128 ![2, 0, 0] (after hostOps5 W (Proc.devRef .tc main_arg5))
        slices_S4x128x128_S1x128x128_2_0_0 :=
  at_unary writes5 0 W _ _ _ rfl (by decide) (by decide)
theorem v60_eq5 : after hostOps5 W (Proc.devRef .tc main_v60)
    = shapeCast S128x128 (after hostOps5 W (Proc.devRef .tc main_v59)) shapeCasts_S1x128x128_S128x128 :=
  at_reshape (x := main_v59) (y := main_v60) writes5 1 W rfl shapeCasts_S1x128x128_S128x128 _ _ rfl (by decide) (by decide)

theorem host5_v60 (j k : Fin 128) : after hostOps5 W (Proc.devRef .tc main_v60) (ix2 j k)
    = W (Proc.devRef .tc main_arg5) (ix3 (2 : Fin 4) j k) := by
  rw [v60_eq5, v59_eq5, keeps5 W main_arg5 (by decide)]
  exact mat_chain _ 2 (by decide) _ _ j k

/-! ## Stretch 7: matrix 3 of the stack and the last layer's rows -/

/-- The buffers this stretch writes, in order. -/
abbrev ys7 : List (Ref sig .tc) :=
  [main_v82, main_v83, main_v84, main_v85, main_v86, main_v87, main_v88, main_v89, main_v90, main_v91, main_v92]

theorem writes7 : WritesAre (hostOps7 : List (HloOp τ sig (Elt Ideal))) ys7 := by writes_are

theorem keeps7 (r : Ref sig .tc) (hr : r ∉ ys7) :
    after hostOps7 W (Proc.devRef .tc r) = W (Proc.devRef .tc r) := keeps writes7 W r hr

theorem v82_eq7 : after hostOps7 W (Proc.devRef .tc main_v82)
    = extractStridedSlice S1x128x128 ![3, 0, 0] (after hostOps7 W (Proc.devRef .tc main_arg5))
        slices_S4x128x128_S1x128x128_3_0_0 :=
  at_unary writes7 0 W _ _ _ rfl (by decide) (by decide)
theorem v83_eq7 : after hostOps7 W (Proc.devRef .tc main_v83)
    = shapeCast S128x128 (after hostOps7 W (Proc.devRef .tc main_v82)) shapeCasts_S1x128x128_S128x128 :=
  at_reshape (x := main_v82) (y := main_v83) writes7 1 W rfl shapeCasts_S1x128x128_S128x128 _ _ rfl (by decide) (by decide)

theorem host7_v83 (j k : Fin 128) : after hostOps7 W (Proc.devRef .tc main_v83) (ix2 j k)
    = W (Proc.devRef .tc main_arg5) (ix3 (3 : Fin 4) j k) := by
  rw [v83_eq7, v82_eq7, keeps7 W main_arg5 (by decide)]
  exact mat_chain _ 3 (by decide) _ _ j k

theorem v84_eq7 : after hostOps7 W (Proc.devRef .tc main_v84)
    = extractStridedSlice S1x128 ![3, 0] (after hostOps7 W (Proc.devRef .tc main_arg6)) slices_S4x128_S1x128_3_0 :=
  at_unary writes7 2 W _ _ _ rfl (by decide) (by decide)
theorem v85_eq7 : after hostOps7 W (Proc.devRef .tc main_v85)
    = shapeCast S128 (after hostOps7 W (Proc.devRef .tc main_v84)) shapeCasts_S1x128_S128 :=
  at_reshape (x := main_v84) (y := main_v85) writes7 3 W rfl shapeCasts_S1x128_S128 _ _ rfl (by decide) (by decide)
theorem v90_eq7 : after hostOps7 W (Proc.devRef .tc main_v90)
    = shapeCast S1x128 (after hostOps7 W (Proc.devRef .tc main_v85)) shapeCasts_S128_S1x128 :=
  at_reshape (x := main_v85) (y := main_v90) writes7 8 W rfl shapeCasts_S128_S1x128 _ _ rfl (by decide) (by decide)

theorem host7_v90 (k : Fin 128) : after hostOps7 W (Proc.devRef .tc main_v90) (ix2 (0 : Fin 1) k)
    = W (Proc.devRef .tc main_arg6) (ix2 (3 : Fin 4) k) := by
  rw [v90_eq7, v85_eq7, v84_eq7, keeps7 W main_arg6 (by decide)]
  exact row_chain _ 3 (by decide) _ _ _ k

theorem v86_eq7 : after hostOps7 W (Proc.devRef .tc main_v86)
    = extractStridedSlice S1x128 ![3, 0] (after hostOps7 W (Proc.devRef .tc main_arg7)) slices_S4x128_S1x128_3_0 :=
  at_unary writes7 4 W _ _ _ rfl (by decide) (by decide)
theorem v87_eq7 : after hostOps7 W (Proc.devRef .tc main_v87)
    = shapeCast S128 (after hostOps7 W (Proc.devRef .tc main_v86)) shapeCasts_S1x128_S128 :=
  at_reshape (x := main_v86) (y := main_v87) writes7 5 W rfl shapeCasts_S1x128_S128 _ _ rfl (by decide) (by decide)
theorem v91_eq7 : after hostOps7 W (Proc.devRef .tc main_v91)
    = shapeCast S1x128 (after hostOps7 W (Proc.devRef .tc main_v87)) shapeCasts_S128_S1x128 :=
  at_reshape (x := main_v87) (y := main_v91) writes7 9 W rfl shapeCasts_S128_S1x128 _ _ rfl (by decide) (by decide)

theorem host7_v91 (k : Fin 128) : after hostOps7 W (Proc.devRef .tc main_v91) (ix2 (0 : Fin 1) k)
    = W (Proc.devRef .tc main_arg7) (ix2 (3 : Fin 4) k) := by
  rw [v91_eq7, v87_eq7, v86_eq7, keeps7 W main_arg7 (by decide)]
  exact row_chain _ 3 (by decide) _ _ _ k

theorem v88_eq7 : after hostOps7 W (Proc.devRef .tc main_v88)
    = extractStridedSlice S1x128 ![3, 0] (after hostOps7 W (Proc.devRef .tc main_arg8)) slices_S4x128_S1x128_3_0 :=
  at_unary writes7 6 W _ _ _ rfl (by decide) (by decide)
theorem v89_eq7 : after hostOps7 W (Proc.devRef .tc main_v89)
    = shapeCast S128 (after hostOps7 W (Proc.devRef .tc main_v88)) shapeCasts_S1x128_S128 :=
  at_reshape (x := main_v88) (y := main_v89) writes7 7 W rfl shapeCasts_S1x128_S128 _ _ rfl (by decide) (by decide)
theorem v92_eq7 : after hostOps7 W (Proc.devRef .tc main_v92)
    = shapeCast S1x128 (after hostOps7 W (Proc.devRef .tc main_v89)) shapeCasts_S128_S1x128 :=
  at_reshape (x := main_v89) (y := main_v92) writes7 10 W rfl shapeCasts_S128_S1x128 _ _ rfl (by decide) (by decide)

theorem host7_v92 (k : Fin 128) : after hostOps7 W (Proc.devRef .tc main_v92) (ix2 (0 : Fin 1) k)
    = W (Proc.devRef .tc main_arg8) (ix2 (3 : Fin 4) k) := by
  rw [v92_eq7, v89_eq7, v88_eq7, keeps7 W main_arg8 (by decide)]
  exact row_chain _ 3 (by decide) _ _ _ k

/-! ## Stretch 8: the first node of every graph, and the output bias as a row -/

/-- The table read as blocks of 64 rows, the first row of every block cut out: the rows number 64·g. -/
theorem first_node_chain {α : Type} (x : S16384x128.Idx → α) (h1 : S16384x128.ShapeCasts S256x64x128)
    (h2 : S256x64x128.Slices ![0, 0, 0] S256x1x128) (h3 : S256x1x128.ShapeCasts S256x128) (g : Fin 256) (j : Fin 128) :
    shapeCast S256x128 (extractStridedSlice S256x1x128 ![0, 0, 0] (shapeCast S256x64x128 x h1) h2) h3 (ix2 g j)
      = x (ix2 (Cert.Spec.nodeOf g 0) j) := by
  refine (shapeCast_apply _ h3 _ (ix3 g (0 : Fin 1) j) ?_).trans ?_
  · rw [Shape.rowMajor_val_three, Shape.rowMajor_val_two]
    show (g.val * 1 + 0) * 128 + j.val = g.val * 128 + j.val
    omega
  refine (extractStridedSlice_apply _ _ h2 _ (ix3 g (0 : Fin 64) j) fun a => ?_).trans ?_
  · match a with
    | ⟨0, _⟩ => exact (Nat.zero_add _).symm
    | ⟨1, _⟩ => rfl
    | ⟨2, _⟩ => exact (Nat.zero_add _).symm
  refine shapeCast_apply x h1 _ _ ?_
  rw [Shape.rowMajor_val_two, Shape.rowMajor_val_three]
  rfl

/-- The buffers this stretch writes, in order. -/
abbrev ys8 : List (Ref sig .tc) := [main_v94, main_v95, main_v96, main_v97]

theorem writes8 : WritesAre (hostOps8 : List (HloOp τ sig (Elt Ideal))) ys8 := by writes_are

theorem keeps8 (r : Ref sig .tc) (hr : r ∉ ys8) :
    after hostOps8 W (Proc.devRef .tc r) = W (Proc.devRef .tc r) := keeps writes8 W r hr

theorem v94_eq8 : after hostOps8 W (Proc.devRef .tc main_v94)
    = shapeCast S256x64x128 (after hostOps8 W (Proc.devRef .tc main_v93)) shapeCasts_S16384x128_S256x64x128 :=
  at_reshape (x := main_v93) (y := main_v94) writes8 0 W rfl shapeCasts_S16384x128_S256x64x128 _ _ rfl (by decide) (by decide)
theorem v95_eq8 : after hostOps8 W (Proc.devRef .tc main_v95)
    = extractStridedSlice S256x1x128 ![0, 0, 0] (after hostOps8 W (Proc.devRef .tc main_v94))
        slices_S256x64x128_S256x1x128_0_0_0 :=
  at_unary writes8 1 W _ _ _ rfl (by decide) (by decide)
theorem v96_eq8 : after hostOps8 W (Proc.devRef .tc main_v96)
    = shapeCast S256x128 (after hostOps8 W (Proc.devRef .tc main_v95)) shapeCasts_S256x1x128_S256x128 :=
  at_reshape (x := main_v95) (y := main_v96) writes8 2 W rfl shapeCasts_S256x1x128_S256x128 _ _ rfl (by decide) (by decide)
theorem v97_eq8 : after hostOps8 W (Proc.devRef .tc main_v97)
    = shapeCast S1x32 (after hostOps8 W (Proc.devRef .tc main_arg10)) shapeCasts_S32_S1x32 :=
  at_reshape (x := main_arg10) (y := main_v97) writes8 3 W rfl shapeCasts_S32_S1x32 _ _ rfl (by decide) (by decide)

theorem host8_v96 (g : Fin 256) (j : Fin 128) : after hostOps8 W (Proc.devRef .tc main_v96) (ix2 g j)
    = W (Proc.devRef .tc main_v93) (ix2 (Cert.Spec.nodeOf g 0) j) := by
  rw [v96_eq8, v95_eq8, v94_eq8, keeps8 W main_v93 (by decide)]
  exact first_node_chain _ _ _ _ g j

theorem host8_v97 (c : Fin 32) : after hostOps8 W (Proc.devRef .tc main_v97) (ix2 (0 : Fin 1) c)
    = W (Proc.devRef .tc main_arg10) (ix1 c) := by
  rw [v97_eq8, keeps8 W main_arg10 (by decide)]
  exact shapeCast_a_1a_apply _ _ 0 c

end Cert.KVal

end
-- ==== Proof.KPost2.lean ====
/-
  The residual and layer normalisation a post region leaves: every row of the output array is the row of the node
  table plus the rectified aggregate (the row's factor times the raw sum, plus the factor times the scaled row, plus
  the bias), normalised along the row and scaled and shifted.  The region's blocks are whole rows (2048 to a grid
  point), its body one whole-block store, so the array after the region is the body's arithmetic read row by row.
-/
import proofs.«426592_j50886772523112_2_alg».proof.Proof.Gen.KernelIdeal.Frame
import proofs.«426592_j50886772523112_2_alg».proof.Proof.Spec
import proofs.«426592_j50886772523112_2_alg».proof.Proof.LibKeepdims
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KVal

open Idealize.ShloMosaic Idealize.ShloMosaic.TcCoe Idealize.SL.Sem
open Idealize.ShloMosaic.Pipeline (Dat)
open Idealize.ShloMosaic.ValueIdx Idealize.ShloMosaic.Keepdims
open Cert.KernelIdeal Cert.KernelIdeal.Gen

variable (V : (c : Dev nD) → (b : Ref sig .tc) → Buf (Elt Ideal) ((c : Thread nD τ).loc b))

/-- The region's input arrays as it finds them, read by coordinates: the node table, the raw aggregate, the scaled
    projection, the column of factors, the bias, and the normalisation's scale and shift. -/
abbrev post2_H (c : Dev nD) : Cert.Spec.Mat 16384 128 :=
  fun i k => (V c (Pipeline.arrRef spec2 0) : S16384x128.Idx → EReal) (ix2 i k)
abbrev post2_A (c : Dev nD) : Cert.Spec.Mat 16384 128 :=
  fun i k => (V c (Pipeline.arrRef spec2 1) : S16384x128.Idx → EReal) (ix2 i k)
abbrev post2_S (c : Dev nD) : Cert.Spec.Mat 16384 128 :=
  fun i k => (V c (Pipeline.arrRef spec2 2) : S16384x128.Idx → EReal) (ix2 i k)
abbrev post2_D (c : Dev nD) : Cert.Spec.Col 16384 :=
  fun i => (V c (Pipeline.arrRef spec2 3) : S16384x1.Idx → EReal) (ix2 i (0 : Fin 1))
abbrev post2_B (c : Dev nD) : Cert.Spec.Col 128 :=
  fun k => (V c (Pipeline.arrRef spec2 4) : S1x128.Idx → EReal) (ix2 (0 : Fin 1) k)
abbrev post2_G (c : Dev nD) : Cert.Spec.Col 128 :=
  fun k => (V c (Pipeline.arrRef spec2 5) : S1x128.Idx → EReal) (ix2 (0 : Fin 1) k)
abbrev post2_T (c : Dev nD) : Cert.Spec.Col 128 :=
  fun k => (V c (Pipeline.arrRef spec2 6) : S1x128.Idx → EReal) (ix2 (0 : Fin 1) k)

/-! ## The body's arithmetic at an index -/

/-- A row `[1, 128]` broadcast over the block reads its column. -/
theorem post2_pay3_apply (g : Vec Ideal S1x128 .f32) (p : Fin 2048) (k : Fin 128) :
    k2_pay3 (F := Ideal) g (ix2 p k) = g (ix2 (0 : Fin 1) k) := by
  unfold k2_pay3
  rw [shapeCast_self]
  exact broadcastTo_1b_ab_apply _ _ p k

/-- The inverse square root of a column, entry by entry. -/
theorem post2_rsqrt_apply (v : FVec Ideal S2048x1 .f32) (j : S2048x1.Idx) : rsqrt v j = Ideal.rsqrt (v j) := rfl

/-- The column of row means of a block table, as the body spells it: the lane sum of each row, kept as a column,
    divided by the row length. -/
abbrev post2_colmean (Z : FVec Ideal S2048x128 .f32) (hφ : FKind.Formats .f32)
    (hacc : (0x00000000#32 : BitVec FTy.f32.bits) = FKind.add.neutral .f32 hφ) : FVec Ideal S2048x1 .f32 :=
  divf (shapeCast S2048x1 (multiReduction (F := Ideal) .add [1] S2048 Z 0x00000000#32 reduces_S2048x128_S2048 hφ hacc) shapeCasts_S2048_S2048x1)
    (broadcast S2048x1 (Scalar.ofBits (F := Ideal) .f32 0x43000000#32))

theorem post2_colmean_apply (Z : FVec Ideal S2048x128 .f32) (W : Cert.Spec.Mat 2048 128) (hW : ∀ p k, Z (ix2 p k) = W p k)
    (hφ : FKind.Formats .f32) (hacc : (0x00000000#32 : BitVec FTy.f32.bits) = FKind.add.neutral .f32 hφ) (q : Fin 2048) (u : Fin 1) :
    post2_colmean Z hφ hacc (ix2 q u) = Ideal.div (∑ k : Fin 128, W q k) Cert.Spec.c128 := by
  show divf _ _ (ix2 q u) = _
  rw [divf_apply, shapeCast_a_a1_apply, multiReduction_add_rows, broadcast_apply]
  simp only [hW]
  rfl

/-- The normalisation of a block table `X` whose entries are `Y`: each entry less its row's mean, times the inverse
    square root of the row's variance plus the small constant. -/
theorem post2_norm_apply (X : FVec Ideal S2048x128 .f32) (Y : Cert.Spec.Mat 2048 128) (hY : ∀ p k, X (ix2 p k) = Y p k)
    (hφ : FKind.Formats .f32) (hacc : (0x00000000#32 : BitVec FTy.f32.bits) = FKind.add.neutral .f32 hφ)
    (hφ' : FKind.Formats .f32) (hacc' : (0x00000000#32 : BitVec FTy.f32.bits) = FKind.add.neutral .f32 hφ')
    (p : Fin 2048) (k : Fin 128) :
    mulf (subf X (broadcastTo S2048x128 (post2_colmean X hφ hacc) broadcasts_S2048x1_S2048x128))
        (broadcastTo S2048x128
          (rsqrt (addf
            (post2_colmean
              (mulf (subf X (broadcastTo S2048x128 (post2_colmean X hφ hacc) broadcasts_S2048x1_S2048x128))
                (subf X (broadcastTo S2048x128 (post2_colmean X hφ hacc) broadcasts_S2048x1_S2048x128))) hφ' hacc')
            (broadcast S2048x1 (Scalar.ofBits (F := Ideal) .f32 0x3727C5AC#32))))
          broadcasts_S2048x1_S2048x128) (ix2 p k)
      = (Y p k - Cert.Spec.rowMean Y p) * Ideal.rsqrt (Cert.Spec.rowVar Y p + Cert.Spec.eps) := by
  have hm : ∀ (q : Fin 2048) (u : Fin 1), post2_colmean X hφ hacc (ix2 q u) = Cert.Spec.rowMean Y q :=
    fun q u => post2_colmean_apply X Y hY hφ hacc q u
  have hc : ∀ (q : Fin 2048) (j : Fin 128),
      subf X (broadcastTo S2048x128 (post2_colmean X hφ hacc) broadcasts_S2048x1_S2048x128) (ix2 q j)
        = Y q j - Cert.Spec.rowMean Y q := by
    intro q j
    rw [subf_apply, broadcastTo_a1_ab_apply, hm, hY]
  have hv : ∀ (q : Fin 2048) (u : Fin 1),
      post2_colmean
          (mulf (subf X (broadcastTo S2048x128 (post2_colmean X hφ hacc) broadcasts_S2048x1_S2048x128))
            (subf X (broadcastTo S2048x128 (post2_colmean X hφ hacc) broadcasts_S2048x1_S2048x128))) hφ' hacc' (ix2 q u)
        = Cert.Spec.rowVar Y q :=
    fun q u => post2_colmean_apply _ (fun q j => (Y q j - Cert.Spec.rowMean Y q) * (Y q j - Cert.Spec.rowMean Y q))
      (fun q j => by rw [mulf_apply, hc]) hφ' hacc' q u
  rw [mulf_apply, hc, broadcastTo_a1_ab_apply, post2_rsqrt_apply, addf_apply, hv, broadcast_apply]
  rfl

/-- The block's table before normalisation: the node row plus the rectified aggregate. -/
abbrev post2_pre (h : Vec Ideal S2048x128 .f32) (d : Vec Ideal S2048x1 .f32) (a s : Vec Ideal S2048x128 .f32)
    (b : Vec Ideal S1x128 .f32) : Cert.Spec.Mat 2048 128 :=
  fun p k => h (ix2 p k)
    + max (d (ix2 p (0 : Fin 1)) * a (ix2 p k) + d (ix2 p (0 : Fin 1)) * s (ix2 p k) + b (ix2 (0 : Fin 1) k)) Cert.Spec.zero

theorem post2_pre_apply (h : Vec Ideal S2048x128 .f32) (d : Vec Ideal S2048x1 .f32) (a s : Vec Ideal S2048x128 .f32)
    (b : Vec Ideal S1x128 .f32) (p : Fin 2048) (k : Fin 128) :
    addf (shapeCast S2048x128 h shapeCasts_S2048x128_S2048x128)
        (maximumf
          (addf
            (addf
              (mulf (broadcastTo S2048x128 (shapeCast S2048x1 d shapeCasts_S2048x1_S2048x1) broadcasts_S2048x1_S2048x128)
                (shapeCast S2048x128 a shapeCasts_S2048x128_S2048x128))
              (mulf (broadcastTo S2048x128 (shapeCast S2048x1 d shapeCasts_S2048x1_S2048x1) broadcasts_S2048x1_S2048x128)
                (shapeCast S2048x128 s shapeCasts_S2048x128_S2048x128)))
            (broadcastTo S2048x128 (shapeCast S1x128 b shapeCasts_S1x128_S1x128) broadcasts_S1x128_S2048x128))
          (broadcast S2048x128 (Scalar.ofBits (F := Ideal) .f32 0x00000000#32))) (ix2 p k)
      = post2_pre h d a s b p k := by
  simp only [shapeCast_self]
  rw [addf_apply, maximumf_apply, addf_apply, addf_apply, mulf_apply, mulf_apply, broadcastTo_a1_ab_apply,
    broadcastTo_1b_ab_apply, broadcast_apply]
  rfl

theorem post2_pay2_apply (h : Vec Ideal S2048x128 .f32) (d : Vec Ideal S2048x1 .f32) (a s : Vec Ideal S2048x128 .f32)
    (b : Vec Ideal S1x128 .f32) (p : Fin 2048) (k : Fin 128) :
    k2_pay2 (F := Ideal) h d a s b (ix2 p k)
      = (post2_pre h d a s b p k - Cert.Spec.rowMean (post2_pre h d a s b) p)
          * Ideal.rsqrt (Cert.Spec.rowVar (post2_pre h d a s b) p + Cert.Spec.eps) := by
  unfold k2_pay2
  exact post2_norm_apply _ (post2_pre h d a s b) (fun p k => post2_pre_apply h d a s b p k) _ _ _ _ p k

/-- The whole body at an index of the block: the residual step of the specification on the block's rows. -/
theorem post2_body_apply (h : Vec Ideal S2048x128 .f32) (a s : Vec Ideal S2048x128 .f32) (d : Vec Ideal S2048x1 .f32)
    (b g t : Vec Ideal S1x128 .f32) (p : Fin 2048) (k : Fin 128) :
    k2_pay1 (F := Ideal) (k2_pay2 h d a s b) (k2_pay3 g) t (ix2 p k)
      = Cert.Spec.resid (fun p k => h (ix2 p k))
          (fun p k => d (ix2 p (0 : Fin 1)) * a (ix2 p k) + d (ix2 p (0 : Fin 1)) * s (ix2 p k) + b (ix2 (0 : Fin 1) k))
          (fun k => g (ix2 (0 : Fin 1) k)) (fun k => t (ix2 (0 : Fin 1) k)) p k := by
  unfold k2_pay1
  rw [shapeCast_self, addf_apply, mulf_apply, post2_pay2_apply, post2_pay3_apply, broadcastTo_1b_ab_apply]
  rfl

/-! ## From the blocks to the array -/

theorem post2_hz : (![0, 0] : Fin 2 → Nat) = fun _ => 0 := funext fun a => by fin_cases a <;> rfl

/-- The residual step reads one row of each table: two settings that agree on a row agree on the row's result. -/
theorem post2_resid_row {n m : Nat} (h agg : Cert.Spec.Mat n 128) (h' agg' : Cert.Spec.Mat m 128) (g b g' b' : Cert.Spec.Col 128)
    (p : Fin n) (i : Fin m) (e1 : ∀ k, h p k = h' i k) (e2 : ∀ k, agg p k = agg' i k) (e3 : ∀ k, g k = g' k)
    (e4 : ∀ k, b k = b' k) (k : Fin 128) :
    Cert.Spec.resid h agg g b p k = Cert.Spec.resid h' agg' g' b' i k := by
  unfold Cert.Spec.resid Cert.Spec.layerNorm Cert.Spec.rowVar Cert.Spec.rowMean
  simp only [e1, e2, e3, e4]

/-- The printed index maps, decided over the grid: the row-blocked windows are at block `t` of the rows, the small
    operands at their one block. -/
theorem post2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `p` of a row-blocked window's block at point `t` is row `2048 t + p` of its array; the small operands' one
    block is their array. -/
theorem post2_blkH (c : Dev nD) (t : Fin cfg2.N) (p : Fin 2048) (k : Fin 128) (i : Fin 16384)
    (hi : i.val = 2048 * t.val + p.val) :
    (iblk2 V c 0 t : Vec Ideal S2048x128 .f32) (ix2 p k) = post2_H V c i k := by
  have e := post2_idx t
  unfold iblk2
  rw [View.read_apply]
  show (V c (Pipeline.arrRef spec2 0) : S16384x128.Idx → EReal) _ = (V c (Pipeline.arrRef spec2 0) : S16384x128.Idx → EReal) (ix2 i k)
  congr 1
  funext a
  apply Fin.ext
  match a with
  | ⟨0, _⟩ => show win2_0.index t 0 * 2048 + 1 * p.val = i.val; rw [hi]; omega
  | ⟨1, _⟩ => show win2_0.index t 1 * 128 + 1 * k.val = k.val; omega

theorem post2_blkA (c : Dev nD) (t : Fin cfg2.N) (p : Fin 2048) (k : Fin 128) (i : Fin 16384)
    (hi : i.val = 2048 * t.val + p.val) :
    (iblk2 V c 1 t : Vec Ideal S2048x128 .f32) (ix2 p k) = post2_A V c i k := by
  have e := post2_idx t
  unfold iblk2
  rw [View.read_apply]
  show (V c (Pipeline.arrRef spec2 1) : S16384x128.Idx → EReal) _ = (V c (Pipeline.arrRef spec2 1) : S16384x128.Idx → EReal) (ix2 i k)
  congr 1
  funext a
  apply Fin.ext
  match a with
  | ⟨0, _⟩ => show win2_1.index t 0 * 2048 + 1 * p.val = i.val; rw [hi]; omega
  | ⟨1, _⟩ => show win2_1.index t 1 * 128 + 1 * k.val = k.val; omega

theorem post2_blkS (c : Dev nD) (t : Fin cfg2.N) (p : Fin 2048) (k : Fin 128) (i : Fin 16384)
    (hi : i.val = 2048 * t.val + p.val) :
    (iblk2 V c 2 t : Vec Ideal S2048x128 .f32) (ix2 p k) = post2_S V c i k := by
  have e := post2_idx t
  unfold iblk2
  rw [View.read_apply]
  show (V c (Pipeline.arrRef spec2 2) : S16384x128.Idx → EReal) _ = (V c (Pipeline.arrRef spec2 2) : S16384x128.Idx → EReal) (ix2 i k)
  congr 1
  funext a
  apply Fin.ext
  match a with
  | ⟨0, _⟩ => show win2_2.index t 0 * 2048 + 1 * p.val = i.val; rw [hi]; omega
  | ⟨1, _⟩ => show win2_2.index t 1 * 128 + 1 * k.val = k.val; omega

theorem post2_blkD (c : Dev nD) (t : Fin cfg2.N) (p : Fin 2048) (i : Fin 16384)
    (hi : i.val = 2048 * t.val + p.val) :
    (iblk2 V c 3 t : Vec Ideal S2048x1 .f32) (ix2 p (0 : Fin 1)) = post2_D V c i := by
  have e := post2_idx t
  unfold iblk2
  rw [View.read_apply]
  show (V c (Pipeline.arrRef spec2 3) : S16384x1.Idx → EReal) _ = (V c (Pipeline.arrRef spec2 3) : S16384x1.Idx → EReal) (ix2 i (0 : Fin 1))
  congr 1
  funext a
  apply Fin.ext
  match a with
  | ⟨0, _⟩ => show win2_3.index t 0 * 2048 + 1 * p.val = i.val; rw [hi]; omega
  | ⟨1, _⟩ => show win2_3.index t 1 * 1 + 1 * 0 = 0; omega

theorem post2_blkB (c : Dev nD) (t : Fin cfg2.N) (k : Fin 128) :
    (iblk2 V c 4 t : Vec Ideal S1x128 .f32) (ix2 (0 : Fin 1) k) = post2_B V c k := by
  have e := post2_idx t
  unfold iblk2
  rw [View.read_apply]
  show (V c (Pipeline.arrRef spec2 4) : S1x128.Idx → EReal) _ = (V c (Pipeline.arrRef spec2 4) : S1x128.Idx → EReal) (ix2 (0 : Fin 1) k)
  congr 1
  funext a
  apply Fin.ext
  match a with
  | ⟨0, _⟩ => show win2_4.index t 0 * 1 + 1 * 0 = 0; omega
  | ⟨1, _⟩ => show win2_4.index t 1 * 128 + 1 * k.val = k.val; omega

theorem post2_blkG (c : Dev nD) (t : Fin cfg2.N) (k : Fin 128) :
    (iblk2 V c 5 t : Vec Ideal S1x128 .f32) (ix2 (0 : Fin 1) k) = post2_G V c k := by
  have e := post2_idx t
  unfold iblk2
  rw [View.read_apply]
  show (V c (Pipeline.arrRef spec2 5) : S1x128.Idx → EReal) _ = (V c (Pipeline.arrRef spec2 5) : S1x128.Idx → EReal) (ix2 (0 : Fin 1) k)
  congr 1
  funext a
  apply Fin.ext
  match a with
  | ⟨0, _⟩ => show win2_5.index t 0 * 1 + 1 * 0 = 0; omega
  | ⟨1, _⟩ => show win2_5.index t 1 * 128 + 1 * k.val = k.val; omega

theorem post2_blkT (c : Dev nD) (t : Fin cfg2.N) (k : Fin 128) :
    (iblk2 V c 6 t : Vec Ideal S1x128 .f32) (ix2 (0 : Fin 1) k) = post2_T V c k := by
  have e := post2_idx t
  unfold iblk2
  rw [View.read_apply]
  show (V c (Pipeline.arrRef spec2 6) : S1x128.Idx → EReal) _ = (V c (Pipeline.arrRef spec2 6) : S1x128.Idx → EReal) (ix2 (0 : Fin 1) k)
  congr 1
  funext a
  apply Fin.ext
  match a with
  | ⟨0, _⟩ => show win2_6.index t 0 * 1 + 1 * 0 = 0; omega
  | ⟨1, _⟩ => show win2_6.index t 1 * 128 + 1 * k.val = k.val; omega

/-- The array the region leaves, as one function of the arrays it finds. -/
abbrev post2_out (c : Dev nD) : S16384x128.Idx → EReal := fun j =>
  Cert.Spec.resid (post2_H V c)
    (fun i k => post2_D V c i * post2_A V c i k + post2_D V c i * post2_S V c i k + post2_B V c k)
    (post2_G V c) (post2_T V c) (j 0) (j 1)

/-- What the body stores at a coordinate of its block, when the block's row `p` is row `i` of the arrays. -/
theorem post2_block_row (c : Dev nD) (t : Fin cfg2.N) (p : Fin 2048) (k : Fin 128) (i : Fin 16384)
    (hi : i.val = 2048 * t.val + p.val) :
    (out2_7 (F := Ideal) (iblk2 V c 0 t) (iblk2 V c 1 t) (iblk2 V c 2 t) (iblk2 V c 3 t) (iblk2 V c 4 t) (iblk2 V c 5 t)
        (iblk2 V c 6 t) : Vec Ideal S2048x128 .f32) (ix2 p k)
      = Cert.Spec.resid (post2_H V c)
          (fun i k => post2_D V c i * post2_A V c i k + post2_D V c i * post2_S V c i k + post2_B V c k)
          (post2_G V c) (post2_T V c) i k := by
  unfold out2_7
  rw [View.canon_unit_zero post2_hz]
  simp only [View.ld_unit_zero (S := S2048x128) post2_hz, View.ld_unit_zero (S := S2048x1) post2_hz,
    View.ld_unit_zero (S := S1x128) post2_hz]
  refine (post2_body_apply (iblk2 V c 0 t) (iblk2 V c 1 t) (iblk2 V c 2 t) (iblk2 V c 3 t) (iblk2 V c 4 t)
    (iblk2 V c 5 t) (iblk2 V c 6 t) p k).trans ?_
  refine post2_resid_row _ _ _ _ _ _ _ _ p i (fun j => post2_blkH V c t p j i hi) (fun j => ?_)
    (fun j => post2_blkG V c t j) (fun j => post2_blkT V c t j) k
  beta_reduce
  rw [post2_blkA V c t p j i hi, post2_blkS V c t p j i hi, post2_blkD V c t p i hi, post2_blkB V c t j]

/-- What point `t` writes back is block `t` of that function. -/
theorem post2_flushed_eq (c : Dev nD) (t : Fin cfg2.N) :
    (dat2 (F := Ideal) V c).flushed 7 t = ((cfg2.win 7).blk t).view.read (Elt Ideal) (post2_out V c) := by
  show (cfg2.win 7).cut (grid2.coords t) ((dat2 (F := Ideal) V c).after 7 t) = _
  rw [after2_7]
  funext y
  obtain ⟨e0, e1⟩ : win2_7.index t (0 : Fin 2) = t.val ∧ win2_7.index t (1 : Fin 2) = 0 :=
    ⟨(post2_idx t).2.2.2.2.2.2.2.2.2.2.2.2.2.2.1, (post2_idx t).2.2.2.2.2.2.2.2.2.2.2.2.2.2.2⟩
  have ht : t.val < 8 := by have h := t.isLt; have hN : cfg2.N = 8 := N_2; omega
  have hy0 : ((y : S2048x128.Idx) 0).val < 2048 := ((y : S2048x128.Idx) 0).isLt
  have hy1 : ((y : S2048x128.Idx) 1).val < 128 := ((y : S2048x128.Idx) 1).isLt
  show (out2_7 (F := Ideal) (iblk2 V c 0 t) (iblk2 V c 1 t) (iblk2 V c 2 t) (iblk2 V c 3 t) (iblk2 V c 4 t) (iblk2 V c 5 t)
        (iblk2 V c 6 t) : Vec Ideal S2048x128 .f32) y = post2_out V c (((cfg2.win 7).blk t).view.emb y)
  rw [eq_ix2 (y : S2048x128.Idx)]
  refine (post2_block_row V c t ((y : S2048x128.Idx) 0) ((y : S2048x128.Idx) 1) ⟨2048 * t.val + ((y : S2048x128.Idx) 0).val, by omega⟩ rfl).trans ?_
  show _ = Cert.Spec.resid _ _ _ _ _ _
  congr 1
  · apply Fin.ext
    show 2048 * t.val + ((y : S2048x128.Idx) 0).val = win2_7.index t 0 * 2048 + 1 * ((y : S2048x128.Idx) 0).val
    rw [e0]; omega
  · apply Fin.ext
    show ((y : S2048x128.Idx) 1).val = win2_7.index t 1 * 128 + 1 * ((y : S2048x128.Idx) 1).val
    rw [e1]; omega

/-- An index of the array is in point `t`'s block iff each coordinate is in the block's range on its axis. -/
theorem post2_mem_blk (t : Fin cfg2.N) (i : S16384x128.Idx) :
    i ∈ ((cfg2.win 7).blk t).view.set ↔ ∀ a : Fin 2, win2_7.index t a * S2048x128.size a ≤ (i a).val
      ∧ (i a).val < win2_7.index t a * S2048x128.size a + S2048x128.size a := by
  show i ∈ ((View.whole main_v35).slice (win2_7.rect t)).set ↔ _
  rw [View.set_slice_whole, Rect.mem_set_unit]
  exact Iff.rfl

/-- The array after the region: every row is in the block of the point its number divided by 2048 names. -/
theorem post2_final (c : Dev nD) : (dat2 (F := Ideal) V c).arrAt 7 cfg2.N = post2_out V c :=
  (dat2 (F := Ideal) V c).arrAt_eq_of_cover 7 (post2_out V c) (fun t _ => post2_flushed_eq V c t) fun i => by
    have hi0 : ((i : S16384x128.Idx) 0).val < 16384 := ((i : S16384x128.Idx) 0).isLt
    have hi1 : ((i : S16384x128.Idx) 1).val < 128 := ((i : S16384x128.Idx) 1).isLt
    refine ⟨⟨((i : S16384x128.Idx) 0).val / 2048, by have hN : cfg2.N = 8 := N_2; omega⟩, flush2_7 _, ?_⟩
    rw [post2_mem_blk]
    intro a
    have e := post2_idx ⟨((i : S16384x128.Idx) 0).val / 2048, by have hN : cfg2.N = 8 := N_2; omega⟩
    obtain ⟨e0, e1⟩ := e.2.2.2.2.2.2.2.2.2.2.2.2.2.2
    match a with
    | ⟨0, _⟩ =>
      show win2_7.index _ 0 * 2048 ≤ ((i : S16384x128.Idx) 0).val ∧ ((i : S16384x128.Idx) 0).val < win2_7.index _ 0 * 2048 + 2048
      rw [e0]; show ((i : S16384x128.Idx) 0).val / 2048 * 2048 ≤ _ ∧ _ < ((i : S16384x128.Idx) 0).val / 2048 * 2048 + 2048; omega
    | ⟨1, _⟩ =>
      show win2_7.index _ 1 * 128 ≤ ((i : S16384x128.Idx) 1).val ∧ ((i : S16384x128.Idx) 1).val < win2_7.index _ 1 * 128 + 128
      rw [e1]; omega

/-- The output array after region 2, row by row: the residual step of the specification on the region's input arrays. -/
theorem post2_value (c : Dev nD) (i : Fin 16384) (k : Fin 128) :
    ((dat2 (F := Ideal) V c).arrAt 7 cfg2.N : S16384x128.Idx → EReal) (ix2 i k)
      = Cert.Spec.resid (post2_H V c)
          (fun i k => post2_D V c i * post2_A V c i k + post2_D V c i * post2_S V c i k + post2_B V c k)
          (post2_G V c) (post2_T V c) i k := by
  rw [post2_final]

end Cert.KVal

end
-- ==== Proof.KPost4.lean ====
/-
  The residual and layer normalisation a post region leaves: every row of the output array is the row of the node
  table plus the rectified aggregate (the row's factor times the raw sum, plus the factor times the scaled row, plus
  the bias), normalised along the row and scaled and shifted.  The region's blocks are whole rows (2048 to a grid
  point), its body one whole-block store, so the array after the region is the body's arithmetic read row by row.
-/
import proofs.«426592_j50886772523112_2_alg».proof.Proof.Gen.KernelIdeal.Frame
import proofs.«426592_j50886772523112_2_alg».proof.Proof.Spec
import proofs.«426592_j50886772523112_2_alg».proof.Proof.LibKeepdims
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KVal

open Idealize.ShloMosaic Idealize.ShloMosaic.TcCoe Idealize.SL.Sem
open Idealize.ShloMosaic.Pipeline (Dat)
open Idealize.ShloMosaic.ValueIdx Idealize.ShloMosaic.Keepdims
open Cert.KernelIdeal Cert.KernelIdeal.Gen

variable (V : (c : Dev nD) → (b : Ref sig .tc) → Buf (Elt Ideal) ((c : Thread nD τ).loc b))

/-- The region's input arrays as it finds them, read by coordinates: the node table, the raw aggregate, the scaled
    projection, the column of factors, the bias, and the normalisation's scale and shift. -/
abbrev post4_H (c : Dev nD) : Cert.Spec.Mat 16384 128 :=
  fun i k => (V c (Pipeline.arrRef spec4 0) : S16384x128.Idx → EReal) (ix2 i k)
abbrev post4_A (c : Dev nD) : Cert.Spec.Mat 16384 128 :=
  fun i k => (V c (Pipeline.arrRef spec4 1) : S16384x128.Idx → EReal) (ix2 i k)
abbrev post4_S (c : Dev nD) : Cert.Spec.Mat 16384 128 :=
  fun i k => (V c (Pipeline.arrRef spec4 2) : S16384x128.Idx → EReal) (ix2 i k)
abbrev post4_D (c : Dev nD) : Cert.Spec.Col 16384 :=
  fun i => (V c (Pipeline.arrRef spec4 3) : S16384x1.Idx → EReal) (ix2 i (0 : Fin 1))
abbrev post4_B (c : Dev nD) : Cert.Spec.Col 128 :=
  fun k => (V c (Pipeline.arrRef spec4 4) : S1x128.Idx → EReal) (ix2 (0 : Fin 1) k)
abbrev post4_G (c : Dev nD) : Cert.Spec.Col 128 :=
  fun k => (V c (Pipeline.arrRef spec4 5) : S1x128.Idx → EReal) (ix2 (0 : Fin 1) k)
abbrev post4_T (c : Dev nD) : Cert.Spec.Col 128 :=
  fun k => (V c (Pipeline.arrRef spec4 6) : S1x128.Idx → EReal) (ix2 (0 : Fin 1) k)

/-! ## The body's arithmetic at an index -/

/-- A row `[1, 128]` broadcast over the block reads its column. -/
theorem post4_pay3_apply (g : Vec Ideal S1x128 .f32) (p : Fin 2048) (k : Fin 128) :
    k4_pay3 (F := Ideal) g (ix2 p k) = g (ix2 (0 : Fin 1) k) := by
  unfold k4_pay3
  rw [shapeCast_self]
  exact broadcastTo_1b_ab_apply _ _ p k

/-- The inverse square root of a column, entry by entry. -/
theorem post4_rsqrt_apply (v : FVec Ideal S2048x1 .f32) (j : S2048x1.Idx) : rsqrt v j = Ideal.rsqrt (v j) := rfl

/-- The column of row means of a block table, as the body spells it: the lane sum of each row, kept as a column,
    divided by the row length. -/
abbrev post4_colmean (Z : FVec Ideal S2048x128 .f32) (hφ : FKind.Formats .f32)
    (hacc : (0x00000000#32 : BitVec FTy.f32.bits) = FKind.add.neutral .f32 hφ) : FVec Ideal S2048x1 .f32 :=
  divf (shapeCast S2048x1 (multiReduction (F := Ideal) .add [1] S2048 Z 0x00000000#32 reduces_S2048x128_S2048 hφ hacc) shapeCasts_S2048_S2048x1)
    (broadcast S2048x1 (Scalar.ofBits (F := Ideal) .f32 0x43000000#32))

theorem post4_colmean_apply (Z : FVec Ideal S2048x128 .f32) (W : Cert.Spec.Mat 2048 128) (hW : ∀ p k, Z (ix2 p k) = W p k)
    (hφ : FKind.Formats .f32) (hacc : (0x00000000#32 : BitVec FTy.f32.bits) = FKind.add.neutral .f32 hφ) (q : Fin 2048) (u : Fin 1) :
    post4_colmean Z hφ hacc (ix2 q u) = Ideal.div (∑ k : Fin 128, W q k) Cert.Spec.c128 := by
  show divf _ _ (ix2 q u) = _
  rw [divf_apply, shapeCast_a_a1_apply, multiReduction_add_rows, broadcast_apply]
  simp only [hW]
  rfl

/-- The normalisation of a block table `X` whose entries are `Y`: each entry less its row's mean, times the inverse
    square root of the row's variance plus the small constant. -/
theorem post4_norm_apply (X : FVec Ideal S2048x128 .f32) (Y : Cert.Spec.Mat 2048 128) (hY : ∀ p k, X (ix2 p k) = Y p k)
    (hφ : FKind.Formats .f32) (hacc : (0x00000000#32 : BitVec FTy.f32.bits) = FKind.add.neutral .f32 hφ)
    (hφ' : FKind.Formats .f32) (hacc' : (0x00000000#32 : BitVec FTy.f32.bits) = FKind.add.neutral .f32 hφ')
    (p : Fin 2048) (k : Fin 128) :
    mulf (subf X (broadcastTo S2048x128 (post4_colmean X hφ hacc) broadcasts_S2048x1_S2048x128))
        (broadcastTo S2048x128
          (rsqrt (addf
            (post4_colmean
              (mulf (subf X (broadcastTo S2048x128 (post4_colmean X hφ hacc) broadcasts_S2048x1_S2048x128))
                (subf X (broadcastTo S2048x128 (post4_colmean X hφ hacc) broadcasts_S2048x1_S2048x128))) hφ' hacc')
            (broadcast S2048x1 (Scalar.ofBits (F := Ideal) .f32 0x3727C5AC#32))))
          broadcasts_S2048x1_S2048x128) (ix2 p k)
      = (Y p k - Cert.Spec.rowMean Y p) * Ideal.rsqrt (Cert.Spec.rowVar Y p + Cert.Spec.eps) := by
  have hm : ∀ (q : Fin 2048) (u : Fin 1), post4_colmean X hφ hacc (ix2 q u) = Cert.Spec.rowMean Y q :=
    fun q u => post4_colmean_apply X Y hY hφ hacc q u
  have hc : ∀ (q : Fin 2048) (j : Fin 128),
      subf X (broadcastTo S2048x128 (post4_colmean X hφ hacc) broadcasts_S2048x1_S2048x128) (ix2 q j)
        = Y q j - Cert.Spec.rowMean Y q := by
    intro q j
    rw [subf_apply, broadcastTo_a1_ab_apply, hm, hY]
  have hv : ∀ (q : Fin 2048) (u : Fin 1),
      post4_colmean
          (mulf (subf X (broadcastTo S2048x128 (post4_colmean X hφ hacc) broadcasts_S2048x1_S2048x128))
            (subf X (broadcastTo S2048x128 (post4_colmean X hφ hacc) broadcasts_S2048x1_S2048x128))) hφ' hacc' (ix2 q u)
        = Cert.Spec.rowVar Y q :=
    fun q u => post4_colmean_apply _ (fun q j => (Y q j - Cert.Spec.rowMean Y q) * (Y q j - Cert.Spec.rowMean Y q))
      (fun q j => by rw [mulf_apply, hc]) hφ' hacc' q u
  rw [mulf_apply, hc, broadcastTo_a1_ab_apply, post4_rsqrt_apply, addf_apply, hv, broadcast_apply]
  rfl

/-- The block's table before normalisation: the node row plus the rectified aggregate. -/
abbrev post4_pre (h : Vec Ideal S2048x128 .f32) (d : Vec Ideal S2048x1 .f32) (a s : Vec Ideal S2048x128 .f32)
    (b : Vec Ideal S1x128 .f32) : Cert.Spec.Mat 2048 128 :=
  fun p k => h (ix2 p k)
    + max (d (ix2 p (0 : Fin 1)) * a (ix2 p k) + d (ix2 p (0 : Fin 1)) * s (ix2 p k) + b (ix2 (0 : Fin 1) k)) Cert.Spec.zero

theorem post4_pre_apply (h : Vec Ideal S2048x128 .f32) (d : Vec Ideal S2048x1 .f32) (a s : Vec Ideal S2048x128 .f32)
    (b : Vec Ideal S1x128 .f32) (p : Fin 2048) (k : Fin 128) :
    addf (shapeCast S2048x128 h shapeCasts_S2048x128_S2048x128)
        (maximumf
          (addf
            (addf
              (mulf (broadcastTo S2048x128 (shapeCast S2048x1 d shapeCasts_S2048x1_S2048x1) broadcasts_S2048x1_S2048x128)
                (shapeCast S2048x128 a shapeCasts_S2048x128_S2048x128))
              (mulf (broadcastTo S2048x128 (shapeCast S2048x1 d shapeCasts_S2048x1_S2048x1) broadcasts_S2048x1_S2048x128)
                (shapeCast S2048x128 s shapeCasts_S2048x128_S2048x128)))
            (broadcastTo S2048x128 (shapeCast S1x128 b shapeCasts_S1x128_S1x128) broadcasts_S1x128_S2048x128))
          (broadcast S2048x128 (Scalar.ofBits (F := Ideal) .f32 0x00000000#32))) (ix2 p k)
      = post4_pre h d a s b p k := by
  simp only [shapeCast_self]
  rw [addf_apply, maximumf_apply, addf_apply, addf_apply, mulf_apply, mulf_apply, broadcastTo_a1_ab_apply,
    broadcastTo_1b_ab_apply, broadcast_apply]
  rfl

theorem post4_pay2_apply (h : Vec Ideal S2048x128 .f32) (d : Vec Ideal S2048x1 .f32) (a s : Vec Ideal S2048x128 .f32)
    (b : Vec Ideal S1x128 .f32) (p : Fin 2048) (k : Fin 128) :
    k4_pay2 (F := Ideal) h d a s b (ix2 p k)
      = (post4_pre h d a s b p k - Cert.Spec.rowMean (post4_pre h d a s b) p)
          * Ideal.rsqrt (Cert.Spec.rowVar (post4_pre h d a s b) p + Cert.Spec.eps) := by
  unfold k4_pay2
  exact post4_norm_apply _ (post4_pre h d a s b) (fun p k => post4_pre_apply h d a s b p k) _ _ _ _ p k

/-- The whole body at an index of the block: the residual step of the specification on the block's rows. -/
theorem post4_body_apply (h : Vec Ideal S2048x128 .f32) (a s : Vec Ideal S2048x128 .f32) (d : Vec Ideal S2048x1 .f32)
    (b g t : Vec Ideal S1x128 .f32) (p : Fin 2048) (k : Fin 128) :
    k4_pay1 (F := Ideal) (k4_pay2 h d a s b) (k4_pay3 g) t (ix2 p k)
      = Cert.Spec.resid (fun p k => h (ix2 p k))
          (fun p k => d (ix2 p (0 : Fin 1)) * a (ix2 p k) + d (ix2 p (0 : Fin 1)) * s (ix2 p k) + b (ix2 (0 : Fin 1) k))
          (fun k => g (ix2 (0 : Fin 1) k)) (fun k => t (ix2 (0 : Fin 1) k)) p k := by
  unfold k4_pay1
  rw [shapeCast_self, addf_apply, mulf_apply, post4_pay2_apply, post4_pay3_apply, broadcastTo_1b_ab_apply]
  rfl

/-! ## From the blocks to the array -/

theorem post4_hz : (![0, 0] : Fin 2 → Nat) = fun _ => 0 := funext fun a => by fin_cases a <;> rfl

/-- The residual step reads one row of each table: two settings that agree on a row agree on the row's result. -/
theorem post4_resid_row {n m : Nat} (h agg : Cert.Spec.Mat n 128) (h' agg' : Cert.Spec.Mat m 128) (g b g' b' : Cert.Spec.Col 128)
    (p : Fin n) (i : Fin m) (e1 : ∀ k, h p k = h' i k) (e2 : ∀ k, agg p k = agg' i k) (e3 : ∀ k, g k = g' k)
    (e4 : ∀ k, b k = b' k) (k : Fin 128) :
    Cert.Spec.resid h agg g b p k = Cert.Spec.resid h' agg' g' b' i k := by
  unfold Cert.Spec.resid Cert.Spec.layerNorm Cert.Spec.rowVar Cert.Spec.rowMean
  simp only [e1, e2, e3, e4]

/-- The printed index maps, decided over the grid: the row-blocked windows are at block `t` of the rows, the small
    operands at their one block. -/
theorem post4_idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Row `p` of a row-blocked window's block at point `t` is row `2048 t + p` of its array; the small operands' one
    block is their array. -/
theorem post4_blkH (c : Dev nD) (t : Fin cfg4.N) (p : Fin 2048) (k : Fin 128) (i : Fin 16384)
    (hi : i.val = 2048 * t.val + p.val) :
    (iblk4 V c 0 t : Vec Ideal S2048x128 .f32) (ix2 p k) = post4_H V c i k := by
  have e := post4_idx t
  unfold iblk4
  rw [View.read_apply]
  show (V c (Pipeline.arrRef spec4 0) : S16384x128.Idx → EReal) _ = (V c (Pipeline.arrRef spec4 0) : S16384x128.Idx → EReal) (ix2 i k)
  congr 1
  funext a
  apply Fin.ext
  match a with
  | ⟨0, _⟩ => show win4_0.index t 0 * 2048 + 1 * p.val = i.val; rw [hi]; omega
  | ⟨1, _⟩ => show win4_0.index t 1 * 128 + 1 * k.val = k.val; omega

theorem post4_blkA (c : Dev nD) (t : Fin cfg4.N) (p : Fin 2048) (k : Fin 128) (i : Fin 16384)
    (hi : i.val = 2048 * t.val + p.val) :
    (iblk4 V c 1 t : Vec Ideal S2048x128 .f32) (ix2 p k) = post4_A V c i k := by
  have e := post4_idx t
  unfold iblk4
  rw [View.read_apply]
  show (V c (Pipeline.arrRef spec4 1) : S16384x128.Idx → EReal) _ = (V c (Pipeline.arrRef spec4 1) : S16384x128.Idx → EReal) (ix2 i k)
  congr 1
  funext a
  apply Fin.ext
  match a with
  | ⟨0, _⟩ => show win4_1.index t 0 * 2048 + 1 * p.val = i.val; rw [hi]; omega
  | ⟨1, _⟩ => show win4_1.index t 1 * 128 + 1 * k.val = k.val; omega

theorem post4_blkS (c : Dev nD) (t : Fin cfg4.N) (p : Fin 2048) (k : Fin 128) (i : Fin 16384)
    (hi : i.val = 2048 * t.val + p.val) :
    (iblk4 V c 2 t : Vec Ideal S2048x128 .f32) (ix2 p k) = post4_S V c i k := by
  have e := post4_idx t
  unfold iblk4
  rw [View.read_apply]
  show (V c (Pipeline.arrRef spec4 2) : S16384x128.Idx → EReal) _ = (V c (Pipeline.arrRef spec4 2) : S16384x128.Idx → EReal) (ix2 i k)
  congr 1
  funext a
  apply Fin.ext
  match a with
  | ⟨0, _⟩ => show win4_2.index t 0 * 2048 + 1 * p.val = i.val; rw [hi]; omega
  | ⟨1, _⟩ => show win4_2.index t 1 * 128 + 1 * k.val = k.val; omega

theorem post4_blkD (c : Dev nD) (t : Fin cfg4.N) (p : Fin 2048) (i : Fin 16384)
    (hi : i.val = 2048 * t.val + p.val) :
    (iblk4 V c 3 t : Vec Ideal S2048x1 .f32) (ix2 p (0 : Fin 1)) = post4_D V c i := by
  have e := post4_idx t
  unfold iblk4
  rw [View.read_apply]
  show (V c (Pipeline.arrRef spec4 3) : S16384x1.Idx → EReal) _ = (V c (Pipeline.arrRef spec4 3) : S16384x1.Idx → EReal) (ix2 i (0 : Fin 1))
  congr 1
  funext a
  apply Fin.ext
  match a with
  | ⟨0, _⟩ => show win4_3.index t 0 * 2048 + 1 * p.val = i.val; rw [hi]; omega
  | ⟨1, _⟩ => show win4_3.index t 1 * 1 + 1 * 0 = 0; omega

theorem post4_blkB (c : Dev nD) (t : Fin cfg4.N) (k : Fin 128) :
    (iblk4 V c 4 t : Vec Ideal S1x128 .f32) (ix2 (0 : Fin 1) k) = post4_B V c k := by
  have e := post4_idx t
  unfold iblk4
  rw [View.read_apply]
  show (V c (Pipeline.arrRef spec4 4) : S1x128.Idx → EReal) _ = (V c (Pipeline.arrRef spec4 4) : S1x128.Idx → EReal) (ix2 (0 : Fin 1) k)
  congr 1
  funext a
  apply Fin.ext
  match a with
  | ⟨0, _⟩ => show win4_4.index t 0 * 1 + 1 * 0 = 0; omega
  | ⟨1, _⟩ => show win4_4.index t 1 * 128 + 1 * k.val = k.val; omega

theorem post4_blkG (c : Dev nD) (t : Fin cfg4.N) (k : Fin 128) :
    (iblk4 V c 5 t : Vec Ideal S1x128 .f32) (ix2 (0 : Fin 1) k) = post4_G V c k := by
  have e := post4_idx t
  unfold iblk4
  rw [View.read_apply]
  show (V c (Pipeline.arrRef spec4 5) : S1x128.Idx → EReal) _ = (V c (Pipeline.arrRef spec4 5) : S1x128.Idx → EReal) (ix2 (0 : Fin 1) k)
  congr 1
  funext a
  apply Fin.ext
  match a with
  | ⟨0, _⟩ => show win4_5.index t 0 * 1 + 1 * 0 = 0; omega
  | ⟨1, _⟩ => show win4_5.index t 1 * 128 + 1 * k.val = k.val; omega

theorem post4_blkT (c : Dev nD) (t : Fin cfg4.N) (k : Fin 128) :
    (iblk4 V c 6 t : Vec Ideal S1x128 .f32) (ix2 (0 : Fin 1) k) = post4_T V c k := by
  have e := post4_idx t
  unfold iblk4
  rw [View.read_apply]
  show (V c (Pipeline.arrRef spec4 6) : S1x128.Idx → EReal) _ = (V c (Pipeline.arrRef spec4 6) : S1x128.Idx → EReal) (ix2 (0 : Fin 1) k)
  congr 1
  funext a
  apply Fin.ext
  match a with
  | ⟨0, _⟩ => show win4_6.index t 0 * 1 + 1 * 0 = 0; omega
  | ⟨1, _⟩ => show win4_6.index t 1 * 128 + 1 * k.val = k.val; omega

/-- The array the region leaves, as one function of the arrays it finds. -/
abbrev post4_out (c : Dev nD) : S16384x128.Idx → EReal := fun j =>
  Cert.Spec.resid (post4_H V c)
    (fun i k => post4_D V c i * post4_A V c i k + post4_D V c i * post4_S V c i k + post4_B V c k)
    (post4_G V c) (post4_T V c) (j 0) (j 1)

/-- What the body stores at a coordinate of its block, when the block's row `p` is row `i` of the arrays. -/
theorem post4_block_row (c : Dev nD) (t : Fin cfg4.N) (p : Fin 2048) (k : Fin 128) (i : Fin 16384)
    (hi : i.val = 2048 * t.val + p.val) :
    (out4_7 (F := Ideal) (iblk4 V c 0 t) (iblk4 V c 1 t) (iblk4 V c 2 t) (iblk4 V c 3 t) (iblk4 V c 4 t) (iblk4 V c 5 t)
        (iblk4 V c 6 t) : Vec Ideal S2048x128 .f32) (ix2 p k)
      = Cert.Spec.resid (post4_H V c)
          (fun i k => post4_D V c i * post4_A V c i k + post4_D V c i * post4_S V c i k + post4_B V c k)
          (post4_G V c) (post4_T V c) i k := by
  unfold out4_7
  rw [View.canon_unit_zero post4_hz]
  simp only [View.ld_unit_zero (S := S2048x128) post4_hz, View.ld_unit_zero (S := S2048x1) post4_hz,
    View.ld_unit_zero (S := S1x128) post4_hz]
  refine (post4_body_apply (iblk4 V c 0 t) (iblk4 V c 1 t) (iblk4 V c 2 t) (iblk4 V c 3 t) (iblk4 V c 4 t)
    (iblk4 V c 5 t) (iblk4 V c 6 t) p k).trans ?_
  refine post4_resid_row _ _ _ _ _ _ _ _ p i (fun j => post4_blkH V c t p j i hi) (fun j => ?_)
    (fun j => post4_blkG V c t j) (fun j => post4_blkT V c t j) k
  beta_reduce
  rw [post4_blkA V c t p j i hi, post4_blkS V c t p j i hi, post4_blkD V c t p i hi, post4_blkB V c t j]

/-- What point `t` writes back is block `t` of that function. -/
theorem post4_flushed_eq (c : Dev nD) (t : Fin cfg4.N) :
    (dat4 (F := Ideal) V c).flushed 7 t = ((cfg4.win 7).blk t).view.read (Elt Ideal) (post4_out V c) := by
  show (cfg4.win 7).cut (grid4.coords t) ((dat4 (F := Ideal) V c).after 7 t) = _
  rw [after4_7]
  funext y
  obtain ⟨e0, e1⟩ : win4_7.index t (0 : Fin 2) = t.val ∧ win4_7.index t (1 : Fin 2) = 0 :=
    ⟨(post4_idx t).2.2.2.2.2.2.2.2.2.2.2.2.2.2.1, (post4_idx t).2.2.2.2.2.2.2.2.2.2.2.2.2.2.2⟩
  have ht : t.val < 8 := by have h := t.isLt; have hN : cfg4.N = 8 := N_4; omega
  have hy0 : ((y : S2048x128.Idx) 0).val < 2048 := ((y : S2048x128.Idx) 0).isLt
  have hy1 : ((y : S2048x128.Idx) 1).val < 128 := ((y : S2048x128.Idx) 1).isLt
  show (out4_7 (F := Ideal) (iblk4 V c 0 t) (iblk4 V c 1 t) (iblk4 V c 2 t) (iblk4 V c 3 t) (iblk4 V c 4 t) (iblk4 V c 5 t)
        (iblk4 V c 6 t) : Vec Ideal S2048x128 .f32) y = post4_out V c (((cfg4.win 7).blk t).view.emb y)
  rw [eq_ix2 (y : S2048x128.Idx)]
  refine (post4_block_row V c t ((y : S2048x128.Idx) 0) ((y : S2048x128.Idx) 1) ⟨2048 * t.val + ((y : S2048x128.Idx) 0).val, by omega⟩ rfl).trans ?_
  show _ = Cert.Spec.resid _ _ _ _ _ _
  congr 1
  · apply Fin.ext
    show 2048 * t.val + ((y : S2048x128.Idx) 0).val = win4_7.index t 0 * 2048 + 1 * ((y : S2048x128.Idx) 0).val
    rw [e0]; omega
  · apply Fin.ext
    show ((y : S2048x128.Idx) 1).val = win4_7.index t 1 * 128 + 1 * ((y : S2048x128.Idx) 1).val
    rw [e1]; omega

/-- An index of the array is in point `t`'s block iff each coordinate is in the block's range on its axis. -/
theorem post4_mem_blk (t : Fin cfg4.N) (i : S16384x128.Idx) :
    i ∈ ((cfg4.win 7).blk t).view.set ↔ ∀ a : Fin 2, win4_7.index t a * S2048x128.size a ≤ (i a).val
      ∧ (i a).val < win4_7.index t a * S2048x128.size a + S2048x128.size a := by
  show i ∈ ((View.whole main_v58).slice (win4_7.rect t)).set ↔ _
  rw [View.set_slice_whole, Rect.mem_set_unit]
  exact Iff.rfl

/-- The array after the region: every row is in the block of the point its number divided by 2048 names. -/
theorem post4_final (c : Dev nD) : (dat4 (F := Ideal) V c).arrAt 7 cfg4.N = post4_out V c :=
  (dat4 (F := Ideal) V c).arrAt_eq_of_cover 7 (post4_out V c) (fun t _ => post4_flushed_eq V c t) fun i => by
    have hi0 : ((i : S16384x128.Idx) 0).val < 16384 := ((i : S16384x128.Idx) 0).isLt
    have hi1 : ((i : S16384x128.Idx) 1).val < 128 := ((i : S16384x128.Idx) 1).isLt
    refine ⟨⟨((i : S16384x128.Idx) 0).val / 2048, by have hN : cfg4.N = 8 := N_4; omega⟩, flush4_7 _, ?_⟩
    rw [post4_mem_blk]
    intro a
    have e := post4_idx ⟨((i : S16384x128.Idx) 0).val / 2048, by have hN : cfg4.N = 8 := N_4; omega⟩
    obtain ⟨e0, e1⟩ := e.2.2.2.2.2.2.2.2.2.2.2.2.2.2
    match a with
    | ⟨0, _⟩ =>
      show win4_7.index _ 0 * 2048 ≤ ((i : S16384x128.Idx) 0).val ∧ ((i : S16384x128.Idx) 0).val < win4_7.index _ 0 * 2048 + 2048
      rw [e0]; show ((i : S16384x128.Idx) 0).val / 2048 * 2048 ≤ _ ∧ _ < ((i : S16384x128.Idx) 0).val / 2048 * 2048 + 2048; omega
    | ⟨1, _⟩ =>
      show win4_7.index _ 1 * 128 ≤ ((i : S16384x128.Idx) 1).val ∧ ((i : S16384x128.Idx) 1).val < win4_7.index _ 1 * 128 + 128
      rw [e1]; omega

/-- The output array after region 4, row by row: the residual step of the specification on the region's input arrays. -/
theorem post4_value (c : Dev nD) (i : Fin 16384) (k : Fin 128) :
    ((dat4 (F := Ideal) V c).arrAt 7 cfg4.N : S16384x128.Idx → EReal) (ix2 i k)
      = Cert.Spec.resid (post4_H V c)
          (fun i k => post4_D V c i * post4_A V c i k + post4_D V c i * post4_S V c i k + post4_B V c k)
          (post4_G V c) (post4_T V c) i k := by
  rw [post4_final]

end Cert.KVal

end
-- ==== Proof.KPost6.lean ====
/-
  The residual and layer normalisation a post region leaves: every row of the output array is the row of the node
  table plus the rectified aggregate (the row's factor times the raw sum, plus the factor times the scaled row, plus
  the bias), normalised along the row and scaled and shifted.  The region's blocks are whole rows (2048 to a grid
  point), its body one whole-block store, so the array after the region is the body's arithmetic read row by row.
-/
import proofs.«426592_j50886772523112_2_alg».proof.Proof.Gen.KernelIdeal.Frame
import proofs.«426592_j50886772523112_2_alg».proof.Proof.Spec
import proofs.«426592_j50886772523112_2_alg».proof.Proof.LibKeepdims
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KVal

open Idealize.ShloMosaic Idealize.ShloMosaic.TcCoe Idealize.SL.Sem
open Idealize.ShloMosaic.Pipeline (Dat)
open Idealize.ShloMosaic.ValueIdx Idealize.ShloMosaic.Keepdims
open Cert.KernelIdeal Cert.KernelIdeal.Gen

variable (V : (c : Dev nD) → (b : Ref sig .tc) → Buf (Elt Ideal) ((c : Thread nD τ).loc b))

/-- The region's input arrays as it finds them, read by coordinates: the node table, the raw aggregate, the scaled
    projection, the column of factors, the bias, and the normalisation's scale and shift. -/
abbrev post6_H (c : Dev nD) : Cert.Spec.Mat 16384 128 :=
  fun i k => (V c (Pipeline.arrRef spec6 0) : S16384x128.Idx → EReal) (ix2 i k)
abbrev post6_A (c : Dev nD) : Cert.Spec.Mat 16384 128 :=
  fun i k => (V c (Pipeline.arrRef spec6 1) : S16384x128.Idx → EReal) (ix2 i k)
abbrev post6_S (c : Dev nD) : Cert.Spec.Mat 16384 128 :=
  fun i k => (V c (Pipeline.arrRef spec6 2) : S16384x128.Idx → EReal) (ix2 i k)
abbrev post6_D (c : Dev nD) : Cert.Spec.Col 16384 :=
  fun i => (V c (Pipeline.arrRef spec6 3) : S16384x1.Idx → EReal) (ix2 i (0 : Fin 1))
abbrev post6_B (c : Dev nD) : Cert.Spec.Col 128 :=
  fun k => (V c (Pipeline.arrRef spec6 4) : S1x128.Idx → EReal) (ix2 (0 : Fin 1) k)
abbrev post6_G (c : Dev nD) : Cert.Spec.Col 128 :=
  fun k => (V c (Pipeline.arrRef spec6 5) : S1x128.Idx → EReal) (ix2 (0 : Fin 1) k)
abbrev post6_T (c : Dev nD) : Cert.Spec.Col 128 :=
  fun k => (V c (Pipeline.arrRef spec6 6) : S1x128.Idx → EReal) (ix2 (0 : Fin 1) k)

/-! ## The body's arithmetic at an index -/

/-- A row `[1, 128]` broadcast over the block reads its column. -/
theorem post6_pay3_apply (g : Vec Ideal S1x128 .f32) (p : Fin 2048) (k : Fin 128) :
    k6_pay3 (F := Ideal) g (ix2 p k) = g (ix2 (0 : Fin 1) k) := by
  unfold k6_pay3
  rw [shapeCast_self]
  exact broadcastTo_1b_ab_apply _ _ p k

/-- The inverse square root of a column, entry by entry. -/
theorem post6_rsqrt_apply (v : FVec Ideal S2048x1 .f32) (j : S2048x1.Idx) : rsqrt v j = Ideal.rsqrt (v j) := rfl

/-- The column of row means of a block table, as the body spells it: the lane sum of each row, kept as a column,
    divided by the row length. -/
abbrev post6_colmean (Z : FVec Ideal S2048x128 .f32) (hφ : FKind.Formats .f32)
    (hacc : (0x00000000#32 : BitVec FTy.f32.bits) = FKind.add.neutral .f32 hφ) : FVec Ideal S2048x1 .f32 :=
  divf (shapeCast S2048x1 (multiReduction (F := Ideal) .add [1] S2048 Z 0x00000000#32 reduces_S2048x128_S2048 hφ hacc) shapeCasts_S2048_S2048x1)
    (broadcast S2048x1 (Scalar.ofBits (F := Ideal) .f32 0x43000000#32))

theorem post6_colmean_apply (Z : FVec Ideal S2048x128 .f32) (W : Cert.Spec.Mat 2048 128) (hW : ∀ p k, Z (ix2 p k) = W p k)
    (hφ : FKind.Formats .f32) (hacc : (0x00000000#32 : BitVec FTy.f32.bits) = FKind.add.neutral .f32 hφ) (q : Fin 2048) (u : Fin 1) :
    post6_colmean Z hφ hacc (ix2 q u) = Ideal.div (∑ k : Fin 128, W q k) Cert.Spec.c128 := by
  show divf _ _ (ix2 q u) = _
  rw [divf_apply, shapeCast_a_a1_apply, multiReduction_add_rows, broadcast_apply]
  simp only [hW]
  rfl

/-- The normalisation of a block table `X` whose entries are `Y`: each entry less its row's mean, times the inverse
    square root of the row's variance plus the small constant. -/
theorem post6_norm_apply (X : FVec Ideal S2048x128 .f32) (Y : Cert.Spec.Mat 2048 128) (hY : ∀ p k, X (ix2 p k) = Y p k)
    (hφ : FKind.Formats .f32) (hacc : (0x00000000#32 : BitVec FTy.f32.bits) = FKind.add.neutral .f32 hφ)
    (hφ' : FKind.Formats .f32) (hacc' : (0x00000000#32 : BitVec FTy.f32.bits) = FKind.add.neutral .f32 hφ')
    (p : Fin 2048) (k : Fin 128) :
    mulf (subf X (broadcastTo S2048x128 (post6_colmean X hφ hacc) broadcasts_S2048x1_S2048x128))
        (broadcastTo S2048x128
          (rsqrt (addf
            (post6_colmean
              (mulf (subf X (broadcastTo S2048x128 (post6_colmean X hφ hacc) broadcasts_S2048x1_S2048x128))
                (subf X (broadcastTo S2048x128 (post6_colmean X hφ hacc) broadcasts_S2048x1_S2048x128))) hφ' hacc')
            (broadcast S2048x1 (Scalar.ofBits (F := Ideal) .f32 0x3727C5AC#32))))
          broadcasts_S2048x1_S2048x128) (ix2 p k)
      = (Y p k - Cert.Spec.rowMean Y p) * Ideal.rsqrt (Cert.Spec.rowVar Y p + Cert.Spec.eps) := by
  have hm : ∀ (q : Fin 2048) (u : Fin 1), post6_colmean X hφ hacc (ix2 q u) = Cert.Spec.rowMean Y q :=
    fun q u => post6_colmean_apply X Y hY hφ hacc q u
  have hc : ∀ (q : Fin 2048) (j : Fin 128),
      subf X (broadcastTo S2048x128 (post6_colmean X hφ hacc) broadcasts_S2048x1_S2048x128) (ix2 q j)
        = Y q j - Cert.Spec.rowMean Y q := by
    intro q j
    rw [subf_apply, broadcastTo_a1_ab_apply, hm, hY]
  have hv : ∀ (q : Fin 2048) (u : Fin 1),
      post6_colmean
          (mulf (subf X (broadcastTo S2048x128 (post6_colmean X hφ hacc) broadcasts_S2048x1_S2048x128))
            (subf X (broadcastTo S2048x128 (post6_colmean X hφ hacc) broadcasts_S2048x1_S2048x128))) hφ' hacc' (ix2 q u)
        = Cert.Spec.rowVar Y q :=
    fun q u => post6_colmean_apply _ (fun q j => (Y q j - Cert.Spec.rowMean Y q) * (Y q j - Cert.Spec.rowMean Y q))
      (fun q j => by rw [mulf_apply, hc]) hφ' hacc' q u
  rw [mulf_apply, hc, broadcastTo_a1_ab_apply, post6_rsqrt_apply, addf_apply, hv, broadcast_apply]
  rfl

/-- The block's table before normalisation: the node row plus the rectified aggregate. -/
abbrev post6_pre (h : Vec Ideal S2048x128 .f32) (d : Vec Ideal S2048x1 .f32) (a s : Vec Ideal S2048x128 .f32)
    (b : Vec Ideal S1x128 .f32) : Cert.Spec.Mat 2048 128 :=
  fun p k => h (ix2 p k)
    + max (d (ix2 p (0 : Fin 1)) * a (ix2 p k) + d (ix2 p (0 : Fin 1)) * s (ix2 p k) + b (ix2 (0 : Fin 1) k)) Cert.Spec.zero

theorem post6_pre_apply (h : Vec Ideal S2048x128 .f32) (d : Vec Ideal S2048x1 .f32) (a s : Vec Ideal S2048x128 .f32)
    (b : Vec Ideal S1x128 .f32) (p : Fin 2048) (k : Fin 128) :
    addf (shapeCast S2048x128 h shapeCasts_S2048x128_S2048x128)
        (maximumf
          (addf
            (addf
              (mulf (broadcastTo S2048x128 (shapeCast S2048x1 d shapeCasts_S2048x1_S2048x1) broadcasts_S2048x1_S2048x128)
                (shapeCast S2048x128 a shapeCasts_S2048x128_S2048x128))
              (mulf (broadcastTo S2048x128 (shapeCast S2048x1 d shapeCasts_S2048x1_S2048x1) broadcasts_S2048x1_S2048x128)
                (shapeCast S2048x128 s shapeCasts_S2048x128_S2048x128)))
            (broadcastTo S2048x128 (shapeCast S1x128 b shapeCasts_S1x128_S1x128) broadcasts_S1x128_S2048x128))
          (broadcast S2048x128 (Scalar.ofBits (F := Ideal) .f32 0x00000000#32))) (ix2 p k)
      = post6_pre h d a s b p k := by
  simp only [shapeCast_self]
  rw [addf_apply, maximumf_apply, addf_apply, addf_apply, mulf_apply, mulf_apply, broadcastTo_a1_ab_apply,
    broadcastTo_1b_ab_apply, broadcast_apply]
  rfl

theorem post6_pay2_apply (h : Vec Ideal S2048x128 .f32) (d : Vec Ideal S2048x1 .f32) (a s : Vec Ideal S2048x128 .f32)
    (b : Vec Ideal S1x128 .f32) (p : Fin 2048) (k : Fin 128) :
    k6_pay2 (F := Ideal) h d a s b (ix2 p k)
      = (post6_pre h d a s b p k - Cert.Spec.rowMean (post6_pre h d a s b) p)
          * Ideal.rsqrt (Cert.Spec.rowVar (post6_pre h d a s b) p + Cert.Spec.eps) := by
  unfold k6_pay2
  exact post6_norm_apply _ (post6_pre h d a s b) (fun p k => post6_pre_apply h d a s b p k) _ _ _ _ p k

/-- The whole body at an index of the block: the residual step of the specification on the block's rows. -/
theorem post6_body_apply (h : Vec Ideal S2048x128 .f32) (a s : Vec Ideal S2048x128 .f32) (d : Vec Ideal S2048x1 .f32)
    (b g t : Vec Ideal S1x128 .f32) (p : Fin 2048) (k : Fin 128) :
    k6_pay1 (F := Ideal) (k6_pay2 h d a s b) (k6_pay3 g) t (ix2 p k)
      = Cert.Spec.resid (fun p k => h (ix2 p k))
          (fun p k => d (ix2 p (0 : Fin 1)) * a (ix2 p k) + d (ix2 p (0 : Fin 1)) * s (ix2 p k) + b (ix2 (0 : Fin 1) k))
          (fun k => g (ix2 (0 : Fin 1) k)) (fun k => t (ix2 (0 : Fin 1) k)) p k := by
  unfold k6_pay1
  rw [shapeCast_self, addf_apply, mulf_apply, post6_pay2_apply, post6_pay3_apply, broadcastTo_1b_ab_apply]
  rfl

/-! ## From the blocks to the array -/

theorem post6_hz : (![0, 0] : Fin 2 → Nat) = fun _ => 0 := funext fun a => by fin_cases a <;> rfl

/-- The residual step reads one row of each table: two settings that agree on a row agree on the row's result. -/
theorem post6_resid_row {n m : Nat} (h agg : Cert.Spec.Mat n 128) (h' agg' : Cert.Spec.Mat m 128) (g b g' b' : Cert.Spec.Col 128)
    (p : Fin n) (i : Fin m) (e1 : ∀ k, h p k = h' i k) (e2 : ∀ k, agg p k = agg' i k) (e3 : ∀ k, g k = g' k)
    (e4 : ∀ k, b k = b' k) (k : Fin 128) :
    Cert.Spec.resid h agg g b p k = Cert.Spec.resid h' agg' g' b' i k := by
  unfold Cert.Spec.resid Cert.Spec.layerNorm Cert.Spec.rowVar Cert.Spec.rowMean
  simp only [e1, e2, e3, e4]

/-- The printed index maps, decided over the grid: the row-blocked windows are at block `t` of the rows, the small
    operands at their one block. -/
theorem post6_idx : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-- Row `p` of a row-blocked window's block at point `t` is row `2048 t + p` of its array; the small operands' one
    block is their array. -/
theorem post6_blkH (c : Dev nD) (t : Fin cfg6.N) (p : Fin 2048) (k : Fin 128) (i : Fin 16384)
    (hi : i.val = 2048 * t.val + p.val) :
    (iblk6 V c 0 t : Vec Ideal S2048x128 .f32) (ix2 p k) = post6_H V c i k := by
  have e := post6_idx t
  unfold iblk6
  rw [View.read_apply]
  show (V c (Pipeline.arrRef spec6 0) : S16384x128.Idx → EReal) _ = (V c (Pipeline.arrRef spec6 0) : S16384x128.Idx → EReal) (ix2 i k)
  congr 1
  funext a
  apply Fin.ext
  match a with
  | ⟨0, _⟩ => show win6_0.index t 0 * 2048 + 1 * p.val = i.val; rw [hi]; omega
  | ⟨1, _⟩ => show win6_0.index t 1 * 128 + 1 * k.val = k.val; omega

theorem post6_blkA (c : Dev nD) (t : Fin cfg6.N) (p : Fin 2048) (k : Fin 128) (i : Fin 16384)
    (hi : i.val = 2048 * t.val + p.val) :
    (iblk6 V c 1 t : Vec Ideal S2048x128 .f32) (ix2 p k) = post6_A V c i k := by
  have e := post6_idx t
  unfold iblk6
  rw [View.read_apply]
  show (V c (Pipeline.arrRef spec6 1) : S16384x128.Idx → EReal) _ = (V c (Pipeline.arrRef spec6 1) : S16384x128.Idx → EReal) (ix2 i k)
  congr 1
  funext a
  apply Fin.ext
  match a with
  | ⟨0, _⟩ => show win6_1.index t 0 * 2048 + 1 * p.val = i.val; rw [hi]; omega
  | ⟨1, _⟩ => show win6_1.index t 1 * 128 + 1 * k.val = k.val; omega

theorem post6_blkS (c : Dev nD) (t : Fin cfg6.N) (p : Fin 2048) (k : Fin 128) (i : Fin 16384)
    (hi : i.val = 2048 * t.val + p.val) :
    (iblk6 V c 2 t : Vec Ideal S2048x128 .f32) (ix2 p k) = post6_S V c i k := by
  have e := post6_idx t
  unfold iblk6
  rw [View.read_apply]
  show (V c (Pipeline.arrRef spec6 2) : S16384x128.Idx → EReal) _ = (V c (Pipeline.arrRef spec6 2) : S16384x128.Idx → EReal) (ix2 i k)
  congr 1
  funext a
  apply Fin.ext
  match a with
  | ⟨0, _⟩ => show win6_2.index t 0 * 2048 + 1 * p.val = i.val; rw [hi]; omega
  | ⟨1, _⟩ => show win6_2.index t 1 * 128 + 1 * k.val = k.val; omega

theorem post6_blkD (c : Dev nD) (t : Fin cfg6.N) (p : Fin 2048) (i : Fin 16384)
    (hi : i.val = 2048 * t.val + p.val) :
    (iblk6 V c 3 t : Vec Ideal S2048x1 .f32) (ix2 p (0 : Fin 1)) = post6_D V c i := by
  have e := post6_idx t
  unfold iblk6
  rw [View.read_apply]
  show (V c (Pipeline.arrRef spec6 3) : S16384x1.Idx → EReal) _ = (V c (Pipeline.arrRef spec6 3) : S16384x1.Idx → EReal) (ix2 i (0 : Fin 1))
  congr 1
  funext a
  apply Fin.ext
  match a with
  | ⟨0, _⟩ => show win6_3.index t 0 * 2048 + 1 * p.val = i.val; rw [hi]; omega
  | ⟨1, _⟩ => show win6_3.index t 1 * 1 + 1 * 0 = 0; omega

theorem post6_blkB (c : Dev nD) (t : Fin cfg6.N) (k : Fin 128) :
    (iblk6 V c 4 t : Vec Ideal S1x128 .f32) (ix2 (0 : Fin 1) k) = post6_B V c k := by
  have e := post6_idx t
  unfold iblk6
  rw [View.read_apply]
  show (V c (Pipeline.arrRef spec6 4) : S1x128.Idx → EReal) _ = (V c (Pipeline.arrRef spec6 4) : S1x128.Idx → EReal) (ix2 (0 : Fin 1) k)
  congr 1
  funext a
  apply Fin.ext
  match a with
  | ⟨0, _⟩ => show win6_4.index t 0 * 1 + 1 * 0 = 0; omega
  | ⟨1, _⟩ => show win6_4.index t 1 * 128 + 1 * k.val = k.val; omega

theorem post6_blkG (c : Dev nD) (t : Fin cfg6.N) (k : Fin 128) :
    (iblk6 V c 5 t : Vec Ideal S1x128 .f32) (ix2 (0 : Fin 1) k) = post6_G V c k := by
  have e := post6_idx t
  unfold iblk6
  rw [View.read_apply]
  show (V c (Pipeline.arrRef spec6 5) : S1x128.Idx → EReal) _ = (V c (Pipeline.arrRef spec6 5) : S1x128.Idx → EReal) (ix2 (0 : Fin 1) k)
  congr 1
  funext a
  apply Fin.ext
  match a with
  | ⟨0, _⟩ => show win6_5.index t 0 * 1 + 1 * 0 = 0; omega
  | ⟨1, _⟩ => show win6_5.index t 1 * 128 + 1 * k.val = k.val; omega

theorem post6_blkT (c : Dev nD) (t : Fin cfg6.N) (k : Fin 128) :
    (iblk6 V c 6 t : Vec Ideal S1x128 .f32) (ix2 (0 : Fin 1) k) = post6_T V c k := by
  have e := post6_idx t
  unfold iblk6
  rw [View.read_apply]
  show (V c (Pipeline.arrRef spec6 6) : S1x128.Idx → EReal) _ = (V c (Pipeline.arrRef spec6 6) : S1x128.Idx → EReal) (ix2 (0 : Fin 1) k)
  congr 1
  funext a
  apply Fin.ext
  match a with
  | ⟨0, _⟩ => show win6_6.index t 0 * 1 + 1 * 0 = 0; omega
  | ⟨1, _⟩ => show win6_6.index t 1 * 128 + 1 * k.val = k.val; omega

/-- The array the region leaves, as one function of the arrays it finds. -/
abbrev post6_out (c : Dev nD) : S16384x128.Idx → EReal := fun j =>
  Cert.Spec.resid (post6_H V c)
    (fun i k => post6_D V c i * post6_A V c i k + post6_D V c i * post6_S V c i k + post6_B V c k)
    (post6_G V c) (post6_T V c) (j 0) (j 1)

/-- What the body stores at a coordinate of its block, when the block's row `p` is row `i` of the arrays. -/
theorem post6_block_row (c : Dev nD) (t : Fin cfg6.N) (p : Fin 2048) (k : Fin 128) (i : Fin 16384)
    (hi : i.val = 2048 * t.val + p.val) :
    (out6_7 (F := Ideal) (iblk6 V c 0 t) (iblk6 V c 1 t) (iblk6 V c 2 t) (iblk6 V c 3 t) (iblk6 V c 4 t) (iblk6 V c 5 t)
        (iblk6 V c 6 t) : Vec Ideal S2048x128 .f32) (ix2 p k)
      = Cert.Spec.resid (post6_H V c)
          (fun i k => post6_D V c i * post6_A V c i k + post6_D V c i * post6_S V c i k + post6_B V c k)
          (post6_G V c) (post6_T V c) i k := by
  unfold out6_7
  rw [View.canon_unit_zero post6_hz]
  simp only [View.ld_unit_zero (S := S2048x128) post6_hz, View.ld_unit_zero (S := S2048x1) post6_hz,
    View.ld_unit_zero (S := S1x128) post6_hz]
  refine (post6_body_apply (iblk6 V c 0 t) (iblk6 V c 1 t) (iblk6 V c 2 t) (iblk6 V c 3 t) (iblk6 V c 4 t)
    (iblk6 V c 5 t) (iblk6 V c 6 t) p k).trans ?_
  refine post6_resid_row _ _ _ _ _ _ _ _ p i (fun j => post6_blkH V c t p j i hi) (fun j => ?_)
    (fun j => post6_blkG V c t j) (fun j => post6_blkT V c t j) k
  beta_reduce
  rw [post6_blkA V c t p j i hi, post6_blkS V c t p j i hi, post6_blkD V c t p i hi, post6_blkB V c t j]

/-- What point `t` writes back is block `t` of that function. -/
theorem post6_flushed_eq (c : Dev nD) (t : Fin cfg6.N) :
    (dat6 (F := Ideal) V c).flushed 7 t = ((cfg6.win 7).blk t).view.read (Elt Ideal) (post6_out V c) := by
  show (cfg6.win 7).cut (grid6.coords t) ((dat6 (F := Ideal) V c).after 7 t) = _
  rw [after6_7]
  funext y
  obtain ⟨e0, e1⟩ : win6_7.index t (0 : Fin 2) = t.val ∧ win6_7.index t (1 : Fin 2) = 0 :=
    ⟨(post6_idx t).2.2.2.2.2.2.2.2.2.2.2.2.2.2.1, (post6_idx t).2.2.2.2.2.2.2.2.2.2.2.2.2.2.2⟩
  have ht : t.val < 8 := by have h := t.isLt; have hN : cfg6.N = 8 := N_6; omega
  have hy0 : ((y : S2048x128.Idx) 0).val < 2048 := ((y : S2048x128.Idx) 0).isLt
  have hy1 : ((y : S2048x128.Idx) 1).val < 128 := ((y : S2048x128.Idx) 1).isLt
  show (out6_7 (F := Ideal) (iblk6 V c 0 t) (iblk6 V c 1 t) (iblk6 V c 2 t) (iblk6 V c 3 t) (iblk6 V c 4 t) (iblk6 V c 5 t)
        (iblk6 V c 6 t) : Vec Ideal S2048x128 .f32) y = post6_out V c (((cfg6.win 7).blk t).view.emb y)
  rw [eq_ix2 (y : S2048x128.Idx)]
  refine (post6_block_row V c t ((y : S2048x128.Idx) 0) ((y : S2048x128.Idx) 1) ⟨2048 * t.val + ((y : S2048x128.Idx) 0).val, by omega⟩ rfl).trans ?_
  show _ = Cert.Spec.resid _ _ _ _ _ _
  congr 1
  · apply Fin.ext
    show 2048 * t.val + ((y : S2048x128.Idx) 0).val = win6_7.index t 0 * 2048 + 1 * ((y : S2048x128.Idx) 0).val
    rw [e0]; omega
  · apply Fin.ext
    show ((y : S2048x128.Idx) 1).val = win6_7.index t 1 * 128 + 1 * ((y : S2048x128.Idx) 1).val
    rw [e1]; omega

/-- An index of the array is in point `t`'s block iff each coordinate is in the block's range on its axis. -/
theorem post6_mem_blk (t : Fin cfg6.N) (i : S16384x128.Idx) :
    i ∈ ((cfg6.win 7).blk t).view.set ↔ ∀ a : Fin 2, win6_7.index t a * S2048x128.size a ≤ (i a).val
      ∧ (i a).val < win6_7.index t a * S2048x128.size a + S2048x128.size a := by
  show i ∈ ((View.whole main_v81).slice (win6_7.rect t)).set ↔ _
  rw [View.set_slice_whole, Rect.mem_set_unit]
  exact Iff.rfl

/-- The array after the region: every row is in the block of the point its number divided by 2048 names. -/
theorem post6_final (c : Dev nD) : (dat6 (F := Ideal) V c).arrAt 7 cfg6.N = post6_out V c :=
  (dat6 (F := Ideal) V c).arrAt_eq_of_cover 7 (post6_out V c) (fun t _ => post6_flushed_eq V c t) fun i => by
    have hi0 : ((i : S16384x128.Idx) 0).val < 16384 := ((i : S16384x128.Idx) 0).isLt
    have hi1 : ((i : S16384x128.Idx) 1).val < 128 := ((i : S16384x128.Idx) 1).isLt
    refine ⟨⟨((i : S16384x128.Idx) 0).val / 2048, by have hN : cfg6.N = 8 := N_6; omega⟩, flush6_7 _, ?_⟩
    rw [post6_mem_blk]
    intro a
    have e := post6_idx ⟨((i : S16384x128.Idx) 0).val / 2048, by have hN : cfg6.N = 8 := N_6; omega⟩
    obtain ⟨e0, e1⟩ := e.2.2.2.2.2.2.2.2.2.2.2.2.2.2
    match a with
    | ⟨0, _⟩ =>
      show win6_7.index _ 0 * 2048 ≤ ((i : S16384x128.Idx) 0).val ∧ ((i : S16384x128.Idx) 0).val < win6_7.index _ 0 * 2048 + 2048
      rw [e0]; show ((i : S16384x128.Idx) 0).val / 2048 * 2048 ≤ _ ∧ _ < ((i : S16384x128.Idx) 0).val / 2048 * 2048 + 2048; omega
    | ⟨1, _⟩ =>
      show win6_7.index _ 1 * 128 ≤ ((i : S16384x128.Idx) 1).val ∧ ((i : S16384x128.Idx) 1).val < win6_7.index _ 1 * 128 + 128
      rw [e1]; omega

/-- The output array after region 6, row by row: the residual step of the specification on the region's input arrays. -/
theorem post6_value (c : Dev nD) (i : Fin 16384) (k : Fin 128) :
    ((dat6 (F := Ideal) V c).arrAt 7 cfg6.N : S16384x128.Idx → EReal) (ix2 i k)
      = Cert.Spec.resid (post6_H V c)
          (fun i k => post6_D V c i * post6_A V c i k + post6_D V c i * post6_S V c i k + post6_B V c k)
          (post6_G V c) (post6_T V c) i k := by
  rw [post6_final]

end Cert.KVal

end
-- ==== Proof.KFinal.lean ====
/-
  The value of the last projection: the output array holds, at graph row g and class column cc, the row g of the
  root table against column cc of the weight table, plus the bias entry of that column. The grid has one point and
  every window's block is its whole array, so the one write-back covers the output.
-/
import proofs.«426592_j50886772523112_2_alg».proof.Proof.Gen.KernelIdeal.Frame
import proofs.«426592_j50886772523112_2_alg».proof.Proof.LibKeepdims
import Idealize.ShloMosaic.Lib.Pipeline.Value
import Idealize.ShloMosaic.Lib.ValueIdx
import Idealize.ShloMosaic.Lib.ValueLayout

set_option maxRecDepth 16384

noncomputable section

open scoped BigOperators

namespace Cert.KVal

open Idealize.ShloMosaic Idealize.ShloMosaic.TcCoe Idealize.ShloMosaic.ValueIdx Idealize.ShloMosaic.Keepdims
open Idealize.ShloMosaic.Pipeline (Dat)
open Cert.KernelIdeal Cert.KernelIdeal.Gen

/-- The projection's payload at an index: the row of the first operand against the column of the second, plus the
    one-row third operand's entry in that column. -/
theorem final_pay_apply (x0 : Vec Ideal S256x128 .f32) (x1 : Vec Ideal S128x32 .f32) (x2 : Vec Ideal S1x32 .f32)
    (g : Fin 256) (cc : Fin 32) :
    k8_pay1 (F := Ideal) x0 x1 x2 (ix2 g cc) = (∑ j : Fin 128, x0 (ix2 g j) * x1 (ix2 j cc)) + x2 (ix2 (0 : Fin 1) cc) := by
  unfold k8_pay1
  refine (addf_apply _ _ _).trans ?_
  congr 1
  · refine (matmul_zero_apply dot_S256x128_S128x32_S256x32_1_0_0_1_n_n rfl rfl (fun _ _ => rfl) (fun _ _ => rfl)
      (fun _ _ => rfl) (fun _ _ => rfl) none _ _ g cc).trans ?_
    refine Finset.sum_congr rfl fun k _ => ?_
    rw [truncf_apply, truncf_apply, shapeCast_self]
  · refine (broadcastTo_1b_ab_apply _ _ g cc).trans ?_
    rw [shapeCast_self]

theorem zero_offsets : (![0, 0] : Fin 2 → Nat) = fun _ => 0 := funext fun a => by fin_cases a <;> rfl

/-- Every window's block is the block at the origin, at every point of the grid. -/
theorem final_idx : ∀ t : Fin cfg8.N, win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0 :=
  (by decide +kernel : ∀ t : Fin grid8.N, _)

section
variable (V : (c : Dev nD) → (b : Ref sig .tc) → Buf (Elt Ideal) ((c : Thread nD τ).loc b))

/-- The three input arrays of the projection and its output array, by their literal types. -/
abbrev finA0 (c : Dev nD) : S256x128.Idx → EReal := V c (Pipeline.arrRef spec8 0)
abbrev finA1 (c : Dev nD) : S128x32.Idx → EReal := V c (Pipeline.arrRef spec8 1)
abbrev finA2 (c : Dev nD) : S1x32.Idx → EReal := V c (Pipeline.arrRef spec8 2)
abbrev finOut (c : Dev nD) : S256x32.Idx → EReal := (dat8 (F := Ideal) V c).arrAt 3 cfg8.N

/-- The projected table, as one function of the region's three input arrays. -/
def finalG (c : Dev nD) : S256x32.Idx → EReal := fun i =>
  (∑ j : Fin 128, finA0 V c (ix2 (i 0) j) * finA1 V c (ix2 j (i 1))) + finA2 V c (ix2 (0 : Fin 1) (i 1))

/-- Each input block is its whole array. -/
theorem final_blk0 (c : Dev nD) (t : Fin cfg8.N) (y : S256x128.Idx) :
    (iblk8 V c 0 t : Vec Ideal S256x128 .f32) y = finA0 V c y := by
  obtain ⟨e0, e1, -⟩ := final_idx t
  unfold iblk8
  rw [View.read_apply]
  show V c (Pipeline.arrRef spec8 0) _ = V c (Pipeline.arrRef spec8 0) _
  congr 1
  funext a
  apply Fin.ext
  match a with
  | ⟨0, _⟩ => show win8_0.index t (0 : Fin 2) * 256 + 1 * (y 0).val = (y 0).val; rw [e0]; omega
  | ⟨1, _⟩ => show win8_0.index t (1 : Fin 2) * 128 + 1 * (y 1).val = (y 1).val; rw [e1]; omega

theorem final_blk1 (c : Dev nD) (t : Fin cfg8.N) (y : S128x32.Idx) :
    (iblk8 V c 1 t : Vec Ideal S128x32 .f32) y = finA1 V c y := by
  obtain ⟨-, -, e0, e1, -⟩ := final_idx t
  unfold iblk8
  rw [View.read_apply]
  show V c (Pipeline.arrRef spec8 1) _ = V c (Pipeline.arrRef spec8 1) _
  congr 1
  funext a
  apply Fin.ext
  match a with
  | ⟨0, _⟩ => show win8_1.index t (0 : Fin 2) * 128 + 1 * (y 0).val = (y 0).val; rw [e0]; omega
  | ⟨1, _⟩ => show win8_1.index t (1 : Fin 2) * 32 + 1 * (y 1).val = (y 1).val; rw [e1]; omega

theorem final_blk2 (c : Dev nD) (t : Fin cfg8.N) (y : S1x32.Idx) :
    (iblk8 V c 2 t : Vec Ideal S1x32 .f32) y = finA2 V c y := by
  obtain ⟨-, -, -, -, e0, e1, -⟩ := final_idx t
  unfold iblk8
  rw [View.read_apply]
  show V c (Pipeline.arrRef spec8 2) _ = V c (Pipeline.arrRef spec8 2) _
  congr 1
  funext a
  apply Fin.ext
  match a with
  | ⟨0, _⟩ => show win8_2.index t (0 : Fin 2) * 1 + 1 * (y 0).val = (y 0).val; rw [e0]; omega
  | ⟨1, _⟩ => show win8_2.index t (1 : Fin 2) * 32 + 1 * (y 1).val = (y 1).val; rw [e1]; omega

/-- What a point writes back is its block of the projected table. -/
theorem final_flushed (c : Dev nD) (t : Fin cfg8.N) :
    (dat8 (F := Ideal) V c).flushed 3 t = ((cfg8.win 3).blk t).view.read (Elt Ideal) (finalG V c) := by
  show (cfg8.win 3).cut (grid8.coords t) ((dat8 (F := Ideal) V c).after 3 t) = _
  rw [after8_3]
  unfold out8_3
  rw [View.canon_unit_zero zero_offsets]
  simp only [View.ld_unit_zero (S := S256x128) zero_offsets, View.ld_unit_zero (S := S128x32) zero_offsets,
    View.ld_unit_zero (S := S1x32) zero_offsets]
  obtain ⟨-, -, -, -, -, -, e0, e1⟩ := final_idx t
  funext y
  obtain ⟨p, q, rfl⟩ : ∃ (p : Fin 256) (q : Fin 32), y = ix2 p q := ⟨y 0, y 1, eq_ix2 y⟩
  have hemb : ((cfg8.win 3).blk t).view.emb (ix2 p q) = ix2 p q := by
    funext a; apply Fin.ext
    match a with
    | ⟨0, _⟩ => show win8_3.index t (0 : Fin 2) * 256 + 1 * p.val = p.val; rw [e0]; omega
    | ⟨1, _⟩ => show win8_3.index t (1 : Fin 2) * 32 + 1 * q.val = q.val; rw [e1]; omega
  show k8_pay1 (F := Ideal) (iblk8 V c 0 t) (iblk8 V c 1 t) (iblk8 V c 2 t) (ix2 p q) = finalG V c (((cfg8.win 3).blk t).view.emb (ix2 p q))
  rw [hemb]
  refine (final_pay_apply (iblk8 V c 0 t) (iblk8 V c 1 t) (iblk8 V c 2 t) p q).trans ?_
  unfold finalG
  simp only [final_blk0, final_blk1, final_blk2]

/-- The projection's output array after the region, entry by entry. -/
theorem final_value (c : Dev nD) (g : Fin 256) (cc : Fin 32) :
    finOut V c (ix2 g cc)
      = (∑ j : Fin 128, finA0 V c (ix2 g j) * finA1 V c (ix2 j cc)) + finA2 V c (ix2 (0 : Fin 1) cc) := by
  have h : (dat8 (F := Ideal) V c).arrAt 3 cfg8.N = finalG V c :=
    (dat8 (F := Ideal) V c).arrAt_eq_of_cover 3 (finalG V c) (fun t _ => final_flushed V c t) fun i =>
      ⟨t8_0, flush8_3 t8_0, by
        show i ∈ ((View.whole main_v98).slice (win8_3.rect t8_0)).set
        rw [View.set_slice_whole, Rect.mem_set_unit]
        obtain ⟨-, -, -, -, -, -, e0, e1⟩ := final_idx t8_0
        intro a
        have h0 : (i 0 : Nat) < 256 := (i 0).isLt
        have h1 : (i 1 : Nat) < 32 := (i 1).isLt
        match a with
        | ⟨0, _⟩ => show win8_3.index t8_0 (0 : Fin 2) * 256 ≤ (i 0 : Nat) ∧ (i 0 : Nat) < win8_3.index t8_0 (0 : Fin 2) * 256 + 256
                    rw [e0]; omega
        | ⟨1, _⟩ => show win8_3.index t8_0 (1 : Fin 2) * 32 ≤ (i 1 : Nat) ∧ (i 1 : Nat) < win8_3.index t8_0 (1 : Fin 2) * 32 + 32
                    rw [e1]; omega⟩
  exact (congrFun h (ix2 g cc)).trans rfl
end

end Cert.KVal

end
-- ==== Proof.KFull.lean ====
/-
  The value of the fully adjacent layer's region, read off the kernel program: every block is 2048 whole rows, that is
  32 graphs of 64 nodes, and the body leaves in row p of the block the layer normalisation of the residual whose
  aggregate is the column sum of the projected rows of p's graph plus p's own projected row, scaled by 1/65, plus the
  bias.  Read row by row of the whole array this is the closed form of the last layer.
-/
import proofs.«426592_j50886772523112_2_alg».proof.Proof.Gen.KernelIdeal.Frame
import proofs.«426592_j50886772523112_2_alg».proof.Proof.Spec
import proofs.«426592_j50886772523112_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

open scoped BigOperators

namespace Cert.KVal

open Idealize.ShloMosaic Idealize.ShloMosaic.TcCoe Idealize.ShloMosaic.ValueIdx Idealize.ShloMosaic.Keepdims
open Idealize.SL.Sem
open Idealize.ShloMosaic.Pipeline (Dat Cfg Window arrRef)
open Cert.KernelIdeal Cert.KernelIdeal.Gen

/-! ## The per-graph column sum inside a block -/

/-- Row `r` of graph `g` of a block of 32 graphs. -/
def blkRow (g : Fin 32) (r : Fin 64) : Fin 2048 :=
  ⟨g.val * 64 + r.val, by have := g.isLt; have := r.isLt; omega⟩

/-- The graph of a block's row. -/
def blkGraph (p : Fin 2048) : Fin 32 := ⟨p.val / 64, by have := p.isLt; omega⟩

/-- The per-graph column sums of a block, put back on every row of their graph: the block `[2048, 128]` cut into 32 graphs
    of 64 rows, summed over the rows of each graph, the sums broadcast back along the rows and the cut undone. -/
def gsumB (hw : FVec Ideal S2048x128 .f32) : FVec Ideal S2048x128 .f32 :=
  shapeCast S2048x128
    (broadcastTo S32x64x128
      (shapeCast S32x1x128
        (shapeCast S32x1x128
          (multiReduction (F := Ideal) .add [1] S32x128 (shapeCast S32x64x128 hw shapeCasts_S2048x128_S32x64x128) 0x00000000#32
            reduces_S32x64x128_S32x128 (.inl rfl) rfl)
          shapeCasts_S32x128_S32x1x128)
        shapeCasts_S32x1x128_S32x1x128)
      broadcasts_S32x1x128_S32x64x128)
    shapeCasts_S32x64x128_S2048x128

/-- Row `p` of it reads the column sum over the 64 rows of `p`'s graph: row `p` is row `p % 64` of graph `p / 64`, the
    broadcast forgets the row, and row `r` of graph `g` is row `64 g + r` of the block. -/
theorem gsumB_apply (hw : FVec Ideal S2048x128 .f32) (p : Fin 2048) (k : Fin 128) :
    gsumB hw (ix2 p k) = ∑ r : Fin 64, hw (ix2 (blkRow (blkGraph p) r) k) := by
  have hp := p.isLt
  unfold gsumB
  refine (shapeCast_apply _ _ (ix2 p k) (ix3 (blkGraph p) (⟨p.val % 64, Nat.mod_lt _ (by decide)⟩ : Fin 64) k) ?_).trans ?_
  · rw [Shape.rowMajor_val_three, Shape.rowMajor_val_two]
    show ((p.val / 64) * 64 + p.val % 64) * 128 + k.val = p.val * 128 + k.val
    rw [Nat.div_add_mod' p.val 64]
  refine (broadcastTo_apply _ _ _ (ix3 (blkGraph p) (0 : Fin 1) k) (fun a => ?_)).trans ?_
  · match a with
    | ⟨0, _⟩ => rfl
    | ⟨1, _⟩ => rfl
    | ⟨2, _⟩ => rfl
  rw [shapeCast_self]
  refine (shapeCast_apply _ _ _ (ix2 (blkGraph p) k) ?_).trans ?_
  · rw [Shape.rowMajor_val_three, Shape.rowMajor_val_two]
    show (p.val / 64) * 128 + k.val = ((p.val / 64) * 1 + 0) * 128 + k.val
    omega
  refine (Ideal.multiReduction_add_single _ _ _ _ _ (ix2 (blkGraph p) k)).trans ?_
  refine Finset.sum_congr rfl fun r _ => ?_
  refine shapeCast_apply _ _ _ _ ?_
  rw [Shape.rowMajor_val_three, Shape.rowMajor_val_two]
  rfl

/-! ## The body's arithmetic, stage by stage -/

/-- The projected block `h · W` (the operands are read at their ideal values, so the narrowing casts are the identity). -/
def projB (x0 : Vec Ideal S2048x128 .f32) (x1 : Vec Ideal S128x128 .f32) : FVec Ideal S2048x128 .f32 :=
  matmul dot_S2048x128_S128x128_S2048x128_1_0_0_1_n_n none
    (truncf .bf16 (shapeCast S2048x128 x0 shapeCasts_S2048x128_S2048x128) bitsLt_bf16_f32)
    (truncf .bf16 (shapeCast S128x128 x1 shapeCasts_S128x128_S128x128) bitsLt_bf16_f32)
    (constant S2048x128 .f32 0x00000000#32)

/-- The table the normalisation is taken of: the block plus the rectified aggregate. -/
def preB (x0 : Vec Ideal S2048x128 .f32) (x1 : Vec Ideal S128x128 .f32) (x2 : Vec Ideal S1x128 .f32) : FVec Ideal S2048x128 .f32 :=
  addf (shapeCast S2048x128 x0 shapeCasts_S2048x128_S2048x128)
    (maximumf
      (addf
        (mulf (addf (gsumB (projB x0 x1)) (projB x0 x1))
          (broadcast S2048x128 (Named.named (F := Ideal) κ "inv_65" 0x3C7C0FC1#32 : Ideal .f32)))
        (broadcastTo S2048x128 (shapeCast S1x128 x2 shapeCasts_S1x128_S1x128) broadcasts_S1x128_S2048x128))
      (broadcast S2048x128 (Scalar.ofBits (F := Ideal) .f32 0x00000000#32)))

/-- The row means of a table, as a column. -/
def meanB (v : FVec Ideal S2048x128 .f32) : FVec Ideal S2048x1 .f32 :=
  divf (shapeCast S2048x1 (multiReduction (F := Ideal) .add [1] S2048 v 0x00000000#32 reduces_S2048x128_S2048 (.inl rfl) rfl) shapeCasts_S2048_S2048x1)
    (broadcast S2048x1 (Scalar.ofBits (F := Ideal) .f32 0x43000000#32))

/-- A table centred on its row means and scaled by the inverse root of its row variances plus the small constant. -/
def normB (v : FVec Ideal S2048x128 .f32) : FVec Ideal S2048x128 .f32 :=
  mulf (subf v (broadcastTo S2048x128 (meanB v) broadcasts_S2048x1_S2048x128))
    (broadcastTo S2048x128
      (rsqrt
        (addf
          (divf
            (shapeCast S2048x1
              (multiReduction (F := Ideal) .add [1] S2048
                (mulf (subf v (broadcastTo S2048x128 (meanB v) broadcasts_S2048x1_S2048x128))
                  (subf v (broadcastTo S2048x128 (meanB v) broadcasts_S2048x1_S2048x128)))
                0x00000000#32 reduces_S2048x128_S2048 (.inl rfl) rfl)
              shapeCasts_S2048_S2048x1)
            (broadcast S2048x1 (Scalar.ofBits (F := Ideal) .f32 0x43000000#32)))
          (broadcast S2048x1 (Scalar.ofBits (F := Ideal) .f32 0x3727C5AC#32))))
      broadcasts_S2048x1_S2048x128)

/-- The body's two payloads are these stages composed. -/
theorem pay2_eq (x0 : Vec Ideal S2048x128 .f32) (x1 : Vec Ideal S128x128 .f32) (x2 : Vec Ideal S1x128 .f32) :
    k7_pay2 (F := Ideal) x0 x1 x2 = normB (preB x0 x1 x2) := rfl

theorem pay1_eq (v40 : FVec Ideal S2048x128 .f32) (x3 x4 : Vec Ideal S1x128 .f32) :
    k7_pay1 (F := Ideal) v40 x3 x4
      = addf (mulf v40 (broadcastTo S2048x128 (shapeCast S1x128 x3 shapeCasts_S1x128_S1x128) broadcasts_S1x128_S2048x128))
          (broadcastTo S2048x128 (shapeCast S1x128 x4 shapeCasts_S1x128_S1x128) broadcasts_S1x128_S2048x128) := rfl

/-! ## Each stage read at an index -/

/-- The block's coordinate readings. -/
abbrev matOf {a b : ℕ} (x : (⟨2, ![a, b]⟩ : Shape).Idx → EReal) : Spec.Mat a b := fun i j => x (ix2 i j)
abbrev rowOf {b : ℕ} (x : (⟨2, ![1, b]⟩ : Shape).Idx → EReal) : Spec.Col b := fun j => x (ix2 (0 : Fin 1) j)

theorem projB_apply (x0 : Vec Ideal S2048x128 .f32) (x1 : Vec Ideal S128x128 .f32) (p : Fin 2048) (k : Fin 128) :
    projB x0 x1 (ix2 p k) = Spec.mm (matOf x0) (matOf x1) p k := by
  unfold projB Spec.mm
  refine (matmul_zero_apply dot_S2048x128_S128x128_S2048x128_1_0_0_1_n_n rfl rfl (fun _ _ => rfl) (fun _ _ => rfl)
    (fun _ _ => rfl) (fun _ _ => rfl) none _ _ p k).trans ?_
  refine Finset.sum_congr rfl fun j _ => ?_
  rw [truncf_apply, truncf_apply, shapeCast_self, shapeCast_self]

theorem inv65_eq : (Named.named (F := Ideal) κ "inv_65" 0x3C7C0FC1#32 : Ideal .f32) = Spec.inv65 :=
  IdealRules.named_const.ideal_named_scalar κ "inv_65" _ _ rfl

/-- The aggregate of the block's row `p`: its graph's column sum of the projected rows plus its own projected row, scaled,
    plus the bias. -/
def aggB (h : Spec.Mat 2048 128) (W : Spec.Mat 128 128) (b : Spec.Col 128) : Spec.Mat 2048 128 :=
  fun p k => ((∑ r : Fin 64, Spec.mm h W (blkRow (blkGraph p) r) k) + Spec.mm h W p k) * Spec.inv65 + b k

theorem preB_apply (x0 : Vec Ideal S2048x128 .f32) (x1 : Vec Ideal S128x128 .f32) (x2 : Vec Ideal S1x128 .f32) (p : Fin 2048) (k : Fin 128) :
    preB x0 x1 x2 (ix2 p k) = matOf x0 p k + max (aggB (matOf x0) (matOf x1) (rowOf x2) p k) Spec.zero := by
  unfold preB aggB
  show (shapeCast S2048x128 x0 shapeCasts_S2048x128_S2048x128) (ix2 p k)
      + max ((gsumB (projB x0 x1) (ix2 p k) + projB x0 x1 (ix2 p k)) * (Named.named (F := Ideal) κ "inv_65" 0x3C7C0FC1#32 : Ideal .f32)
          + (broadcastTo S2048x128 (shapeCast S1x128 x2 shapeCasts_S1x128_S1x128) broadcasts_S1x128_S2048x128) (ix2 p k))
        Spec.zero = _
  rw [shapeCast_self, gsumB_apply, broadcastTo_1b_ab_apply, shapeCast_self, inv65_eq, projB_apply]
  simp only [projB_apply]

theorem meanB_apply (v : FVec Ideal S2048x128 .f32) (p : Fin 2048) :
    meanB v (ix2 p (0 : Fin 1)) = Spec.rowMean (matOf v) p := by
  unfold meanB Spec.rowMean
  show Ideal.div ((shapeCast S2048x1 (multiReduction (F := Ideal) .add [1] S2048 v 0x00000000#32 reduces_S2048x128_S2048 (.inl rfl) rfl) shapeCasts_S2048_S2048x1) (ix2 p (0 : Fin 1))) Spec.c128 = _
  refine congrArg (fun z => Ideal.div z Spec.c128) ?_
  refine (shapeCast_a_a1_apply _ _ p (0 : Fin 1)).trans ?_
  exact multiReduction_add_rows v _ _ _ _ p

theorem normB_apply (v : FVec Ideal S2048x128 .f32) (p : Fin 2048) (k : Fin 128) :
    normB v (ix2 p k) = (matOf v p k - Spec.rowMean (matOf v) p) * Ideal.rsqrt (Spec.rowVar (matOf v) p + Spec.eps) := by
  unfold normB Spec.rowVar
  show (v (ix2 p k) - (broadcastTo S2048x128 (meanB v) broadcasts_S2048x1_S2048x128) (ix2 p k))
      * (broadcastTo S2048x128 _ broadcasts_S2048x1_S2048x128) (ix2 p k) = _
  rw [broadcastTo_a1_ab_apply, broadcastTo_a1_ab_apply, meanB_apply]
  show _ * Ideal.rsqrt (Ideal.div ((shapeCast S2048x1 _ shapeCasts_S2048_S2048x1) (ix2 p (0 : Fin 1))) Spec.c128 + Spec.eps) = _
  rw [shapeCast_a_a1_apply]
  refine congrArg (fun z => (matOf v p k - Spec.rowMean (matOf v) p) * Ideal.rsqrt (Ideal.div z Spec.c128 + Spec.eps)) ?_
  refine (multiReduction_add_rows _ _ _ _ _ p).trans ?_
  refine Finset.sum_congr rfl fun j _ => ?_
  show (v (ix2 p j) - (broadcastTo S2048x128 (meanB v) broadcasts_S2048x1_S2048x128) (ix2 p j))
      * (v (ix2 p j) - (broadcastTo S2048x128 (meanB v) broadcasts_S2048x1_S2048x128) (ix2 p j)) = _
  rw [broadcastTo_a1_ab_apply, meanB_apply]

/-- THE PAYLOAD AT AN INDEX: the residual and layer normalisation of the block against the block's aggregate. -/
theorem pay_apply (x0 : Vec Ideal S2048x128 .f32) (x1 : Vec Ideal S128x128 .f32) (x2 x3 x4 : Vec Ideal S1x128 .f32)
    (p : Fin 2048) (k : Fin 128) :
    k7_pay1 (F := Ideal) (k7_pay2 (F := Ideal) x0 x1 x2) x3 x4 (ix2 p k)
      = Spec.resid (matOf x0) (aggB (matOf x0) (matOf x1) (rowOf x2)) (rowOf x3) (rowOf x4) p k := by
  rw [pay2_eq, pay1_eq]
  show normB (preB x0 x1 x2) (ix2 p k)
        * (broadcastTo S2048x128 (shapeCast S1x128 x3 shapeCasts_S1x128_S1x128) broadcasts_S1x128_S2048x128) (ix2 p k)
      + (broadcastTo S2048x128 (shapeCast S1x128 x4 shapeCasts_S1x128_S1x128) broadcasts_S1x128_S2048x128) (ix2 p k) = _
  rw [normB_apply, broadcastTo_1b_ab_apply, shapeCast_self, broadcastTo_1b_ab_apply, shapeCast_self]
  have e : matOf (preB x0 x1 x2) = fun i k => matOf x0 i k + max (aggB (matOf x0) (matOf x1) (rowOf x2) i k) Spec.zero :=
    funext fun i => funext fun j => preB_apply x0 x1 x2 i j
  rw [e]
  rfl

/-- What the body leaves in the output's buffer, read at an index: its one whole-block store's payload. -/
theorem out_apply (x0 : Vec Ideal S2048x128 .f32) (x1 : Vec Ideal S128x128 .f32) (x2 x3 x4 : Vec Ideal S1x128 .f32)
    (p : Fin 2048) (k : Fin 128) :
    out7_5 (F := Ideal) x0 x1 x2 x3 x4 (ix2 p k)
      = Spec.resid (matOf x0) (aggB (matOf x0) (matOf x1) (rowOf x2)) (rowOf x3) (rowOf x4) p k := by
  have hz : (![0, 0] : Fin 2 → Nat) = fun _ => 0 := funext fun a => by fin_cases a <;> rfl
  unfold out7_5
  rw [View.canon_unit_zero hz]
  simp only [View.ld_unit_zero (S := S2048x128) hz, View.ld_unit_zero (S := S128x128) hz, View.ld_unit_zero (S := S1x128) hz]
  exact pay_apply x0 x1 x2 x3 x4 p k

/-! ## From a block's rows to the array's rows -/

/-- The layer normalisation of a row depends on that row of the table only. -/
theorem layerNorm_row {n m : ℕ} (hs : Spec.Mat n Spec.H) (hs' : Spec.Mat m Spec.H) (g b : Spec.Col Spec.H) (i : Fin n) (i' : Fin m)
    (h : ∀ k, hs i k = hs' i' k) (k : Fin Spec.H) : Spec.layerNorm hs g b i k = Spec.layerNorm hs' g b i' k := by
  have e : hs i = hs' i' := funext h
  unfold Spec.layerNorm Spec.rowVar Spec.rowMean
  rw [e]

/-- A projected row depends on that row of the table only. -/
theorem mm_row {n m : ℕ} (a : Spec.Mat n 128) (a' : Spec.Mat m 128) (W : Spec.Mat 128 128) (i : Fin n) (i' : Fin m)
    (h : ∀ j, a i j = a' i' j) (k : Fin 128) : Spec.mm a W i k = Spec.mm a' W i' k := by
  unfold Spec.mm
  exact Finset.sum_congr rfl fun j _ => by rw [h j]

/-- Block `t` of the table is rows `2048 t … 2048 t + 2047`: 32 whole graphs, so the block's closed form at its row `p` is the
    array's at row `2048 t + p`, whose graph is graph `p / 64` of the block. -/
theorem lastK_of_block (h : Spec.Mat 16384 128) (W : Spec.Mat 128 128) (b g bl : Spec.Col 128) (hB : Spec.Mat 2048 128)
    (WB : Spec.Mat 128 128) (bB gB blB : Spec.Col 128) (t : ℕ)
    (hh : ∀ (p : Fin 2048) (i : Fin 16384), i.val = 2048 * t + p.val → ∀ j, hB p j = h i j)
    (hW : ∀ j k, WB j k = W j k) (hb : ∀ k, bB k = b k) (hg : ∀ k, gB k = g k) (hl : ∀ k, blB k = bl k)
    (p : Fin 2048) (i : Fin 16384) (hi : i.val = 2048 * t + p.val) (k : Fin 128) :
    Spec.resid hB (aggB hB WB bB) gB blB p k = Spec.lastK h W b g bl i k := by
  obtain rfl : WB = W := funext fun j => funext fun k => hW j k
  obtain rfl : bB = b := funext hb
  obtain rfl : gB = g := funext hg
  obtain rfl : blB = bl := funext hl
  unfold Spec.lastK Spec.resid
  refine layerNorm_row _ _ _ _ p i (fun k' => ?_) k
  unfold aggB
  rw [hh p i hi k', mm_row hB h WB p i (hh p i hi) k']
  have es : (∑ r : Fin 64, Spec.mm hB WB (blkRow (blkGraph p) r) k')
      = ∑ r : Fin 64, Spec.mm h WB (Spec.nodeOf (Spec.graphOf i) r) k' :=
    Finset.sum_congr rfl fun r _ => mm_row hB h WB _ _ (hh _ _ (by
      show (i.val / 64) * 64 + r.val = 2048 * t + ((p.val / 64) * 64 + r.val)
      omega)) k'
  rw [es]

section Regions
variable (V : (c : Dev nD) → (b : Ref sig .tc) → Buf (Elt Ideal) ((c : Thread nD τ).loc b))

/-- The printed index maps over the grid: the table's and the output's block at point `t` is block `t` of rows, the small
    operands' block is the whole operand. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- The five operands' blocks at point `t`, each at its literal shape. -/
abbrev blk0 (c : Dev nD) (t : Fin cfg7.N) : Vec Ideal S2048x128 .f32 := iblk7 V c 0 t
abbrev blk1 (c : Dev nD) (t : Fin cfg7.N) : Vec Ideal S128x128 .f32 := iblk7 V c 1 t
abbrev blk2 (c : Dev nD) (t : Fin cfg7.N) : Vec Ideal S1x128 .f32 := iblk7 V c 2 t
abbrev blk3 (c : Dev nD) (t : Fin cfg7.N) : Vec Ideal S1x128 .f32 := iblk7 V c 3 t
abbrev blk4 (c : Dev nD) (t : Fin cfg7.N) : Vec Ideal S1x128 .f32 := iblk7 V c 4 t

/-- The table's block at point `t`, row `p`, is the array's row `2048 t + p`. -/
theorem blk0_apply (c : Dev nD) (t : Fin cfg7.N) (p : Fin 2048) (i : Fin 16384) (hi : i.val = 2048 * t.val + p.val) (j : Fin 128) :
    blk0 V c t (ix2 p j) = V c (arrRef spec7 0) (ix2 i j) := by
  obtain ⟨e0, e1, -⟩ := idx_facts t
  unfold blk0 iblk7
  rw [View.read_apply]
  refine congrArg (V c (arrRef spec7 0)) (funext fun a => Fin.ext ?_)
  match a with
  | ⟨0, _⟩ => show win7_0.index t (0 : Fin 2) * 2048 + 1 * p.val = i.val; omega
  | ⟨1, _⟩ => show win7_0.index t (1 : Fin 2) * 128 + 1 * j.val = j.val; omega

/-- The weight's block is the weight. -/
theorem blk1_apply (c : Dev nD) (t : Fin cfg7.N) (j k : Fin 128) :
    blk1 V c t (ix2 j k) = V c (arrRef spec7 1) (ix2 j k) := by
  obtain ⟨-, -, e0, e1, -⟩ := idx_facts t
  unfold blk1 iblk7
  rw [View.read_apply]
  refine congrArg (V c (arrRef spec7 1)) (funext fun a => Fin.ext ?_)
  match a with
  | ⟨0, _⟩ => show win7_1.index t (0 : Fin 2) * 128 + 1 * j.val = j.val; omega
  | ⟨1, _⟩ => show win7_1.index t (1 : Fin 2) * 128 + 1 * k.val = k.val; omega

/-- The bias's, the gain's and the shift's block is the row itself. -/
theorem blk2_apply (c : Dev nD) (t : Fin cfg7.N) (k : Fin 128) :
    blk2 V c t (ix2 (0 : Fin 1) k) = V c (arrRef spec7 2) (ix2 (0 : Fin 1) k) := by
  obtain ⟨-, -, -, -, e0, e1, -⟩ := idx_facts t
  unfold blk2 iblk7
  rw [View.read_apply]
  refine congrArg (V c (arrRef spec7 2)) (funext fun a => Fin.ext ?_)
  match a with
  | ⟨0, _⟩ => show win7_2.index t (0 : Fin 2) * 1 + 1 * 0 = 0; omega
  | ⟨1, _⟩ => show win7_2.index t (1 : Fin 2) * 128 + 1 * k.val = k.val; omega

theorem blk3_apply (c : Dev nD) (t : Fin cfg7.N) (k : Fin 128) :
    blk3 V c t (ix2 (0 : Fin 1) k) = V c (arrRef spec7 3) (ix2 (0 : Fin 1) k) := by
  obtain ⟨-, -, -, -, -, -, e0, e1, -⟩ := idx_facts t
  unfold blk3 iblk7
  rw [View.read_apply]
  refine congrArg (V c (arrRef spec7 3)) (funext fun a => Fin.ext ?_)
  match a with
  | ⟨0, _⟩ => show win7_3.index t (0 : Fin 2) * 1 + 1 * 0 = 0; omega
  | ⟨1, _⟩ => show win7_3.index t (1 : Fin 2) * 128 + 1 * k.val = k.val; omega

theorem blk4_apply (c : Dev nD) (t : Fin cfg7.N) (k : Fin 128) :
    blk4 V c t (ix2 (0 : Fin 1) k) = V c (arrRef spec7 4) (ix2 (0 : Fin 1) k) := by
  obtain ⟨-, -, -, -, -, -, -, -, e0, e1, -⟩ := idx_facts t
  unfold blk4 iblk7
  rw [View.read_apply]
  refine congrArg (V c (arrRef spec7 4)) (funext fun a => Fin.ext ?_)
  match a with
  | ⟨0, _⟩ => show win7_4.index t (0 : Fin 2) * 1 + 1 * 0 = 0; omega
  | ⟨1, _⟩ => show win7_4.index t (1 : Fin 2) * 128 + 1 * k.val = k.val; omega

/-- The array the region leaves: the last layer's closed form of the region's operands, entry by entry. -/
def fullG (c : Dev nD) : S16384x128.Idx → EReal := fun y =>
  Cert.Spec.lastK (fun i j => V c (arrRef spec7 0) (ix2 i j)) (fun j k => V c (arrRef spec7 1) (ix2 j k))
    (fun k => V c (arrRef spec7 2) (ix2 (0 : Fin 1) k)) (fun k => V c (arrRef spec7 3) (ix2 (0 : Fin 1) k))
    (fun k => V c (arrRef spec7 4) (ix2 (0 : Fin 1) k)) (y 0) (y 1)

/-- What the body leaves at point `t`, row `p` of the block, is the closed form at the array's row `2048 t + p`. -/
theorem out_block (c : Dev nD) (t : Fin cfg7.N) (p : Fin 2048) (k : Fin 128) (i : Fin 16384) (hi : i.val = 2048 * t.val + p.val) :
    out7_5 (F := Ideal) (blk0 V c t) (blk1 V c t) (blk2 V c t) (blk3 V c t) (blk4 V c t) (ix2 p k) = fullG V c (ix2 i k) :=
  (out_apply (blk0 V c t) (blk1 V c t) (blk2 V c t) (blk3 V c t) (blk4 V c t) p k).trans
    (lastK_of_block _ _ _ _ _ (matOf (blk0 V c t)) (matOf (blk1 V c t)) (rowOf (blk2 V c t)) (rowOf (blk3 V c t))
      (rowOf (blk4 V c t)) t.val (fun p' i' hi' j => blk0_apply V c t p' i' hi' j) (blk1_apply V c t) (blk2_apply V c t)
      (blk3_apply V c t) (blk4_apply V c t) p i hi k)

/-- WHAT POINT `t` WRITES BACK is block `t` of that array. -/
theorem flushed_eq (c : Dev nD) (t : Fin cfg7.N) :
    (dat7 (F := Ideal) V c).flushed 5 t = ((cfg7.win 5).blk t).view.read (Elt Ideal) (fullG V c) := by
  show (cfg7.win 5).cut (grid7.coords t) ((dat7 (F := Ideal) V c).after 5 t) = _
  rw [after7_5]
  obtain ⟨-, -, -, -, -, -, -, -, -, -, e0, e1⟩ := idx_facts t
  have ht : t.val < 8 := lt_of_lt_of_eq t.isLt (show cfg7.N = 8 from N_7)
  funext y
  obtain ⟨p, k, rfl⟩ : ∃ (p : Fin 2048) (k : Fin 128), y = ix2 p k := ⟨y 0, y 1, eq_ix2 y⟩
  rw [View.read_apply]
  have hemb : ((cfg7.win 5).blk t).view.emb (ix2 p k) = ix2 (⟨2048 * t.val + p.val, by have := p.isLt; omega⟩ : Fin 16384) k :=
    funext fun a => Fin.ext (by
      match a with
      | ⟨0, _⟩ => show win7_5.index t (0 : Fin 2) * 2048 + 1 * p.val = 2048 * t.val + p.val; omega
      | ⟨1, _⟩ => show win7_5.index t (1 : Fin 2) * 128 + 1 * k.val = k.val; omega)
  rw [hemb]
  exact out_block V c t p k _ rfl

/-- THE ARRAY after the region: every row lies in the block of the point `row / 2048`, so the whole array is the closed form. -/
theorem full_array (c : Dev nD) : (dat7 (F := Ideal) V c).arrAt 5 cfg7.N = fullG V c :=
  (dat7 (F := Ideal) V c).arrAt_eq_of_cover 5 (fullG V c) (fun t _ => flushed_eq V c t) fun i => by
    have h0 : (i 0).val < 16384 := (i 0).isLt
    have h1 : (i 1).val < 128 := (i 1).isLt
    obtain ⟨t, ht⟩ : ∃ t : Fin cfg7.N, t.val = (i 0).val / 2048 :=
      ⟨⟨(i 0).val / 2048, lt_of_lt_of_eq (show (i 0).val / 2048 < 8 by omega) (show cfg7.N = 8 from N_7).symm⟩, rfl⟩
    obtain ⟨-, -, -, -, -, -, -, -, -, -, e0, e1⟩ := idx_facts t
    refine ⟨t, flush7_5 t, ?_⟩
    show i ∈ ((View.whole main_v93).slice (win7_5.rect t)).set
    rw [View.set_slice_whole, Rect.mem_set_unit]
    intro a
    match a with
    | ⟨0, _⟩ =>
      show win7_5.index t (0 : Fin 2) * 2048 ≤ (i 0).val ∧ (i 0).val < win7_5.index t (0 : Fin 2) * 2048 + 2048
      omega
    | ⟨1, _⟩ =>
      show win7_5.index t (1 : Fin 2) * 128 ≤ (i 1).val ∧ (i 1).val < win7_5.index t (1 : Fin 2) * 128 + 128
      omega

/-- THE REGION'S VALUE: the output array, entry by entry, is the last layer's closed form of the region's operands. -/
theorem full_value (c : Dev nD) (i : Fin 16384) (k : Fin 128) :
    (dat7 (F := Ideal) V c).arrAt 5 cfg7.N (ix2 i k)
      = Cert.Spec.lastK (fun i j => V c (arrRef spec7 0) (ix2 i j)) (fun j k => V c (arrRef spec7 1) (ix2 j k))
          (fun k => V c (arrRef spec7 2) (ix2 (0 : Fin 1) k)) (fun k => V c (arrRef spec7 3) (ix2 (0 : Fin 1) k))
          (fun k => V c (arrRef spec7 4) (ix2 (0 : Fin 1) k)) i k :=
  congrFun (full_array V c) (ix2 i k)

end Regions

end Cert.KVal

end
-- ==== Proof.KTail.lean ====
/-
  The end of the tiled program's value chain: from the node table after the third message-passing layer to the
  class scores of every graph's first node.  The last layer's region reads the table and the fourth slices of the
  stacked parameters, the host code takes the first row of every block of 64, and the projection region multiplies
  by the output weights and adds the bias.
-/
import proofs.«426592_j50886772523112_2_alg».proof.Proof.KRun
import proofs.«426592_j50886772523112_2_alg».proof.Proof.SpecIO
import proofs.«426592_j50886772523112_2_alg».proof.Proof.KFinal
import proofs.«426592_j50886772523112_2_alg».proof.Proof.KFull
import proofs.«426592_j50886772523112_2_alg».proof.Proof.KHostS
set_option maxRecDepth 16384

noncomputable section

open scoped BigOperators

namespace Cert.KVal

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- A buffer that neither of the last two host stretches writes and neither of the last two regions has among its
    arrays holds, from the end of the third layer on, what it holds at the return. -/
theorem tail_W13_eq_W17 (b : Ref sig .tc)
    (h7 : b ∉ ys7) (s7 : ∀ w, Pipeline.arrRef spec7 w ≠ b) (h8 : b ∉ ys8) (s8 : ∀ w, Pipeline.arrRef spec8 w ≠ b) :
    W13 m ρ c (Proc.devRef .tc b) = W17 m ρ c (Proc.devRef .tc b) :=
  (keeps7 (W13 m ρ c) b h7).symm.trans ((W15_of_ne m ρ c b s7).symm.trans
    ((keeps8 (W15 m ρ c) b h8).symm.trans (W17_of_ne m ρ c b s8).symm))

/-- The stacked weights, biases, scales and shifts are, at the end of the third layer, as launched. -/
theorem tail_W13_arg5 : W13 m ρ c (Proc.devRef .tc main_arg5) = m ((c : Thread nD τ).loc main_arg5) :=
  (tail_W13_eq_W17 m ρ c main_arg5 (by decide) (by decide) (by decide) (by decide)).trans (W17_main_arg5 m ρ c)
theorem tail_W13_arg6 : W13 m ρ c (Proc.devRef .tc main_arg6) = m ((c : Thread nD τ).loc main_arg6) :=
  (tail_W13_eq_W17 m ρ c main_arg6 (by decide) (by decide) (by decide) (by decide)).trans (W17_main_arg6 m ρ c)
theorem tail_W13_arg7 : W13 m ρ c (Proc.devRef .tc main_arg7) = m ((c : Thread nD τ).loc main_arg7) :=
  (tail_W13_eq_W17 m ρ c main_arg7 (by decide) (by decide) (by decide) (by decide)).trans (W17_main_arg7 m ρ c)
theorem tail_W13_arg8 : W13 m ρ c (Proc.devRef .tc main_arg8) = m ((c : Thread nD τ).loc main_arg8) :=
  (tail_W13_eq_W17 m ρ c main_arg8 (by decide) (by decide) (by decide) (by decide)).trans (W17_main_arg8 m ρ c)

/-- The output bias is, after the last layer's region, as launched. -/
theorem tail_W15_arg10 : W15 m ρ c (Proc.devRef .tc main_arg10) = m ((c : Thread nD τ).loc main_arg10) :=
  (keeps8 (W15 m ρ c) main_arg10 (by decide)).symm.trans
    ((W17_of_ne m ρ c main_arg10 (by decide)).symm.trans (W17_main_arg10 m ρ c))

/-- The output weights are, when the projection's region is entered, as launched. -/
theorem tail_W16_arg9 : W16 m ρ c (Proc.devRef .tc main_arg9) = m ((c : Thread nD τ).loc main_arg9) :=
  ((W17_arr m ρ c 1).trans (((dat8 (V16 m ρ) c).arrAt_in 1 rfl _).trans (A_eq8 (V16 m ρ) c 1))).symm.trans
    (W17_main_arg9 m ρ c)

/-- The network's inputs read off the launch memory of core `c`. -/
abbrev tailI : Cert.Spec.Inputs :=
  Cert.Spec.ofArrays (m ((c : Thread nD τ).loc main_arg0)) (m ((c : Thread nD τ).loc main_arg1))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- The last layer's closed form respects equality of its five operands. -/
theorem tail_lastK_congr {h h' : Cert.Spec.Mat 16384 128} {W W' : Cert.Spec.Mat 128 128} {b b' g g' bl bl' : Cert.Spec.Col 128}
    (e0 : h = h') (e1 : W = W') (e2 : b = b') (e3 : g = g') (e4 : bl = bl') :
    Cert.Spec.lastK h W b g bl = Cert.Spec.lastK h' W' b' g' bl' := by
  subst e0 e1 e2 e3 e4; rfl

/-- The table the last layer's region leaves, row by row, from the table the third layer left. -/
theorem tail_last (h3 : Cert.Spec.Mat 16384 128)
    (hv : ∀ i k, (W13 m ρ c (Proc.devRef .tc main_v81) : S16384x128.Idx → EReal) (ix2 i k) = h3 i k)
    (i : Fin 16384) (k : Fin 128) :
    (W15 m ρ c (Proc.devRef .tc main_v93) : S16384x128.Idx → EReal) (ix2 i k)
      = Cert.Spec.lastK h3 ((tailI m c).Ws 3) ((tailI m c).bs 3) ((tailI m c).lg 3) ((tailI m c).lb 3) i k := by
  have e15 : (W15 m ρ c (Proc.devRef .tc main_v93) : S16384x128.Idx → EReal)
      = (dat7 (F := Ideal) (V14 m ρ) c).arrAt 5 cfg7.N := W15_arr m ρ c 5
  have a0 : (fun i j => (V14 m ρ c (Pipeline.arrRef spec7 0) : S16384x128.Idx → EReal) (ix2 i j)) = h3 := by
    funext i k
    show (StableHlo.after hostOps7 (W13 m ρ c) (Proc.devRef .tc main_v81) : S16384x128.Idx → EReal) (ix2 i k) = _
    rw [keeps7 (W13 m ρ c) main_v81 (by decide)]
    exact hv i k
  have a1 : (fun j k => (V14 m ρ c (Pipeline.arrRef spec7 1) : S128x128.Idx → EReal) (ix2 j k)) = (tailI m c).Ws 3 := by
    funext j k
    show (StableHlo.after hostOps7 (W13 m ρ c) (Proc.devRef .tc main_v83) : S128x128.Idx → EReal) (ix2 j k) = _
    rw [host7_v83, tail_W13_arg5]; rfl
  have a2 : (fun k => (V14 m ρ c (Pipeline.arrRef spec7 2) : S1x128.Idx → EReal) (ix2 (0 : Fin 1) k)) = (tailI m c).bs 3 := by
    funext k
    show (StableHlo.after hostOps7 (W13 m ρ c) (Proc.devRef .tc main_v90) : S1x128.Idx → EReal) (ix2 (0 : Fin 1) k) = _
    rw [host7_v90, tail_W13_arg6]; rfl
  have a3 : (fun k => (V14 m ρ c (Pipeline.arrRef spec7 3) : S1x128.Idx → EReal) (ix2 (0 : Fin 1) k)) = (tailI m c).lg 3 := by
    funext k
    show (StableHlo.after hostOps7 (W13 m ρ c) (Proc.devRef .tc main_v91) : S1x128.Idx → EReal) (ix2 (0 : Fin 1) k) = _
    rw [host7_v91, tail_W13_arg7]; rfl
  have a4 : (fun k => (V14 m ρ c (Pipeline.arrRef spec7 4) : S1x128.Idx → EReal) (ix2 (0 : Fin 1) k)) = (tailI m c).lb 3 := by
    funext k
    show (StableHlo.after hostOps7 (W13 m ρ c) (Proc.devRef .tc main_v92) : S1x128.Idx → EReal) (ix2 (0 : Fin 1) k) = _
    rw [host7_v92, tail_W13_arg8]; rfl
  exact (congrFun e15 (ix2 i k)).trans ((full_value (V14 m ρ) c i k).trans
    (congrFun (congrFun (tail_lastK_congr a0 a1 a2 a3 a4) i) k))

/-- From the table after the third layer to the class scores: the last layer in closed form, then the projection of
    every graph's first node. -/
theorem tail_value (h3 : Cert.Spec.Mat 16384 128)
    (hv : ∀ i k, (W13 m ρ c (Proc.devRef .tc main_v81) : S16384x128.Idx → EReal) (ix2 i k) = h3 i k)
    (g : Fin 256) (cc : Fin 32) :
    (W17 m ρ c (Proc.devRef .tc main_v98) : S256x32.Idx → EReal) (ix2 g cc)
      = Cert.Spec.outK (Cert.Spec.lastK h3 ((tailI m c).Ws 3) ((tailI m c).bs 3) ((tailI m c).lg 3) ((tailI m c).lb 3))
          (tailI m c).oW (tailI m c).ob g cc := by
  have e17 : (W17 m ρ c (Proc.devRef .tc main_v98) : S256x32.Idx → EReal) = finOut (V16 m ρ) c := W17_arr m ρ c 3
  rw [e17, final_value (V16 m ρ) c g cc]
  unfold Cert.Spec.outK
  refine congr (congrArg HAdd.hAdd (Finset.sum_congr rfl fun j _ => congr (congrArg HMul.hMul ?_) ?_)) ?_
  · show (StableHlo.after hostOps8 (W15 m ρ c) (Proc.devRef .tc main_v96) : S256x128.Idx → EReal) (ix2 g j) = _
    rw [host8_v96]
    exact tail_last m ρ c h3 hv _ j
  · show (W16 m ρ c (Proc.devRef .tc main_arg9) : S128x32.Idx → EReal) (ix2 j cc) = _
    rw [tail_W16_arg9]; rfl
  · show (StableHlo.after hostOps8 (W15 m ρ c) (Proc.devRef .tc main_v97) : S1x32.Idx → EReal) (ix2 (0 : Fin 1) cc) = _
    rw [host8_v97, tail_W15_arg10]; rfl

end Cert.KVal

end
-- ==== Proof.KChain.lean ====
/-
  The contents of the tiled program's buffers, boundary by boundary, from the launch to the return: the embedding, the column
  of degree factors and the edge columns, then three message-passing layers (each a projection, an aggregation over
  the edges and a residual normalisation), then the last layer and the projection of every graph's first node.
-/
import proofs.«426592_j50886772523112_2_alg».proof.Proof.KRun
import proofs.«426592_j50886772523112_2_alg».proof.Proof.SpecIO
import proofs.«426592_j50886772523112_2_alg».proof.Proof.KEmbed
import proofs.«426592_j50886772523112_2_alg».proof.Proof.KLin1
import proofs.«426592_j50886772523112_2_alg».proof.Proof.KLin3
import proofs.«426592_j50886772523112_2_alg».proof.Proof.KLin5
import proofs.«426592_j50886772523112_2_alg».proof.Proof.KHost1
import proofs.«426592_j50886772523112_2_alg».proof.Proof.KHost2
import proofs.«426592_j50886772523112_2_alg».proof.Proof.KHost4
import proofs.«426592_j50886772523112_2_alg».proof.Proof.KHost6
import proofs.«426592_j50886772523112_2_alg».proof.Proof.KHostS
import proofs.«426592_j50886772523112_2_alg».proof.Proof.KPost2
import proofs.«426592_j50886772523112_2_alg».proof.Proof.KPost4
import proofs.«426592_j50886772523112_2_alg».proof.Proof.KPost6
import proofs.«426592_j50886772523112_2_alg».proof.Proof.KTail

set_option maxRecDepth 16384

noncomputable section

open scoped BigOperators

namespace Cert.KVal

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-! ## A buffer a region does not write keeps its contents through the region -/

theorem keepR0 (b : Ref sig .tc) (hb : b ∉ [main_v0]) :
    W1 m ρ c (Proc.devRef .tc b) = W0 m ρ c (Proc.devRef .tc b) := by
  by_cases h : ∃ w, Pipeline.arrRef spec0 w = b
  · obtain ⟨w, rfl⟩ := h
    have hin : (cfg0.win w).isOut = false := by
      revert hb; revert w; decide
    exact (W1_arr m ρ c w).trans (((dat0 (V0 m ρ) c).arrAt_in w hin _).trans (A_eq0 (V0 m ρ) c w))
  · exact W1_of_ne m ρ c b (fun w e => h ⟨w, e⟩)

theorem keepR1 (b : Ref sig .tc) (hb : b ∉ [main_v15]) :
    W3 m ρ c (Proc.devRef .tc b) = W2 m ρ c (Proc.devRef .tc b) := by
  by_cases h : ∃ w, Pipeline.arrRef spec1 w = b
  · obtain ⟨w, rfl⟩ := h
    have hin : (cfg1.win w).isOut = false := by
      revert hb; revert w; decide
    exact (W3_arr m ρ c w).trans (((dat1 (V2 m ρ) c).arrAt_in w hin _).trans (A_eq1 (V2 m ρ) c w))
  · exact W3_of_ne m ρ c b (fun w e => h ⟨w, e⟩)

theorem keepR2 (b : Ref sig .tc) (hb : b ∉ [main_v35]) :
    W5 m ρ c (Proc.devRef .tc b) = W4 m ρ c (Proc.devRef .tc b) := by
  by_cases h : ∃ w, Pipeline.arrRef spec2 w = b
  · obtain ⟨w, rfl⟩ := h
    have hin : (cfg2.win w).isOut = false := by
      revert hb; revert w; decide
    exact (W5_arr m ρ c w).trans (((dat2 (V4 m ρ) c).arrAt_in w hin _).trans (A_eq2 (V4 m ρ) c w))
  · exact W5_of_ne m ρ c b (fun w e => h ⟨w, e⟩)

theorem keepR3 (b : Ref sig .tc) (hb : b ∉ [main_v38]) :
    W7 m ρ c (Proc.devRef .tc b) = W6 m ρ c (Proc.devRef .tc b) := by
  by_cases h : ∃ w, Pipeline.arrRef spec3 w = b
  · obtain ⟨w, rfl⟩ := h
    have hin : (cfg3.win w).isOut = false := by
      revert hb; revert w; decide
    exact (W7_arr m ρ c w).trans (((dat3 (V6 m ρ) c).arrAt_in w hin _).trans (A_eq3 (V6 m ρ) c w))
  · exact W7_of_ne m ρ c b (fun w e => h ⟨w, e⟩)

theorem keepR4 (b : Ref sig .tc) (hb : b ∉ [main_v58]) :
    W9 m ρ c (Proc.devRef .tc b) = W8 m ρ c (Proc.devRef .tc b) := by
  by_cases h : ∃ w, Pipeline.arrRef spec4 w = b
  · obtain ⟨w, rfl⟩ := h
    have hin : (cfg4.win w).isOut = false := by
      revert hb; revert w; decide
    exact (W9_arr m ρ c w).trans (((dat4 (V8 m ρ) c).arrAt_in w hin _).trans (A_eq4 (V8 m ρ) c w))
  · exact W9_of_ne m ρ c b (fun w e => h ⟨w, e⟩)

theorem keepR5 (b : Ref sig .tc) (hb : b ∉ [main_v61]) :
    W11 m ρ c (Proc.devRef .tc b) = W10 m ρ c (Proc.devRef .tc b) := by
  by_cases h : ∃ w, Pipeline.arrRef spec5 w = b
  · obtain ⟨w, rfl⟩ := h
    have hin : (cfg5.win w).isOut = false := by
      revert hb; revert w; decide
    exact (W11_arr m ρ c w).trans (((dat5 (V10 m ρ) c).arrAt_in w hin _).trans (A_eq5 (V10 m ρ) c w))
  · exact W11_of_ne m ρ c b (fun w e => h ⟨w, e⟩)

theorem keepR6 (b : Ref sig .tc) (hb : b ∉ [main_v81]) :
    W13 m ρ c (Proc.devRef .tc b) = W12 m ρ c (Proc.devRef .tc b) := by
  by_cases h : ∃ w, Pipeline.arrRef spec6 w = b
  · obtain ⟨w, rfl⟩ := h
    have hin : (cfg6.win w).isOut = false := by
      revert hb; revert w; decide
    exact (W13_arr m ρ c w).trans (((dat6 (V12 m ρ) c).arrAt_in w hin _).trans (A_eq6 (V12 m ρ) c w))
  · exact W13_of_ne m ρ c b (fun w e => h ⟨w, e⟩)

/-! ## One boundary back: a buffer the segment does not write -/

theorem step1 (b : Ref sig .tc) (hb : b ∉ [main_v0]) :
    W1 m ρ c (Proc.devRef .tc b) = W0 m ρ c (Proc.devRef .tc b) := keepR0 m ρ c b hb
theorem step2 (b : Ref sig .tc) (hb : b ∉ ys1) :
    W2 m ρ c (Proc.devRef .tc b) = W1 m ρ c (Proc.devRef .tc b) := keeps1 (W1 m ρ c) b hb
theorem step3 (b : Ref sig .tc) (hb : b ∉ [main_v15]) :
    W3 m ρ c (Proc.devRef .tc b) = W2 m ρ c (Proc.devRef .tc b) := keepR1 m ρ c b hb
theorem step4 (b : Ref sig .tc) (hb : b ∉ ys2) :
    W4 m ρ c (Proc.devRef .tc b) = W3 m ρ c (Proc.devRef .tc b) := keeps2 (W3 m ρ c) b hb
theorem step5 (b : Ref sig .tc) (hb : b ∉ [main_v35]) :
    W5 m ρ c (Proc.devRef .tc b) = W4 m ρ c (Proc.devRef .tc b) := keepR2 m ρ c b hb
theorem step6 (b : Ref sig .tc) (hb : b ∉ ys3) :
    W6 m ρ c (Proc.devRef .tc b) = W5 m ρ c (Proc.devRef .tc b) := keeps3 (W5 m ρ c) b hb
theorem step7 (b : Ref sig .tc) (hb : b ∉ [main_v38]) :
    W7 m ρ c (Proc.devRef .tc b) = W6 m ρ c (Proc.devRef .tc b) := keepR3 m ρ c b hb
theorem step8 (b : Ref sig .tc) (hb : b ∉ ys4) :
    W8 m ρ c (Proc.devRef .tc b) = W7 m ρ c (Proc.devRef .tc b) := keeps4 (W7 m ρ c) b hb
theorem step9 (b : Ref sig .tc) (hb : b ∉ [main_v58]) :
    W9 m ρ c (Proc.devRef .tc b) = W8 m ρ c (Proc.devRef .tc b) := keepR4 m ρ c b hb
theorem step10 (b : Ref sig .tc) (hb : b ∉ ys5) :
    W10 m ρ c (Proc.devRef .tc b) = W9 m ρ c (Proc.devRef .tc b) := keeps5 (W9 m ρ c) b hb
theorem step11 (b : Ref sig .tc) (hb : b ∉ [main_v61]) :
    W11 m ρ c (Proc.devRef .tc b) = W10 m ρ c (Proc.devRef .tc b) := keepR5 m ρ c b hb
theorem step12 (b : Ref sig .tc) (hb : b ∉ ys6) :
    W12 m ρ c (Proc.devRef .tc b) = W11 m ρ c (Proc.devRef .tc b) := keeps6 (W11 m ρ c) b hb
theorem step13 (b : Ref sig .tc) (hb : b ∉ [main_v81]) :
    W13 m ρ c (Proc.devRef .tc b) = W12 m ρ c (Proc.devRef .tc b) := keepR6 m ρ c b hb

/-! ## Back to the launch: a buffer no segment so far has written -/

theorem back1 (b : Ref sig .tc) (hb : b ∉ [main_v0]) :
    W1 m ρ c (Proc.devRef .tc b) = m ((c : Thread nD τ).loc b) := (step1 m ρ c b hb).trans rfl
theorem back2 (b : Ref sig .tc) (hb : b ∉ ys1 ++ ([main_v0])) :
    W2 m ρ c (Proc.devRef .tc b) = m ((c : Thread nD τ).loc b) :=
  (step2 m ρ c b (fun hm => hb (List.mem_append_left _ hm))).trans (back1 m ρ c b (fun hm => hb (List.mem_append_right _ hm)))
theorem back3 (b : Ref sig .tc) (hb : b ∉ [main_v15] ++ (ys1 ++ ([main_v0]))) :
    W3 m ρ c (Proc.devRef .tc b) = m ((c : Thread nD τ).loc b) :=
  (step3 m ρ c b (fun hm => hb (List.mem_append_left _ hm))).trans (back2 m ρ c b (fun hm => hb (List.mem_append_right _ hm)))
theorem back4 (b : Ref sig .tc) (hb : b ∉ ys2 ++ ([main_v15] ++ (ys1 ++ ([main_v0])))) :
    W4 m ρ c (Proc.devRef .tc b) = m ((c : Thread nD τ).loc b) :=
  (step4 m ρ c b (fun hm => hb (List.mem_append_left _ hm))).trans (back3 m ρ c b (fun hm => hb (List.mem_append_right _ hm)))
theorem back5 (b : Ref sig .tc) (hb : b ∉ [main_v35] ++ (ys2 ++ ([main_v15] ++ (ys1 ++ ([main_v0]))))) :
    W5 m ρ c (Proc.devRef .tc b) = m ((c : Thread nD τ).loc b) :=
  (step5 m ρ c b (fun hm => hb (List.mem_append_left _ hm))).trans (back4 m ρ c b (fun hm => hb (List.mem_append_right _ hm)))
theorem back6 (b : Ref sig .tc) (hb : b ∉ ys3 ++ ([main_v35] ++ (ys2 ++ ([main_v15] ++ (ys1 ++ ([main_v0])))))) :
    W6 m ρ c (Proc.devRef .tc b) = m ((c : Thread nD τ).loc b) :=
  (step6 m ρ c b (fun hm => hb (List.mem_append_left _ hm))).trans (back5 m ρ c b (fun hm => hb (List.mem_append_right _ hm)))
theorem back7 (b : Ref sig .tc) (hb : b ∉ [main_v38] ++ (ys3 ++ ([main_v35] ++ (ys2 ++ ([main_v15] ++ (ys1 ++ ([main_v0]))))))) :
    W7 m ρ c (Proc.devRef .tc b) = m ((c : Thread nD τ).loc b) :=
  (step7 m ρ c b (fun hm => hb (List.mem_append_left _ hm))).trans (back6 m ρ c b (fun hm => hb (List.mem_append_right _ hm)))
theorem back8 (b : Ref sig .tc) (hb : b ∉ ys4 ++ ([main_v38] ++ (ys3 ++ ([main_v35] ++ (ys2 ++ ([main_v15] ++ (ys1 ++ ([main_v0])))))))) :
    W8 m ρ c (Proc.devRef .tc b) = m ((c : Thread nD τ).loc b) :=
  (step8 m ρ c b (fun hm => hb (List.mem_append_left _ hm))).trans (back7 m ρ c b (fun hm => hb (List.mem_append_right _ hm)))
theorem back9 (b : Ref sig .tc) (hb : b ∉ [main_v58] ++ (ys4 ++ ([main_v38] ++ (ys3 ++ ([main_v35] ++ (ys2 ++ ([main_v15] ++ (ys1 ++ ([main_v0]))))))))) :
    W9 m ρ c (Proc.devRef .tc b) = m ((c : Thread nD τ).loc b) :=
  (step9 m ρ c b (fun hm => hb (List.mem_append_left _ hm))).trans (back8 m ρ c b (fun hm => hb (List.mem_append_right _ hm)))
theorem back10 (b : Ref sig .tc) (hb : b ∉ ys5 ++ ([main_v58] ++ (ys4 ++ ([main_v38] ++ (ys3 ++ ([main_v35] ++ (ys2 ++ ([main_v15] ++ (ys1 ++ ([main_v0])))))))))) :
    W10 m ρ c (Proc.devRef .tc b) = m ((c : Thread nD τ).loc b) :=
  (step10 m ρ c b (fun hm => hb (List.mem_append_left _ hm))).trans (back9 m ρ c b (fun hm => hb (List.mem_append_right _ hm)))
theorem back11 (b : Ref sig .tc) (hb : b ∉ [main_v61] ++ (ys5 ++ ([main_v58] ++ (ys4 ++ ([main_v38] ++ (ys3 ++ ([main_v35] ++ (ys2 ++ ([main_v15] ++ (ys1 ++ ([main_v0]))))))))))) :
    W11 m ρ c (Proc.devRef .tc b) = m ((c : Thread nD τ).loc b) :=
  (step11 m ρ c b (fun hm => hb (List.mem_append_left _ hm))).trans (back10 m ρ c b (fun hm => hb (List.mem_append_right _ hm)))

/-! ## The network's inputs and its tables, as the launch memory holds them -/

/-- The inputs read off the argument arrays at launch. -/
abbrev inp : Cert.Spec.Inputs :=
  Cert.Spec.ofArrays (m ((c : Thread nD τ).loc main_arg0)) (m ((c : Thread nD τ).loc main_arg1))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- The edge columns, the degree factors, and the table after the embedding and after each of the three layers. -/
abbrev srcS : Cert.Spec.Words 262144 := (inp m c).ei 0
abbrev dstS : Cert.Spec.Words 262144 := (inp m c).ei 1
abbrev dinvS : Cert.Spec.Col 16384 := Cert.Spec.dinvK (dstS m c)
abbrev hwsS (l : Fin 4) (h : Cert.Spec.Mat 16384 128) : Cert.Spec.Mat 16384 128 :=
  Cert.Spec.hwsK h ((inp m c).Ws l) (dinvS m c)
abbrev layS (l : Fin 4) (h : Cert.Spec.Mat 16384 128) : Cert.Spec.Mat 16384 128 :=
  Cert.Spec.layerK h ((inp m c).Ws l) ((inp m c).bs l) ((inp m c).lg l) ((inp m c).lb l) (dinvS m c) (srcS m c) (dstS m c)
abbrev hS0 : Cert.Spec.Mat 16384 128 := Cert.Spec.embK (inp m c)
abbrev hS1 : Cert.Spec.Mat 16384 128 := layS m c 0 (hS0 m c)
abbrev hS2 : Cert.Spec.Mat 16384 128 := layS m c 1 (hS1 m c)
abbrev hS3 : Cert.Spec.Mat 16384 128 := layS m c 2 (hS2 m c)

/-! ## Equal pieces give equal tables -/

theorem hws_congr {h h' : Cert.Spec.Mat 16384 128} {W W' : Cert.Spec.Mat 128 128} {d d' : Cert.Spec.Col 16384}
    (e1 : h = h') (e2 : W = W') (e3 : d = d') : Cert.Spec.hwsK h W d = Cert.Spec.hwsK h' W' d' := by
  rw [e1, e2, e3]

theorem agg_congr {x x' : Cert.Spec.Mat 16384 128} {s s' t t' : Cert.Spec.Words 262144}
    (e1 : x = x') (e2 : s = s') (e3 : t = t') : Cert.Spec.aggRawK x s t = Cert.Spec.aggRawK x' s' t' := by
  rw [e1, e2, e3]

/-- A residual step whose pieces are a layer's pieces is the layer. -/
theorem layer_of {Hh A S : Cert.Spec.Mat 16384 128} {D : Cert.Spec.Col 16384} {B G T : Cert.Spec.Col 128}
    {h : Cert.Spec.Mat 16384 128} {W : Cert.Spec.Mat 128 128} {b g bl : Cert.Spec.Col 128} {dinv : Cert.Spec.Col 16384}
    {src dst : Cert.Spec.Words 262144}
    (eH : Hh = h) (eA : A = Cert.Spec.aggRawK (Cert.Spec.hwsK h W dinv) src dst) (eS : S = Cert.Spec.hwsK h W dinv)
    (eD : D = dinv) (eB : B = b) (eG : G = g) (eT : T = bl) :
    Cert.Spec.resid Hh (fun i k => D i * A i k + D i * S i k + B k) G T
      = Cert.Spec.layerK h W b g bl dinv src dst := by
  subst eH eA eS eD eB eG eT
  rfl

/-! ## The embedding -/

theorem v0_W1 : (fun i k => (W1 m ρ c (Proc.devRef .tc main_v0) : S16384x128.Idx → EReal) (ix2 i k)) = hS0 m c := by
  funext i k
  refine (congrFun (W1_arr m ρ c 3) (ix2 i k)).trans ((embed_value (V0 m ρ) c i k).trans ?_)
  rfl

/-! ## Layer 0: the projection, the aggregation over the edges, the residual normalisation -/

theorem v0_W2 : (fun i k => (W2 m ρ c (Proc.devRef .tc main_v0) : S16384x128.Idx → EReal) (ix2 i k)) = hS0 m c := by
  rw [step2 m ρ c main_v0 (by decide)]
  exact v0_W1 m ρ c

theorem v14_W2 : (fun i k => (W2 m ρ c (Proc.devRef .tc main_v14) : S128x128.Idx → EReal) (ix2 i k)) = (inp m c).Ws 0 := by
  funext j k
  refine (host1_v14 (W1 m ρ c) j k).trans ?_
  exact congrFun (back1 m ρ c main_arg5 (by decide)) (ix3 (0 : Fin 4) j k)

theorem v12_W2 : (fun i => (W2 m ρ c (Proc.devRef .tc main_v12) : S16384x1.Idx → EReal) (ix2 i (0 : Fin 1))) = dinvS m c := by
  funext i
  refine (host1_v12 (W1 m ρ c) i).trans ?_
  rw [back1 m ρ c main_arg1 (by decide)]
  rfl

theorem v2_W2 : (fun e => (W2 m ρ c (Proc.devRef .tc main_v2) : S262144.Idx → BitVec 32) (ix1 e)) = srcS m c := by
  funext e
  refine (host1_v2 (W1 m ρ c) e).trans ?_
  exact congrFun (back1 m ρ c main_arg1 (by decide)) (ix2 (0 : Fin 2) e)

theorem v4_W2 : (fun e => (W2 m ρ c (Proc.devRef .tc main_v4) : S262144.Idx → BitVec 32) (ix1 e)) = dstS m c := by
  funext e
  refine (host1_v4 (W1 m ρ c) e).trans ?_
  exact congrFun (back1 m ρ c main_arg1 (by decide)) (ix2 (1 : Fin 2) e)

theorem v15_W3 : (fun i k => (W3 m ρ c (Proc.devRef .tc main_v15) : S16384x128.Idx → EReal) (ix2 i k)) = hwsS m c 0 (hS0 m c) := by
  funext i k
  refine (congrFun (W3_arr m ρ c 3) (ix2 i k)).trans ((lin1_value (V2 m ρ) c i k).trans ?_)
  exact congrFun (congrFun (hws_congr (v0_W2 m ρ c) (v14_W2 m ρ c) (v12_W2 m ρ c)) i) k

theorem v2_W3 : (fun e => (W3 m ρ c (Proc.devRef .tc main_v2) : S262144.Idx → BitVec 32) (ix1 e)) = srcS m c := by
  rw [step3 m ρ c main_v2 (by decide)]
  exact v2_W2 m ρ c

theorem v4_W3 : (fun e => (W3 m ρ c (Proc.devRef .tc main_v4) : S262144.Idx → BitVec 32) (ix1 e)) = dstS m c := by
  rw [step3 m ρ c main_v4 (by decide)]
  exact v4_W2 m ρ c

theorem v25_W4 : (fun i k => (W4 m ρ c (Proc.devRef .tc main_v25) : S16384x128.Idx → EReal) (ix2 i k)) = Cert.Spec.aggRawK (hwsS m c 0 (hS0 m c)) (srcS m c) (dstS m c) := by
  funext i k
  refine (host2_v25 (W3 m ρ c) i k).trans ?_
  exact congrFun (congrFun (agg_congr (v15_W3 m ρ c) (v2_W3 m ρ c) (v4_W3 m ρ c)) i) k

theorem v32_W4 : (fun k => (W4 m ρ c (Proc.devRef .tc main_v32) : S1x128.Idx → EReal) (ix2 (0 : Fin 1) k)) = (inp m c).bs 0 := by
  funext k
  refine (host2_v32 (W3 m ρ c) k).trans ?_
  exact congrFun (back3 m ρ c main_arg6 (by decide)) (ix2 (0 : Fin 4) k)

theorem v33_W4 : (fun k => (W4 m ρ c (Proc.devRef .tc main_v33) : S1x128.Idx → EReal) (ix2 (0 : Fin 1) k)) = (inp m c).lg 0 := by
  funext k
  refine (host2_v33 (W3 m ρ c) k).trans ?_
  exact congrFun (back3 m ρ c main_arg7 (by decide)) (ix2 (0 : Fin 4) k)

theorem v34_W4 : (fun k => (W4 m ρ c (Proc.devRef .tc main_v34) : S1x128.Idx → EReal) (ix2 (0 : Fin 1) k)) = (inp m c).lb 0 := by
  funext k
  refine (host2_v34 (W3 m ρ c) k).trans ?_
  exact congrFun (back3 m ρ c main_arg8 (by decide)) (ix2 (0 : Fin 4) k)

theorem v0_W4 : (fun i k => (W4 m ρ c (Proc.devRef .tc main_v0) : S16384x128.Idx → EReal) (ix2 i k)) = hS0 m c := by
  rw [step4 m ρ c main_v0 (by decide), step3 m ρ c main_v0 (by decide)]
  exact v0_W2 m ρ c

theorem v15_W4 : (fun i k => (W4 m ρ c (Proc.devRef .tc main_v15) : S16384x128.Idx → EReal) (ix2 i k)) = hwsS m c 0 (hS0 m c) := by
  rw [step4 m ρ c main_v15 (by decide)]
  exact v15_W3 m ρ c

theorem v12_W4 : (fun i => (W4 m ρ c (Proc.devRef .tc main_v12) : S16384x1.Idx → EReal) (ix2 i (0 : Fin 1))) = dinvS m c := by
  rw [step4 m ρ c main_v12 (by decide), step3 m ρ c main_v12 (by decide)]
  exact v12_W2 m ρ c

theorem v35_W5 : (fun i k => (W5 m ρ c (Proc.devRef .tc main_v35) : S16384x128.Idx → EReal) (ix2 i k)) = hS1 m c := by
  funext i k
  refine (congrFun (W5_arr m ρ c 7) (ix2 i k)).trans ((post2_value (V4 m ρ) c i k).trans ?_)
  exact congrFun (congrFun (layer_of (v0_W4 m ρ c) (v25_W4 m ρ c) (v15_W4 m ρ c) (v12_W4 m ρ c)
    (v32_W4 m ρ c) (v33_W4 m ρ c) (v34_W4 m ρ c)) i) k

/-! ## Layer 1: the projection, the aggregation over the edges, the residual normalisation -/

theorem v35_W6 : (fun i k => (W6 m ρ c (Proc.devRef .tc main_v35) : S16384x128.Idx → EReal) (ix2 i k)) = hS1 m c := by
  rw [step6 m ρ c main_v35 (by decide)]
  exact v35_W5 m ρ c

theorem v37_W6 : (fun i k => (W6 m ρ c (Proc.devRef .tc main_v37) : S128x128.Idx → EReal) (ix2 i k)) = (inp m c).Ws 1 := by
  funext j k
  refine (host3_v37 (W5 m ρ c) j k).trans ?_
  exact congrFun (back5 m ρ c main_arg5 (by decide)) (ix3 (1 : Fin 4) j k)

theorem v12_W6 : (fun i => (W6 m ρ c (Proc.devRef .tc main_v12) : S16384x1.Idx → EReal) (ix2 i (0 : Fin 1))) = dinvS m c := by
  rw [step6 m ρ c main_v12 (by decide), step5 m ρ c main_v12 (by decide)]
  exact v12_W4 m ρ c

theorem v38_W7 : (fun i k => (W7 m ρ c (Proc.devRef .tc main_v38) : S16384x128.Idx → EReal) (ix2 i k)) = hwsS m c 1 (hS1 m c) := by
  funext i k
  refine (congrFun (W7_arr m ρ c 3) (ix2 i k)).trans ((lin3_value (V6 m ρ) c i k).trans ?_)
  exact congrFun (congrFun (hws_congr (v35_W6 m ρ c) (v37_W6 m ρ c) (v12_W6 m ρ c)) i) k

theorem v2_W7 : (fun e => (W7 m ρ c (Proc.devRef .tc main_v2) : S262144.Idx → BitVec 32) (ix1 e)) = srcS m c := by
  rw [step7 m ρ c main_v2 (by decide), step6 m ρ c main_v2 (by decide), step5 m ρ c main_v2 (by decide), step4 m ρ c main_v2 (by decide)]
  exact v2_W3 m ρ c

theorem v4_W7 : (fun e => (W7 m ρ c (Proc.devRef .tc main_v4) : S262144.Idx → BitVec 32) (ix1 e)) = dstS m c := by
  rw [step7 m ρ c main_v4 (by decide), step6 m ρ c main_v4 (by decide), step5 m ρ c main_v4 (by decide), step4 m ρ c main_v4 (by decide)]
  exact v4_W3 m ρ c

theorem v48_W8 : (fun i k => (W8 m ρ c (Proc.devRef .tc main_v48) : S16384x128.Idx → EReal) (ix2 i k)) = Cert.Spec.aggRawK (hwsS m c 1 (hS1 m c)) (srcS m c) (dstS m c) := by
  funext i k
  refine (host4_v48 (W7 m ρ c) i k).trans ?_
  exact congrFun (congrFun (agg_congr (v38_W7 m ρ c) (v2_W7 m ρ c) (v4_W7 m ρ c)) i) k

theorem v55_W8 : (fun k => (W8 m ρ c (Proc.devRef .tc main_v55) : S1x128.Idx → EReal) (ix2 (0 : Fin 1) k)) = (inp m c).bs 1 := by
  funext k
  refine (host4_v55 (W7 m ρ c) k).trans ?_
  exact congrFun (back7 m ρ c main_arg6 (by decide)) (ix2 (1 : Fin 4) k)

theorem v56_W8 : (fun k => (W8 m ρ c (Proc.devRef .tc main_v56) : S1x128.Idx → EReal) (ix2 (0 : Fin 1) k)) = (inp m c).lg 1 := by
  funext k
  refine (host4_v56 (W7 m ρ c) k).trans ?_
  exact congrFun (back7 m ρ c main_arg7 (by decide)) (ix2 (1 : Fin 4) k)

theorem v57_W8 : (fun k => (W8 m ρ c (Proc.devRef .tc main_v57) : S1x128.Idx → EReal) (ix2 (0 : Fin 1) k)) = (inp m c).lb 1 := by
  funext k
  refine (host4_v57 (W7 m ρ c) k).trans ?_
  exact congrFun (back7 m ρ c main_arg8 (by decide)) (ix2 (1 : Fin 4) k)

theorem v35_W8 : (fun i k => (W8 m ρ c (Proc.devRef .tc main_v35) : S16384x128.Idx → EReal) (ix2 i k)) = hS1 m c := by
  rw [step8 m ρ c main_v35 (by decide), step7 m ρ c main_v35 (by decide)]
  exact v35_W6 m ρ c

theorem v38_W8 : (fun i k => (W8 m ρ c (Proc.devRef .tc main_v38) : S16384x128.Idx → EReal) (ix2 i k)) = hwsS m c 1 (hS1 m c) := by
  rw [step8 m ρ c main_v38 (by decide)]
  exact v38_W7 m ρ c

theorem v12_W8 : (fun i => (W8 m ρ c (Proc.devRef .tc main_v12) : S16384x1.Idx → EReal) (ix2 i (0 : Fin 1))) = dinvS m c := by
  rw [step8 m ρ c main_v12 (by decide), step7 m ρ c main_v12 (by decide)]
  exact v12_W6 m ρ c

theorem v58_W9 : (fun i k => (W9 m ρ c (Proc.devRef .tc main_v58) : S16384x128.Idx → EReal) (ix2 i k)) = hS2 m c := by
  funext i k
  refine (congrFun (W9_arr m ρ c 7) (ix2 i k)).trans ((post4_value (V8 m ρ) c i k).trans ?_)
  exact congrFun (congrFun (layer_of (v35_W8 m ρ c) (v48_W8 m ρ c) (v38_W8 m ρ c) (v12_W8 m ρ c)
    (v55_W8 m ρ c) (v56_W8 m ρ c) (v57_W8 m ρ c)) i) k

/-! ## Layer 2: the projection, the aggregation over the edges, the residual normalisation -/

theorem v58_W10 : (fun i k => (W10 m ρ c (Proc.devRef .tc main_v58) : S16384x128.Idx → EReal) (ix2 i k)) = hS2 m c := by
  rw [step10 m ρ c main_v58 (by decide)]
  exact v58_W9 m ρ c

theorem v60_W10 : (fun i k => (W10 m ρ c (Proc.devRef .tc main_v60) : S128x128.Idx → EReal) (ix2 i k)) = (inp m c).Ws 2 := by
  funext j k
  refine (host5_v60 (W9 m ρ c) j k).trans ?_
  exact congrFun (back9 m ρ c main_arg5 (by decide)) (ix3 (2 : Fin 4) j k)

theorem v12_W10 : (fun i => (W10 m ρ c (Proc.devRef .tc main_v12) : S16384x1.Idx → EReal) (ix2 i (0 : Fin 1))) = dinvS m c := by
  rw [step10 m ρ c main_v12 (by decide), step9 m ρ c main_v12 (by decide)]
  exact v12_W8 m ρ c

theorem v61_W11 : (fun i k => (W11 m ρ c (Proc.devRef .tc main_v61) : S16384x128.Idx → EReal) (ix2 i k)) = hwsS m c 2 (hS2 m c) := by
  funext i k
  refine (congrFun (W11_arr m ρ c 3) (ix2 i k)).trans ((lin5_value (V10 m ρ) c i k).trans ?_)
  exact congrFun (congrFun (hws_congr (v58_W10 m ρ c) (v60_W10 m ρ c) (v12_W10 m ρ c)) i) k

theorem v2_W11 : (fun e => (W11 m ρ c (Proc.devRef .tc main_v2) : S262144.Idx → BitVec 32) (ix1 e)) = srcS m c := by
  rw [step11 m ρ c main_v2 (by decide), step10 m ρ c main_v2 (by decide), step9 m ρ c main_v2 (by decide), step8 m ρ c main_v2 (by decide)]
  exact v2_W7 m ρ c

theorem v4_W11 : (fun e => (W11 m ρ c (Proc.devRef .tc main_v4) : S262144.Idx → BitVec 32) (ix1 e)) = dstS m c := by
  rw [step11 m ρ c main_v4 (by decide), step10 m ρ c main_v4 (by decide), step9 m ρ c main_v4 (by decide), step8 m ρ c main_v4 (by decide)]
  exact v4_W7 m ρ c

theorem v71_W12 : (fun i k => (W12 m ρ c (Proc.devRef .tc main_v71) : S16384x128.Idx → EReal) (ix2 i k)) = Cert.Spec.aggRawK (hwsS m c 2 (hS2 m c)) (srcS m c) (dstS m c) := by
  funext i k
  refine (host6_v71 (W11 m ρ c) i k).trans ?_
  exact congrFun (congrFun (agg_congr (v61_W11 m ρ c) (v2_W11 m ρ c) (v4_W11 m ρ c)) i) k

theorem v78_W12 : (fun k => (W12 m ρ c (Proc.devRef .tc main_v78) : S1x128.Idx → EReal) (ix2 (0 : Fin 1) k)) = (inp m c).bs 2 := by
  funext k
  refine (host6_v78 (W11 m ρ c) k).trans ?_
  exact congrFun (back11 m ρ c main_arg6 (by decide)) (ix2 (2 : Fin 4) k)

theorem v79_W12 : (fun k => (W12 m ρ c (Proc.devRef .tc main_v79) : S1x128.Idx → EReal) (ix2 (0 : Fin 1) k)) = (inp m c).lg 2 := by
  funext k
  refine (host6_v79 (W11 m ρ c) k).trans ?_
  exact congrFun (back11 m ρ c main_arg7 (by decide)) (ix2 (2 : Fin 4) k)

theorem v80_W12 : (fun k => (W12 m ρ c (Proc.devRef .tc main_v80) : S1x128.Idx → EReal) (ix2 (0 : Fin 1) k)) = (inp m c).lb 2 := by
  funext k
  refine (host6_v80 (W11 m ρ c) k).trans ?_
  exact congrFun (back11 m ρ c main_arg8 (by decide)) (ix2 (2 : Fin 4) k)

theorem v58_W12 : (fun i k => (W12 m ρ c (Proc.devRef .tc main_v58) : S16384x128.Idx → EReal) (ix2 i k)) = hS2 m c := by
  rw [step12 m ρ c main_v58 (by decide), step11 m ρ c main_v58 (by decide)]
  exact v58_W10 m ρ c

theorem v61_W12 : (fun i k => (W12 m ρ c (Proc.devRef .tc main_v61) : S16384x128.Idx → EReal) (ix2 i k)) = hwsS m c 2 (hS2 m c) := by
  rw [step12 m ρ c main_v61 (by decide)]
  exact v61_W11 m ρ c

theorem v12_W12 : (fun i => (W12 m ρ c (Proc.devRef .tc main_v12) : S16384x1.Idx → EReal) (ix2 i (0 : Fin 1))) = dinvS m c := by
  rw [step12 m ρ c main_v12 (by decide), step11 m ρ c main_v12 (by decide)]
  exact v12_W10 m ρ c

theorem v81_W13 : (fun i k => (W13 m ρ c (Proc.devRef .tc main_v81) : S16384x128.Idx → EReal) (ix2 i k)) = hS3 m c := by
  funext i k
  refine (congrFun (W13_arr m ρ c 7) (ix2 i k)).trans ((post6_value (V12 m ρ) c i k).trans ?_)
  exact congrFun (congrFun (layer_of (v58_W12 m ρ c) (v71_W12 m ρ c) (v61_W12 m ρ c) (v12_W12 m ρ c)
    (v78_W12 m ρ c) (v79_W12 m ρ c) (v80_W12 m ρ c)) i) k

/-! ## The table the third layer leaves -/

theorem head_value (i : Fin 16384) (k : Fin 128) :
    (W13 m ρ c (Proc.devRef .tc main_v81) : S16384x128.Idx → EReal) (ix2 i k) = hS3 m c i k :=
  congrFun (congrFun (v81_W13 m ρ c) i) k

/-! ## The whole run -/

/-- The result buffer at the return, entry by entry: the tiled arrangement of the network on the launch memory's inputs. -/
theorem kernel_value (g : Fin 256) (cc : Fin 32) :
    (W17 m ρ c (Proc.devRef .tc main_v98) : S256x32.Idx → EReal) (ix2 g cc)
      = Cert.Spec.runK (Cert.Spec.ofArrays (m ((c : Thread nD τ).loc main_arg0)) (m ((c : Thread nD τ).loc main_arg1))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10))) g cc :=
  (tail_value m ρ c (hS3 m c) (head_value m ρ c) g cc).trans rfl

end Cert.KVal

end
-- ==== Proof.lean ====
/- The claim: over the extended reals, on finite inputs whose labels are classes, the tiled graph network (the kernel) and
   the edge-list graph network (the reference) leave equal results, and each program runs with its arguments unchanged. -/
import proofs.«426592_j50886772523112_2_alg».proof.Defs
import proofs.«426592_j50886772523112_2_alg».proof.Proof.Gen.Kernel
import proofs.«426592_j50886772523112_2_alg».proof.Proof.Gen.Kernel.Skeleton
import proofs.«426592_j50886772523112_2_alg».proof.Proof.Gen.Kernel.Launch
import proofs.«426592_j50886772523112_2_alg».proof.Proof.Gen.Kernel.Points
import proofs.«426592_j50886772523112_2_alg».proof.Proof.Gen.Kernel.Frame
import proofs.«426592_j50886772523112_2_alg».proof.Proof.Gen.KernelIdeal
import proofs.«426592_j50886772523112_2_alg».proof.Proof.Gen.KernelIdeal.Skeleton
import proofs.«426592_j50886772523112_2_alg».proof.Proof.Gen.KernelIdeal.Launch
import proofs.«426592_j50886772523112_2_alg».proof.Proof.Gen.KernelIdeal.Points
import proofs.«426592_j50886772523112_2_alg».proof.Proof.Gen.KernelIdeal.Frame
import proofs.«426592_j50886772523112_2_alg».proof.Proof.Gen.ReferenceIdeal
import proofs.«426592_j50886772523112_2_alg».proof.Proof.Gen.Pre_finite_inputs
import proofs.«426592_j50886772523112_2_alg».proof.Proof.PreDecode
import proofs.«426592_j50886772523112_2_alg».proof.Proof.RefChain
import proofs.«426592_j50886772523112_2_alg».proof.Proof.RefRun
import proofs.«426592_j50886772523112_2_alg».proof.Proof.Alg
import proofs.«426592_j50886772523112_2_alg».proof.Proof.KRun
import proofs.«426592_j50886772523112_2_alg».proof.Proof.KChain
import Idealize.ShloMosaic.Adequacy
import Idealize.ShloMosaic.Init

noncomputable section

/-! ## The claims -/

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.RefRun.ref_run m ρ)

/-- The one named constant: the table gives "inv_65" the rational 1/65, which the printed constant is over the extended reals. -/
theorem preserves : Cert.preserves_Kernel_KernelIdeal :=
  IdealRules.named_const.statement Cert.KernelIdeal.κ "inv_65" .f32 0x3C7C0FC1#32 ((1 / 65 : ℝ) : EReal) rfl

/-- On finite inputs with labels in range the tiled arrangement, which the kernel's result array holds, is the edge-list
    arrangement, which the reference's result holds, of the same inputs. -/
theorem algebraic : Cert.algebraic_KernelIdeal_ReferenceIdeal := by
  intro m ρ m' ρ' hpre hagree
  refine ⟨fun c => Cert.KernelIdeal.Gen.W17 m ρ c (Proc.devRef .tc Cert.KernelIdeal.main_v98),
    Cert.KernelIdeal.Gen.run_value (F := Ideal) m ρ, ?_⟩
  refine (θ_run Cert.ReferenceIdeal.defs _ _).mono (fun _ h c => ⟨(h c).1.trans ?_, (h c).2⟩) (Cert.RefRun.ref_run m' ρ')
  obtain ⟨h0, h1, -, h3, h4, h5, h6, h7, h8, h9, h10⟩ := hagree c
  rw [h0, h1, h3, h4, h5, h6, h7, h8, h9, h10]
  funext j
  rw [eq_ix2 j]
  refine (Cert.RefVal.ref_value _ _ _ _ _ _ _ _ _ _ (j 0) (j 1)).trans ?_
  rw [← Cert.Spec.runK_eq_runR _ (Cert.PreDecode.good_of_pre _ _ _ _ _ _ _ _ _ _ _ (hpre c))]
  exact (Cert.KVal.kernel_value m ρ c (j 0) (j 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
